-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S512x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S512x256 : Shape := ⟨2, ![512, 256]⟩
abbrev S256x2048 : Shape := ⟨2, ![256, 2048]⟩
abbrev S2048x256 : Shape := ⟨2, ![2048, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_arg5 : FVec F S256x2048 .f32) (main_arg6 : FVec F S2048x256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S2048x256 .f32 := Host.absf main_arg6
  let main_cst_10 : FVec F S_ .f32 := constant S_ .f32 0x7F800000#32
  let main_v30 : FVec F S2048x256 .f32 := broadcastInDim S2048x256 ![] bcast_S_S2048x256 main_cst_10
  let main_v31 : IVec S2048x256 1 := cmpf .olt main_v29 main_v30
  let main_c_11 : IVec S_ 1 := constantI S_ 1 1#1
  let main_v32 : IVec S_ 1 := (fun x v => Host.reduce IntOp.andi x v reducesTo_S2048x256_S_d0_1 h_S_) main_v31 main_c_11
  let main_v33 : IVec S_ 1 := andi main_v28 main_v32
  main_v33

def fn {F : FTy → Type} [FloatOps F] (main_arg0 : FVec F S512x256 .f32) (main_arg1 : FVec F S256x2048 .f32) (main_arg2 : FVec F S2048x256 .f32) (main_arg3 : FVec F S256x2048 .f32) (main_arg4 : FVec F S2048x256 .f32) (main_arg5 : FVec F S256x2048 .f32) (main_arg6 : FVec F S2048x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S512x256 : Shape := ⟨2, ![512, 256]⟩
abbrev S256x512 : Shape := ⟨2, ![256, 512]⟩
abbrev S96x32x256 : Shape := ⟨3, ![96, 32, 256]⟩
abbrev S96 : Shape := ⟨1, ![96]⟩
abbrev S_ : Shape := ⟨0, ![]⟩
abbrev S128x256 : Shape := ⟨2, ![128, 256]⟩
abbrev S128x512 : Shape := ⟨2, ![128, 512]⟩
abbrev S32x256 : Shape := ⟨2, ![32, 256]⟩
abbrev S1x32x256 : Shape := ⟨3, ![1, 32, 256]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S96x32x256, .bf16⟩
  | .local _ .vmem, ⟨9, _⟩ => ⟨S96x32x256, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_20 : BitVec 32 := 1#32
  let v25 : BitVec 32 := Scalar.muli v3 c1_i32_20
  let v26 : BitVec 32 := Scalar.addi c0_i32_21 v25
  v26.toNat
def k0_dev4 (d0 : Dev nD) : Nat :=
  let c0_i32_33 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_32 : BitVec 32 := 1#32
  let v40 : BitVec 32 := Scalar.muli v4 c1_i32_32
  let v41 : BitVec 32 := Scalar.addi c0_i32_33 v40
  v41.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_44 : BitVec 32 := 1#32
  let v55 : BitVec 32 := Scalar.muli v3 c1_i32_44
  let v56 : BitVec 32 := Scalar.addi c0_i32_45 v55
  v56.toNat
def k0_dev6 (d0 : Dev nD) : Nat :=
  let c0_i32_56 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_55 : BitVec 32 := 1#32
  let v70 : BitVec 32 := Scalar.muli v4 c1_i32_55
  let v71 : BitVec 32 := Scalar.addi c0_i32_56 v70
  v71.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_74 : BitVec 32 := 1#32
  let v95 : BitVec 32 := Scalar.muli v3 c1_i32_74
  let v96 : BitVec 32 := Scalar.addi c0_i32_75 v95
  v96.toNat
def k0_dev8 (d0 : Dev nD) : Nat :=
  let c0_i32_86 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_85 : BitVec 32 := 1#32
  let v110 : BitVec 32 := Scalar.muli v4 c1_i32_85
  let v111 : BitVec 32 := Scalar.addi c0_i32_86 v110
  v111.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_96 : BitVec 32 := 1#32
  let v125 : BitVec 32 := Scalar.muli v3 c1_i32_96
  let v126 : BitVec 32 := Scalar.addi c0_i32_97 v125
  v126.toNat
def k0_dev10 (d0 : Dev nD) : Nat :=
  let c0_i32_108 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_107 : BitVec 32 := 1#32
  let v140 : BitVec 32 := Scalar.muli v4 c1_i32_107
  let v141 : BitVec 32 := Scalar.addi c0_i32_108 v140
  v141.toNat
def k0_dev11 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_126 : BitVec 32 := 1#32
  let v165 : BitVec 32 := Scalar.muli v3 c1_i32_126
  let v166 : BitVec 32 := Scalar.addi c0_i32_127 v165
  v166.toNat
def k0_dev12 (d0 : Dev nD) : Nat :=
  let c0_i32_138 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_137 : BitVec 32 := 1#32
  let v180 : BitVec 32 := Scalar.muli v4 c1_i32_137
  let v181 : BitVec 32 := Scalar.addi c0_i32_138 v180
  v181.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_148 : BitVec 32 := 1#32
  let v195 : BitVec 32 := Scalar.muli v3 c1_i32_148
  let v196 : BitVec 32 := Scalar.addi c0_i32_149 v195
  v196.toNat
def k0_dev14 (d0 : Dev nD) : Nat :=
  let c0_i32_160 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_159 : BitVec 32 := 1#32
  let v210 : BitVec 32 := Scalar.muli v4 c1_i32_159
  let v211 : BitVec 32 := Scalar.addi c0_i32_160 v210
  v211.toNat
def k0_dev15 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_178 : BitVec 32 := 1#32
  let v235 : BitVec 32 := Scalar.muli v3 c1_i32_178
  let v236 : BitVec 32 := Scalar.addi c0_i32_179 v235
  v236.toNat
def k0_dev16 (d0 : Dev nD) : Nat :=
  let c0_i32_190 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_189 : BitVec 32 := 1#32
  let v250 : BitVec 32 := Scalar.muli v4 c1_i32_189
  let v251 : BitVec 32 := Scalar.addi c0_i32_190 v250
  v251.toNat
def k0_dev17 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_200 : BitVec 32 := 1#32
  let v265 : BitVec 32 := Scalar.muli v3 c1_i32_200
  let v266 : BitVec 32 := Scalar.addi c0_i32_201 v265
  v266.toNat
def k0_dev18 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_211 : BitVec 32 := 1#32
  let v280 : BitVec 32 := Scalar.muli v4 c1_i32_211
  let v281 : BitVec 32 := Scalar.addi c0_i32_212 v280
  v281.toNat
def k0_dev19 (d0 : Dev nD) : Nat :=
  let c0_i32_246 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_245 : BitVec 32 := 1#32
  let v312 : BitVec 32 := Scalar.muli v4 c1_i32_245
  let v313 : BitVec 32 := Scalar.addi c0_i32_246 v312
  v313.toNat
def k0_dev20 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_279 : BitVec 32 := 1#32
  let v344 : BitVec 32 := Scalar.muli v3 c1_i32_279
  let v345 : BitVec 32 := Scalar.addi c0_i32_280 v344
  v345.toNat
def k0_dev21 (d0 : Dev nD) : Nat :=
  let c0_i32_313 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_312 : BitVec 32 := 1#32
  let v376 : BitVec 32 := Scalar.muli v4 c1_i32_312
  let v377 : BitVec 32 := Scalar.addi c0_i32_313 v376
  v377.toNat
def k0_dev22 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_345 : BitVec 32 := 1#32
  let v408 : BitVec 32 := Scalar.muli v3 c1_i32_345
  let v409 : BitVec 32 := Scalar.addi c0_i32_346 v408
  v409.toNat
def k0_dev23 (d0 : Dev nD) : Nat :=
  let c0_i32_379 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_378 : BitVec 32 := 1#32
  let v440 : BitVec 32 := Scalar.muli v4 c1_i32_378
  let v441 : BitVec 32 := Scalar.addi c0_i32_379 v440
  v441.toNat
def k0_dev24 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_411 : BitVec 32 := 1#32
  let v472 : BitVec 32 := Scalar.muli v3 c1_i32_411
  let v473 : BitVec 32 := Scalar.addi c0_i32_412 v472
  v473.toNat
def k0_dev25 (d0 : Dev nD) : Nat :=
  let c0_i32_445 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_444 : BitVec 32 := 1#32
  let v504 : BitVec 32 := Scalar.muli v4 c1_i32_444
  let v505 : BitVec 32 := Scalar.addi c0_i32_445 v504
  v505.toNat
def k0_dev26 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_477 : BitVec 32 := 1#32
  let v536 : BitVec 32 := Scalar.muli v3 c1_i32_477
  let v537 : BitVec 32 := Scalar.addi c0_i32_478 v536
  v537.toNat
def k0_dev27 (d0 : Dev nD) : Nat :=
  let c0_i32_511 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_510 : BitVec 32 := 1#32
  let v568 : BitVec 32 := Scalar.muli v4 c1_i32_510
  let v569 : BitVec 32 := Scalar.addi c0_i32_511 v568
  v569.toNat
def k0_dev28 (d0 : Dev nD) : Nat :=
  let c0_i32_544 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_543 : BitVec 32 := 1#32
  let v600 : BitVec 32 := Scalar.muli v3 c1_i32_543
  let v601 : BitVec 32 := Scalar.addi c0_i32_544 v600
  v601.toNat
def k0_dev29 (d0 : Dev nD) : Nat :=
  let c0_i32_577 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_576 : BitVec 32 := 1#32
  let v632 : BitVec 32 := Scalar.muli v4 c1_i32_576
  let v633 : BitVec 32 := Scalar.addi c0_i32_577 v632
  v633.toNat
def k0_dev30 (d0 : Dev nD) : Nat :=
  let c0_i32_610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_609 : BitVec 32 := 1#32
  let v664 : BitVec 32 := Scalar.muli v3 c1_i32_609
  let v665 : BitVec 32 := Scalar.addi c0_i32_610 v664
  v665.toNat
def k0_dev31 (d0 : Dev nD) : Nat :=
  let c0_i32_643 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_642 : BitVec 32 := 1#32
  let v696 : BitVec 32 := Scalar.muli v4 c1_i32_642
  let v697 : BitVec 32 := Scalar.addi c0_i32_643 v696
  v697.toNat
def k0_dev32 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_675 : BitVec 32 := 1#32
  let v728 : BitVec 32 := Scalar.muli v3 c1_i32_675
  let v729 : BitVec 32 := Scalar.addi c0_i32_676 v728
  v729.toNat
def k0_dev33 (d0 : Dev nD) : Nat :=
  let c0_i32_709 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_708 : BitVec 32 := 1#32
  let v760 : BitVec 32 := Scalar.muli v4 c1_i32_708
  let v761 : BitVec 32 := Scalar.addi c0_i32_709 v760
  v761.toNat
def k0_dev34 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_741 : BitVec 32 := 1#32
  let v792 : BitVec 32 := Scalar.muli v3 c1_i32_741
  let v793 : BitVec 32 := Scalar.addi c0_i32_742 v792
  v793.toNat
def k0_dev35 (d0 : Dev nD) : Nat :=
  let c0_i32_848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_847 : BitVec 32 := 1#32
  let v888 : BitVec 32 := Scalar.muli v3 c1_i32_847
  let v889 : BitVec 32 := Scalar.addi c0_i32_848 v888
  v889.toNat
def k0_dev36 (d0 : Dev nD) : Nat :=
  let c0_i32_859 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_858 : BitVec 32 := 1#32
  let v903 : BitVec 32 := Scalar.muli v4 c1_i32_858
  let v904 : BitVec 32 := Scalar.addi c0_i32_859 v903
  v904.toNat
def k0_dev37 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_869 : BitVec 32 := 1#32
  let v918 : BitVec 32 := Scalar.muli v3 c1_i32_869
  let v919 : BitVec 32 := Scalar.addi c0_i32_870 v918
  v919.toNat
def k0_dev38 (d0 : Dev nD) : Nat :=
  let c0_i32_881 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_880 : BitVec 32 := 1#32
  let v933 : BitVec 32 := Scalar.muli v4 c1_i32_880
  let v934 : BitVec 32 := Scalar.addi c0_i32_881 v933
  v934.toNat
def k0_dev39 (d0 : Dev nD) : Nat :=
  let c0_i32_987 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_986 : BitVec 32 := 1#32
  let v1029 : BitVec 32 := Scalar.muli v3 c1_i32_986
  let v1030 : BitVec 32 := Scalar.addi c0_i32_987 v1029
  v1030.toNat
def k0_dev40 (d0 : Dev nD) : Nat :=
  let c0_i32_998 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_997 : BitVec 32 := 1#32
  let v1044 : BitVec 32 := Scalar.muli v4 c1_i32_997
  let v1045 : BitVec 32 := Scalar.addi c0_i32_998 v1044
  v1045.toNat
def k0_dev41 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1008 : BitVec 32 := 1#32
  let v1059 : BitVec 32 := Scalar.muli v3 c1_i32_1008
  let v1060 : BitVec 32 := Scalar.addi c0_i32_1009 v1059
  v1060.toNat
def k0_dev42 (d0 : Dev nD) : Nat :=
  let c0_i32_1020 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1019 : BitVec 32 := 1#32
  let v1074 : BitVec 32 := Scalar.muli v4 c1_i32_1019
  let v1075 : BitVec 32 := Scalar.addi c0_i32_1020 v1074
  v1075.toNat
def k0_dev43 (d0 : Dev nD) : Nat :=
  let c0_i32_1126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1125 : BitVec 32 := 1#32
  let v1170 : BitVec 32 := Scalar.muli v3 c1_i32_1125
  let v1171 : BitVec 32 := Scalar.addi c0_i32_1126 v1170
  v1171.toNat
def k0_dev44 (d0 : Dev nD) : Nat :=
  let c0_i32_1137 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1136 : BitVec 32 := 1#32
  let v1185 : BitVec 32 := Scalar.muli v4 c1_i32_1136
  let v1186 : BitVec 32 := Scalar.addi c0_i32_1137 v1185
  v1186.toNat
def k0_dev45 (d0 : Dev nD) : Nat :=
  let c0_i32_1148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1147 : BitVec 32 := 1#32
  let v1200 : BitVec 32 := Scalar.muli v3 c1_i32_1147
  let v1201 : BitVec 32 := Scalar.addi c0_i32_1148 v1200
  v1201.toNat
def k0_dev46 (d0 : Dev nD) : Nat :=
  let c0_i32_1159 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1158 : BitVec 32 := 1#32
  let v1215 : BitVec 32 := Scalar.muli v4 c1_i32_1158
  let v1216 : BitVec 32 := Scalar.addi c0_i32_1159 v1215
  v1216.toNat
def k0_dev47 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1264 : BitVec 32 := 1#32
  let v1311 : BitVec 32 := Scalar.muli v3 c1_i32_1264
  let v1312 : BitVec 32 := Scalar.addi c0_i32_1265 v1311
  v1312.toNat
def k0_dev48 (d0 : Dev nD) : Nat :=
  let c0_i32_1276 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1275 : BitVec 32 := 1#32
  let v1326 : BitVec 32 := Scalar.muli v4 c1_i32_1275
  let v1327 : BitVec 32 := Scalar.addi c0_i32_1276 v1326
  v1327.toNat
def k0_dev49 (d0 : Dev nD) : Nat :=
  let c0_i32_1287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1286 : BitVec 32 := 1#32
  let v1341 : BitVec 32 := Scalar.muli v3 c1_i32_1286
  let v1342 : BitVec 32 := Scalar.addi c0_i32_1287 v1341
  v1342.toNat
def k0_dev50 (d0 : Dev nD) : Nat :=
  let c0_i32_1298 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1297 : BitVec 32 := 1#32
  let v1356 : BitVec 32 := Scalar.muli v4 c1_i32_1297
  let v1357 : BitVec 32 := Scalar.addi c0_i32_1298 v1356
  v1357.toNat
def k0_dev51 (d0 : Dev nD) : Nat :=
  let c0_i32_1331 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1330 : BitVec 32 := 1#32
  let v1388 : BitVec 32 := Scalar.muli v4 c1_i32_1330
  let v1389 : BitVec 32 := Scalar.addi c0_i32_1331 v1388
  v1389.toNat
def k0_dev52 (d0 : Dev nD) : Nat :=
  let c0_i32_1364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1363 : BitVec 32 := 1#32
  let v1420 : BitVec 32 := Scalar.muli v3 c1_i32_1363
  let v1421 : BitVec 32 := Scalar.addi c0_i32_1364 v1420
  v1421.toNat
def k0_dev53 (d0 : Dev nD) : Nat :=
  let c0_i32_1397 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1396 : BitVec 32 := 1#32
  let v1452 : BitVec 32 := Scalar.muli v4 c1_i32_1396
  let v1453 : BitVec 32 := Scalar.addi c0_i32_1397 v1452
  v1453.toNat
def k0_dev54 (d0 : Dev nD) : Nat :=
  let c0_i32_1430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1429 : BitVec 32 := 1#32
  let v1484 : BitVec 32 := Scalar.muli v3 c1_i32_1429
  let v1485 : BitVec 32 := Scalar.addi c0_i32_1430 v1484
  v1485.toNat
def k0_dev55 (d0 : Dev nD) : Nat :=
  let c0_i32_1463 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1462 : BitVec 32 := 1#32
  let v1516 : BitVec 32 := Scalar.muli v4 c1_i32_1462
  let v1517 : BitVec 32 := Scalar.addi c0_i32_1463 v1516
  v1517.toNat
def k0_dev56 (d0 : Dev nD) : Nat :=
  let c0_i32_1496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1495 : BitVec 32 := 1#32
  let v1548 : BitVec 32 := Scalar.muli v3 c1_i32_1495
  let v1549 : BitVec 32 := Scalar.addi c0_i32_1496 v1548
  v1549.toNat
def k0_dev57 (d0 : Dev nD) : Nat :=
  let c0_i32_1529 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1528 : BitVec 32 := 1#32
  let v1580 : BitVec 32 := Scalar.muli v4 c1_i32_1528
  let v1581 : BitVec 32 := Scalar.addi c0_i32_1529 v1580
  v1581.toNat
def k0_dev58 (d0 : Dev nD) : Nat :=
  let c0_i32_1562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1561 : BitVec 32 := 1#32
  let v1612 : BitVec 32 := Scalar.muli v3 c1_i32_1561
  let v1613 : BitVec 32 := Scalar.addi c0_i32_1562 v1612
  v1613.toNat
def k0_dev59 (d0 : Dev nD) : Nat :=
  let c0_i32_1595 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1594 : BitVec 32 := 1#32
  let v1644 : BitVec 32 := Scalar.muli v4 c1_i32_1594
  let v1645 : BitVec 32 := Scalar.addi c0_i32_1595 v1644
  v1645.toNat
def k0_dev60 (d0 : Dev nD) : Nat :=
  let c0_i32_1628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1627 : BitVec 32 := 1#32
  let v1676 : BitVec 32 := Scalar.muli v3 c1_i32_1627
  let v1677 : BitVec 32 := Scalar.addi c0_i32_1628 v1676
  v1677.toNat
def k0_dev61 (d0 : Dev nD) : Nat :=
  let c0_i32_1661 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1660 : BitVec 32 := 1#32
  let v1708 : BitVec 32 := Scalar.muli v4 c1_i32_1660
  let v1709 : BitVec 32 := Scalar.addi c0_i32_1661 v1708
  v1709.toNat
def k0_dev62 (d0 : Dev nD) : Nat :=
  let c0_i32_1694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1693 : BitVec 32 := 1#32
  let v1740 : BitVec 32 := Scalar.muli v3 c1_i32_1693
  let v1741 : BitVec 32 := Scalar.addi c0_i32_1694 v1740
  v1741.toNat
def k0_dev63 (d0 : Dev nD) : Nat :=
  let c0_i32_1727 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1726 : BitVec 32 := 1#32
  let v1772 : BitVec 32 := Scalar.muli v4 c1_i32_1726
  let v1773 : BitVec 32 := Scalar.addi c0_i32_1727 v1772
  v1773.toNat
def k0_dev64 (d0 : Dev nD) : Nat :=
  let c0_i32_1760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1759 : BitVec 32 := 1#32
  let v1804 : BitVec 32 := Scalar.muli v3 c1_i32_1759
  let v1805 : BitVec 32 := Scalar.addi c0_i32_1760 v1804
  v1805.toNat
def k0_dev65 (d0 : Dev nD) : Nat :=
  let c0_i32_1793 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1792 : BitVec 32 := 1#32
  let v1836 : BitVec 32 := Scalar.muli v4 c1_i32_1792
  let v1837 : BitVec 32 := Scalar.addi c0_i32_1793 v1836
  v1837.toNat
def k0_dev66 (d0 : Dev nD) : Nat :=
  let c0_i32_1826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1825 : BitVec 32 := 1#32
  let v1868 : BitVec 32 := Scalar.muli v3 c1_i32_1825
  let v1869 : BitVec 32 := Scalar.addi c0_i32_1826 v1868
  v1869.toNat
def k0_dev67 (d0 : Dev nD) : Nat :=
  let c0_i32_1932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1931 : BitVec 32 := 1#32
  let v1964 : BitVec 32 := Scalar.muli v3 c1_i32_1931
  let v1965 : BitVec 32 := Scalar.addi c0_i32_1932 v1964
  v1965.toNat
def k0_dev68 (d0 : Dev nD) : Nat :=
  let c0_i32_1943 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1942 : BitVec 32 := 1#32
  let v1979 : BitVec 32 := Scalar.muli v4 c1_i32_1942
  let v1980 : BitVec 32 := Scalar.addi c0_i32_1943 v1979
  v1980.toNat
def k0_dev69 (d0 : Dev nD) : Nat :=
  let c0_i32_1954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1953 : BitVec 32 := 1#32
  let v1994 : BitVec 32 := Scalar.muli v3 c1_i32_1953
  let v1995 : BitVec 32 := Scalar.addi c0_i32_1954 v1994
  v1995.toNat
def k0_dev70 (d0 : Dev nD) : Nat :=
  let c0_i32_1965 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1964 : BitVec 32 := 1#32
  let v2009 : BitVec 32 := Scalar.muli v4 c1_i32_1964
  let v2010 : BitVec 32 := Scalar.addi c0_i32_1965 v2009
  v2010.toNat
def k0_dev71 (d0 : Dev nD) : Nat :=
  let c0_i32_2071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2070 : BitVec 32 := 1#32
  let v2105 : BitVec 32 := Scalar.muli v3 c1_i32_2070
  let v2106 : BitVec 32 := Scalar.addi c0_i32_2071 v2105
  v2106.toNat
def k0_dev72 (d0 : Dev nD) : Nat :=
  let c0_i32_2082 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2081 : BitVec 32 := 1#32
  let v2120 : BitVec 32 := Scalar.muli v4 c1_i32_2081
  let v2121 : BitVec 32 := Scalar.addi c0_i32_2082 v2120
  v2121.toNat
def k0_dev73 (d0 : Dev nD) : Nat :=
  let c0_i32_2093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2092 : BitVec 32 := 1#32
  let v2135 : BitVec 32 := Scalar.muli v3 c1_i32_2092
  let v2136 : BitVec 32 := Scalar.addi c0_i32_2093 v2135
  v2136.toNat
def k0_dev74 (d0 : Dev nD) : Nat :=
  let c0_i32_2104 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2103 : BitVec 32 := 1#32
  let v2150 : BitVec 32 := Scalar.muli v4 c1_i32_2103
  let v2151 : BitVec 32 := Scalar.addi c0_i32_2104 v2150
  v2151.toNat
def k0_dev75 (d0 : Dev nD) : Nat :=
  let c0_i32_2210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2209 : BitVec 32 := 1#32
  let v2246 : BitVec 32 := Scalar.muli v3 c1_i32_2209
  let v2247 : BitVec 32 := Scalar.addi c0_i32_2210 v2246
  v2247.toNat
def k0_dev76 (d0 : Dev nD) : Nat :=
  let c0_i32_2221 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2220 : BitVec 32 := 1#32
  let v2261 : BitVec 32 := Scalar.muli v4 c1_i32_2220
  let v2262 : BitVec 32 := Scalar.addi c0_i32_2221 v2261
  v2262.toNat
def k0_dev77 (d0 : Dev nD) : Nat :=
  let c0_i32_2232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2231 : BitVec 32 := 1#32
  let v2276 : BitVec 32 := Scalar.muli v3 c1_i32_2231
  let v2277 : BitVec 32 := Scalar.addi c0_i32_2232 v2276
  v2277.toNat
def k0_dev78 (d0 : Dev nD) : Nat :=
  let c0_i32_2243 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2242 : BitVec 32 := 1#32
  let v2291 : BitVec 32 := Scalar.muli v4 c1_i32_2242
  let v2292 : BitVec 32 := Scalar.addi c0_i32_2243 v2291
  v2292.toNat
def k0_dev79 (d0 : Dev nD) : Nat :=
  let c0_i32_2349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2348 : BitVec 32 := 1#32
  let v2387 : BitVec 32 := Scalar.muli v3 c1_i32_2348
  let v2388 : BitVec 32 := Scalar.addi c0_i32_2349 v2387
  v2388.toNat
def k0_dev80 (d0 : Dev nD) : Nat :=
  let c0_i32_2360 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2359 : BitVec 32 := 1#32
  let v2402 : BitVec 32 := Scalar.muli v4 c1_i32_2359
  let v2403 : BitVec 32 := Scalar.addi c0_i32_2360 v2402
  v2403.toNat
def k0_dev81 (d0 : Dev nD) : Nat :=
  let c0_i32_2371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2370 : BitVec 32 := 1#32
  let v2417 : BitVec 32 := Scalar.muli v3 c1_i32_2370
  let v2418 : BitVec 32 := Scalar.addi c0_i32_2371 v2417
  v2418.toNat
def k0_dev82 (d0 : Dev nD) : Nat :=
  let c0_i32_2382 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2381 : BitVec 32 := 1#32
  let v2432 : BitVec 32 := Scalar.muli v4 c1_i32_2381
  let v2433 : BitVec 32 := Scalar.addi c0_i32_2382 v2432
  v2433.toNat
def k0_dev83 (d0 : Dev nD) : Nat :=
  let c0_i32_2415 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2414 : BitVec 32 := 1#32
  let v2464 : BitVec 32 := Scalar.muli v4 c1_i32_2414
  let v2465 : BitVec 32 := Scalar.addi c0_i32_2415 v2464
  v2465.toNat
def k0_dev84 (d0 : Dev nD) : Nat :=
  let c0_i32_2448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2447 : BitVec 32 := 1#32
  let v2496 : BitVec 32 := Scalar.muli v3 c1_i32_2447
  let v2497 : BitVec 32 := Scalar.addi c0_i32_2448 v2496
  v2497.toNat
def k0_dev85 (d0 : Dev nD) : Nat :=
  let c0_i32_2481 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2480 : BitVec 32 := 1#32
  let v2528 : BitVec 32 := Scalar.muli v4 c1_i32_2480
  let v2529 : BitVec 32 := Scalar.addi c0_i32_2481 v2528
  v2529.toNat
def k0_dev86 (d0 : Dev nD) : Nat :=
  let c0_i32_2514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2513 : BitVec 32 := 1#32
  let v2560 : BitVec 32 := Scalar.muli v3 c1_i32_2513
  let v2561 : BitVec 32 := Scalar.addi c0_i32_2514 v2560
  v2561.toNat
def k0_dev87 (d0 : Dev nD) : Nat :=
  let c0_i32_2547 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2546 : BitVec 32 := 1#32
  let v2592 : BitVec 32 := Scalar.muli v4 c1_i32_2546
  let v2593 : BitVec 32 := Scalar.addi c0_i32_2547 v2592
  v2593.toNat
def k0_dev88 (d0 : Dev nD) : Nat :=
  let c0_i32_2580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2579 : BitVec 32 := 1#32
  let v2624 : BitVec 32 := Scalar.muli v3 c1_i32_2579
  let v2625 : BitVec 32 := Scalar.addi c0_i32_2580 v2624
  v2625.toNat
def k0_dev89 (d0 : Dev nD) : Nat :=
  let c0_i32_2613 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2612 : BitVec 32 := 1#32
  let v2656 : BitVec 32 := Scalar.muli v4 c1_i32_2612
  let v2657 : BitVec 32 := Scalar.addi c0_i32_2613 v2656
  v2657.toNat
def k0_dev90 (d0 : Dev nD) : Nat :=
  let c0_i32_2646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2645 : BitVec 32 := 1#32
  let v2688 : BitVec 32 := Scalar.muli v3 c1_i32_2645
  let v2689 : BitVec 32 := Scalar.addi c0_i32_2646 v2688
  v2689.toNat
def k0_dev91 (d0 : Dev nD) : Nat :=
  let c0_i32_2679 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2678 : BitVec 32 := 1#32
  let v2720 : BitVec 32 := Scalar.muli v4 c1_i32_2678
  let v2721 : BitVec 32 := Scalar.addi c0_i32_2679 v2720
  v2721.toNat
def k0_dev92 (d0 : Dev nD) : Nat :=
  let c0_i32_2712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2711 : BitVec 32 := 1#32
  let v2752 : BitVec 32 := Scalar.muli v3 c1_i32_2711
  let v2753 : BitVec 32 := Scalar.addi c0_i32_2712 v2752
  v2753.toNat
def k0_dev93 (d0 : Dev nD) : Nat :=
  let c0_i32_2745 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2744 : BitVec 32 := 1#32
  let v2784 : BitVec 32 := Scalar.muli v4 c1_i32_2744
  let v2785 : BitVec 32 := Scalar.addi c0_i32_2745 v2784
  v2785.toNat
def k0_dev94 (d0 : Dev nD) : Nat :=
  let c0_i32_2778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2777 : BitVec 32 := 1#32
  let v2816 : BitVec 32 := Scalar.muli v3 c1_i32_2777
  let v2817 : BitVec 32 := Scalar.addi c0_i32_2778 v2816
  v2817.toNat
def k0_dev95 (d0 : Dev nD) : Nat :=
  let c0_i32_2811 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2810 : BitVec 32 := 1#32
  let v2848 : BitVec 32 := Scalar.muli v4 c1_i32_2810
  let v2849 : BitVec 32 := Scalar.addi c0_i32_2811 v2848
  v2849.toNat
def k0_dev96 (d0 : Dev nD) : Nat :=
  let c0_i32_2844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2843 : BitVec 32 := 1#32
  let v2880 : BitVec 32 := Scalar.muli v3 c1_i32_2843
  let v2881 : BitVec 32 := Scalar.addi c0_i32_2844 v2880
  v2881.toNat
def k0_dev97 (d0 : Dev nD) : Nat :=
  let c0_i32_2877 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2876 : BitVec 32 := 1#32
  let v2912 : BitVec 32 := Scalar.muli v4 c1_i32_2876
  let v2913 : BitVec 32 := Scalar.addi c0_i32_2877 v2912
  v2913.toNat
def k0_dev98 (d0 : Dev nD) : Nat :=
  let c0_i32_2910 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2909 : BitVec 32 := 1#32
  let v2944 : BitVec 32 := Scalar.muli v3 c1_i32_2909
  let v2945 : BitVec 32 := Scalar.addi c0_i32_2910 v2944
  v2945.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_2 : (2#32 : BitVec 32).msb = false
  inb_S512x256_S128x256_0_0 : ∀ a, (![0, 0] : Fin 2 → Nat) a + S128x256.size a ≤ S512x256.size a
  h_S128x256 : 0 < S128x256.numel
  shapeCasts_S128x256_S128x256 : S128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S128x256_o0_0_S32x256 : S128x256.Slices ![0, 0] S32x256
  bitsLt_bf16_f32 : FTy.bits .bf16 < FTy.bits .f32
  inb_S96x32x256_S1x32x256_0_0_0 : ∀ a, (![0, 0, 0] : Fin 3 → Nat) a + S1x32x256.size a ≤ S96x32x256.size a
  h_S1x32x256 : 0 < S1x32x256.numel
  shapeCasts_S1x32x256_S32x256 : S1x32x256.ShapeCasts S32x256
  shapeCasts_S32x256_S1x32x256 : S32x256.ShapeCasts S1x32x256
  packedbf16_S96x32x256_S1x32x256_0_0_0 : (Rect.unit (s := S96x32x256) ![0, 0, 0] S1x32x256.size inb_S96x32x256_S1x32x256_0_0_0).PackedRows (EltTy.packing .bf16)
  inb_S96_S1_0 : ∀ a, (![0] : Fin 1 → Nat) a + S1.size a ≤ S96.size a
  squeezes_S1_S_ : S1.Squeezes S_
  squeezes_S1x32x256_S32x256 : S1x32x256.Squeezes S32x256
  wordsbf16_S96x32x256_S1x32x256_0_0_0 : (Rect.unit (s := S96x32x256) ![0, 0, 0] S1x32x256.size inb_S96x32x256_S1x32x256_0_0_0).WholeWords (EltTy.packing .bf16)
  slices_S128x256_o32_0_S32x256 : S128x256.Slices ![32, 0] S32x256
  inb_S96x32x256_S1x32x256_2_0_0 : ∀ a, (![2, 0, 0] : Fin 3 → Nat) a + S1x32x256.size a ≤ S96x32x256.size a
  packedbf16_S96x32x256_S1x32x256_2_0_0 : (Rect.unit (s := S96x32x256) ![2, 0, 0] S1x32x256.size inb_S96x32x256_S1x32x256_2_0_0).PackedRows (EltTy.packing .bf16)
  inb_S96_S1_2 : ∀ a, (![2] : Fin 1 → Nat) a + S1.size a ≤ S96.size a
  wordsbf16_S96x32x256_S1x32x256_2_0_0 : (Rect.unit (s := S96x32x256) ![2, 0, 0] S1x32x256.size inb_S96x32x256_S1x32x256_2_0_0).WholeWords (EltTy.packing .bf16)
  slices_S128x256_o64_0_S32x256 : S128x256.Slices ![64, 0] S32x256
  inb_S96x32x256_S1x32x256_4_0_0 : ∀ a, (![4, 0, 0] : Fin 3 → Nat) a + S1x32x256.size a ≤ S96x32x256.size a
  packedbf16_S96x32x256_S1x32x256_4_0_0 : (Rect.unit (s := S96x32x256) ![4, 0, 0] S1x32x256.size inb_S96x32x256_S1x32x256_4_0_0).PackedRows (EltTy.packing .bf16)
  inb_S96_S1_4 : ∀ a, (![4] : Fin 1 → Nat) a + S1.size a ≤ S96.size a
  wordsbf16_S96x32x256_S1x32x256_4_0_0 : (Rect.unit (s := S96x32x256) ![4, 0, 0] S1x32x256.size inb_S96x32x256_S1x32x256_4_0_0).WholeWords (EltTy.packing .bf16)
  slices_S128x256_o96_0_S32x256 : S128x256.Slices ![96, 0] S32x256
  inb_S96x32x256_S1x32x256_6_0_0 : ∀ a, (![6, 0, 0] : Fin 3 → Nat) a + S1x32x256.size a ≤ S96x32x256.size a
  packedbf16_S96x32x256_S1x32x256_6_0_0 : (Rect.unit (s := S96x32x256) ![6, 0, 0] S1x32x256.size inb_S96x32x256_S1x32x256_6_0_0).PackedRows (EltTy.packing .bf16)
  inb_S96_S1_6 : ∀ a, (![6] : Fin 1 → Nat) a + S1.size a ≤ S96.size a
  wordsbf16_S96x32x256_S1x32x256_6_0_0 : (Rect.unit (s := S96x32x256) ![6, 0, 0] S1x32x256.size inb_S96x32x256_S1x32x256_6_0_0).WholeWords (EltTy.packing .bf16)
  inb_S512x256_S128x256_128_0 : ∀ a, (![128, 0] : Fin 2 → Nat) a + S128x256.size a ≤ S512x256.size a
  inb_S96x32x256_S1x32x256_8_0_0 : ∀ a, (![8, 0, 0] : Fin 3 → Nat) a + S1x32x256.size a ≤ S96x32x256.size a
  packedbf16_S96x32x256_S1x32x256_8_0_0 : (Rect.unit (s := S96x32x256) ![8, 0, 0] S1x32x256.size inb_S96x32x256_S1x32x256_8_0_0).PackedRows (EltTy.packing .bf16)
  inb_S96_S1_8 : ∀ a, (![8] : Fin 1 → Nat) a + S1.size a ≤ S96.size a
  wordsbf16_S96x32x256_S1x32x256_8_0_0 : (Rect.unit (s := S96x32x256) ![8, 0, 0] S1x32x256.size inb_S96x32x256_S1x32x256_8_0_0).WholeWords (EltTy.packing .bf16)
  inb_S96x32x256_S1x32x256_10_0_0 : ∀ a, (![10, 0, 0] : Fin 3 → Nat) a + S1x32x256.size a ≤ S96x32x256.size a
  packedbf16_S96x32x256_S1x32x256_10_0_0 : (Rect.unit (s := S96x32x256) ![10, 0, 0] S1x32x256.size inb_S96x32x256_S1x32x256_10_0_0).PackedRows (EltTy.packing .bf16)
  inb_S96_S1_10 : ∀ a, (![10] : Fin 1 → Nat) a + S1.size a ≤ S96.size a
  wordsbf16_S96x32x256_S1x32x256_10_0_0 : (Rect.unit (s := S96x32x256) ![10, 0, 0] S1x32x256.size inb_S96x32x256_S1x32x256_10_0_0).WholeWords (EltTy.packing .bf16)
  inb_S96x32x256_S1x32x256_12_0_0 : ∀ a, (![12, 0, 0] : Fin 3 → Nat) a + S1x32x256.size a ≤ S96x32x256.size a
  packedbf16_S96x32x256_S1x32x256_12_0_0 : (Rect.unit (s := S96x32x256) ![12, 0, 0] S1x32x256.size inb_S96x32x256_S1x32x256_12_0_0).PackedRows (EltTy.packing .bf16)
  inb_S96_S1_12 : ∀ a, (![12] : Fin 1 → Nat) a + S1.size a ≤ S96.size a
  wordsbf16_S96x32x256_S1x32x256_12_0_0 : (Rect.unit (s := S96x32x256) ![12, 0, 0] S1x32x256.size inb_S96x32x256_S1x32x256_12_0_0).WholeWords (EltTy.packing .bf16)
  inb_S96x32x256_S1x32x256_14_0_0 : ∀ a, (![14, 0, 0] : Fin 3 → Nat) a + S1x32x256.size a ≤ S96x32x256.size a
  packedbf16_S96x32x256_S1x32x256_14_0_0 : (Rect.unit (s := S96x32x256) ![14, 0, 0] S1x32x256.size inb_S96x32x256_S1x32x256_14_0_0).PackedRows (EltTy.packing .bf16)
  inb_S96_S1_14 : ∀ a, (![14] : Fin 1 → Nat) a + S1.size a ≤ S96.size a
  wordsbf16_S96x32x256_S1x32x256_14_0_0 : (Rect.unit (s := S96x32x256) ![14, 0, 0] S1x32x256.size inb_S96x32x256_S1x32x256_14_0_0).WholeWords (EltTy.packing .bf16)
  inb_S512x256_S128x256_256_0 : ∀ a, (![256, 0] : Fin 2 → Nat) a + S128x256.size a ≤ S512x256.size a
  inb_S96x32x256_S1x32x256_16_0_0 : ∀ a, (![16, 0, 0] : Fin 3 → Nat) a + S1x32x256.size a ≤ S96x32x256.size a
  packedbf16_S96x32x256_S1x32x256_16_0_0 : (Rect.unit (s := S96x32x256) ![16, 0, 0] S1x32x256.size inb_S96x32x256_S1x32x256_16_0_0).PackedRows (EltTy.packing .bf16)
  inb_S96_S1_16 : ∀ a, (![16] : Fin 1 → Nat) a + S1.size a ≤ S96.size a
  wordsbf16_S96x32x256_S1x32x256_16_0_0 : (Rect.unit (s := S96x32x256) ![16, 0, 0] S1x32x256.size inb_S96x32x256_S1x32x256_16_0_0).WholeWords (EltTy.packing .bf16)
  inb_S96x32x256_S1x32x256_18_0_0 : ∀ a, (![18, 0, 0] : Fin 3 → Nat) a + S1x32x256.size a ≤ S96x32x256.size a
  packedbf16_S96x32x256_S1x32x256_18_0_0 : (Rect.unit (s := S96x32x256) ![18, 0, 0] S1x32x256.size inb_S96x32x256_S1x32x256_18_0_0).PackedRows (EltTy.packing .bf16)
  inb_S96_S1_18 : ∀ a, (![18] : Fin 1 → Nat) a + S1.size a ≤ S96.size a
  wordsbf16_S96x32x256_S1x32x256_18_0_0 : (Rect.unit (s := S96x32x256) ![18, 0, 0] S1x32x256.size inb_S96x32x256_S1x32x256_18_0_0).WholeWords (EltTy.packing .bf16)
  inb_S96x32x256_S1x32x256_20_0_0 : ∀ a, (![20, 0, 0] : Fin 3 → Nat) a + S1x32x256.size a ≤ S96x32x256.size a
  packedbf16_S96x32x256_S1x32x256_20_0_0 : (Rect.unit (s := S96x32x256) ![20, 0, 0] S1x32x256.size inb_S96x32x256_S1x32x256_20_0_0).PackedRows (EltTy.packing .bf16)
  inb_S96_S1_20 : ∀ a, (![20] : Fin 1 → Nat) a + S1.size a ≤ S96.size a
  wordsbf16_S96x32x256_S1x32x256_20_0_0 : (Rect.unit (s := S96x32x256) ![20, 0, 0] S1x32x256.size inb_S96x32x256_S1x32x256_20_0_0).WholeWords (EltTy.packing .bf16)
  inb_S96x32x256_S1x32x256_22_0_0 : ∀ a, (![22, 0, 0] : Fin 3 → Nat) a + S1x32x256.size a ≤ S96x32x256.size a
  packedbf16_S96x32x256_S1x32x256_22_0_0 : (Rect.unit (s := S96x32x256) ![22, 0, 0] S1x32x256.size inb_S96x32x256_S1x32x256_22_0_0).PackedRows (EltTy.packing .bf16)
  inb_S96_S1_22 : ∀ a, (![22] : Fin 1 → Nat) a + S1.size a ≤ S96.size a
  wordsbf16_S96x32x256_S1x32x256_22_0_0 : (Rect.unit (s := S96x32x256) ![22, 0, 0] S1x32x256.size inb_S96x32x256_S1x32x256_22_0_0).WholeWords (EltTy.packing .bf16)
  inb_S512x256_S128x256_384_0 : ∀ a, (![384, 0] : Fin 2 → Nat) a + S128x256.size a ≤ S512x256.size a
  inb_S96x32x256_S1x32x256_24_0_0 : ∀ a, (![24, 0, 0] : Fin 3 → Nat) a + S1x32x256.size a ≤ S96x32x256.size a
  packedbf16_S96x32x256_S1x32x256_24_0_0 : (Rect.unit (s := S96x32x256) ![24, 0, 0] S1x32x256.size inb_S96x32x256_S1x32x256_24_0_0).PackedRows (EltTy.packing .bf16)
  inb_S96_S1_24 : ∀ a, (![24] : Fin 1 → Nat) a + S1.size a ≤ S96.size a
  wordsbf16_S96x32x256_S1x32x256_24_0_0 : (Rect.unit (s := S96x32x256) ![24, 0, 0] S1x32x256.size inb_S96x32x256_S1x32x256_24_0_0).WholeWords (EltTy.packing .bf16)
  inb_S96x32x256_S1x32x256_26_0_0 : ∀ a, (![26, 0, 0] : Fin 3 → Nat) a + S1x32x256.size a ≤ S96x32x256.size a
  packedbf16_S96x32x256_S1x32x256_26_0_0 : (Rect.unit (s := S96x32x256) ![26, 0, 0] S1x32x256.size inb_S96x32x256_S1x32x256_26_0_0).PackedRows (EltTy.packing .bf16)
  inb_S96_S1_26 : ∀ a, (![26] : Fin 1 → Nat) a + S1.size a ≤ S96.size a
  wordsbf16_S96x32x256_S1x32x256_26_0_0 : (Rect.unit (s := S96x32x256) ![26, 0, 0] S1x32x256.size inb_S96x32x256_S1x32x256_26_0_0).WholeWords (EltTy.packing .bf16)
  inb_S96x32x256_S1x32x256_28_0_0 : ∀ a, (![28, 0, 0] : Fin 3 → Nat) a + S1x32x256.size a ≤ S96x32x256.size a
  packedbf16_S96x32x256_S1x32x256_28_0_0 : (Rect.unit (s := S96x32x256) ![28, 0, 0] S1x32x256.size inb_S96x32x256_S1x32x256_28_0_0).PackedRows (EltTy.packing .bf16)
  inb_S96_S1_28 : ∀ a, (![28] : Fin 1 → Nat) a + S1.size a ≤ S96.size a
  wordsbf16_S96x32x256_S1x32x256_28_0_0 : (Rect.unit (s := S96x32x256) ![28, 0, 0] S1x32x256.size inb_S96x32x256_S1x32x256_28_0_0).WholeWords (EltTy.packing .bf16)
  inb_S96x32x256_S1x32x256_30_0_0 : ∀ a, (![30, 0, 0] : Fin 3 → Nat) a + S1x32x256.size a ≤ S96x32x256.size a
  packedbf16_S96x32x256_S1x32x256_30_0_0 : (Rect.unit (s := S96x32x256) ![30, 0, 0] S1x32x256.size inb_S96x32x256_S1x32x256_30_0_0).PackedRows (EltTy.packing .bf16)
  inb_S96_S1_30 : ∀ a, (![30] : Fin 1 → Nat) a + S1.size a ≤ S96.size a
  wordsbf16_S96x32x256_S1x32x256_30_0_0 : (Rect.unit (s := S96x32x256) ![30, 0, 0] S1x32x256.size inb_S96x32x256_S1x32x256_30_0_0).WholeWords (EltTy.packing .bf16)
  inb_S96x32x256_S1x32x256_1_0_0 : ∀ a, (![1, 0, 0] : Fin 3 → Nat) a + S1x32x256.size a ≤ S96x32x256.size a
  packedbf16_S96x32x256_S1x32x256_1_0_0 : (Rect.unit (s := S96x32x256) ![1, 0, 0] S1x32x256.size inb_S96x32x256_S1x32x256_1_0_0).PackedRows (EltTy.packing .bf16)
  inb_S96_S1_1 : ∀ a, (![1] : Fin 1 → Nat) a + S1.size a ≤ S96.size a
  wordsbf16_S96x32x256_S1x32x256_1_0_0 : (Rect.unit (s := S96x32x256) ![1, 0, 0] S1x32x256.size inb_S96x32x256_S1x32x256_1_0_0).WholeWords (EltTy.packing .bf16)
  inb_S96x32x256_S1x32x256_3_0_0 : ∀ a, (![3, 0, 0] : Fin 3 → Nat) a + S1x32x256.size a ≤ S96x32x256.size a
  packedbf16_S96x32x256_S1x32x256_3_0_0 : (Rect.unit (s := S96x32x256) ![3, 0, 0] S1x32x256.size inb_S96x32x256_S1x32x256_3_0_0).PackedRows (EltTy.packing .bf16)
  inb_S96_S1_3 : ∀ a, (![3] : Fin 1 → Nat) a + S1.size a ≤ S96.size a
  wordsbf16_S96x32x256_S1x32x256_3_0_0 : (Rect.unit (s := S96x32x256) ![3, 0, 0] S1x32x256.size inb_S96x32x256_S1x32x256_3_0_0).WholeWords (EltTy.packing .bf16)
  inb_S96x32x256_S1x32x256_5_0_0 : ∀ a, (![5, 0, 0] : Fin 3 → Nat) a + S1x32x256.size a ≤ S96x32x256.size a
  packedbf16_S96x32x256_S1x32x256_5_0_0 : (Rect.unit (s := S96x32x256) ![5, 0, 0] S1x32x256.size inb_S96x32x256_S1x32x256_5_0_0).PackedRows (EltTy.packing .bf16)
  inb_S96_S1_5 : ∀ a, (![5] : Fin 1 → Nat) a + S1.size a ≤ S96.size a
  wordsbf16_S96x32x256_S1x32x256_5_0_0 : (Rect.unit (s := S96x32x256) ![5, 0, 0] S1x32x256.size inb_S96x32x256_S1x32x256_5_0_0).WholeWords (EltTy.packing .bf16)
  inb_S96x32x256_S1x32x256_7_0_0 : ∀ a, (![7, 0, 0] : Fin 3 → Nat) a + S1x32x256.size a ≤ S96x32x256.size a
  packedbf16_S96x32x256_S1x32x256_7_0_0 : (Rect.unit (s := S96x32x256) ![7, 0, 0] S1x32x256.size inb_S96x32x256_S1x32x256_7_0_0).PackedRows (EltTy.packing .bf16)
  inb_S96_S1_7 : ∀ a, (![7] : Fin 1 → Nat) a + S1.size a ≤ S96.size a
  wordsbf16_S96x32x256_S1x32x256_7_0_0 : (Rect.unit (s := S96x32x256) ![7, 0, 0] S1x32x256.size inb_S96x32x256_S1x32x256_7_0_0).WholeWords (EltTy.packing .bf16)
  inb_S96x32x256_S1x32x256_9_0_0 : ∀ a, (![9, 0, 0] : Fin 3 → Nat) a + S1x32x256.size a ≤ S96x32x256.size a
  packedbf16_S96x32x256_S1x32x256_9_0_0 : (Rect.unit (s := S96x32x256) ![9, 0, 0] S1x32x256.size inb_S96x32x256_S1x32x256_9_0_0).PackedRows (EltTy.packing .bf16)
  inb_S96_S1_9 : ∀ a, (![9] : Fin 1 → Nat) a + S1.size a ≤ S96.size a
  wordsbf16_S96x32x256_S1x32x256_9_0_0 : (Rect.unit (s := S96x32x256) ![9, 0, 0] S1x32x256.size inb_S96x32x256_S1x32x256_9_0_0).WholeWords (EltTy.packing .bf16)
  inb_S96x32x256_S1x32x256_11_0_0 : ∀ a, (![11, 0, 0] : Fin 3 → Nat) a + S1x32x256.size a ≤ S96x32x256.size a
  packedbf16_S96x32x256_S1x32x256_11_0_0 : (Rect.unit (s := S96x32x256) ![11, 0, 0] S1x32x256.size inb_S96x32x256_S1x32x256_11_0_0).PackedRows (EltTy.packing .bf16)
  inb_S96_S1_11 : ∀ a, (![11] : Fin 1 → Nat) a + S1.size a ≤ S96.size a
  wordsbf16_S96x32x256_S1x32x256_11_0_0 : (Rect.unit (s := S96x32x256) ![11, 0, 0] S1x32x256.size inb_S96x32x256_S1x32x256_11_0_0).WholeWords (EltTy.packing .bf16)
  inb_S96x32x256_S1x32x256_13_0_0 : ∀ a, (![13, 0, 0] : Fin 3 → Nat) a + S1x32x256.size a ≤ S96x32x256.size a
  packedbf16_S96x32x256_S1x32x256_13_0_0 : (Rect.unit (s := S96x32x256) ![13, 0, 0] S1x32x256.size inb_S96x32x256_S1x32x256_13_0_0).PackedRows (EltTy.packing .bf16)
  inb_S96_S1_13 : ∀ a, (![13] : Fin 1 → Nat) a + S1.size a ≤ S96.size a
  wordsbf16_S96x32x256_S1x32x256_13_0_0 : (Rect.unit (s := S96x32x256) ![13, 0, 0] S1x32x256.size inb_S96x32x256_S1x32x256_13_0_0).WholeWords (EltTy.packing .bf16)
  inb_S96x32x256_S1x32x256_15_0_0 : ∀ a, (![15, 0, 0] : Fin 3 → Nat) a + S1x32x256.size a ≤ S96x32x256.size a
  packedbf16_S96x32x256_S1x32x256_15_0_0 : (Rect.unit (s := S96x32x256) ![15, 0, 0] S1x32x256.size inb_S96x32x256_S1x32x256_15_0_0).PackedRows (EltTy.packing .bf16)
  inb_S96_S1_15 : ∀ a, (![15] : Fin 1 → Nat) a + S1.size a ≤ S96.size a
  wordsbf16_S96x32x256_S1x32x256_15_0_0 : (Rect.unit (s := S96x32x256) ![15, 0, 0] S1x32x256.size inb_S96x32x256_S1x32x256_15_0_0).WholeWords (EltTy.packing .bf16)
  inb_S96x32x256_S1x32x256_17_0_0 : ∀ a, (![17, 0, 0] : Fin 3 → Nat) a + S1x32x256.size a ≤ S96x32x256.size a
  packedbf16_S96x32x256_S1x32x256_17_0_0 : (Rect.unit (s := S96x32x256) ![17, 0, 0] S1x32x256.size inb_S96x32x256_S1x32x256_17_0_0).PackedRows (EltTy.packing .bf16)
  inb_S96_S1_17 : ∀ a, (![17] : Fin 1 → Nat) a + S1.size a ≤ S96.size a
  wordsbf16_S96x32x256_S1x32x256_17_0_0 : (Rect.unit (s := S96x32x256) ![17, 0, 0] S1x32x256.size inb_S96x32x256_S1x32x256_17_0_0).WholeWords (EltTy.packing .bf16)
  inb_S96x32x256_S1x32x256_19_0_0 : ∀ a, (![19, 0, 0] : Fin 3 → Nat) a + S1x32x256.size a ≤ S96x32x256.size a
  packedbf16_S96x32x256_S1x32x256_19_0_0 : (Rect.unit (s := S96x32x256) ![19, 0, 0] S1x32x256.size inb_S96x32x256_S1x32x256_19_0_0).PackedRows (EltTy.packing .bf16)
  inb_S96_S1_19 : ∀ a, (![19] : Fin 1 → Nat) a + S1.size a ≤ S96.size a
  wordsbf16_S96x32x256_S1x32x256_19_0_0 : (Rect.unit (s := S96x32x256) ![19, 0, 0] S1x32x256.size inb_S96x32x256_S1x32x256_19_0_0).WholeWords (EltTy.packing .bf16)
  inb_S96x32x256_S1x32x256_21_0_0 : ∀ a, (![21, 0, 0] : Fin 3 → Nat) a + S1x32x256.size a ≤ S96x32x256.size a
  packedbf16_S96x32x256_S1x32x256_21_0_0 : (Rect.unit (s := S96x32x256) ![21, 0, 0] S1x32x256.size inb_S96x32x256_S1x32x256_21_0_0).PackedRows (EltTy.packing .bf16)
  inb_S96_S1_21 : ∀ a, (![21] : Fin 1 → Nat) a + S1.size a ≤ S96.size a
  wordsbf16_S96x32x256_S1x32x256_21_0_0 : (Rect.unit (s := S96x32x256) ![21, 0, 0] S1x32x256.size inb_S96x32x256_S1x32x256_21_0_0).WholeWords (EltTy.packing .bf16)
  inb_S96x32x256_S1x32x256_23_0_0 : ∀ a, (![23, 0, 0] : Fin 3 → Nat) a + S1x32x256.size a ≤ S96x32x256.size a
  packedbf16_S96x32x256_S1x32x256_23_0_0 : (Rect.unit (s := S96x32x256) ![23, 0, 0] S1x32x256.size inb_S96x32x256_S1x32x256_23_0_0).PackedRows (EltTy.packing .bf16)
  inb_S96_S1_23 : ∀ a, (![23] : Fin 1 → Nat) a + S1.size a ≤ S96.size a
  wordsbf16_S96x32x256_S1x32x256_23_0_0 : (Rect.unit (s := S96x32x256) ![23, 0, 0] S1x32x256.size inb_S96x32x256_S1x32x256_23_0_0).WholeWords (EltTy.packing .bf16)
  inb_S96x32x256_S1x32x256_25_0_0 : ∀ a, (![25, 0, 0] : Fin 3 → Nat) a + S1x32x256.size a ≤ S96x32x256.size a
  packedbf16_S96x32x256_S1x32x256_25_0_0 : (Rect.unit (s := S96x32x256) ![25, 0, 0] S1x32x256.size inb_S96x32x256_S1x32x256_25_0_0).PackedRows (EltTy.packing .bf16)
  inb_S96_S1_25 : ∀ a, (![25] : Fin 1 → Nat) a + S1.size a ≤ S96.size a
  wordsbf16_S96x32x256_S1x32x256_25_0_0 : (Rect.unit (s := S96x32x256) ![25, 0, 0] S1x32x256.size inb_S96x32x256_S1x32x256_25_0_0).WholeWords (EltTy.packing .bf16)
  inb_S96x32x256_S1x32x256_27_0_0 : ∀ a, (![27, 0, 0] : Fin 3 → Nat) a + S1x32x256.size a ≤ S96x32x256.size a
  packedbf16_S96x32x256_S1x32x256_27_0_0 : (Rect.unit (s := S96x32x256) ![27, 0, 0] S1x32x256.size inb_S96x32x256_S1x32x256_27_0_0).PackedRows (EltTy.packing .bf16)
  inb_S96_S1_27 : ∀ a, (![27] : Fin 1 → Nat) a + S1.size a ≤ S96.size a
  wordsbf16_S96x32x256_S1x32x256_27_0_0 : (Rect.unit (s := S96x32x256) ![27, 0, 0] S1x32x256.size inb_S96x32x256_S1x32x256_27_0_0).WholeWords (EltTy.packing .bf16)
  inb_S96x32x256_S1x32x256_29_0_0 : ∀ a, (![29, 0, 0] : Fin 3 → Nat) a + S1x32x256.size a ≤ S96x32x256.size a
  packedbf16_S96x32x256_S1x32x256_29_0_0 : (Rect.unit (s := S96x32x256) ![29, 0, 0] S1x32x256.size inb_S96x32x256_S1x32x256_29_0_0).PackedRows (EltTy.packing .bf16)
  inb_S96_S1_29 : ∀ a, (![29] : Fin 1 → Nat) a + S1.size a ≤ S96.size a
  wordsbf16_S96x32x256_S1x32x256_29_0_0 : (Rect.unit (s := S96x32x256) ![29, 0, 0] S1x32x256.size inb_S96x32x256_S1x32x256_29_0_0).WholeWords (EltTy.packing .bf16)
  inb_S96x32x256_S1x32x256_31_0_0 : ∀ a, (![31, 0, 0] : Fin 3 → Nat) a + S1x32x256.size a ≤ S96x32x256.size a
  packedbf16_S96x32x256_S1x32x256_31_0_0 : (Rect.unit (s := S96x32x256) ![31, 0, 0] S1x32x256.size inb_S96x32x256_S1x32x256_31_0_0).PackedRows (EltTy.packing .bf16)
  inb_S96_S1_31 : ∀ a, (![31] : Fin 1 → Nat) a + S1.size a ≤ S96.size a
  wordsbf16_S96x32x256_S1x32x256_31_0_0 : (Rect.unit (s := S96x32x256) ![31, 0, 0] S1x32x256.size inb_S96x32x256_S1x32x256_31_0_0).WholeWords (EltTy.packing .bf16)
  concatenates_S32x256_S32x256_S32x256_S32x256_S128x256_d0 : Shape.Concatenates [S32x256, S32x256, S32x256, S32x256] S128x256 0
  inb_S96x32x256_S1x32x256_32_0_0 : ∀ a, (![32, 0, 0] : Fin 3 → Nat) a + S1x32x256.size a ≤ S96x32x256.size a
  packedbf16_S96x32x256_S1x32x256_32_0_0 : (Rect.unit (s := S96x32x256) ![32, 0, 0] S1x32x256.size inb_S96x32x256_S1x32x256_32_0_0).PackedRows (EltTy.packing .bf16)
  inb_S96_S1_32 : ∀ a, (![32] : Fin 1 → Nat) a + S1.size a ≤ S96.size a
  wordsbf16_S96x32x256_S1x32x256_32_0_0 : (Rect.unit (s := S96x32x256) ![32, 0, 0] S1x32x256.size inb_S96x32x256_S1x32x256_32_0_0).WholeWords (EltTy.packing .bf16)
  inb_S96x32x256_S1x32x256_34_0_0 : ∀ a, (![34, 0, 0] : Fin 3 → Nat) a + S1x32x256.size a ≤ S96x32x256.size a
  packedbf16_S96x32x256_S1x32x256_34_0_0 : (Rect.unit (s := S96x32x256) ![34, 0, 0] S1x32x256.size inb_S96x32x256_S1x32x256_34_0_0).PackedRows (EltTy.packing .bf16)
  inb_S96_S1_34 : ∀ a, (![34] : Fin 1 → Nat) a + S1.size a ≤ S96.size a
  wordsbf16_S96x32x256_S1x32x256_34_0_0 : (Rect.unit (s := S96x32x256) ![34, 0, 0] S1x32x256.size inb_S96x32x256_S1x32x256_34_0_0).WholeWords (EltTy.packing .bf16)
  inb_S96x32x256_S1x32x256_36_0_0 : ∀ a, (![36, 0, 0] : Fin 3 → Nat) a + S1x32x256.size a ≤ S96x32x256.size a
  packedbf16_S96x32x256_S1x32x256_36_0_0 : (Rect.unit (s := S96x32x256) ![36, 0, 0] S1x32x256.size inb_S96x32x256_S1x32x256_36_0_0).PackedRows (EltTy.packing .bf16)
  inb_S96_S1_36 : ∀ a, (![36] : Fin 1 → Nat) a + S1.size a ≤ S96.size a
  wordsbf16_S96x32x256_S1x32x256_36_0_0 : (Rect.unit (s := S96x32x256) ![36, 0, 0] S1x32x256.size inb_S96x32x256_S1x32x256_36_0_0).WholeWords (EltTy.packing .bf16)
  inb_S96x32x256_S1x32x256_38_0_0 : ∀ a, (![38, 0, 0] : Fin 3 → Nat) a + S1x32x256.size a ≤ S96x32x256.size a
  packedbf16_S96x32x256_S1x32x256_38_0_0 : (Rect.unit (s := S96x32x256) ![38, 0, 0] S1x32x256.size inb_S96x32x256_S1x32x256_38_0_0).PackedRows (EltTy.packing .bf16)
  inb_S96_S1_38 : ∀ a, (![38] : Fin 1 → Nat) a + S1.size a ≤ S96.size a
  wordsbf16_S96x32x256_S1x32x256_38_0_0 : (Rect.unit (s := S96x32x256) ![38, 0, 0] S1x32x256.size inb_S96x32x256_S1x32x256_38_0_0).WholeWords (EltTy.packing .bf16)
  inb_S96x32x256_S1x32x256_40_0_0 : ∀ a, (![40, 0, 0] : Fin 3 → Nat) a + S1x32x256.size a ≤ S96x32x256.size a
  packedbf16_S96x32x256_S1x32x256_40_0_0 : (Rect.unit (s := S96x32x256) ![40, 0, 0] S1x32x256.size inb_S96x32x256_S1x32x256_40_0_0).PackedRows (EltTy.packing .bf16)
  inb_S96_S1_40 : ∀ a, (![40] : Fin 1 → Nat) a + S1.size a ≤ S96.size a
  wordsbf16_S96x32x256_S1x32x256_40_0_0 : (Rect.unit (s := S96x32x256) ![40, 0, 0] S1x32x256.size inb_S96x32x256_S1x32x256_40_0_0).WholeWords (EltTy.packing .bf16)
  inb_S96x32x256_S1x32x256_42_0_0 : ∀ a, (![42, 0, 0] : Fin 3 → Nat) a + S1x32x256.size a ≤ S96x32x256.size a
  packedbf16_S96x32x256_S1x32x256_42_0_0 : (Rect.unit (s := S96x32x256) ![42, 0, 0] S1x32x256.size inb_S96x32x256_S1x32x256_42_0_0).PackedRows (EltTy.packing .bf16)
  inb_S96_S1_42 : ∀ a, (![42] : Fin 1 → Nat) a + S1.size a ≤ S96.size a
  wordsbf16_S96x32x256_S1x32x256_42_0_0 : (Rect.unit (s := S96x32x256) ![42, 0, 0] S1x32x256.size inb_S96x32x256_S1x32x256_42_0_0).WholeWords (EltTy.packing .bf16)
  inb_S96x32x256_S1x32x256_44_0_0 : ∀ a, (![44, 0, 0] : Fin 3 → Nat) a + S1x32x256.size a ≤ S96x32x256.size a
  packedbf16_S96x32x256_S1x32x256_44_0_0 : (Rect.unit (s := S96x32x256) ![44, 0, 0] S1x32x256.size inb_S96x32x256_S1x32x256_44_0_0).PackedRows (EltTy.packing .bf16)
  inb_S96_S1_44 : ∀ a, (![44] : Fin 1 → Nat) a + S1.size a ≤ S96.size a
  wordsbf16_S96x32x256_S1x32x256_44_0_0 : (Rect.unit (s := S96x32x256) ![44, 0, 0] S1x32x256.size inb_S96x32x256_S1x32x256_44_0_0).WholeWords (EltTy.packing .bf16)
  inb_S96x32x256_S1x32x256_46_0_0 : ∀ a, (![46, 0, 0] : Fin 3 → Nat) a + S1x32x256.size a ≤ S96x32x256.size a
  packedbf16_S96x32x256_S1x32x256_46_0_0 : (Rect.unit (s := S96x32x256) ![46, 0, 0] S1x32x256.size inb_S96x32x256_S1x32x256_46_0_0).PackedRows (EltTy.packing .bf16)
  inb_S96_S1_46 : ∀ a, (![46] : Fin 1 → Nat) a + S1.size a ≤ S96.size a
  wordsbf16_S96x32x256_S1x32x256_46_0_0 : (Rect.unit (s := S96x32x256) ![46, 0, 0] S1x32x256.size inb_S96x32x256_S1x32x256_46_0_0).WholeWords (EltTy.packing .bf16)
  inb_S96x32x256_S1x32x256_48_0_0 : ∀ a, (![48, 0, 0] : Fin 3 → Nat) a + S1x32x256.size a ≤ S96x32x256.size a
  packedbf16_S96x32x256_S1x32x256_48_0_0 : (Rect.unit (s := S96x32x256) ![48, 0, 0] S1x32x256.size inb_S96x32x256_S1x32x256_48_0_0).PackedRows (EltTy.packing .bf16)
  inb_S96_S1_48 : ∀ a, (![48] : Fin 1 → Nat) a + S1.size a ≤ S96.size a
  wordsbf16_S96x32x256_S1x32x256_48_0_0 : (Rect.unit (s := S96x32x256) ![48, 0, 0] S1x32x256.size inb_S96x32x256_S1x32x256_48_0_0).WholeWords (EltTy.packing .bf16)
  inb_S96x32x256_S1x32x256_50_0_0 : ∀ a, (![50, 0, 0] : Fin 3 → Nat) a + S1x32x256.size a ≤ S96x32x256.size a
  packedbf16_S96x32x256_S1x32x256_50_0_0 : (Rect.unit (s := S96x32x256) ![50, 0, 0] S1x32x256.size inb_S96x32x256_S1x32x256_50_0_0).PackedRows (EltTy.packing .bf16)
  inb_S96_S1_50 : ∀ a, (![50] : Fin 1 → Nat) a + S1.size a ≤ S96.size a
  wordsbf16_S96x32x256_S1x32x256_50_0_0 : (Rect.unit (s := S96x32x256) ![50, 0, 0] S1x32x256.size inb_S96x32x256_S1x32x256_50_0_0).WholeWords (EltTy.packing .bf16)
  inb_S96x32x256_S1x32x256_52_0_0 : ∀ a, (![52, 0, 0] : Fin 3 → Nat) a + S1x32x256.size a ≤ S96x32x256.size a
  packedbf16_S96x32x256_S1x32x256_52_0_0 : (Rect.unit (s := S96x32x256) ![52, 0, 0] S1x32x256.size inb_S96x32x256_S1x32x256_52_0_0).PackedRows (EltTy.packing .bf16)
  inb_S96_S1_52 : ∀ a, (![52] : Fin 1 → Nat) a + S1.size a ≤ S96.size a
  wordsbf16_S96x32x256_S1x32x256_52_0_0 : (Rect.unit (s := S96x32x256) ![52, 0, 0] S1x32x256.size inb_S96x32x256_S1x32x256_52_0_0).WholeWords (EltTy.packing .bf16)
  inb_S96x32x256_S1x32x256_54_0_0 : ∀ a, (![54, 0, 0] : Fin 3 → Nat) a + S1x32x256.size a ≤ S96x32x256.size a
  packedbf16_S96x32x256_S1x32x256_54_0_0 : (Rect.unit (s := S96x32x256) ![54, 0, 0] S1x32x256.size inb_S96x32x256_S1x32x256_54_0_0).PackedRows (EltTy.packing .bf16)
  inb_S96_S1_54 : ∀ a, (![54] : Fin 1 → Nat) a + S1.size a ≤ S96.size a
  wordsbf16_S96x32x256_S1x32x256_54_0_0 : (Rect.unit (s := S96x32x256) ![54, 0, 0] S1x32x256.size inb_S96x32x256_S1x32x256_54_0_0).WholeWords (EltTy.packing .bf16)
  inb_S96x32x256_S1x32x256_56_0_0 : ∀ a, (![56, 0, 0] : Fin 3 → Nat) a + S1x32x256.size a ≤ S96x32x256.size a
  packedbf16_S96x32x256_S1x32x256_56_0_0 : (Rect.unit (s := S96x32x256) ![56, 0, 0] S1x32x256.size inb_S96x32x256_S1x32x256_56_0_0).PackedRows (EltTy.packing .bf16)
  inb_S96_S1_56 : ∀ a, (![56] : Fin 1 → Nat) a + S1.size a ≤ S96.size a
  wordsbf16_S96x32x256_S1x32x256_56_0_0 : (Rect.unit (s := S96x32x256) ![56, 0, 0] S1x32x256.size inb_S96x32x256_S1x32x256_56_0_0).WholeWords (EltTy.packing .bf16)
  inb_S96x32x256_S1x32x256_58_0_0 : ∀ a, (![58, 0, 0] : Fin 3 → Nat) a + S1x32x256.size a ≤ S96x32x256.size a
  packedbf16_S96x32x256_S1x32x256_58_0_0 : (Rect.unit (s := S96x32x256) ![58, 0, 0] S1x32x256.size inb_S96x32x256_S1x32x256_58_0_0).PackedRows (EltTy.packing .bf16)
  inb_S96_S1_58 : ∀ a, (![58] : Fin 1 → Nat) a + S1.size a ≤ S96.size a
  wordsbf16_S96x32x256_S1x32x256_58_0_0 : (Rect.unit (s := S96x32x256) ![58, 0, 0] S1x32x256.size inb_S96x32x256_S1x32x256_58_0_0).WholeWords (EltTy.packing .bf16)
  inb_S96x32x256_S1x32x256_60_0_0 : ∀ a, (![60, 0, 0] : Fin 3 → Nat) a + S1x32x256.size a ≤ S96x32x256.size a
  packedbf16_S96x32x256_S1x32x256_60_0_0 : (Rect.unit (s := S96x32x256) ![60, 0, 0] S1x32x256.size inb_S96x32x256_S1x32x256_60_0_0).PackedRows (EltTy.packing .bf16)
  inb_S96_S1_60 : ∀ a, (![60] : Fin 1 → Nat) a + S1.size a ≤ S96.size a
  wordsbf16_S96x32x256_S1x32x256_60_0_0 : (Rect.unit (s := S96x32x256) ![60, 0, 0] S1x32x256.size inb_S96x32x256_S1x32x256_60_0_0).WholeWords (EltTy.packing .bf16)
  inb_S96x32x256_S1x32x256_62_0_0 : ∀ a, (![62, 0, 0] : Fin 3 → Nat) a + S1x32x256.size a ≤ S96x32x256.size a
  packedbf16_S96x32x256_S1x32x256_62_0_0 : (Rect.unit (s := S96x32x256) ![62, 0, 0] S1x32x256.size inb_S96x32x256_S1x32x256_62_0_0).PackedRows (EltTy.packing .bf16)
  inb_S96_S1_62 : ∀ a, (![62] : Fin 1 → Nat) a + S1.size a ≤ S96.size a
  wordsbf16_S96x32x256_S1x32x256_62_0_0 : (Rect.unit (s := S96x32x256) ![62, 0, 0] S1x32x256.size inb_S96x32x256_S1x32x256_62_0_0).WholeWords (EltTy.packing .bf16)
  inb_S96x32x256_S1x32x256_33_0_0 : ∀ a, (![33, 0, 0] : Fin 3 → Nat) a + S1x32x256.size a ≤ S96x32x256.size a
  packedbf16_S96x32x256_S1x32x256_33_0_0 : (Rect.unit (s := S96x32x256) ![33, 0, 0] S1x32x256.size inb_S96x32x256_S1x32x256_33_0_0).PackedRows (EltTy.packing .bf16)
  inb_S96_S1_33 : ∀ a, (![33] : Fin 1 → Nat) a + S1.size a ≤ S96.size a
  wordsbf16_S96x32x256_S1x32x256_33_0_0 : (Rect.unit (s := S96x32x256) ![33, 0, 0] S1x32x256.size inb_S96x32x256_S1x32x256_33_0_0).WholeWords (EltTy.packing .bf16)
  inb_S96x32x256_S1x32x256_35_0_0 : ∀ a, (![35, 0, 0] : Fin 3 → Nat) a + S1x32x256.size a ≤ S96x32x256.size a
  packedbf16_S96x32x256_S1x32x256_35_0_0 : (Rect.unit (s := S96x32x256) ![35, 0, 0] S1x32x256.size inb_S96x32x256_S1x32x256_35_0_0).PackedRows (EltTy.packing .bf16)
  inb_S96_S1_35 : ∀ a, (![35] : Fin 1 → Nat) a + S1.size a ≤ S96.size a
  wordsbf16_S96x32x256_S1x32x256_35_0_0 : (Rect.unit (s := S96x32x256) ![35, 0, 0] S1x32x256.size inb_S96x32x256_S1x32x256_35_0_0).WholeWords (EltTy.packing .bf16)
  inb_S96x32x256_S1x32x256_37_0_0 : ∀ a, (![37, 0, 0] : Fin 3 → Nat) a + S1x32x256.size a ≤ S96x32x256.size a
  packedbf16_S96x32x256_S1x32x256_37_0_0 : (Rect.unit (s := S96x32x256) ![37, 0, 0] S1x32x256.size inb_S96x32x256_S1x32x256_37_0_0).PackedRows (EltTy.packing .bf16)
  inb_S96_S1_37 : ∀ a, (![37] : Fin 1 → Nat) a + S1.size a ≤ S96.size a
  wordsbf16_S96x32x256_S1x32x256_37_0_0 : (Rect.unit (s := S96x32x256) ![37, 0, 0] S1x32x256.size inb_S96x32x256_S1x32x256_37_0_0).WholeWords (EltTy.packing .bf16)
  inb_S96x32x256_S1x32x256_39_0_0 : ∀ a, (![39, 0, 0] : Fin 3 → Nat) a + S1x32x256.size a ≤ S96x32x256.size a
  packedbf16_S96x32x256_S1x32x256_39_0_0 : (Rect.unit (s := S96x32x256) ![39, 0, 0] S1x32x256.size inb_S96x32x256_S1x32x256_39_0_0).PackedRows (EltTy.packing .bf16)
  inb_S96_S1_39 : ∀ a, (![39] : Fin 1 → Nat) a + S1.size a ≤ S96.size a
  wordsbf16_S96x32x256_S1x32x256_39_0_0 : (Rect.unit (s := S96x32x256) ![39, 0, 0] S1x32x256.size inb_S96x32x256_S1x32x256_39_0_0).WholeWords (EltTy.packing .bf16)
  inb_S96x32x256_S1x32x256_41_0_0 : ∀ a, (![41, 0, 0] : Fin 3 → Nat) a + S1x32x256.size a ≤ S96x32x256.size a
  packedbf16_S96x32x256_S1x32x256_41_0_0 : (Rect.unit (s := S96x32x256) ![41, 0, 0] S1x32x256.size inb_S96x32x256_S1x32x256_41_0_0).PackedRows (EltTy.packing .bf16)
  inb_S96_S1_41 : ∀ a, (![41] : Fin 1 → Nat) a + S1.size a ≤ S96.size a
  wordsbf16_S96x32x256_S1x32x256_41_0_0 : (Rect.unit (s := S96x32x256) ![41, 0, 0] S1x32x256.size inb_S96x32x256_S1x32x256_41_0_0).WholeWords (EltTy.packing .bf16)
  inb_S96x32x256_S1x32x256_43_0_0 : ∀ a, (![43, 0, 0] : Fin 3 → Nat) a + S1x32x256.size a ≤ S96x32x256.size a
  packedbf16_S96x32x256_S1x32x256_43_0_0 : (Rect.unit (s := S96x32x256) ![43, 0, 0] S1x32x256.size inb_S96x32x256_S1x32x256_43_0_0).PackedRows (EltTy.packing .bf16)
  inb_S96_S1_43 : ∀ a, (![43] : Fin 1 → Nat) a + S1.size a ≤ S96.size a
  wordsbf16_S96x32x256_S1x32x256_43_0_0 : (Rect.unit (s := S96x32x256) ![43, 0, 0] S1x32x256.size inb_S96x32x256_S1x32x256_43_0_0).WholeWords (EltTy.packing .bf16)
  inb_S96x32x256_S1x32x256_45_0_0 : ∀ a, (![45, 0, 0] : Fin 3 → Nat) a + S1x32x256.size a ≤ S96x32x256.size a
  packedbf16_S96x32x256_S1x32x256_45_0_0 : (Rect.unit (s := S96x32x256) ![45, 0, 0] S1x32x256.size inb_S96x32x256_S1x32x256_45_0_0).PackedRows (EltTy.packing .bf16)
  inb_S96_S1_45 : ∀ a, (![45] : Fin 1 → Nat) a + S1.size a ≤ S96.size a
  wordsbf16_S96x32x256_S1x32x256_45_0_0 : (Rect.unit (s := S96x32x256) ![45, 0, 0] S1x32x256.size inb_S96x32x256_S1x32x256_45_0_0).WholeWords (EltTy.packing .bf16)
  inb_S96x32x256_S1x32x256_47_0_0 : ∀ a, (![47, 0, 0] : Fin 3 → Nat) a + S1x32x256.size a ≤ S96x32x256.size a
  packedbf16_S96x32x256_S1x32x256_47_0_0 : (Rect.unit (s := S96x32x256) ![47, 0, 0] S1x32x256.size inb_S96x32x256_S1x32x256_47_0_0).PackedRows (EltTy.packing .bf16)
  inb_S96_S1_47 : ∀ a, (![47] : Fin 1 → Nat) a + S1.size a ≤ S96.size a
  wordsbf16_S96x32x256_S1x32x256_47_0_0 : (Rect.unit (s := S96x32x256) ![47, 0, 0] S1x32x256.size inb_S96x32x256_S1x32x256_47_0_0).WholeWords (EltTy.packing .bf16)
  inb_S96x32x256_S1x32x256_49_0_0 : ∀ a, (![49, 0, 0] : Fin 3 → Nat) a + S1x32x256.size a ≤ S96x32x256.size a
  packedbf16_S96x32x256_S1x32x256_49_0_0 : (Rect.unit (s := S96x32x256) ![49, 0, 0] S1x32x256.size inb_S96x32x256_S1x32x256_49_0_0).PackedRows (EltTy.packing .bf16)
  inb_S96_S1_49 : ∀ a, (![49] : Fin 1 → Nat) a + S1.size a ≤ S96.size a
  wordsbf16_S96x32x256_S1x32x256_49_0_0 : (Rect.unit (s := S96x32x256) ![49, 0, 0] S1x32x256.size inb_S96x32x256_S1x32x256_49_0_0).WholeWords (EltTy.packing .bf16)
  inb_S96x32x256_S1x32x256_51_0_0 : ∀ a, (![51, 0, 0] : Fin 3 → Nat) a + S1x32x256.size a ≤ S96x32x256.size a
  packedbf16_S96x32x256_S1x32x256_51_0_0 : (Rect.unit (s := S96x32x256) ![51, 0, 0] S1x32x256.size inb_S96x32x256_S1x32x256_51_0_0).PackedRows (EltTy.packing .bf16)
  inb_S96_S1_51 : ∀ a, (![51] : Fin 1 → Nat) a + S1.size a ≤ S96.size a
  wordsbf16_S96x32x256_S1x32x256_51_0_0 : (Rect.unit (s := S96x32x256) ![51, 0, 0] S1x32x256.size inb_S96x32x256_S1x32x256_51_0_0).WholeWords (EltTy.packing .bf16)
  inb_S96x32x256_S1x32x256_53_0_0 : ∀ a, (![53, 0, 0] : Fin 3 → Nat) a + S1x32x256.size a ≤ S96x32x256.size a
  packedbf16_S96x32x256_S1x32x256_53_0_0 : (Rect.unit (s := S96x32x256) ![53, 0, 0] S1x32x256.size inb_S96x32x256_S1x32x256_53_0_0).PackedRows (EltTy.packing .bf16)
  inb_S96_S1_53 : ∀ a, (![53] : Fin 1 → Nat) a + S1.size a ≤ S96.size a
  wordsbf16_S96x32x256_S1x32x256_53_0_0 : (Rect.unit (s := S96x32x256) ![53, 0, 0] S1x32x256.size inb_S96x32x256_S1x32x256_53_0_0).WholeWords (EltTy.packing .bf16)
  inb_S96x32x256_S1x32x256_55_0_0 : ∀ a, (![55, 0, 0] : Fin 3 → Nat) a + S1x32x256.size a ≤ S96x32x256.size a
  packedbf16_S96x32x256_S1x32x256_55_0_0 : (Rect.unit (s := S96x32x256) ![55, 0, 0] S1x32x256.size inb_S96x32x256_S1x32x256_55_0_0).PackedRows (EltTy.packing .bf16)
  inb_S96_S1_55 : ∀ a, (![55] : Fin 1 → Nat) a + S1.size a ≤ S96.size a
  wordsbf16_S96x32x256_S1x32x256_55_0_0 : (Rect.unit (s := S96x32x256) ![55, 0, 0] S1x32x256.size inb_S96x32x256_S1x32x256_55_0_0).WholeWords (EltTy.packing .bf16)
  inb_S96x32x256_S1x32x256_57_0_0 : ∀ a, (![57, 0, 0] : Fin 3 → Nat) a + S1x32x256.size a ≤ S96x32x256.size a
  packedbf16_S96x32x256_S1x32x256_57_0_0 : (Rect.unit (s := S96x32x256) ![57, 0, 0] S1x32x256.size inb_S96x32x256_S1x32x256_57_0_0).PackedRows (EltTy.packing .bf16)
  inb_S96_S1_57 : ∀ a, (![57] : Fin 1 → Nat) a + S1.size a ≤ S96.size a
  wordsbf16_S96x32x256_S1x32x256_57_0_0 : (Rect.unit (s := S96x32x256) ![57, 0, 0] S1x32x256.size inb_S96x32x256_S1x32x256_57_0_0).WholeWords (EltTy.packing .bf16)
  inb_S96x32x256_S1x32x256_59_0_0 : ∀ a, (![59, 0, 0] : Fin 3 → Nat) a + S1x32x256.size a ≤ S96x32x256.size a
  packedbf16_S96x32x256_S1x32x256_59_0_0 : (Rect.unit (s := S96x32x256) ![59, 0, 0] S1x32x256.size inb_S96x32x256_S1x32x256_59_0_0).PackedRows (EltTy.packing .bf16)
  inb_S96_S1_59 : ∀ a, (![59] : Fin 1 → Nat) a + S1.size a ≤ S96.size a
  wordsbf16_S96x32x256_S1x32x256_59_0_0 : (Rect.unit (s := S96x32x256) ![59, 0, 0] S1x32x256.size inb_S96x32x256_S1x32x256_59_0_0).WholeWords (EltTy.packing .bf16)
  inb_S96x32x256_S1x32x256_61_0_0 : ∀ a, (![61, 0, 0] : Fin 3 → Nat) a + S1x32x256.size a ≤ S96x32x256.size a
  packedbf16_S96x32x256_S1x32x256_61_0_0 : (Rect.unit (s := S96x32x256) ![61, 0, 0] S1x32x256.size inb_S96x32x256_S1x32x256_61_0_0).PackedRows (EltTy.packing .bf16)
  inb_S96_S1_61 : ∀ a, (![61] : Fin 1 → Nat) a + S1.size a ≤ S96.size a
  wordsbf16_S96x32x256_S1x32x256_61_0_0 : (Rect.unit (s := S96x32x256) ![61, 0, 0] S1x32x256.size inb_S96x32x256_S1x32x256_61_0_0).WholeWords (EltTy.packing .bf16)
  inb_S96x32x256_S1x32x256_63_0_0 : ∀ a, (![63, 0, 0] : Fin 3 → Nat) a + S1x32x256.size a ≤ S96x32x256.size a
  packedbf16_S96x32x256_S1x32x256_63_0_0 : (Rect.unit (s := S96x32x256) ![63, 0, 0] S1x32x256.size inb_S96x32x256_S1x32x256_63_0_0).PackedRows (EltTy.packing .bf16)
  inb_S96_S1_63 : ∀ a, (![63] : Fin 1 → Nat) a + S1.size a ≤ S96.size a
  wordsbf16_S96x32x256_S1x32x256_63_0_0 : (Rect.unit (s := S96x32x256) ![63, 0, 0] S1x32x256.size inb_S96x32x256_S1x32x256_63_0_0).WholeWords (EltTy.packing .bf16)
  inb_S96x32x256_S1x32x256_64_0_0 : ∀ a, (![64, 0, 0] : Fin 3 → Nat) a + S1x32x256.size a ≤ S96x32x256.size a
  packedbf16_S96x32x256_S1x32x256_64_0_0 : (Rect.unit (s := S96x32x256) ![64, 0, 0] S1x32x256.size inb_S96x32x256_S1x32x256_64_0_0).PackedRows (EltTy.packing .bf16)
  inb_S96_S1_64 : ∀ a, (![64] : Fin 1 → Nat) a + S1.size a ≤ S96.size a
  wordsbf16_S96x32x256_S1x32x256_64_0_0 : (Rect.unit (s := S96x32x256) ![64, 0, 0] S1x32x256.size inb_S96x32x256_S1x32x256_64_0_0).WholeWords (EltTy.packing .bf16)
  inb_S96x32x256_S1x32x256_66_0_0 : ∀ a, (![66, 0, 0] : Fin 3 → Nat) a + S1x32x256.size a ≤ S96x32x256.size a
  packedbf16_S96x32x256_S1x32x256_66_0_0 : (Rect.unit (s := S96x32x256) ![66, 0, 0] S1x32x256.size inb_S96x32x256_S1x32x256_66_0_0).PackedRows (EltTy.packing .bf16)
  inb_S96_S1_66 : ∀ a, (![66] : Fin 1 → Nat) a + S1.size a ≤ S96.size a
  wordsbf16_S96x32x256_S1x32x256_66_0_0 : (Rect.unit (s := S96x32x256) ![66, 0, 0] S1x32x256.size inb_S96x32x256_S1x32x256_66_0_0).WholeWords (EltTy.packing .bf16)
  inb_S96x32x256_S1x32x256_68_0_0 : ∀ a, (![68, 0, 0] : Fin 3 → Nat) a + S1x32x256.size a ≤ S96x32x256.size a
  packedbf16_S96x32x256_S1x32x256_68_0_0 : (Rect.unit (s := S96x32x256) ![68, 0, 0] S1x32x256.size inb_S96x32x256_S1x32x256_68_0_0).PackedRows (EltTy.packing .bf16)
  inb_S96_S1_68 : ∀ a, (![68] : Fin 1 → Nat) a + S1.size a ≤ S96.size a
  wordsbf16_S96x32x256_S1x32x256_68_0_0 : (Rect.unit (s := S96x32x256) ![68, 0, 0] S1x32x256.size inb_S96x32x256_S1x32x256_68_0_0).WholeWords (EltTy.packing .bf16)
  inb_S96x32x256_S1x32x256_70_0_0 : ∀ a, (![70, 0, 0] : Fin 3 → Nat) a + S1x32x256.size a ≤ S96x32x256.size a
  packedbf16_S96x32x256_S1x32x256_70_0_0 : (Rect.unit (s := S96x32x256) ![70, 0, 0] S1x32x256.size inb_S96x32x256_S1x32x256_70_0_0).PackedRows (EltTy.packing .bf16)
  inb_S96_S1_70 : ∀ a, (![70] : Fin 1 → Nat) a + S1.size a ≤ S96.size a
  wordsbf16_S96x32x256_S1x32x256_70_0_0 : (Rect.unit (s := S96x32x256) ![70, 0, 0] S1x32x256.size inb_S96x32x256_S1x32x256_70_0_0).WholeWords (EltTy.packing .bf16)
  inb_S96x32x256_S1x32x256_72_0_0 : ∀ a, (![72, 0, 0] : Fin 3 → Nat) a + S1x32x256.size a ≤ S96x32x256.size a
  packedbf16_S96x32x256_S1x32x256_72_0_0 : (Rect.unit (s := S96x32x256) ![72, 0, 0] S1x32x256.size inb_S96x32x256_S1x32x256_72_0_0).PackedRows (EltTy.packing .bf16)
  inb_S96_S1_72 : ∀ a, (![72] : Fin 1 → Nat) a + S1.size a ≤ S96.size a
  wordsbf16_S96x32x256_S1x32x256_72_0_0 : (Rect.unit (s := S96x32x256) ![72, 0, 0] S1x32x256.size inb_S96x32x256_S1x32x256_72_0_0).WholeWords (EltTy.packing .bf16)
  inb_S96x32x256_S1x32x256_74_0_0 : ∀ a, (![74, 0, 0] : Fin 3 → Nat) a + S1x32x256.size a ≤ S96x32x256.size a
  packedbf16_S96x32x256_S1x32x256_74_0_0 : (Rect.unit (s := S96x32x256) ![74, 0, 0] S1x32x256.size inb_S96x32x256_S1x32x256_74_0_0).PackedRows (EltTy.packing .bf16)
  inb_S96_S1_74 : ∀ a, (![74] : Fin 1 → Nat) a + S1.size a ≤ S96.size a
  wordsbf16_S96x32x256_S1x32x256_74_0_0 : (Rect.unit (s := S96x32x256) ![74, 0, 0] S1x32x256.size inb_S96x32x256_S1x32x256_74_0_0).WholeWords (EltTy.packing .bf16)
  inb_S96x32x256_S1x32x256_76_0_0 : ∀ a, (![76, 0, 0] : Fin 3 → Nat) a + S1x32x256.size a ≤ S96x32x256.size a
  packedbf16_S96x32x256_S1x32x256_76_0_0 : (Rect.unit (s := S96x32x256) ![76, 0, 0] S1x32x256.size inb_S96x32x256_S1x32x256_76_0_0).PackedRows (EltTy.packing .bf16)
  inb_S96_S1_76 : ∀ a, (![76] : Fin 1 → Nat) a + S1.size a ≤ S96.size a
  wordsbf16_S96x32x256_S1x32x256_76_0_0 : (Rect.unit (s := S96x32x256) ![76, 0, 0] S1x32x256.size inb_S96x32x256_S1x32x256_76_0_0).WholeWords (EltTy.packing .bf16)
  inb_S96x32x256_S1x32x256_78_0_0 : ∀ a, (![78, 0, 0] : Fin 3 → Nat) a + S1x32x256.size a ≤ S96x32x256.size a
  packedbf16_S96x32x256_S1x32x256_78_0_0 : (Rect.unit (s := S96x32x256) ![78, 0, 0] S1x32x256.size inb_S96x32x256_S1x32x256_78_0_0).PackedRows (EltTy.packing .bf16)
  inb_S96_S1_78 : ∀ a, (![78] : Fin 1 → Nat) a + S1.size a ≤ S96.size a
  wordsbf16_S96x32x256_S1x32x256_78_0_0 : (Rect.unit (s := S96x32x256) ![78, 0, 0] S1x32x256.size inb_S96x32x256_S1x32x256_78_0_0).WholeWords (EltTy.packing .bf16)
  inb_S96x32x256_S1x32x256_80_0_0 : ∀ a, (![80, 0, 0] : Fin 3 → Nat) a + S1x32x256.size a ≤ S96x32x256.size a
  packedbf16_S96x32x256_S1x32x256_80_0_0 : (Rect.unit (s := S96x32x256) ![80, 0, 0] S1x32x256.size inb_S96x32x256_S1x32x256_80_0_0).PackedRows (EltTy.packing .bf16)
  inb_S96_S1_80 : ∀ a, (![80] : Fin 1 → Nat) a + S1.size a ≤ S96.size a
  wordsbf16_S96x32x256_S1x32x256_80_0_0 : (Rect.unit (s := S96x32x256) ![80, 0, 0] S1x32x256.size inb_S96x32x256_S1x32x256_80_0_0).WholeWords (EltTy.packing .bf16)
  inb_S96x32x256_S1x32x256_82_0_0 : ∀ a, (![82, 0, 0] : Fin 3 → Nat) a + S1x32x256.size a ≤ S96x32x256.size a
  packedbf16_S96x32x256_S1x32x256_82_0_0 : (Rect.unit (s := S96x32x256) ![82, 0, 0] S1x32x256.size inb_S96x32x256_S1x32x256_82_0_0).PackedRows (EltTy.packing .bf16)
  inb_S96_S1_82 : ∀ a, (![82] : Fin 1 → Nat) a + S1.size a ≤ S96.size a
  wordsbf16_S96x32x256_S1x32x256_82_0_0 : (Rect.unit (s := S96x32x256) ![82, 0, 0] S1x32x256.size inb_S96x32x256_S1x32x256_82_0_0).WholeWords (EltTy.packing .bf16)
  inb_S96x32x256_S1x32x256_84_0_0 : ∀ a, (![84, 0, 0] : Fin 3 → Nat) a + S1x32x256.size a ≤ S96x32x256.size a
  packedbf16_S96x32x256_S1x32x256_84_0_0 : (Rect.unit (s := S96x32x256) ![84, 0, 0] S1x32x256.size inb_S96x32x256_S1x32x256_84_0_0).PackedRows (EltTy.packing .bf16)
  inb_S96_S1_84 : ∀ a, (![84] : Fin 1 → Nat) a + S1.size a ≤ S96.size a
  wordsbf16_S96x32x256_S1x32x256_84_0_0 : (Rect.unit (s := S96x32x256) ![84, 0, 0] S1x32x256.size inb_S96x32x256_S1x32x256_84_0_0).WholeWords (EltTy.packing .bf16)
  inb_S96x32x256_S1x32x256_86_0_0 : ∀ a, (![86, 0, 0] : Fin 3 → Nat) a + S1x32x256.size a ≤ S96x32x256.size a
  packedbf16_S96x32x256_S1x32x256_86_0_0 : (Rect.unit (s := S96x32x256) ![86, 0, 0] S1x32x256.size inb_S96x32x256_S1x32x256_86_0_0).PackedRows (EltTy.packing .bf16)
  inb_S96_S1_86 : ∀ a, (![86] : Fin 1 → Nat) a + S1.size a ≤ S96.size a
  wordsbf16_S96x32x256_S1x32x256_86_0_0 : (Rect.unit (s := S96x32x256) ![86, 0, 0] S1x32x256.size inb_S96x32x256_S1x32x256_86_0_0).WholeWords (EltTy.packing .bf16)
  inb_S96x32x256_S1x32x256_88_0_0 : ∀ a, (![88, 0, 0] : Fin 3 → Nat) a + S1x32x256.size a ≤ S96x32x256.size a
  packedbf16_S96x32x256_S1x32x256_88_0_0 : (Rect.unit (s := S96x32x256) ![88, 0, 0] S1x32x256.size inb_S96x32x256_S1x32x256_88_0_0).PackedRows (EltTy.packing .bf16)
  inb_S96_S1_88 : ∀ a, (![88] : Fin 1 → Nat) a + S1.size a ≤ S96.size a
  wordsbf16_S96x32x256_S1x32x256_88_0_0 : (Rect.unit (s := S96x32x256) ![88, 0, 0] S1x32x256.size inb_S96x32x256_S1x32x256_88_0_0).WholeWords (EltTy.packing .bf16)
  inb_S96x32x256_S1x32x256_90_0_0 : ∀ a, (![90, 0, 0] : Fin 3 → Nat) a + S1x32x256.size a ≤ S96x32x256.size a
  packedbf16_S96x32x256_S1x32x256_90_0_0 : (Rect.unit (s := S96x32x256) ![90, 0, 0] S1x32x256.size inb_S96x32x256_S1x32x256_90_0_0).PackedRows (EltTy.packing .bf16)
  inb_S96_S1_90 : ∀ a, (![90] : Fin 1 → Nat) a + S1.size a ≤ S96.size a
  wordsbf16_S96x32x256_S1x32x256_90_0_0 : (Rect.unit (s := S96x32x256) ![90, 0, 0] S1x32x256.size inb_S96x32x256_S1x32x256_90_0_0).WholeWords (EltTy.packing .bf16)
  inb_S96x32x256_S1x32x256_92_0_0 : ∀ a, (![92, 0, 0] : Fin 3 → Nat) a + S1x32x256.size a ≤ S96x32x256.size a
  packedbf16_S96x32x256_S1x32x256_92_0_0 : (Rect.unit (s := S96x32x256) ![92, 0, 0] S1x32x256.size inb_S96x32x256_S1x32x256_92_0_0).PackedRows (EltTy.packing .bf16)
  inb_S96_S1_92 : ∀ a, (![92] : Fin 1 → Nat) a + S1.size a ≤ S96.size a
  wordsbf16_S96x32x256_S1x32x256_92_0_0 : (Rect.unit (s := S96x32x256) ![92, 0, 0] S1x32x256.size inb_S96x32x256_S1x32x256_92_0_0).WholeWords (EltTy.packing .bf16)
  inb_S96x32x256_S1x32x256_94_0_0 : ∀ a, (![94, 0, 0] : Fin 3 → Nat) a + S1x32x256.size a ≤ S96x32x256.size a
  packedbf16_S96x32x256_S1x32x256_94_0_0 : (Rect.unit (s := S96x32x256) ![94, 0, 0] S1x32x256.size inb_S96x32x256_S1x32x256_94_0_0).PackedRows (EltTy.packing .bf16)
  inb_S96_S1_94 : ∀ a, (![94] : Fin 1 → Nat) a + S1.size a ≤ S96.size a
  wordsbf16_S96x32x256_S1x32x256_94_0_0 : (Rect.unit (s := S96x32x256) ![94, 0, 0] S1x32x256.size inb_S96x32x256_S1x32x256_94_0_0).WholeWords (EltTy.packing .bf16)
  inb_S96x32x256_S1x32x256_65_0_0 : ∀ a, (![65, 0, 0] : Fin 3 → Nat) a + S1x32x256.size a ≤ S96x32x256.size a
  packedbf16_S96x32x256_S1x32x256_65_0_0 : (Rect.unit (s := S96x32x256) ![65, 0, 0] S1x32x256.size inb_S96x32x256_S1x32x256_65_0_0).PackedRows (EltTy.packing .bf16)
  inb_S96_S1_65 : ∀ a, (![65] : Fin 1 → Nat) a + S1.size a ≤ S96.size a
  wordsbf16_S96x32x256_S1x32x256_65_0_0 : (Rect.unit (s := S96x32x256) ![65, 0, 0] S1x32x256.size inb_S96x32x256_S1x32x256_65_0_0).WholeWords (EltTy.packing .bf16)
  inb_S96x32x256_S1x32x256_67_0_0 : ∀ a, (![67, 0, 0] : Fin 3 → Nat) a + S1x32x256.size a ≤ S96x32x256.size a
  packedbf16_S96x32x256_S1x32x256_67_0_0 : (Rect.unit (s := S96x32x256) ![67, 0, 0] S1x32x256.size inb_S96x32x256_S1x32x256_67_0_0).PackedRows (EltTy.packing .bf16)
  inb_S96_S1_67 : ∀ a, (![67] : Fin 1 → Nat) a + S1.size a ≤ S96.size a
  wordsbf16_S96x32x256_S1x32x256_67_0_0 : (Rect.unit (s := S96x32x256) ![67, 0, 0] S1x32x256.size inb_S96x32x256_S1x32x256_67_0_0).WholeWords (EltTy.packing .bf16)
  inb_S96x32x256_S1x32x256_69_0_0 : ∀ a, (![69, 0, 0] : Fin 3 → Nat) a + S1x32x256.size a ≤ S96x32x256.size a
  packedbf16_S96x32x256_S1x32x256_69_0_0 : (Rect.unit (s := S96x32x256) ![69, 0, 0] S1x32x256.size inb_S96x32x256_S1x32x256_69_0_0).PackedRows (EltTy.packing .bf16)
  inb_S96_S1_69 : ∀ a, (![69] : Fin 1 → Nat) a + S1.size a ≤ S96.size a
  wordsbf16_S96x32x256_S1x32x256_69_0_0 : (Rect.unit (s := S96x32x256) ![69, 0, 0] S1x32x256.size inb_S96x32x256_S1x32x256_69_0_0).WholeWords (EltTy.packing .bf16)
  inb_S96x32x256_S1x32x256_71_0_0 : ∀ a, (![71, 0, 0] : Fin 3 → Nat) a + S1x32x256.size a ≤ S96x32x256.size a
  packedbf16_S96x32x256_S1x32x256_71_0_0 : (Rect.unit (s := S96x32x256) ![71, 0, 0] S1x32x256.size inb_S96x32x256_S1x32x256_71_0_0).PackedRows (EltTy.packing .bf16)
  inb_S96_S1_71 : ∀ a, (![71] : Fin 1 → Nat) a + S1.size a ≤ S96.size a
  wordsbf16_S96x32x256_S1x32x256_71_0_0 : (Rect.unit (s := S96x32x256) ![71, 0, 0] S1x32x256.size inb_S96x32x256_S1x32x256_71_0_0).WholeWords (EltTy.packing .bf16)
  inb_S96x32x256_S1x32x256_73_0_0 : ∀ a, (![73, 0, 0] : Fin 3 → Nat) a + S1x32x256.size a ≤ S96x32x256.size a
  packedbf16_S96x32x256_S1x32x256_73_0_0 : (Rect.unit (s := S96x32x256) ![73, 0, 0] S1x32x256.size inb_S96x32x256_S1x32x256_73_0_0).PackedRows (EltTy.packing .bf16)
  inb_S96_S1_73 : ∀ a, (![73] : Fin 1 → Nat) a + S1.size a ≤ S96.size a
  wordsbf16_S96x32x256_S1x32x256_73_0_0 : (Rect.unit (s := S96x32x256) ![73, 0, 0] S1x32x256.size inb_S96x32x256_S1x32x256_73_0_0).WholeWords (EltTy.packing .bf16)
  inb_S96x32x256_S1x32x256_75_0_0 : ∀ a, (![75, 0, 0] : Fin 3 → Nat) a + S1x32x256.size a ≤ S96x32x256.size a
  packedbf16_S96x32x256_S1x32x256_75_0_0 : (Rect.unit (s := S96x32x256) ![75, 0, 0] S1x32x256.size inb_S96x32x256_S1x32x256_75_0_0).PackedRows (EltTy.packing .bf16)
  inb_S96_S1_75 : ∀ a, (![75] : Fin 1 → Nat) a + S1.size a ≤ S96.size a
  wordsbf16_S96x32x256_S1x32x256_75_0_0 : (Rect.unit (s := S96x32x256) ![75, 0, 0] S1x32x256.size inb_S96x32x256_S1x32x256_75_0_0).WholeWords (EltTy.packing .bf16)
  inb_S96x32x256_S1x32x256_77_0_0 : ∀ a, (![77, 0, 0] : Fin 3 → Nat) a + S1x32x256.size a ≤ S96x32x256.size a
  packedbf16_S96x32x256_S1x32x256_77_0_0 : (Rect.unit (s := S96x32x256) ![77, 0, 0] S1x32x256.size inb_S96x32x256_S1x32x256_77_0_0).PackedRows (EltTy.packing .bf16)
  inb_S96_S1_77 : ∀ a, (![77] : Fin 1 → Nat) a + S1.size a ≤ S96.size a
  wordsbf16_S96x32x256_S1x32x256_77_0_0 : (Rect.unit (s := S96x32x256) ![77, 0, 0] S1x32x256.size inb_S96x32x256_S1x32x256_77_0_0).WholeWords (EltTy.packing .bf16)
  inb_S96x32x256_S1x32x256_79_0_0 : ∀ a, (![79, 0, 0] : Fin 3 → Nat) a + S1x32x256.size a ≤ S96x32x256.size a
  packedbf16_S96x32x256_S1x32x256_79_0_0 : (Rect.unit (s := S96x32x256) ![79, 0, 0] S1x32x256.size inb_S96x32x256_S1x32x256_79_0_0).PackedRows (EltTy.packing .bf16)
  inb_S96_S1_79 : ∀ a, (![79] : Fin 1 → Nat) a + S1.size a ≤ S96.size a
  wordsbf16_S96x32x256_S1x32x256_79_0_0 : (Rect.unit (s := S96x32x256) ![79, 0, 0] S1x32x256.size inb_S96x32x256_S1x32x256_79_0_0).WholeWords (EltTy.packing .bf16)
  inb_S96x32x256_S1x32x256_81_0_0 : ∀ a, (![81, 0, 0] : Fin 3 → Nat) a + S1x32x256.size a ≤ S96x32x256.size a
  packedbf16_S96x32x256_S1x32x256_81_0_0 : (Rect.unit (s := S96x32x256) ![81, 0, 0] S1x32x256.size inb_S96x32x256_S1x32x256_81_0_0).PackedRows (EltTy.packing .bf16)
  inb_S96_S1_81 : ∀ a, (![81] : Fin 1 → Nat) a + S1.size a ≤ S96.size a
  wordsbf16_S96x32x256_S1x32x256_81_0_0 : (Rect.unit (s := S96x32x256) ![81, 0, 0] S1x32x256.size inb_S96x32x256_S1x32x256_81_0_0).WholeWords (EltTy.packing .bf16)
  inb_S96x32x256_S1x32x256_83_0_0 : ∀ a, (![83, 0, 0] : Fin 3 → Nat) a + S1x32x256.size a ≤ S96x32x256.size a
  packedbf16_S96x32x256_S1x32x256_83_0_0 : (Rect.unit (s := S96x32x256) ![83, 0, 0] S1x32x256.size inb_S96x32x256_S1x32x256_83_0_0).PackedRows (EltTy.packing .bf16)
  inb_S96_S1_83 : ∀ a, (![83] : Fin 1 → Nat) a + S1.size a ≤ S96.size a
  wordsbf16_S96x32x256_S1x32x256_83_0_0 : (Rect.unit (s := S96x32x256) ![83, 0, 0] S1x32x256.size inb_S96x32x256_S1x32x256_83_0_0).WholeWords (EltTy.packing .bf16)
  inb_S96x32x256_S1x32x256_85_0_0 : ∀ a, (![85, 0, 0] : Fin 3 → Nat) a + S1x32x256.size a ≤ S96x32x256.size a
  packedbf16_S96x32x256_S1x32x256_85_0_0 : (Rect.unit (s := S96x32x256) ![85, 0, 0] S1x32x256.size inb_S96x32x256_S1x32x256_85_0_0).PackedRows (EltTy.packing .bf16)
  inb_S96_S1_85 : ∀ a, (![85] : Fin 1 → Nat) a + S1.size a ≤ S96.size a
  wordsbf16_S96x32x256_S1x32x256_85_0_0 : (Rect.unit (s := S96x32x256) ![85, 0, 0] S1x32x256.size inb_S96x32x256_S1x32x256_85_0_0).WholeWords (EltTy.packing .bf16)
  inb_S96x32x256_S1x32x256_87_0_0 : ∀ a, (![87, 0, 0] : Fin 3 → Nat) a + S1x32x256.size a ≤ S96x32x256.size a
  packedbf16_S96x32x256_S1x32x256_87_0_0 : (Rect.unit (s := S96x32x256) ![87, 0, 0] S1x32x256.size inb_S96x32x256_S1x32x256_87_0_0).PackedRows (EltTy.packing .bf16)
  inb_S96_S1_87 : ∀ a, (![87] : Fin 1 → Nat) a + S1.size a ≤ S96.size a
  wordsbf16_S96x32x256_S1x32x256_87_0_0 : (Rect.unit (s := S96x32x256) ![87, 0, 0] S1x32x256.size inb_S96x32x256_S1x32x256_87_0_0).WholeWords (EltTy.packing .bf16)
  inb_S96x32x256_S1x32x256_89_0_0 : ∀ a, (![89, 0, 0] : Fin 3 → Nat) a + S1x32x256.size a ≤ S96x32x256.size a
  packedbf16_S96x32x256_S1x32x256_89_0_0 : (Rect.unit (s := S96x32x256) ![89, 0, 0] S1x32x256.size inb_S96x32x256_S1x32x256_89_0_0).PackedRows (EltTy.packing .bf16)
  inb_S96_S1_89 : ∀ a, (![89] : Fin 1 → Nat) a + S1.size a ≤ S96.size a
  wordsbf16_S96x32x256_S1x32x256_89_0_0 : (Rect.unit (s := S96x32x256) ![89, 0, 0] S1x32x256.size inb_S96x32x256_S1x32x256_89_0_0).WholeWords (EltTy.packing .bf16)
  inb_S96x32x256_S1x32x256_91_0_0 : ∀ a, (![91, 0, 0] : Fin 3 → Nat) a + S1x32x256.size a ≤ S96x32x256.size a
  packedbf16_S96x32x256_S1x32x256_91_0_0 : (Rect.unit (s := S96x32x256) ![91, 0, 0] S1x32x256.size inb_S96x32x256_S1x32x256_91_0_0).PackedRows (EltTy.packing .bf16)
  inb_S96_S1_91 : ∀ a, (![91] : Fin 1 → Nat) a + S1.size a ≤ S96.size a
  wordsbf16_S96x32x256_S1x32x256_91_0_0 : (Rect.unit (s := S96x32x256) ![91, 0, 0] S1x32x256.size inb_S96x32x256_S1x32x256_91_0_0).WholeWords (EltTy.packing .bf16)
  inb_S96x32x256_S1x32x256_93_0_0 : ∀ a, (![93, 0, 0] : Fin 3 → Nat) a + S1x32x256.size a ≤ S96x32x256.size a
  packedbf16_S96x32x256_S1x32x256_93_0_0 : (Rect.unit (s := S96x32x256) ![93, 0, 0] S1x32x256.size inb_S96x32x256_S1x32x256_93_0_0).PackedRows (EltTy.packing .bf16)
  inb_S96_S1_93 : ∀ a, (![93] : Fin 1 → Nat) a + S1.size a ≤ S96.size a
  wordsbf16_S96x32x256_S1x32x256_93_0_0 : (Rect.unit (s := S96x32x256) ![93, 0, 0] S1x32x256.size inb_S96x32x256_S1x32x256_93_0_0).WholeWords (EltTy.packing .bf16)
  inb_S96x32x256_S1x32x256_95_0_0 : ∀ a, (![95, 0, 0] : Fin 3 → Nat) a + S1x32x256.size a ≤ S96x32x256.size a
  packedbf16_S96x32x256_S1x32x256_95_0_0 : (Rect.unit (s := S96x32x256) ![95, 0, 0] S1x32x256.size inb_S96x32x256_S1x32x256_95_0_0).PackedRows (EltTy.packing .bf16)
  inb_S96_S1_95 : ∀ a, (![95] : Fin 1 → Nat) a + S1.size a ≤ S96.size a
  wordsbf16_S96x32x256_S1x32x256_95_0_0 : (Rect.unit (s := S96x32x256) ![95, 0, 0] S1x32x256.size inb_S96x32x256_S1x32x256_95_0_0).WholeWords (EltTy.packing .bf16)
  inb_S512x256_S32x256_0_0 : ∀ a, (![0, 0] : Fin 2 → Nat) a + S32x256.size a ≤ S512x256.size a
  h_S32x256 : 0 < S32x256.numel
  inb_S512x256_S32x256_32_0 : ∀ a, (![32, 0] : Fin 2 → Nat) a + S32x256.size a ≤ S512x256.size a
  inb_S512x256_S32x256_64_0 : ∀ a, (![64, 0] : Fin 2 → Nat) a + S32x256.size a ≤ S512x256.size a
  inb_S512x256_S32x256_96_0 : ∀ a, (![96, 0] : Fin 2 → Nat) a + S32x256.size a ≤ S512x256.size a
  inb_S512x256_S32x256_128_0 : ∀ a, (![128, 0] : Fin 2 → Nat) a + S32x256.size a ≤ S512x256.size a
  inb_S512x256_S32x256_160_0 : ∀ a, (![160, 0] : Fin 2 → Nat) a + S32x256.size a ≤ S512x256.size a
  inb_S512x256_S32x256_192_0 : ∀ a, (![192, 0] : Fin 2 → Nat) a + S32x256.size a ≤ S512x256.size a
  inb_S512x256_S32x256_224_0 : ∀ a, (![224, 0] : Fin 2 → Nat) a + S32x256.size a ≤ S512x256.size a
  inb_S512x256_S32x256_256_0 : ∀ a, (![256, 0] : Fin 2 → Nat) a + S32x256.size a ≤ S512x256.size a
  inb_S512x256_S32x256_288_0 : ∀ a, (![288, 0] : Fin 2 → Nat) a + S32x256.size a ≤ S512x256.size a
  inb_S512x256_S32x256_320_0 : ∀ a, (![320, 0] : Fin 2 → Nat) a + S32x256.size a ≤ S512x256.size a
  inb_S512x256_S32x256_352_0 : ∀ a, (![352, 0] : Fin 2 → Nat) a + S32x256.size a ≤ S512x256.size a
  inb_S512x256_S32x256_384_0 : ∀ a, (![384, 0] : Fin 2 → Nat) a + S32x256.size a ≤ S512x256.size a
  inb_S512x256_S32x256_416_0 : ∀ a, (![416, 0] : Fin 2 → Nat) a + S32x256.size a ≤ S512x256.size a
  inb_S512x256_S32x256_448_0 : ∀ a, (![448, 0] : Fin 2 → Nat) a + S32x256.size a ≤ S512x256.size a
  inb_S512x256_S32x256_480_0 : ∀ a, (![480, 0] : Fin 2 → Nat) a + S32x256.size a ≤ S512x256.size a
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  hcc0_scratch2 : 8 + S96.numel ≤ 200
  hcc0_scratch3 : 104 + S96.numel ≤ 200
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch2 : DmaSems sig S96 := SemArray.consecutive 8 S96 hcc0_scratch2
abbrev cc0_scratch3 : DmaSems sig S96 := SemArray.consecutive 104 S96 hcc0_scratch3
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x256 : Shape := ⟨2, ![512, 256]⟩
abbrev S256x2048 : Shape := ⟨2, ![256, 2048]⟩
abbrev S2048x256 : Shape := ⟨2, ![2048, 256]⟩
abbrev S512x2048 : Shape := ⟨2, ![512, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S2048x256, .f32⟩
  | .hbm, ⟨5, _⟩ => ⟨S256x2048, .f32⟩
  | .hbm, ⟨6, _⟩ => ⟨S2048x256, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x256, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x256, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S512x2048 : S_.BroadcastsInDim S512x2048 (![] : Fin 0 → Fin S512x2048.rank)
  dot_S512x256_S256x2048_S512x2048_1_0_0_1_n_n_wf : DotDims.WF S512x256 S256x2048 S512x2048 [1] [0] [0] [1] [] []
  dot_S512x2048_S2048x256_S512x256_1_0_0_1_n_n_wf : DotDims.WF S512x2048 S2048x256 S512x256 [1] [0] [0] [1] [] []

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

class Facts : Prop extends Facts₀ where

variable [Facts]
-- ==== Proof.Spec.lean ====
/-
  The function both programs compute, over the whole arrays and the extended reals: three dense layers, each
  `X ↦ relu (X · Win) · Wout`, i.e. entry (r, d) of a layer is `∑ k, max (∑ j, X r j * Win j k) 0 * Wout k d`
  with the hidden axis `k` of extent 2048 and the model axis `j`, `d` of extent 256.
-/
import Idealize.ShloMosaic.PureOps.Ideal
import Idealize.ShloMosaic.Lib.ValueIdx
import Idealize.ShloMosaic.Lib.Layout

noncomputable section

namespace Cert.Spec

open Idealize.ShloMosaic Idealize.ShloMosaic.ValueIdx

abbrev SX : Shape := ⟨2, ![512, 256]⟩
abbrev SWin : Shape := ⟨2, ![256, 2048]⟩
abbrev SWout : Shape := ⟨2, ![2048, 256]⟩

/-- One layer at an index: the row of `X` against every hidden column, clamped below at zero, against the column of `Wout`. -/
def layer (X : SX.Idx → EReal) (Win : SWin.Idx → EReal) (Wout : SWout.Idx → EReal) : SX.Idx → EReal :=
  fun i => ∑ k : Fin 2048, max (∑ j : Fin 256, X (ix2 (n0 := 512) (n1 := 256) (i 0) j) * Win (ix2 (n0 := 256) (n1 := 2048) j k)) 0
    * Wout (ix2 (n0 := 2048) (n1 := 256) k (i 1))

/-- The three layers composed. -/
def mlp3 (X : SX.Idx → EReal) (W0 : SWin.Idx → EReal) (U0 : SWout.Idx → EReal) (W1 : SWin.Idx → EReal) (U1 : SWout.Idx → EReal)
    (W2 : SWin.Idx → EReal) (U2 : SWout.Idx → EReal) : SX.Idx → EReal :=
  layer (layer (layer X W0 U0) W1 U1) W2 U2

/-- Rows `128 g … 128 g + 127` of a whole array of 512 rows. -/
def rows128 {α : Type} (g : Fin 4) (X : SX.Idx → α) : (⟨2, ![128, 256]⟩ : Shape).Idx → α :=
  fun i => X (ix2 (n0 := 512) (n1 := 256) ⟨128 * g.val + (i 0).val, by have := (i 0).isLt; have := g.isLt; simp only [Matrix.cons_val_zero] at *; omega⟩ (i 1))

/-- Rows `32 ch … 32 ch + 31` of a whole array of 512 rows. -/
def rows32 {α : Type} (ch : Fin 16) (X : SX.Idx → α) : (⟨2, ![32, 256]⟩ : Shape).Idx → α :=
  fun i => X (ix2 (n0 := 512) (n1 := 256) ⟨32 * ch.val + (i 0).val, by have := (i 0).isLt; have := ch.isLt; simp only [Matrix.cons_val_zero] at *; omega⟩ (i 1))

end Cert.Spec

end
-- ==== Proof.RefSide.lean ====
/-
  The reference program's side: its run leaves the three-layer function `Spec.mlp3` of its argument arrays in its result
  and its arguments unchanged.
-/
import proofs.«900999_g7700000000001000_dist_mlpseq_tp1d_rep_rep_b512_d256_h512_v7x_i4_f32_1_alg».proof.Defs
import proofs.«900999_g7700000000001000_dist_mlpseq_tp1d_rep_rep_b512_d256_h512_v7x_i4_f32_1_alg».proof.Proof.Gen.ReferenceIdeal
import proofs.«900999_g7700000000001000_dist_mlpseq_tp1d_rep_rep_b512_d256_h512_v7x_i4_f32_1_alg».proof.Proof.Gen.ReferenceIdeal.Run
import proofs.«900999_g7700000000001000_dist_mlpseq_tp1d_rep_rep_b512_d256_h512_v7x_i4_f32_1_alg».proof.Proof.Gen.ReferenceIdeal.Read
import proofs.«900999_g7700000000001000_dist_mlpseq_tp1d_rep_rep_b512_d256_h512_v7x_i4_f32_1_alg».proof.Proof.Spec
import Idealize.ShloMosaic.Lib.ValueIdx
import Idealize.ShloMosaic.PureOps.Ideal.Laws
import Idealize.ShloMosaic.Lib.StableHlo.Run

noncomputable section

namespace Cert.ReferenceIdeal.RefSide

open Idealize.ShloMosaic Idealize.ShloMosaic.TcCoe Idealize.SL.Sem Idealize.ShloMosaic.ValueIdx
open Cert.ReferenceIdeal Cert.ReferenceIdeal.Gen

/-! ## One layer of the reference is `Spec.layer` -/

/-- The hidden array's index the result entry (row `r`, column `d`) reads at hidden position `k`: row `r`, column `k`. -/
theorem lidx_out (r : Fin 512) (d : Fin 256) (k : Fin 2048) :
    Read.lidx_main_v3 (ix2 (n0 := 512) (n1 := 256) r d) k = ix2 (n0 := 512) (n1 := 2048) r k :=
  funext fun a => Fin.ext (by match a with | ⟨0, _⟩ => rfl | ⟨1, _⟩ => rfl)

/-- The second weight's index the result entry (row `r`, column `d`) reads at hidden position `k`: row `k`, column `d`. -/
theorem ridx_out (r : Fin 512) (d : Fin 256) (k : Fin 2048) :
    Read.ridx_main_v3 (ix2 (n0 := 512) (n1 := 256) r d) k = ix2 (n0 := 2048) (n1 := 256) k d :=
  funext fun a => Fin.ext (by match a with | ⟨0, _⟩ => rfl | ⟨1, _⟩ => rfl)

/-- The input's index the hidden entry (row `r`, column `k`) reads at model position `j`: row `r`, column `j`. -/
theorem lidx_hid (r : Fin 512) (k : Fin 2048) (j : Fin 256) :
    Read.lidx_main_v0 (ix2 (n0 := 512) (n1 := 2048) r k) j = ix2 (n0 := 512) (n1 := 256) r j :=
  funext fun a => Fin.ext (by match a with | ⟨0, _⟩ => rfl | ⟨1, _⟩ => rfl)

/-- The first weight's index the hidden entry (row `r`, column `k`) reads at model position `j`: row `j`, column `k`. -/
theorem ridx_hid (r : Fin 512) (k : Fin 2048) (j : Fin 256) :
    Read.ridx_main_v0 (ix2 (n0 := 512) (n1 := 2048) r k) j = ix2 (n0 := 256) (n1 := 2048) j k :=
  funext fun a => Fin.ext (by match a with | ⟨0, _⟩ => rfl | ⟨1, _⟩ => rfl)

/-- One layer: the product with the first weight, the maximum with the broadcast zero, the product with the second
    weight, is `Spec.layer` entry by entry: both contractions are plain sums over their one contracted axis, the
    broadcast of the zero word is the constant `0`, and the maximum is `max`. -/
theorem layer_eq (X : Vec Ideal S512x256 .f32) (Win : Vec Ideal S256x2048 .f32) (Wout : Vec Ideal S2048x256 .f32) :
    Host.dotGeneral (F := Ideal) (φ₁ := .f32) (φ₂ := .f32) dot_S512x2048_S2048x256_S512x256_1_0_0_1_n_n none
        (maximumf (Host.dotGeneral (F := Ideal) (φ₁ := .f32) (φ₂ := .f32) dot_S512x256_S256x2048_S512x2048_1_0_0_1_n_n none X Win)
          (broadcastInDim S512x2048 ![] bcast_S_S512x2048 (constant (F := Ideal) S_ .f32 0x00000000#32))) Wout
      = Cert.Spec.layer X Win Wout := by
  show Read.val_main_v3 (F := Ideal) X Win Wout = _
  funext i
  obtain ⟨r, d, rfl⟩ : ∃ (r : Fin 512) (d : Fin 256), i = ix2 r d := ⟨i 0, i 1, eq_ix2 i⟩
  rw [Read.val_main_v3_apply]
  unfold Cert.Spec.layer
  refine Finset.sum_congr rfl fun k _ => ?_
  rw [lidx_out, ridx_out, Read.val_main_v2_apply, Read.val_main_v0_apply, Read.val_main_v1_apply, Read.val_main_cst_apply]
  simp only [lidx_hid, ridx_hid, Ideal.maximumf_def, Ideal.ofBits_def, Ideal.ofBits_zero_f32]

/-! ## The whole reference is `Spec.mlp3` -/

/-- The reference's result term, three layers one after another, is `Spec.mlp3` of its seven arguments: `layer_eq` at
    each layer, innermost first. -/
theorem result_eq_spec (a0 : Vec Ideal S512x256 .f32) (a1 : Vec Ideal S256x2048 .f32) (a2 : Vec Ideal S2048x256 .f32)
    (a3 : Vec Ideal S256x2048 .f32) (a4 : Vec Ideal S2048x256 .f32) (a5 : Vec Ideal S256x2048 .f32) (a6 : Vec Ideal S2048x256 .f32) :
    Host.dotGeneral (F := Ideal) (φ₁ := .f32) (φ₂ := .f32) dot_S512x2048_S2048x256_S512x256_1_0_0_1_n_n none (maximumf (Host.dotGeneral (F := Ideal) (φ₁ := .f32) (φ₂ := .f32) dot_S512x256_S256x2048_S512x2048_1_0_0_1_n_n none (Host.dotGeneral (F := Ideal) (φ₁ := .f32) (φ₂ := .f32) dot_S512x2048_S2048x256_S512x256_1_0_0_1_n_n none (maximumf (Host.dotGeneral (F := Ideal) (φ₁ := .f32) (φ₂ := .f32) dot_S512x256_S256x2048_S512x2048_1_0_0_1_n_n none (Host.dotGeneral (F := Ideal) (φ₁ := .f32) (φ₂ := .f32) dot_S512x2048_S2048x256_S512x256_1_0_0_1_n_n none (maximumf (Host.dotGeneral (F := Ideal) (φ₁ := .f32) (φ₂ := .f32) dot_S512x256_S256x2048_S512x2048_1_0_0_1_n_n none (a0) (a1)) (broadcastInDim S512x2048 ![] bcast_S_S512x2048 (constant (F := Ideal) S_ .f32 0x00000000#32))) (a2)) (a3)) (broadcastInDim S512x2048 ![] bcast_S_S512x2048 (constant (F := Ideal) S_ .f32 0x00000000#32))) (a4)) (a5)) (broadcastInDim S512x2048 ![] bcast_S_S512x2048 (constant (F := Ideal) S_ .f32 0x00000000#32))) (a6)
      = Cert.Spec.mlp3 a0 a1 a2 a3 a4 a5 a6 := by
  rw [layer_eq a0 a1 a2, layer_eq (Cert.Spec.layer a0 a1 a2) a3 a4, layer_eq (Cert.Spec.layer (Cert.Spec.layer a0 a1 a2) a3 a4) a5 a6]
  rfl

/-! ## The run -/

/-- The reference runs and leaves its arguments unchanged: the run's post without its first conjunct. -/
theorem frame_ri [hPre_finite_inputs_ReferenceIdeal : Cert.Pre_finite_inputs_ReferenceIdeal.Facts] : Cert.frame_ReferenceIdeal :=
  fun m ρ _ => (θ_run Cert.ReferenceIdeal.defs _ _).mono (fun _ h c => (h c).2) (Cert.ReferenceIdeal.Value.run (F := Ideal) m ρ)

/-- The reference's run, with its result stated as `Spec.mlp3` of the arguments' launch contents. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Spec.mlp3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq_spec _ _ _ _ _ _ _), (h c).2⟩)
    (Cert.ReferenceIdeal.Value.run (F := Ideal) m ρ)

end Cert.ReferenceIdeal.RefSide

end
-- ==== Proof.KVal.lean ====
/-
  What each device computes and sends, as pure functions of vectors, at any float instance.
  A device holds the whole input `x` (512 rows in four groups of 128, sixteen chunks of 32) and its own 512 hidden
  columns of each layer's two weights. Per layer and chunk: its partial product `P` (its hidden columns' share of
  `relu (x · Win) · Wout`); `S1 = P + (the first peer's P)`; `S2 = S1 + (the second peer's S1)`. The peers are the
  device numbers with bit 0 flipped (`pa`) and with both bits flipped (`pb`), taken in the order `pa, pb` on even
  chunks and `pb, pa` on odd ones; both orders reach all four devices, so `S2` is the sum of the four partial products.
  What travels between devices is narrowed to bf16 and widened back.
-/
import proofs.«900999_g7700000000001000_dist_mlpseq_tp1d_rep_rep_b512_d256_h512_v7x_i4_f32_1_alg».proof.KernelIdeal

noncomputable section

namespace Cert.KernelIdeal.KVal

open Idealize.ShloMosaic Cert.KernelIdeal

variable {F : FTy → Type} [FloatOps F] [Facts]
open Facts₀ Facts

/-- One device's share of a layer on a group of 128 rows: the rows against its hidden columns, clamped at zero, against its rows of `Wout`. -/
def fwd (xg : FVec F S128x256 .f32) (win : Vec F S256x512 .f32) (wout : Vec F S512x256 .f32) : FVec F S128x256 .f32 :=
  matmul dot_S128x512_S512x256_S128x256_1_0_0_1_n_n none
    (maximumf (matmul dot_S128x256_S256x512_S128x512_1_0_0_1_n_n none xg (shapeCast S256x512 win shapeCasts_S256x512_S256x512) (constant S128x512 .f32 0x00000000#32))
      (broadcast S128x512 (Scalar.ofBits .f32 0x00000000#32)))
    (shapeCast S512x256 wout shapeCasts_S512x256_S512x256) (constant S128x256 .f32 0x00000000#32)

/-- Chunk `j` (32 rows) of a group of 128 rows. -/
def chunk (j : Fin 4) (v : FVec F S128x256 .f32) : FVec F S32x256 .f32 :=
  match j with
  | 0 => extractStridedSlice S32x256 ![0, 0] v slices_S128x256_o0_0_S32x256
  | 1 => extractStridedSlice S32x256 ![32, 0] v slices_S128x256_o32_0_S32x256
  | 2 => extractStridedSlice S32x256 ![64, 0] v slices_S128x256_o64_0_S32x256
  | 3 => extractStridedSlice S32x256 ![96, 0] v slices_S128x256_o96_0_S32x256

/-- A chunk as it is put in the send buffer: narrowed to bf16, one slot of the buffer. -/
def sendv (v : FVec F S32x256 .f32) : FVec F S1x32x256 .bf16 :=
  shapeCast S1x32x256 (truncf .bf16 v bitsLt_bf16_f32) shapeCasts_S32x256_S1x32x256

/-- A received slot widened back to f32. -/
def recvv (w : Vec F S1x32x256 .bf16) : FVec F S32x256 .f32 :=
  extf .f32 (shapeCast S32x256 w shapeCasts_S1x32x256_S32x256) bitsLt_bf16_f32

/-- The device with bit 0 flipped. -/
def pa (c : Dev nD) : Dev nD := ![1, 0, 3, 2] c
/-- The device with both bits flipped. -/
def pb (c : Dev nD) : Dev nD := ![3, 2, 1, 0] c
/-- The peer of the first exchange of chunk `ch`. -/
def peer1 (ch : Fin 16) (c : Dev nD) : Dev nD := if ch.val % 2 = 0 then pa c else pb c
/-- The peer of the second exchange of chunk `ch`. -/
def peer2 (ch : Fin 16) (c : Dev nD) : Dev nD := if ch.val % 2 = 0 then pb c else pa c

section Layer
variable (xin : Dev nD → Fin 4 → FVec F S128x256 .f32) (win : Dev nD → Vec F S256x512 .f32) (wout : Dev nD → Vec F S512x256 .f32)

/-- Device `c`'s partial product on chunk `ch`. -/
def P (c : Dev nD) (ch : Fin 16) : FVec F S32x256 .f32 :=
  chunk ⟨ch.val % 4, Nat.mod_lt _ (by decide)⟩ (fwd (xin c ⟨ch.val / 4, by have := ch.isLt; omega⟩) (win c) (wout c))

/-- After the first exchange: its own partial product plus the first peer's, as received. -/
def S1 (c : Dev nD) (ch : Fin 16) : FVec F S32x256 .f32 :=
  addf (P xin win wout c ch) (recvv (sendv (P xin win wout (peer1 ch c) ch)))

/-- After the second exchange: that plus the second peer's, as received. -/
def S2 (c : Dev nD) (ch : Fin 16) : FVec F S32x256 .f32 :=
  addf (S1 xin win wout c ch) (recvv (sendv (S1 xin win wout (peer2 ch c) ch)))

/-- The next layer's input group `g` on device `c`: its four chunks of `S2` stacked. -/
def nextIn (c : Dev nD) (g : Fin 4) : FVec F S128x256 .f32 :=
  concatenate S128x256 0 [⟨S32x256, S2 xin win wout c ⟨4 * g.val, by have := g.isLt; omega⟩⟩, ⟨S32x256, S2 xin win wout c ⟨4 * g.val + 1, by have := g.isLt; omega⟩⟩,
    ⟨S32x256, S2 xin win wout c ⟨4 * g.val + 2, by have := g.isLt; omega⟩⟩, ⟨S32x256, S2 xin win wout c ⟨4 * g.val + 3, by have := g.isLt; omega⟩⟩]
    concatenates_S32x256_S32x256_S32x256_S32x256_S128x256_d0

end Layer

section Net
variable (x0 : Dev nD → Fin 4 → FVec F S128x256 .f32)
  (w0 : Dev nD → Vec F S256x512 .f32) (u0 : Dev nD → Vec F S512x256 .f32)
  (w1 : Dev nD → Vec F S256x512 .f32) (u1 : Dev nD → Vec F S512x256 .f32)
  (w2 : Dev nD → Vec F S256x512 .f32) (u2 : Dev nD → Vec F S512x256 .f32)

/-- The inputs of layers 1 and 2. -/
def x1 : Dev nD → Fin 4 → FVec F S128x256 .f32 := nextIn x0 w0 u0
def x2 : Dev nD → Fin 4 → FVec F S128x256 .f32 := nextIn (x1 x0 w0 u0) w1 u1

/-- Chunk `ch` of device `c`'s result. -/
def out (c : Dev nD) (ch : Fin 16) : FVec F S32x256 .f32 := S2 (x2 x0 w0 u0 w1 u1) w2 u2 c ch

end Net

end Cert.KernelIdeal.KVal

end
-- ==== Proof.Proto.lean ====
/-
  The cross-device protocol's vocabulary. Every device has one barrier cell (two duties of one unit each, paid by its two
  peers at entry) and, per slot `s` of 96, a send cell (the device's own copy leaving its send buffer) and a receive cell
  (the peer's copy landing in its receive buffer), each of one duty of the slot's credit. Slot `s` stands for layer
  `s / 32`, chunk `(s / 2) % 16` and phase `s % 2`; its peer is the device with bit 0 flipped when chunk + phase is even
  and with both bits flipped otherwise, an involution on the devices either way, so the two ends of a slot write each
  other's receive slot `s`.
-/
import proofs.«900999_g7700000000001000_dist_mlpseq_tp1d_rep_rep_b512_d256_h512_v7x_i4_f32_1_alg».proof.Proof.KVal
import proofs.«900999_g7700000000001000_dist_mlpseq_tp1d_rep_rep_b512_d256_h512_v7x_i4_f32_1_alg».proof.Proof.Gen.KernelIdeal
import proofs.«900999_g7700000000001000_dist_mlpseq_tp1d_rep_rep_b512_d256_h512_v7x_i4_f32_1_alg».proof.Proof.Gen.KernelIdeal.Launch
import proofs.«900999_g7700000000001000_dist_mlpseq_tp1d_rep_rep_b512_d256_h512_v7x_i4_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

theorem pa_pa (c : Dev nD) : pa (pa c) = c := by revert c; decide
theorem pb_pb (c : Dev nD) : pb (pb c) = c := by revert c; decide
theorem pa_ne_pb (c : Dev nD) : pa c ≠ pb c := by revert c; decide
theorem pa_ne (c : Dev nD) : pa c ≠ c := by revert c; decide
theorem pb_ne (c : Dev nD) : pb c ≠ c := by revert c; decide

/-- Slot `s`'s layer, chunk and phase. -/
def layerOf (s : Fin 96) : Fin 3 := ⟨s.val / 32, by have := s.isLt; omega⟩
def chunkOf (s : Fin 96) : Fin 16 := ⟨(s.val / 2) % 16, Nat.mod_lt _ (by decide)⟩
def phaseOf (s : Fin 96) : Fin 2 := ⟨s.val % 2, Nat.mod_lt _ (by decide)⟩
/-- Whether slot `s` is exchanged with the bit-0 peer. -/
def isA (s : Fin 96) : Bool := ((s.val / 2) % 16 + s.val % 2) % 2 == 0
/-- Slot `s`'s peer of device `c`. -/
def peerOf (s : Fin 96) (c : Dev nD) : Dev nD := if isA s then pa c else pb c
theorem peerOf_peerOf (s : Fin 96) (c : Dev nD) : peerOf s (peerOf s c) = c := by
  unfold peerOf; split
  · exact pa_pa c
  · exact pb_pb c

/-! ## The buffers, the semaphores, the cells -/

abbrev sbufM : Memref sig .tc .vmem S96x32x256 .bf16 := Memref.whole cc0_scratch0
abbrev rbufM : Memref sig .tc .vmem S96x32x256 .bf16 := Memref.whole cc0_scratch1

/-- The runtime's barrier semaphore of collective id 0 (unscoped). -/
abbrev barS : Sem sig := (SemArray.scalar (sig.barrier 0 rfl) : Sems sig S_).sem
/-- Slot `s`'s send and receive DMA semaphores (scoped scratch). -/
def sendSem (s : Fin 96) : DmaSem sig := ⟨8 + s.val, by have := s.isLt; show 8 + s.val < 200; omega⟩
def recvSem (s : Fin 96) : DmaSem sig := ⟨104 + s.val, by have := s.isLt; show 104 + s.val < 200; omega⟩

abbrev barCell (c : Dev nD) : GSem nD τ sig := ((c : Thread nD τ), .reg barS)
abbrev sendCell (c : Dev nD) (s : Fin 96) : GSem nD τ sig := ((c : Thread nD τ), .dma (sendSem s))
abbrev recvCell (c : Dev nD) (s : Fin 96) : GSem nD τ sig := ((c : Thread nD τ), .dma (recvSem s))

/-! ## The slots of the two exchange buffers -/

section Slots

theorem slot_inb (s : Fin 96) : ∀ a, (![s.val, 0, 0] : Fin 3 → Nat) a + S1x32x256.size a ≤ S96x32x256.size a := by
  intro a; have := s.isLt
  fin_cases a <;> simp <;> omega

/-- Slot `s` of an exchange buffer as a rectangle of the buffer. -/
abbrev slotRect (s : Fin 96) : Rect S96x32x256 := Rect.unit (s := S96x32x256) ![s.val, 0, 0] S1x32x256.size (slot_inb s)

/-- Slot `s` of the send buffer and of the receive buffer, as the copies address them. -/
abbrev sSlot (s : Fin 96) : Memref sig .tc .vmem S32x256 .bf16 :=
  ((sbufM).slice (slotRect s) (fun _ => rfl)).squeeze S32x256 squeezes_S1x32x256_S32x256
abbrev rSlot (s : Fin 96) : Memref sig .tc .vmem S32x256 .bf16 :=
  ((rbufM).slice (slotRect s) (fun _ => rfl)).squeeze S32x256 squeezes_S1x32x256_S32x256

/-- A slot's credit in DMA units. -/
abbrev NC : ℕ := (rSlot 0).view.dmaCredit

end Slots

/-! ## What each device holds and sends -/

section Contents

/-- The staged inputs of device `c`: the whole `x` and its blocks of the six weights. -/
def stg0 (c : Dev nD) : Vec F S512x256 .f32 := (win0_0.blk t0_0).view.read (Elt F) (m ((c : Thread nD τ).loc main_arg0))
def stg1 (c : Dev nD) : Vec F S256x512 .f32 := (win0_1.blk t0_0).view.read (Elt F) (m ((c : Thread nD τ).loc main_arg1))
def stg2 (c : Dev nD) : Vec F S512x256 .f32 := (win0_2.blk t0_0).view.read (Elt F) (m ((c : Thread nD τ).loc main_arg2))
def stg3 (c : Dev nD) : Vec F S256x512 .f32 := (win0_3.blk t0_0).view.read (Elt F) (m ((c : Thread nD τ).loc main_arg3))
def stg4 (c : Dev nD) : Vec F S512x256 .f32 := (win0_4.blk t0_0).view.read (Elt F) (m ((c : Thread nD τ).loc main_arg4))
def stg5 (c : Dev nD) : Vec F S256x512 .f32 := (win0_5.blk t0_0).view.read (Elt F) (m ((c : Thread nD τ).loc main_arg5))
def stg6 (c : Dev nD) : Vec F S512x256 .f32 := (win0_6.blk t0_0).view.read (Elt F) (m ((c : Thread nD τ).loc main_arg6))

/-- Rows `128 g … 128 g + 127` of `x`, as the body loads them. -/
def xload (c : Dev nD) (g : Fin 4) : Vec F S128x256 .f32 :=
  match g with
  | 0 => (Memref.whole cc0_stg0_0 : Memref sig .tc .vmem S512x256 .f32).view.readAt (Elt F) (Rect.unit (s := S512x256) ![0, 0] S128x256.size inb_S512x256_S128x256_0_0).toLoadRect (stg0 m c)
  | 1 => (Memref.whole cc0_stg0_0 : Memref sig .tc .vmem S512x256 .f32).view.readAt (Elt F) (Rect.unit (s := S512x256) ![128, 0] S128x256.size inb_S512x256_S128x256_128_0).toLoadRect (stg0 m c)
  | 2 => (Memref.whole cc0_stg0_0 : Memref sig .tc .vmem S512x256 .f32).view.readAt (Elt F) (Rect.unit (s := S512x256) ![256, 0] S128x256.size inb_S512x256_S128x256_256_0).toLoadRect (stg0 m c)
  | 3 => (Memref.whole cc0_stg0_0 : Memref sig .tc .vmem S512x256 .f32).view.readAt (Elt F) (Rect.unit (s := S512x256) ![384, 0] S128x256.size inb_S512x256_S128x256_384_0).toLoadRect (stg0 m c)

end Contents

section Values

/-- Group `g` of device `c`'s input to layer 0. -/
def x0 (c : Dev nD) (g : Fin 4) : FVec F S128x256 .f32 :=
  shapeCast S128x256 (xload m c g) shapeCasts_S128x256_S128x256

/-- Layer `l`'s two weights on device `c`, as the body loads them: the staged block read whole. -/
def wl (l : Fin 3) (c : Dev nD) : Vec F S256x512 .f32 :=
  match l with
  | 0 => (Memref.whole cc0_stg1_0 : Memref sig .tc .vmem S256x512 .f32).view.readAt (Elt F) (Rect.unit (s := S256x512) ![0, 0] S256x512.size inb_S256x512_S256x512_0_0).toLoadRect (stg1 m c)
  | 1 => (Memref.whole cc0_stg3_0 : Memref sig .tc .vmem S256x512 .f32).view.readAt (Elt F) (Rect.unit (s := S256x512) ![0, 0] S256x512.size inb_S256x512_S256x512_0_0).toLoadRect (stg3 m c)
  | 2 => (Memref.whole cc0_stg5_0 : Memref sig .tc .vmem S256x512 .f32).view.readAt (Elt F) (Rect.unit (s := S256x512) ![0, 0] S256x512.size inb_S256x512_S256x512_0_0).toLoadRect (stg5 m c)
def ul (l : Fin 3) (c : Dev nD) : Vec F S512x256 .f32 :=
  match l with
  | 0 => (Memref.whole cc0_stg2_0 : Memref sig .tc .vmem S512x256 .f32).view.readAt (Elt F) (Rect.unit (s := S512x256) ![0, 0] S512x256.size inb_S512x256_S512x256_0_0).toLoadRect (stg2 m c)
  | 1 => (Memref.whole cc0_stg4_0 : Memref sig .tc .vmem S512x256 .f32).view.readAt (Elt F) (Rect.unit (s := S512x256) ![0, 0] S512x256.size inb_S512x256_S512x256_0_0).toLoadRect (stg4 m c)
  | 2 => (Memref.whole cc0_stg6_0 : Memref sig .tc .vmem S512x256 .f32).view.readAt (Elt F) (Rect.unit (s := S512x256) ![0, 0] S512x256.size inb_S512x256_S512x256_0_0).toLoadRect (stg6 m c)

/-- Layer `l`'s input on every device. -/
def xl (l : Fin 3) : Dev nD → Fin 4 → FVec F S128x256 .f32 :=
  match l with
  | 0 => x0 m
  | 1 => KVal.x1 (x0 m) (wl m 0) (ul m 0)
  | 2 => KVal.x2 (x0 m) (wl m 0) (ul m 0) (wl m 1) (ul m 1)

/-- What device `c` sends in slot `s` before narrowing: its partial product in phase 0, its first sum in phase 1. -/
def valOf (c : Dev nD) (s : Fin 96) : FVec F S32x256 .f32 :=
  if (phaseOf s).val = 0 then KVal.P (xl m (layerOf s)) (wl m (layerOf s)) (ul m (layerOf s)) c (chunkOf s)
  else KVal.S1 (xl m (layerOf s)) (wl m (layerOf s)) (ul m (layerOf s)) c (chunkOf s)

/-- The same narrowed to bf16: the contents of send slot `s`. -/
def sentS (c : Dev nD) (s : Fin 96) : Vec F S32x256 .bf16 := truncf .bf16 (valOf m c s) bitsLt_bf16_f32

end Values

/-! ## The schedule -/

section Sched

/-- Send slot `s` of device `c` at contents `f`, and receive slot `s` likewise: the slot's elements, at the full share. -/
def sPts (c : Dev nD) (s : Fin 96) (f : Buf (Elt F) ((sSlot s).view.loc (c : Thread nD τ))) : sProp 𝕄 :=
  (sSlot s).view.loc (c : Thread nD τ) ↦[(sSlot s).view.set]{fullShare} f
def rPts (c : Dev nD) (s : Fin 96) (f : Buf (Elt F) ((rSlot s).view.loc (c : Thread nD τ))) : sProp 𝕄 :=
  (rSlot s).view.loc (c : Thread nD τ) ↦[(rSlot s).view.set]{fullShare} f

/-- Receive slot `s` of device `c` once its peer's copy has landed: the peer's send slot `s` written over anything. -/
def landedBuf (c : Dev nD) (s : Fin 96) (f₀ : Buf (Elt F) ((rSlot s).view.loc (c : Thread nD τ))) : Buf (Elt F) ((rSlot s).view.loc (c : Thread nD τ)) :=
  (rSlot s).view.write (Elt F) f₀ (sentS m (peerOf s c) s) Finset.univ

/-- What a landing hands the receiver: its slot, holding the peer's slot. -/
def recvPay (c : Dev nD) (s : Fin 96) : sProp 𝕄 := iprop(∃ f₀, rPts c s (landedBuf m c s f₀))
/-- What a departure hands the sender back: its send slot. -/
def sendPay (c : Dev nD) (s : Fin 96) : sProp 𝕄 := iprop(∃ f, sPts c s f)
/-- What the entry signal of the peer `p` (`pa g` for duty `false`, `pb g` for duty `true`) hands device `g`: the receive slots of `p` that `g`
    writes, and that `p` is at round 0 of their cells. -/
def barPeer (g : Dev nD) (d : Bool) : Dev nD := if d then pb g else pa g
def barPay (g : Dev nD) (d : Bool) : sProp 𝕄 :=
  bigSep (Finset.univ.filter fun s : Fin 96 => isA s = !d) fun s => iprop((∃ f, rPts (barPeer g d) s f) ∗ reached ER (recvCell (barPeer g d) s) 0)

/-- Which slot a DMA semaphore is the send (`false`) or receive (`true`) semaphore of. -/
def slotOf (q : DmaSem sig) : Option (Bool × Fin 96) :=
  if h : 8 ≤ q.val ∧ q.val < 104 then some (false, ⟨q.val - 8, by omega⟩)
  else if h : 104 ≤ q.val ∧ q.val < 200 then some (true, ⟨q.val - 104, by omega⟩) else none

/-- One round, round 0: a barrier cell has two duties of one unit; a send or receive cell one duty of the slot's credit. -/
def rd : Rounds.Schedule (GSem nD τ sig) Bool 𝕄 where
  duties g r :=
    if r = 0 ∧ g.1.2 = .tc then
      (match g.2 with
        | .reg b => if b = barS then Finset.univ else ∅
        | .dma q => if (slotOf q).isSome then {false} else ∅)
    else ∅
  amount g _ _ := match g.2 with | .reg _ => 1 | .dma _ => NC
  payload g _ d := match g.2 with
    | .reg _ => barPay g.1.1 d
    | .dma q => match slotOf q with
      | some (false, s) => sendPay g.1.1 s
      | some (true, s) => recvPay m g.1.1 s
      | none => iprop(emp)
  amount_pos g _ _ _ := by
    cases g.2 with
    | reg _ => exact Nat.one_pos
    | dma _ => exact View.dmaCredit_pos _ (by decide)

end Sched

/-! ## What a device owes at launch; the levels -/

section Owes

/-- Device `c` owes each slot's peer the slot's credit on its receive cell, and both peers' barrier cells one unit. -/
def Osend (c : Dev nD) : CellTallies nD τ sig Unit := ∑ s : Fin 96, tallyAt (recvCell (peerOf s c) s) () NC
def O₁ (c : Dev nD) : CellTallies nD τ sig Unit := Osend c + tallyAt (barCell (pb c)) () 1
def O₀ (c : Dev nD) : CellTallies nD τ sig Unit := O₁ c + tallyAt (barCell (pa c)) () 1

def L (g : GSem nD τ sig) : Finset Unit := if g.1.2 = .tc then {()} else ∅
/-- Barrier cells at 1; receive cell of slot `s` at `2 + s / 32 * 2 + s % 2` (layer, then phase: every wait on a receive cell comes after the device has
    issued every copy of that layer and phase and of the earlier ones); everything else (staging, send cells) at 0. -/
def lv (g : GSem nD τ sig) (_ : Unit) : ℕ :=
  match g.2 with
  | .reg b => if b = barS then 1 else 0
  | .dma q => match slotOf q with
    | some (true, s) => 2 + 2 * (s.val / 32) + s.val % 2
    | _ => 0

end Owes

/-! ## The ghost state a device's body starts from -/

section Ghost

variable (κ : GSem nD τ sig → ℕ)

/-- The cells' invariants device `c`'s body opens: its own barrier, send and receive cells, both peers' barrier cells (its two signals), and
    each slot's peer's receive cell (its copies). -/
def invs (c : Dev nD) : sProp 𝕄 :=
  iprop(cellInv ER (rd m) (κ (barCell c)) (barCell c) ∗ cellInv ER (rd m) (κ (barCell (pa c))) (barCell (pa c)) ∗ cellInv ER (rd m) (κ (barCell (pb c))) (barCell (pb c))
    ∗ (bigSep Finset.univ fun s : Fin 96 => cellInv ER (rd m) (κ (sendCell c s)) (sendCell c s))
    ∗ (bigSep Finset.univ fun s : Fin 96 => cellInv ER (rd m) (κ (recvCell c s)) (recvCell c s))
    ∗ (bigSep Finset.univ fun s : Fin 96 => cellInv ER (rd m) (κ (recvCell (peerOf s c) s)) (recvCell (peerOf s c) s)))

instance invs_persistent (c : Dev nD) : BI.Persistent (invs m κ c) := by unfold invs; infer_instance

/-- The invariants; the device's positions at round 0 of its own cells; round 0 reached of the cells it pays and of its own; the tokens of the
    duties it pays: the bit-0 peer's barrier duty `false`, the other peer's barrier duty `true`, each slot's peer's receive duty, its own send duties. -/
def ghost (c : Dev nD) : sProp 𝕄 :=
  iprop(invs m κ c
    ∗ atPos ER (barCell c) 0 ∅ 0
    ∗ (bigSep Finset.univ fun s : Fin 96 => atPos ER (sendCell c s) 0 ∅ 0)
    ∗ (bigSep Finset.univ fun s : Fin 96 => atPos ER (recvCell c s) 0 ∅ 0)
    ∗ reached ER (barCell (pa c)) 0 ∗ reached ER (barCell (pb c)) 0
    ∗ (bigSep Finset.univ fun s : Fin 96 => reached ER (recvCell (peerOf s c) s) 0)
    ∗ (bigSep Finset.univ fun s : Fin 96 => reached ER (sendCell c s) 0)
    ∗ (bigSep Finset.univ fun s : Fin 96 => reached ER (recvCell c s) 0)
    ∗ dutyTok ER (barCell (pa c)) 0 false ∗ dutyTok ER (barCell (pb c)) 0 true
    ∗ (bigSep Finset.univ fun s : Fin 96 => dutyTok ER (recvCell (peerOf s c) s) 0 false)
    ∗ (bigSep Finset.univ fun s : Fin 96 => dutyTok ER (sendCell c s) 0 false))

end Ghost

section Start

/-- What device `c`'s body starts from: the ghost state at some names, the credit of its own barrier cell (two units) and of its receive cells, the levels. -/
def start (c : Dev nD) : sProp 𝕄 :=
  iprop((∃ κ, ghost m κ c) ∗ cred (tallyAt (barCell c) () 2) ∗ (bigSep Finset.univ fun s : Fin 96 => cred (tallyAt (recvCell c s) () NC)) ∗ levAts L lv)

/-- Before the point: that, and the two exchange buffers whole at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two buffers whole again, and the device's own send and receive cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun s : Fin 96 => semVal (sendCell c s) 0) ∗ (bigSep Finset.univ fun s : Fin 96 => semVal (recvCell c s) 0))

/-- Chunk `ch` of device `c`'s result. -/
def outChunk (c : Dev nD) (ch : Fin 16) : FVec F S32x256 .f32 :=
  KVal.out (x0 m) (wl m 0) (ul m 0) (wl m 1) (ul m 1) (wl m 2) (ul m 2) c ch

/-- Device `c`'s result block: row `r` is row `r % 32` of chunk `r / 32`. -/
def outAt (c : Dev nD) : Vec F S512x256 .f32 := fun i =>
  outChunk m c ⟨(i 0).val / 32, by have := (i 0).isLt; simp only [Matrix.cons_val_zero] at this; omega⟩
    (ValueIdx.ix2 (n0 := 32) (n1 := 256) ⟨(i 0).val % 32, Nat.mod_lt _ (by decide)⟩ (i 1))

/-- The pipeline's proof data: the arrays as launched; every input window's block stays; the result window's block ends at `outAt`. -/
def dats (_ : Fin 1) (c : Dev nD) : Dat τ (Elt F) Unit ℕ UU ℕ cfg0 c where
  A w := m ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => stg5 m c
    | ⟨6, _⟩ => stg6 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Start

end Cert.KernelIdeal.Proto

end
-- ==== Proof.Tables.lean ====
/-
  The schedule's tables, cell by cell: which duties, amounts, expected units and payloads round 0 of a barrier, send or
  receive cell has; the levels of the cells; and that a device may wait on a cell whose level lies below everything it owes.
-/
import proofs.«900999_g7700000000001000_dist_mlpseq_tp1d_rep_rep_b512_d256_h512_v7x_i4_f32_1_alg».proof.Proof.Proto

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a slot -/

/-- Semaphore `8 + s` lies in the send range and is slot `s`'s. -/
theorem slotOf_send (s : Fin 96) : slotOf (sendSem s) = some (false, s) := by
  have h : 8 ≤ (sendSem s).val ∧ (sendSem s).val < 104 := by
    have := s.isLt; show 8 ≤ 8 + s.val ∧ 8 + s.val < 104; omega
  unfold slotOf
  rw [dif_pos h]
  exact congrArg some (Prod.ext rfl (Fin.ext (Nat.add_sub_cancel_left (n := 8) (m := s.val))))

/-- Semaphore `104 + s` lies in the receive range and is slot `s`'s. -/
theorem slotOf_recv (s : Fin 96) : slotOf (recvSem s) = some (true, s) := by
  have h₁ : ¬ (8 ≤ (recvSem s).val ∧ (recvSem s).val < 104) := by
    show ¬ (8 ≤ 104 + s.val ∧ 104 + s.val < 104); omega
  have h₂ : 104 ≤ (recvSem s).val ∧ (recvSem s).val < 200 := by
    have := s.isLt; show 104 ≤ 104 + s.val ∧ 104 + s.val < 200; omega
  unfold slotOf
  rw [dif_neg h₁, dif_pos h₂]
  exact congrArg some (Prod.ext rfl (Fin.ext (Nat.add_sub_cancel_left (n := 104) (m := s.val))))

/-- A staging semaphore (below 8) is no slot's. -/
theorem slotOf_stage (q : DmaSem sig) (hq : q.val < 8) : slotOf q = none := by
  unfold slotOf
  rw [dif_neg (fun h => by omega), dif_neg (fun h => by omega)]

theorem send_ne_recv (s s' : Fin 96) : sendSem s ≠ recvSem s' := fun h => by
  have h' : 8 + s.val = 104 + s'.val := congrArg Fin.val h
  have := s.isLt; omega

theorem sendSem_inj : Function.Injective sendSem := fun s s' h => by
  have h' : 8 + s.val = 8 + s'.val := congrArg Fin.val h
  exact Fin.ext (by omega)

theorem recvSem_inj : Function.Injective recvSem := fun s s' h => by
  have h' : 104 + s.val = 104 + s'.val := congrArg Fin.val h
  exact Fin.ext (by omega)

/-! ## The tables of round 0 -/

section Sched
variable (c : Dev nD) (s : Fin 96)

theorem duties_bar : (rd (F := F) m).duties (barCell c) 0 = Finset.univ := by
  dsimp only [rd]; rw [if_pos ⟨rfl, rfl⟩]; exact if_pos rfl
theorem duties_send : (rd (F := F) m).duties (sendCell c s) 0 = {false} := by
  dsimp only [rd]; rw [if_pos ⟨rfl, rfl⟩, slotOf_send]; rfl
theorem duties_recv : (rd (F := F) m).duties (recvCell c s) 0 = {false} := by
  dsimp only [rd]; rw [if_pos ⟨rfl, rfl⟩, slotOf_recv]; rfl
theorem duties_later (g : GSem nD τ sig) : ∀ r, 1 ≤ r → (rd (F := F) m).duties g r = ∅ :=
  fun r hr => by dsimp only [rd]; rw [if_neg fun h => by have := h.1; omega]

theorem amount_bar (d : Bool) : (rd (F := F) m).amount (barCell c) 0 d = 1 := rfl
theorem amount_send (d : Bool) : (rd (F := F) m).amount (sendCell c s) 0 d = NC := rfl
theorem amount_recv (d : Bool) : (rd (F := F) m).amount (recvCell c s) 0 d = NC := rfl

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (rd (F := F) m).expect (sendCell c s) 0 = NC := by
  unfold Schedule.expect Schedule.amountOf; rw [duties_send, Finset.sum_singleton, amount_send]
theorem expect_recv : (rd (F := F) m).expect (recvCell c s) 0 = NC := by
  unfold Schedule.expect Schedule.amountOf; rw [duties_recv, Finset.sum_singleton, amount_recv]

theorem payload_bar (d : Bool) : (rd (F := F) m).payload (barCell c) 0 d = barPay c d := rfl
theorem payload_send (d : Bool) : (rd (F := F) m).payload (sendCell c s) 0 d = sendPay c s := by
  dsimp only [rd]; rw [slotOf_send]
theorem payload_recv (d : Bool) : (rd (F := F) m).payload (recvCell c s) 0 d = recvPay m c s := by
  dsimp only [rd]; rw [slotOf_recv]

/-- The rest of the barrier cell's round, no duty taken: both peers' payloads. -/
theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((rd (F := F) m).duties (sendCell c s) 0 \ ∅) (fun d => (rd (F := F) m).payload (sendCell c s) 0 d) = sendPay c s := by
  rw [Finset.sdiff_empty, duties_send, bigSep_singleton, payload_send]
theorem rest_recv : bigSep ((rd (F := F) m).duties (recvCell c s) 0 \ ∅) (fun d => (rd (F := F) m).payload (recvCell c s) 0 d) = recvPay m c s := by
  rw [Finset.sdiff_empty, duties_recv, bigSep_singleton, payload_recv]

end Sched

/-- Every payload is made of points-to facts and round records: it can be kept in a cell's invariant. -/
instance rd_payload_storable (g : GSem nD τ sig) (r : ℕ) (d : Bool) :
    BI.Storable (upEmb : UEmb _ 𝕄) ((rd (F := F) m).payload g r d) := by
  show BI.Storable upEmb (match g.2 with
    | .reg _ => barPay g.1.1 d
    | .dma q => match slotOf q with
      | some (false, s) => sendPay g.1.1 s
      | some (true, s) => recvPay m g.1.1 s
      | none => iprop(emp))
  unfold barPay sendPay recvPay sPts rPts
  (repeat' split) <;> infer_instance

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

theorem lv_bar (c : Dev nD) : lv (barCell c) () = 1 := by dsimp only [lv]; exact if_pos rfl
theorem lv_send (c : Dev nD) (s : Fin 96) : lv (sendCell c s) () = 0 := by dsimp only [lv]; rw [slotOf_send]
theorem lv_recv (c : Dev nD) (s : Fin 96) : lv (recvCell c s) () = 2 + 2 * (s.val / 32) + s.val % 2 := by dsimp only [lv]; rw [slotOf_recv]
theorem lv_stage (c : Dev nD) (q : DmaSem sig) (hq : q.val < 8) : lv ((c : Thread nD τ), .dma q) () = 0 := by
  dsimp only [lv]; rw [slotOf_stage q hq]

/-! ## A device may wait below what it owes -/

omit [FloatOps F] in
/-- A cell at level 0 (a staging or a send cell) lies below everything owed at level 1 or above. -/
theorem mayWait_low (c : Dev nD) (sm : SemLoc sig) (hlv : lv ((c : Thread nD τ), sm) () = 0) (O : CellTallies nD τ sig Unit)
    (hO : ∀ g u, 0 < O g u → g.1.2 = .tc ∧ 1 ≤ lv g ()) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hlv)
    (fun g u hg => (hO g u hg).2)

omit [FloatOps F] in
/-- The barrier cell, at level 1, lies below everything owed at level 2 or above. -/
theorem mayWait_bar (c : Dev nD) (O : CellTallies nD τ sig Unit) (hO : ∀ g u, 0 < O g u → g.1.2 = .tc ∧ 2 ≤ lv g ()) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq (lv_bar c))
    (fun g u hg => (hO g u hg).2)

omit [FloatOps F] in
/-- Slot `s`'s receive cell lies below everything owed strictly above its level. -/
theorem mayWait_recv (c : Dev nD) (s : Fin 96) (O : CellTallies nD τ sig Unit)
    (hO : ∀ g u, 0 < O g u → g.1.2 = .tc ∧ lv (recvCell c s) () < lv g ()) :
    (levAts L lv : sProp 𝕄) ⊢ MayWait (c : Thread nD τ) (.dma (recvSem s)) () O :=
  MayOwe.of_cut (L := L) (lev := lv) (lv (recvCell c s) ()) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

attribute [sl_rounds] duties_bar duties_send duties_recv amount_bar amount_send amount_recv expect_bar expect_send expect_recv
  payload_bar payload_send payload_recv

end Cert.KernelIdeal.Proto

end
-- ==== Proof.Glob.lean ====
/-
  The launch's ghost state. The protocol's algebra is funded with every device's own cells (its barrier cell, its 96 send
  cells and its 96 receive cells) at round 0 and with the duty tokens of those cells; the tokens are then dealt to the
  devices that pay the duties: a barrier cell's duty `false` to the bit-0 peer, its duty `true` to the other peer, a
  receive cell's duty to the slot's peer, a send cell's duty to the device itself. The peers are involutions, so each
  dealing is a reindexing of a product over all devices. Every cell's invariant is allocated from its counter at zero
  and its round state at zero, and each device is handed the records of the cells it opens.
-/
import proofs.«900999_g7700000000001000_dist_mlpseq_tp1d_rep_rep_b512_d256_h512_v7x_i4_f32_1_alg».proof.Proof.Tables

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped semaphores: DMA semaphores 8 … 199, the 96 send semaphores then the 96 receive semaphores. -/
def osem (k : Fin 192) : SemLoc sig := .dma ⟨8 + k.val, by have := k.isLt; show 8 + k.val < 200; omega⟩

theorem osem_send (s : Fin 96) : osem (Fin.castAdd 96 s) = .dma (sendSem s) := rfl
theorem osem_recv (s : Fin 96) : osem (Fin.natAdd 96 s) = .dma (recvSem s) := by
  unfold osem recvSem
  congr 1
  apply Fin.ext
  show 8 + (96 + s.val) = 104 + s.val
  omega

/-- They are scoped, pairwise distinct, and none is a staging semaphore (those are DMA semaphores 0 … 7). -/
theorem ownSemFacts : Pipeline.OwnSemFacts cfg0.spec osem where
  isScoped := by decide
  inj := by
    intro a b h
    have h1 : 8 + a.val = 8 + b.val := congrArg Fin.val (SemLoc.dma.inj h)
    exact Fin.ext (by omega)
  disj := by decide

/-! ## A device's own cells -/

/-- The index of a device's own cells: the barrier cell, the send cell of each slot, the receive cell of each slot. -/
abbrev CI : Type := Unit ⊕ Fin 96 ⊕ Fin 96

def csem : CI → SemLoc sig
  | .inl _ => .reg barS
  | .inr (.inl s) => .dma (sendSem s)
  | .inr (.inr s) => .dma (recvSem s)

abbrev kcell (ck : Dev nD × CI) : GSem nD τ sig := ((ck.1 : Thread nD τ), csem ck.2)

theorem kcell_bar (c : Dev nD) : kcell (c, .inl ()) = barCell c := rfl
theorem kcell_send (c : Dev nD) (s : Fin 96) : kcell (c, .inr (.inl s)) = sendCell c s := rfl
theorem kcell_recv (c : Dev nD) (s : Fin 96) : kcell (c, .inr (.inr s)) = recvCell c s := rfl

theorem csem_injective : Function.Injective csem := by
  rintro (_ | s | s) (_ | s' | s') h
  · rfl
  · exact absurd h (fun h' => by cases h')
  · exact absurd h (fun h' => by cases h')
  · exact absurd h (fun h' => by cases h')
  · rw [sendSem_inj (SemLoc.dma.inj h)]
  · exact absurd (SemLoc.dma.inj h) (send_ne_recv s s')
  · exact absurd h (fun h' => by cases h')
  · exact absurd (SemLoc.dma.inj h).symm (send_ne_recv s' s)
  · rw [recvSem_inj (SemLoc.dma.inj h)]

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's own cells. -/
def ringCells : Finset (GSem nD τ sig) := Finset.univ.map ⟨kcell, kcell_injective⟩

/-- The index of a device's own cells' duty tokens: the barrier cell's two, each send cell's one, each receive cell's one. -/
abbrev TI : Type := Bool ⊕ Fin 96 ⊕ Fin 96

def tokOf : Dev nD × TI → GSem nD τ sig × ℕ × Bool
  | (c, .inl d) => (barCell c, 0, d)
  | (c, .inr (.inl s)) => (sendCell c s, 0, false)
  | (c, .inr (.inr s)) => (recvCell c s, 0, false)

theorem tokOf_injective : Function.Injective (tokOf : Dev nD × TI → GSem nD τ sig × ℕ × Bool) := by
  rintro ⟨c, (d | s | s)⟩ ⟨c', (d' | s' | s')⟩ h <;>
    have hk := congrArg (fun x : GSem nD τ sig × ℕ × Bool => x.1) h <;>
    have hd := congrArg (fun x : GSem nD τ sig × ℕ × Bool => x.2.2) h
  · have := kcell_injective (a₁ := (c, .inl ())) (a₂ := (c', .inl ())) hk
    cases this; cases (show d = d' from hd); rfl
  · exact absurd (kcell_injective (a₁ := (c, .inl ())) (a₂ := (c', .inr (.inl s'))) hk) (fun h' => by cases h')
  · exact absurd (kcell_injective (a₁ := (c, .inl ())) (a₂ := (c', .inr (.inr s'))) hk) (fun h' => by cases h')
  · exact absurd (kcell_injective (a₁ := (c, .inr (.inl s))) (a₂ := (c', .inl ())) hk) (fun h' => by cases h')
  · have := kcell_injective (a₁ := (c, .inr (.inl s))) (a₂ := (c', .inr (.inl s'))) hk
    cases this; rfl
  · exact absurd (kcell_injective (a₁ := (c, .inr (.inl s))) (a₂ := (c', .inr (.inr s'))) hk) (fun h' => by cases h')
  · exact absurd (kcell_injective (a₁ := (c, .inr (.inr s))) (a₂ := (c', .inl ())) hk) (fun h' => by cases h')
  · exact absurd (kcell_injective (a₁ := (c, .inr (.inr s))) (a₂ := (c', .inr (.inl s'))) hk) (fun h' => by cases h')
  · have := kcell_injective (a₁ := (c, .inr (.inr s))) (a₂ := (c', .inr (.inr s'))) hk
    cases this; rfl

/-- Every device's own cells' duty tokens of round 0. -/
def ringToks : Finset (GSem nD τ sig × ℕ × Bool) := Finset.univ.map ⟨tokOf, tokOf_injective⟩

/-- The launch element: the pipeline library's beside the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ (bigSep Finset.univ fun s : Fin 96 => dutyTok ER (sendCell c s) 0 false)
    ∗ (bigSep Finset.univ fun s : Fin 96 => dutyTok ER (recvCell c s) 0 false))

/-- What the launch element deals device `c`: its own cells' round states at counter zero, its positions at round 0 with
    round 0 reached, and the duty tokens of its own cells. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

/-- What the global step makes of it: the ghost state the device's body starts from, at some names. -/
def G' (c : Dev nD) : sProp 𝕄 := iprop(∃ κ, ghost m κ c)

/-- A product over a device's own cells: the barrier cell's factor, the send cells', the receive cells'. -/
theorem bigSep_CI (Φ : CI → sProp 𝕄) : bigSep Finset.univ Φ
    = iprop(Φ (.inl ()) ∗ (bigSep Finset.univ fun s : Fin 96 => Φ (.inr (.inl s))) ∗ bigSep Finset.univ fun s : Fin 96 => Φ (.inr (.inr s))) := by
  rw [bigSep_univ_sum, bigSep_univ_sum, bigSep_univ_of_subsingleton ()]; rfl

theorem bigSep_bool (Φ : Bool → sProp 𝕄) : bigSep Finset.univ Φ = iprop(Φ false ∗ Φ true) := by
  rw [show (Finset.univ : Finset Bool) = {false, true} from by decide, bigSep_insert (by decide), bigSep_singleton]
  rfl

theorem bigSep_TI (Φ : TI → sProp 𝕄) : bigSep Finset.univ Φ
    = iprop((Φ (.inl false) ∗ Φ (.inl true)) ∗ (bigSep Finset.univ fun s : Fin 96 => Φ (.inr (.inl s))) ∗ bigSep Finset.univ fun s : Fin 96 => Φ (.inr (.inr s))) := by
  rw [bigSep_univ_sum, bigSep_univ_sum, bigSep_bool]; rfl

/-- The protocol's launch element is every device's share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => (Entails.of_eq (bigSep_TI _)).trans ?_
    unfold toks
    iintro ⟨⟨H1, H2⟩, H3, H4⟩
    isplitl [H1]; · iexact H1
    isplitl [H2]; · iexact H2
    isplitl [H3]; · iexact H3
    iexact H4
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores of a device are its send and its receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 96 => semVal (sendCell c s) 0) ∗ bigSep Finset.univ fun s : Fin 96 => semVal (recvCell c s) 0) := by
  unfold Pipeline.ownSems0
  rw [bigSep_univ_equiv (finSumFinEquiv (m := 96) (n := 96)), bigSep_univ_sum]
  congr 1

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

/-- Each of a device's own cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records, and what stays with a device -/

/-- The records of every device's own cells at the names `κ`: each cell's invariant, and round 0 of each reached. -/
def records (κ : GSem nD τ sig → ℕ) : sProp 𝕄 :=
  iprop((bigSep Finset.univ fun ck : Dev nD × CI => cellInv ER (rd m) (κ (kcell ck)) (kcell ck))
    ∗ bigSep Finset.univ fun ck : Dev nD × CI => reached ER (kcell ck) 0)

instance records_persistent (κ : GSem nD τ sig → ℕ) : BI.Persistent (records m κ) := by unfold records; infer_instance

theorem inv_at₀ (κ : GSem nD τ sig → ℕ) (ck : Dev nD × CI) :
    (bigSep Finset.univ fun ck : Dev nD × CI => (cellInv ER (rd m) (κ (kcell ck)) (kcell ck) : sProp 𝕄)) ⊢ cellInv ER (rd m) (κ (kcell ck)) (kcell ck) :=
  bigSep_elim (Finset.mem_univ ck)
theorem reached_at₀ (ck : Dev nD × CI) :
    (bigSep Finset.univ fun ck : Dev nD × CI => (reached ER (kcell ck) 0 : sProp 𝕄)) ⊢ reached ER (kcell ck) 0 :=
  bigSep_elim (Finset.mem_univ ck)

theorem inv_at (κ : GSem nD τ sig → ℕ) (ck : Dev nD × CI) : records m κ ⊢ cellInv ER (rd m) (κ (kcell ck)) (kcell ck) := by
  unfold records
  iintro ⟨#HI, -⟩
  iapply (inv_at₀ m κ ck)
  iexact HI

theorem reached_at (κ : GSem nD τ sig → ℕ) (ck : Dev nD × CI) : records m κ ⊢ reached ER (kcell ck) 0 := by
  unfold records
  iintro ⟨-, #HR⟩
  iapply (reached_at₀ (F := F) ck)
  iexact HR

/-- The tokens of the duties device `c` pays. -/
def payToks (c : Dev nD) : sProp 𝕄 :=
  iprop(dutyTok ER (barCell (pa c)) 0 false ∗ dutyTok ER (barCell (pb c)) 0 true
    ∗ (bigSep Finset.univ fun s : Fin 96 => dutyTok ER (recvCell (peerOf s c) s) 0 false)
    ∗ (bigSep Finset.univ fun s : Fin 96 => dutyTok ER (sendCell c s) 0 false))

/-- What stays with device `c`: its positions, and those tokens. -/
def linear (c : Dev nD) : sProp 𝕄 :=
  iprop((atPos ER (barCell c) 0 ∅ 0 ∗ (bigSep Finset.univ fun s : Fin 96 => atPos ER (sendCell c s) 0 ∅ 0)
      ∗ (bigSep Finset.univ fun s : Fin 96 => atPos ER (recvCell c s) 0 ∅ 0)) ∗ payToks c)

theorem ghost_intro (κ : GSem nD τ sig → ℕ) (c : Dev nD) : iprop(records m κ ∗ linear c) ⊢ G' m c := by
  unfold linear payToks G' ghost invs
  iintro ⟨#HR, ⟨HaB, HaS, HaV⟩, HtA, HtB, HtV, HtS⟩
  iexists κ
  isplitr
  · isplitr; · iapply (inv_at m κ (c, .inl ())); iexact HR
    isplitr; · iapply (inv_at m κ (pa c, .inl ())); iexact HR
    isplitr; · iapply (inv_at m κ (pb c, .inl ())); iexact HR
    isplitr
    · iapply (bigSep_intro_persistent (R := records m κ) (S := Finset.univ)
        (Φ := fun s : Fin 96 => (cellInv ER (rd m) (κ (sendCell c s)) (sendCell c s) : sProp 𝕄)) fun s _ => inv_at m κ (c, .inr (.inl s)))
      iexact HR
    isplitr
    · iapply (bigSep_intro_persistent (R := records m κ) (S := Finset.univ)
        (Φ := fun s : Fin 96 => (cellInv ER (rd m) (κ (recvCell c s)) (recvCell c s) : sProp 𝕄)) fun s _ => inv_at m κ (c, .inr (.inr s)))
      iexact HR
    · iapply (bigSep_intro_persistent (R := records m κ) (S := Finset.univ)
        (Φ := fun s : Fin 96 => (cellInv ER (rd m) (κ (recvCell (peerOf s c) s)) (recvCell (peerOf s c) s) : sProp 𝕄)) fun s _ => inv_at m κ (peerOf s c, .inr (.inr s)))
      iexact HR
  isplitl [HaB]; · iexact HaB
  isplitl [HaS]; · iexact HaS
  isplitl [HaV]; · iexact HaV
  isplitr; · iapply (reached_at m κ (pa c, .inl ())); iexact HR
  isplitr; · iapply (reached_at m κ (pb c, .inl ())); iexact HR
  isplitr
  · iapply (bigSep_intro_persistent (R := records m κ) (S := Finset.univ)
      (Φ := fun s : Fin 96 => (reached ER (recvCell (peerOf s c) s) 0 : sProp 𝕄)) fun s _ => reached_at m κ (peerOf s c, .inr (.inr s)))
    iexact HR
  isplitr
  · iapply (bigSep_intro_persistent (R := records m κ) (S := Finset.univ)
      (Φ := fun s : Fin 96 => (reached ER (sendCell c s) 0 : sProp 𝕄)) fun s _ => reached_at m κ (c, .inr (.inl s)))
    iexact HR
  isplitr
  · iapply (bigSep_intro_persistent (R := records m κ) (S := Finset.univ)
      (Φ := fun s : Fin 96 => (reached ER (recvCell c s) 0 : sProp 𝕄)) fun s _ => reached_at m κ (c, .inr (.inr s)))
    iexact HR
  isplitl [HtA]; · iexact HtA
  isplitl [HtB]; · iexact HtB
  isplitl [HtV]; · iexact HtV
  iexact HtS

/-! ## The tokens dealt to the devices that pay -/

def paE : Dev nD ≃ Dev nD := ⟨pa, pa, pa_pa, pa_pa⟩
def pbE : Dev nD ≃ Dev nD := ⟨pb, pb, pb_pb, pb_pb⟩
def peerE (s : Fin 96) : Dev nD ≃ Dev nD := ⟨peerOf s, peerOf s, peerOf_peerOf s, peerOf_peerOf s⟩

/-- Each slot's receive tokens, dealt along the slot's peer map. -/
theorem recv_around : (bigSep Finset.univ fun c : Dev nD => bigSep Finset.univ fun s : Fin 96 => (dutyTok ER (recvCell c s) 0 false : sProp 𝕄))
    = bigSep Finset.univ fun c : Dev nD => bigSep Finset.univ fun s : Fin 96 => dutyTok ER (recvCell (peerOf s c) s) 0 false := by
  rw [bigSep_univ_comm (fun (c : Dev nD) (s : Fin 96) => (dutyTok ER (recvCell c s) 0 false : sProp 𝕄)),
    bigSep_congr (s := Finset.univ) (fun (s : Fin 96) _ => bigSep_univ_equiv (peerE s) (fun c : Dev nD => (dutyTok ER (recvCell c s) 0 false : sProp 𝕄))),
    bigSep_univ_comm (fun (s : Fin 96) (c : Dev nD) => (dutyTok ER (recvCell (peerE s c) s) 0 false : sProp 𝕄))]
  rfl

/-- The tokens dealt: a barrier cell's `false` token to the bit-0 peer, its `true` token to the other peer, each receive token
    to the slot's peer; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv paE (fun c : Dev nD => (dutyTok ER (barCell c) 0 false : sProp 𝕄)),
    bigSep_univ_equiv pbE (fun c : Dev nD => (dutyTok ER (barCell c) 0 true : sProp 𝕄)),
    recv_around]
  iintro ⟨H1, H2, H3, H4⟩
  isplitl [H1]; · iexact H1
  isplitl [H2]; · iexact H2
  isplitl [H4]; · iexact H4
  iexact H3

/-! ## The global step -/

theorem regroup :
    (bigSep Finset.univ fun c : Dev nD => iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  have hC : (bigSep Finset.univ fun ck : Dev nD × CI => iprop(∃ κ : ℕ, cellInv ER (rd m) κ (kcell ck)) : sProp 𝕄)
      = bigSep ringCells fun g => iprop(∃ κ : ℕ, cellInv ER (rd m) κ g) := by
    unfold ringCells; rw [bigSep_map]; rfl
  have hC' (κ : GSem nD τ sig → ℕ) : (bigSep ringCells fun g => (cellInv ER (rd m) (κ g) g : sProp 𝕄))
      = bigSep Finset.univ fun ck : Dev nD × CI => cellInv ER (rd m) (κ (kcell ck)) (kcell ck) := by
    unfold ringCells; rw [bigSep_map]; rfl
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), hC]
  iintro ⟨HI, ⟨Hat, #HR⟩, Htok⟩
  ihave HK := (BI.bigSep_exists_pi ringCells (fun (g : GSem nD τ sig) (κ : ℕ) => (cellInv ER (rd m) κ g : sProp 𝕄))) $$ HI
  icases HK with ⟨%κ, #HI⟩
  ihave Htk := (toks_around (F := F)) $$ Htok
  iapply (bigSep_with_persistent (R := records m κ) fun c _ => ghost_intro m κ c)
  isplitr
  · unfold records; isplitl
    · iapply (Entails.of_eq (hC' κ)); iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear; rw [bigSep_CI]; rfl)))
    isplitl [Hat]; · iexact Hat
    iexact Htk

/-- The global step: every device's own and unscoped semaphores at once, beside every device's share of the launch element. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element split: the pipeline library's part, and every device's share of the protocol's. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.KernelIdeal.Proto

end
-- ==== Proof.Hand.lean ====
/-
  The entry handshake's bookkeeping. A device gives each peer, inside its entry signal, the receive slots that peer
  writes (the slots whose chunk + phase is even go to the bit-0 peer, the others to the other peer), and gets from the two
  signals it waits for, for every slot, that slot of the slot's peer's receive buffer.
-/
import proofs.«900999_g7700000000001000_dist_mlpseq_tp1d_rep_rep_b512_d256_h512_v7x_i4_f32_1_alg».proof.Proof.Proto

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem barPeer_false (c : Dev nD) : barPeer c false = pa c := rfl
theorem barPeer_true (c : Dev nD) : barPeer c true = pb c := rfl
theorem barPeer_pa (c : Dev nD) : barPeer (pa c) false = c := pa_pa c
theorem barPeer_pb (c : Dev nD) : barPeer (pb c) true = c := pb_pb c

theorem peerOf_of_A {s : Fin 96} (h : isA s = true) (c : Dev nD) : peerOf s c = pa c := by unfold peerOf; rw [if_pos h]
theorem peerOf_of_B {s : Fin 96} (h : isA s = false) (c : Dev nD) : peerOf s c = pb c := by
  unfold peerOf; rw [if_neg (by rw [h]; exact Bool.false_ne_true)]

/-- The slots exchanged with the bit-0 peer, and the others. -/
abbrev slotsA : Finset (Fin 96) := Finset.univ.filter fun s : Fin 96 => isA s = !false
abbrev slotsB : Finset (Fin 96) := Finset.univ.filter fun s : Fin 96 => isA s = !true

theorem slots_split (Φ : Fin 96 → sProp 𝕄) : bigSep Finset.univ Φ = iprop(bigSep slotsA Φ ∗ bigSep slotsB Φ) := by
  rw [bigSep_filter_split Finset.univ (fun s : Fin 96 => isA s = true)]
  have e : (Finset.univ.filter fun s : Fin 96 => ¬ isA s = true) = slotsB :=
    Finset.filter_congr fun s _ => by cases isA s <;> simp
  rw [e]
  rfl

theorem ex_intro_rPts (c : Dev nD) (s : Fin 96) (f : Buf (Elt F) ((rSlot s).view.loc (c : Thread nD τ))) :
    rPts (F := F) c s f ⊢ iprop(∃ f, rPts (F := F) c s f) := by
  iintro H; iexists f; iexact H

/-- What device `c` puts in its signal to the bit-0 peer: its receive slots of that kind, at any contents, and that it is at round 0 of their cells. -/
theorem barPay_intro_A (c : Dev nD) (f : Buf (Elt F) ((c : Thread nD τ).loc cc0_scratch1)) :
    iprop((bigSep slotsA fun s : Fin 96 => rPts (F := F) c s f) ∗ (bigSep Finset.univ fun s : Fin 96 => reached ER (recvCell c s) 0))
      ⊢ barPay (F := F) (pa c) false := by
  unfold barPay; rw [barPeer_pa, bigSep_sep']
  exact BI.sep_mono (bigSep_mono fun s _ => ex_intro_rPts c s f) (bigSep_subset (Finset.filter_subset _ _))

theorem barPay_intro_B (c : Dev nD) (f : Buf (Elt F) ((c : Thread nD τ).loc cc0_scratch1)) :
    iprop((bigSep slotsB fun s : Fin 96 => rPts (F := F) c s f) ∗ (bigSep Finset.univ fun s : Fin 96 => reached ER (recvCell c s) 0))
      ⊢ barPay (F := F) (pb c) true := by
  unfold barPay; rw [barPeer_pb, bigSep_sep']
  exact BI.sep_mono (bigSep_mono fun s _ => ex_intro_rPts c s f) (bigSep_subset (Finset.filter_subset _ _))

theorem drop_reached (p : Dev nD) (s : Fin 96) :
    iprop((∃ f, rPts (F := F) p s f) ∗ reached ER (recvCell p s) 0) ⊢ iprop(∃ f, rPts (F := F) p s f) := by
  iintro ⟨H, -⟩; iexact H

/-- What the two signals a device waits for hand it: for every slot, that slot of its peer's receive buffer. -/
theorem barPay_elim (c : Dev nD) :
    iprop(barPay (F := F) c false ∗ barPay c true) ⊢ bigSep Finset.univ fun s : Fin 96 => iprop(∃ f, rPts (F := F) (peerOf s c) s f) := by
  rw [slots_split]
  unfold barPay; rw [barPeer_false, barPeer_true]
  refine BI.sep_mono ?_ ?_
  · exact bigSep_mono fun s hs => by
      have h : isA s = true := (Finset.mem_filter.mp hs).2
      rw [peerOf_of_A h]; exact drop_reached (pa c) s
  · exact bigSep_mono fun s hs => by
      have h : isA s = false := (Finset.mem_filter.mp hs).2
      rw [peerOf_of_B h]; exact drop_reached (pb c) s

end Cert.KernelIdeal.Proto

end
-- ==== Proof.Slots.lean ====
/-
  The geometry of the two exchange buffers. Each is bf16[96, 32, 256] and is cut along its leading axis into 96 slots
  [s, :, :]; slot `s` is the unit-stride rectangle at offset (s, 0, 0) of sizes (1, 32, 256). The slots are pairwise disjoint
  (they differ in the leading coordinate) and cover the buffer (every element lies in the slot of its leading coordinate),
  so holding a buffer whole is holding its 96 slots. A slot viewed as [32, 256] (the leading unit axis dropped) has the
  same elements as the rectangle, and reading through one of the two views what was written through the other is the
  payload with the unit axis dropped or added.
-/
import proofs.«900999_g7700000000001000_dist_mlpseq_tp1d_rep_rep_b512_d256_h512_v7x_i4_f32_1_alg».proof.Proof.Proto
import Idealize.ShloMosaic.Lib.Pipeline.Value

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots' element sets -/

/-- A slot viewed as [32, 256] has the rectangle's elements: dropping the unit axis moves no element. -/
theorem sSlot_set (s : Fin 96) : (sSlot s).view.set = (slotRect s).set := by
  show (((sbufM).view.slice (slotRect s)).reshape S32x256 _).set = _
  rw [View.set_reshape]
  exact View.set_slice_whole cc0_scratch0 (slotRect s)

theorem rSlot_set (s : Fin 96) : (rSlot s).view.set = (slotRect s).set := by
  show (((rbufM).view.slice (slotRect s)).reshape S32x256 _).set = _
  rw [View.set_reshape]
  exact View.set_slice_whole cc0_scratch1 (slotRect s)

/-- A store through the whole buffer at slot `s`'s rectangle writes only the slot's elements; so does a load there read only them. -/
theorem sstore_sub (s : Fin 96) : ((sbufM).access (slotRect s)).setOn Finset.univ ⊆ (sSlot s).view.set := by
  rw [sSlot_set, View.setOn_univ]
  exact (View.set_slice_whole cc0_scratch0 (slotRect s)).le

theorem sload_sub (s : Fin 96) : (sbufM).view.setOn (slotRect s).toLoadRect.set ⊆ (sSlot s).view.set := by
  rw [sSlot_set]
  exact (Finset.map_refl (s := (slotRect s).set)).le

theorem rload_sub (s : Fin 96) : (rbufM).view.setOn (slotRect s).toLoadRect.set ⊆ (rSlot s).view.set := by
  rw [rSlot_set]
  exact (Finset.map_refl (s := (slotRect s).set)).le

/-- Two slots differ in the leading coordinate of every element. -/
theorem slotRect_disjoint {s t : Fin 96} (h : s ≠ t) : Disjoint (slotRect s).set (slotRect t).set := by
  have hv : s.val ≠ t.val := fun e => h (Fin.ext e)
  refine Rect.unit_disjoint (s := S96x32x256) (0 : Fin 3) ?_
  show s.val + 1 ≤ t.val ∨ t.val + 1 ≤ s.val
  omega

/-- Every element lies in the slot of its leading coordinate. -/
theorem slotRect_cover : (Finset.univ : Finset S96x32x256.Idx) = Finset.univ.biUnion fun s : Fin 96 => (slotRect s).set := by
  ext i
  simp only [Finset.mem_univ, Finset.mem_biUnion, true_and, true_iff]
  have h0 : (i 0).val < 96 := (i 0).isLt
  have h1 : (i 1).val < 32 := (i 1).isLt
  have h2 : (i 2).val < 256 := (i 2).isLt
  refine ⟨⟨(i 0).val, h0⟩, Rect.mem_set_unit.mpr fun a => ?_⟩
  fin_cases a
  · show (i 0).val ≤ (i 0).val ∧ (i 0).val < (i 0).val + 1
    omega
  · show 0 ≤ (i 1).val ∧ (i 1).val < 0 + 32
    omega
  · show 0 ≤ (i 2).val ∧ (i 2).val < 0 + 256
    omega

/-! ## A buffer whole is its 96 slots -/

/-- The whole send buffer is its 96 slots, held at the same contents: the slots are pairwise disjoint and cover it. -/
theorem sbuf_split (c : Dev nD) (f : Buf (Elt F) ((c : Thread nD τ).loc cc0_scratch0)) :
    ((((c : Thread nD τ).loc cc0_scratch0) ↦{fullShare} f) : sProp 𝕄) ⊣⊢ bigSep Finset.univ fun s : Fin 96 => sPts c s f := by
  have e := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 96))
    (fun s : Fin 96 => (slotRect s).set) (fun s _ t _ h => slotRect_disjoint h)
  rw [← slotRect_cover] at e
  refine BiEntails.of_eq (e.trans ?_)
  refine bigSep_congr fun s _ => ?_
  unfold sPts
  rw [sSlot_set]

/-- The same for the receive buffer. -/
theorem rbuf_split (c : Dev nD) (f : Buf (Elt F) ((c : Thread nD τ).loc cc0_scratch1)) :
    ((((c : Thread nD τ).loc cc0_scratch1) ↦{fullShare} f) : sProp 𝕄) ⊣⊢ bigSep Finset.univ fun s : Fin 96 => rPts c s f := by
  have e := pointsTo_biUnion (nD := nD) (τ := τ) (sig := sig) (Ix := Unit) (Val := Elt F) (Name := ℕ) (U := UU) (Lvl := ℕ)
    (ℓ := (c : Thread nD τ).loc cc0_scratch1) (q := fullShare) (f := f) (Finset.univ : Finset (Fin 96))
    (fun s : Fin 96 => (slotRect s).set) (fun s _ t _ h => slotRect_disjoint h)
  rw [← slotRect_cover] at e
  refine BiEntails.of_eq (e.trans ?_)
  refine bigSep_congr fun s _ => ?_
  unfold rPts
  rw [rSlot_set]

/-- The 96 slots, each at its own contents, are the whole buffer at the contents pieced together slot by slot. -/
theorem sbuf_join (c : Dev nD) :
    (bigSep Finset.univ fun s : Fin 96 => iprop(∃ f, sPts (F := F) c s f))
      ⊢ (∃ f : Buf (Elt F) ((c : Thread nD τ).loc cc0_scratch0), ((c : Thread nD τ).loc cc0_scratch0) ↦{fullShare} f : sProp 𝕄) := by
  have hj : ∀ g : Fin 96 → Buf (Elt F) ((c : Thread nD τ).loc cc0_scratch0),
      (bigSep Finset.univ fun s : Fin 96 => sPts (F := F) c s (g s))
        ⊢ (∃ f : Buf (Elt F) ((c : Thread nD τ).loc cc0_scratch0), ((c : Thread nD τ).loc cc0_scratch0) ↦{fullShare} f : sProp 𝕄) := by
    intro g
    have h := pointsTo_biUnion_join (nD := nD) (τ := τ) (sig := sig) (Ix := Unit) (Val := Elt F) (Name := ℕ) (U := UU) (Lvl := ℕ)
      (ℓ := (c : Thread nD τ).loc cc0_scratch0) (q := fullShare) (Finset.univ : Finset (Fin 96))
      (fun s : Fin 96 => (slotRect s).set) g (g 0) (fun s _ t _ h => slotRect_disjoint h)
    rw [← slotRect_cover] at h
    refine (Entails.of_eq (bigSep_congr fun s _ => ?_)).trans (h.trans ?_)
    · unfold sPts
      rw [sSlot_set]
    · iintro ⟨%g', -, H⟩
      iexists g'
      iexact H
  refine (bigSep_exists_pi (Finset.univ : Finset (Fin 96))
    (fun (s : Fin 96) (f : Buf (Elt F) ((c : Thread nD τ).loc cc0_scratch0)) => sPts (F := F) c s f)).trans ?_
  iintro ⟨%g, H⟩
  iapply (hj g)
  iexact H

/-- The same for the receive buffer. -/
theorem rbuf_join (c : Dev nD) :
    (bigSep Finset.univ fun s : Fin 96 => iprop(∃ f, rPts (F := F) c s f))
      ⊢ (∃ f : Buf (Elt F) ((c : Thread nD τ).loc cc0_scratch1), ((c : Thread nD τ).loc cc0_scratch1) ↦{fullShare} f : sProp 𝕄) := by
  have hj : ∀ g : Fin 96 → Buf (Elt F) ((c : Thread nD τ).loc cc0_scratch1),
      (bigSep Finset.univ fun s : Fin 96 => rPts (F := F) c s (g s))
        ⊢ (∃ f : Buf (Elt F) ((c : Thread nD τ).loc cc0_scratch1), ((c : Thread nD τ).loc cc0_scratch1) ↦{fullShare} f : sProp 𝕄) := by
    intro g
    have h := pointsTo_biUnion_join (nD := nD) (τ := τ) (sig := sig) (Ix := Unit) (Val := Elt F) (Name := ℕ) (U := UU) (Lvl := ℕ)
      (ℓ := (c : Thread nD τ).loc cc0_scratch1) (q := fullShare) (Finset.univ : Finset (Fin 96))
      (fun s : Fin 96 => (slotRect s).set) g (g 0) (fun s _ t _ h => slotRect_disjoint h)
    rw [← slotRect_cover] at h
    refine (Entails.of_eq (bigSep_congr fun s _ => ?_)).trans (h.trans ?_)
    · unfold rPts
      rw [rSlot_set]
    · iintro ⟨%g', -, H⟩
      iexists g'
      iexact H
  refine (bigSep_exists_pi (Finset.univ : Finset (Fin 96))
    (fun (s : Fin 96) (f : Buf (Elt F) ((c : Thread nD τ).loc cc0_scratch1)) => rPts (F := F) c s f)).trans ?_
  iintro ⟨%g, H⟩
  iapply (hj g)
  iexact H

/-! ## Reading through a slot -/

/-- A [32, 256] payload stored with a leading unit axis through slot `s`'s rectangle is what the slot's [32, 256] view reads back. -/
theorem read_stored (s : Fin 96) (f : (sbufM).view.ty.Contents (Elt F)) (v : Vec F S32x256 .bf16) :
    (sSlot s).view.read (Elt F) (((sbufM).access (slotRect s)).write (Elt F) f (shapeCast S1x32x256 v shapeCasts_S32x256_S1x32x256) Finset.univ) = v := by
  refine (Memref.read_squeeze_slice (Val := Elt F) (sbufM) (slotRect s) (fun _ => rfl) squeezes_S1x32x256_S32x256 shapeCasts_S1x32x256_S32x256 _).trans ?_
  have h2 : (sbufM).view.readAt (Elt F) (slotRect s).toLoadRect
      (((sbufM).access (slotRect s)).write (Elt F) f (shapeCast S1x32x256 v shapeCasts_S32x256_S1x32x256) Finset.univ)
      = shapeCast S1x32x256 v shapeCasts_S32x256_S1x32x256 :=
    View.read_write_univ (v := (sbufM).access (slotRect s)) f _
  rw [h2]
  exact shapeCast_shapeCast v _ _

/-- Writing a whole slot leaves nothing of what it held: the slot after a landing does not depend on the contents before. -/
theorem landed_congr (c : Dev nD) (s : Fin 96) (fd f₀ : Buf (Elt F) ((rSlot s).view.loc (c : Thread nD τ))) (v : Vec F S32x256 .bf16) :
    rPts (F := F) c s ((rSlot s).view.write (Elt F) fd v Finset.univ) = rPts c s ((rSlot s).view.write (Elt F) f₀ v Finset.univ) := by
  unfold rPts
  refine pointsTo_congr fun i hi => ?_
  exact View.write_congr (fun _ _ _ => rfl) fun hn => absurd hi hn

/-- A [32, 256] payload written through the slot's view is read back through the rectangle with a leading unit axis added. -/
theorem read_landed (s : Fin 96) (f₀ : (rbufM).view.ty.Contents (Elt F)) (v : Vec F S32x256 .bf16) :
    (rbufM).view.readAt (Elt F) (slotRect s).toLoadRect ((rSlot s).view.write (Elt F) f₀ v Finset.univ) = shapeCast S1x32x256 v shapeCasts_S32x256_S1x32x256 := by
  have h1 : shapeCast S32x256 ((rbufM).view.readAt (Elt F) (slotRect s).toLoadRect ((rSlot s).view.write (Elt F) f₀ v Finset.univ)) shapeCasts_S1x32x256_S32x256 = v :=
    (Memref.read_squeeze_slice (rbufM) (slotRect s) (fun _ => rfl) squeezes_S1x32x256_S32x256 shapeCasts_S1x32x256_S32x256 _).symm.trans
      (View.read_write_univ _ _)
  have h2 := shapeCast_shapeCast ((rbufM).view.readAt (Elt F) (slotRect s).toLoadRect ((rSlot s).view.write (Elt F) f₀ v Finset.univ))
    shapeCasts_S1x32x256_S32x256 shapeCasts_S32x256_S1x32x256
  rw [h1] at h2
  exact h2.symm

/-- Adding the unit axis and dropping it again is the identity, so what is received is the sent chunk narrowed and widened. -/
theorem recv_roundtrip (v : FVec F S32x256 .f32) :
    KVal.recvv (shapeCast S1x32x256 (truncf .bf16 v bitsLt_bf16_f32) shapeCasts_S32x256_S1x32x256) = extf .f32 (truncf .bf16 v bitsLt_bf16_f32) bitsLt_bf16_f32 := by
  unfold KVal.recvv
  rw [shapeCast_shapeCast]

/-- Every slot has the same DMA credit: it depends on the buffer, the shape and the element type only. -/
theorem credit_eq (s : Fin 96) (q : DmaSem sig) : (rSlot s).view.amount (.dma q) = NC := rfl

end Cert.KernelIdeal.Proto

end
-- ==== Proof.Steps.lean ====
/-
  The protocol's steps at our cells: a signal to a peer's barrier cell, the wait on one's own, a slot's remote copy, the
  waits on its send and receive cells, and the closing of a cell whose one round is over. Each is the rounds rule of its
  kind read at the schedule's tables, for an arbitrary slot and an arbitrary rest of the program.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The entry handshake -/

/-- The signal to the bit-0 peer's barrier cell pays its duty `false`: one unit off what the device owes. -/
theorem wp_sig_A (κ : ℕ) (c : Dev nD) {α : Type} {Q : α → sProp 𝕄} {k : PUnit → Prog (TpuEff nD τ sig (Elt F) Λ₀ .tc) α}
    (O : CellTallies nD τ sig Unit) (W : Waits sig Unit) :
    iprop(cellInv ER (rd m) κ (barCell (pa c)) ∗ owes (c : Thread nD τ) (O + tallyAt (barCell (pa c)) () 1) W
        ∗ dutyTok ER (barCell (pa c)) 0 false ∗ barPay (F := F) (pa c) false ∗ reached ER (barCell (pa c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((pa c : Dev nD) : Thread nD τ) barS (1#32).toNat) k) Q) :=
  Rounds.wp_signal 𝒱₀ ER (rd m) (c : Thread nD τ) none (dst := ((pa c : Dev nD) : Thread nD τ)) (sem := barS) (r := 0) (d := false) (κ := κ)
    (by rw [duties_bar]; exact Finset.mem_univ _) (amount_bar m (pa c) false) () O rfl

/-- The signal to the other peer's barrier cell pays its duty `true`. -/
theorem wp_sig_B (κ : ℕ) (c : Dev nD) {α : Type} {Q : α → sProp 𝕄} {k : PUnit → Prog (TpuEff nD τ sig (Elt F) Λ₀ .tc) α}
    (O : CellTallies nD τ sig Unit) (W : Waits sig Unit) :
    iprop(cellInv ER (rd m) κ (barCell (pb c)) ∗ owes (c : Thread nD τ) (O + tallyAt (barCell (pb c)) () 1) W
        ∗ dutyTok ER (barCell (pb c)) 0 true ∗ barPay (F := F) (pb c) true ∗ reached ER (barCell (pb c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((pb c : Dev nD) : Thread nD τ) barS (1#32).toNat) k) Q) :=
  Rounds.wp_signal 𝒱₀ ER (rd m) (c : Thread nD τ) none (dst := ((pb c : Dev nD) : Thread nD τ)) (sem := barS) (r := 0) (d := true) (κ := κ)
    (by rw [duties_bar]; exact Finset.mem_univ _) (amount_bar m (pb c) true) () O rfl

/-- The wait for both peers' signals takes the whole round of the device's barrier cell and hands it both payloads. -/
theorem wp_wait_bar (κ : ℕ) (c : Dev nD) {α : Type} {Q : α → sProp 𝕄} {k : PUnit → Prog (TpuEff nD τ sig (Elt F) Λ₀ .tc) α}
    (O : CellTallies nD τ sig Unit) (W : Waits sig Unit) (hO : ∀ g u, 0 < O g u → g.1.2 = .tc ∧ 2 ≤ lv g ()) :
    iprop(cellInv ER (rd m) κ (barCell c) ∗ cred (tallyAt (barCell c) () 2) ∗ owes (c : Thread nD τ) O W ∗ levAts L lv
        ∗ atPos ER (barCell c) 0 ∅ 0)
      ⊢ iprop(((owes (c : Thread nD τ) O (insert (SemLoc.reg barS, ()) W) ∗ atPos ER (barCell c) 1 ∅ 0
            ∗ barPay (F := F) c false ∗ barPay c true) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  have hw : ∀ K : PUnit → sProp 𝕄, wpE (defs₀ (F := F)) 𝒱₀ (c : Thread nD τ) none Set.univ (.semWait barS (2#32).toNat) K
      = waitSpec (c : Thread nD τ) Set.univ (.reg barS) (2#32).toNat K := fun K => wpE_semWait_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_bar]; rfl)
  rw [rest_bar] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_bar c O hO); iexact Hlev
    iexact Hat
  iintro ⟨HL, Hat, -, Hpay⟩
  iapply Hk
  isplitl [HL]; · iexact HL
  isplitl [Hat]; · iexact Hat
  iexact Hpay

/-! ## A slot's copy and its two waits -/

/-- Slot `s`'s copy to its peer `n`: the send slot, holding what the device sends in the slot, goes out against the send
    cell's duty; the peer's receive slot, rewritten with it, against the peer's receive cell's. -/
theorem wp_send_slot (κ₁ κ₂ : ℕ) (c : Dev nD) (s : Fin 96) (n : Dev nD) (hn : n = peerOf s c)
    {hsc : (rSlot s : Memref sig (Dev.tc n : Thread nD τ).2.kind .vmem S32x256 .bf16).view.ref.isScScratch = false}
    {hsrc : (sSlot s).view.WordExact} {hdst : (rSlot s).view.WordExact}
    {hsem : DmaTarget.Typed .vmem (.dma (recvSem s)) (.remote (Dev.tc n : Thread nD τ) (rSlot s) (.dma (sendSem s)) hsc)}
    {α : Type} {Q : α → sProp 𝕄} {k : PUnit → Prog (TpuEff nD τ sig (Elt F) Λ₀ .tc) α}
    (fs : Buf (Elt F) ((sSlot s).view.loc (c : Thread nD τ))) (fd : Buf (Elt F) ((rSlot s).view.loc (peerOf s c : Thread nD τ)))
    (O : CellTallies nD τ sig Unit) (W : Waits sig Unit) (hval : (sSlot s).view.read (Elt F) fs = sentS m c s) :
    iprop(cellInv ER (rd m) κ₁ (sendCell c s) ∗ cellInv ER (rd m) κ₂ (recvCell (peerOf s c) s)
        ∗ sPts c s fs ∗ rPts (peerOf s c) s fd
        ∗ owes (c : Thread nD τ) (O + tallyAt (recvCell (peerOf s c) s) () NC) W
        ∗ dutyTok ER (sendCell c s) 0 false ∗ reached ER (sendCell c s) 0
        ∗ dutyTok ER (recvCell (peerOf s c) s) 0 false ∗ reached ER (recvCell (peerOf s c) s) 0)
      ⊢ iprop(((cred (tallyAt (sendCell c s) () NC) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sSlot s) (.remote (Dev.tc n : Thread nD τ) (rSlot s) (.dma (sendSem s)) hsc) (.dma (recvSem s)) hsrc hdst hsem) k) Q) := by
  subst hn
  unfold sPts rPts
  exact Rounds.wp_send_pointsTo 𝒱₀ ER (rd m) (c : Thread nD τ) none (κ₁ := κ₁) (κ₂ := κ₂)
    (r₁ := 0) (r₂ := 0) (d₁ := false) (d₂ := false) (fd := fd)
    (by rw [duties_send]; exact Finset.mem_singleton_self _) (by rw [duties_recv]; exact Finset.mem_singleton_self _)
    () () NC rfl (amount_send m c s false) (amount_recv m (peerOf s c) s false) O rfl (W := W)
    (by rw [payload_send]; unfold sendPay sPts; exact exists_intro fs)
    (by rw [payload_recv]; unfold recvPay rPts landedBuf; rw [hval, peerOf_peerOf]; iintro H; iexists fd; iexact H)

/-- The wait for slot `s`'s departure: the send cell's round is over and the send slot comes back. -/
theorem wp_wait_send_slot (κ : ℕ) (c : Dev nD) (s : Fin 96) {α : Type} {Q : α → sProp 𝕄} {k : PUnit → Prog (TpuEff nD τ sig (Elt F) Λ₀ .tc) α}
    {hsrc : (rSlot s).view.WordExact} {hdst : (sSlot s).view.WordExact}
    (O : CellTallies nD τ sig Unit) (W : Waits sig Unit) (hO : ∀ g u, 0 < O g u → g.1.2 = .tc ∧ 1 ≤ lv g ()) :
    iprop(cellInv ER (rd m) κ (sendCell c s) ∗ cred (tallyAt (sendCell c s) () NC) ∗ owes (c : Thread nD τ) O W ∗ levAts L lv
        ∗ atPos ER (sendCell c s) 0 ∅ 0)
      ⊢ iprop(((owes (c : Thread nD τ) O (insert (SemLoc.dma (sendSem s), ()) W) ∗ atPos ER (sendCell c s) 1 ∅ 0
            ∗ sendPay (F := F) c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem s) (rSlot s) (sSlot s) hsrc hdst) k) Q) := by
  have hw : ∀ K : PUnit → sProp 𝕄, wpE (defs₀ (F := F)) 𝒱₀ (c : Thread nD τ) none Set.univ (.waitDma2 (sendSem s) (rSlot s) (sSlot s) hsrc hdst) K
      = waitSpec (c : Thread nD τ) Set.univ (.dma (sendSem s)) NC K := fun K => wpE_waitDma2_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_send, Nat.zero_add])
  rw [rest_send] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_low c (.dma (sendSem s)) (lv_send c s) O hO); iexact Hlev
    iexact Hat
  iintro ⟨HL, Hat, -, Hpay⟩
  iapply Hk
  isplitl [HL]; · iexact HL
  isplitl [Hat]; · iexact Hat
  iexact Hpay

/-- The wait for slot `s`'s landing: the receive cell's round is over and the receive slot comes, holding the peer's slot. -/
theorem wp_wait_recv_slot (κ : ℕ) (c : Dev nD) (s : Fin 96) {α : Type} {Q : α → sProp 𝕄} {k : PUnit → Prog (TpuEff nD τ sig (Elt F) Λ₀ .tc) α}
    {hsrc : (sSlot s).view.WordExact} {hdst : (rSlot s).view.WordExact}
    (O : CellTallies nD τ sig Unit) (W : Waits sig Unit)
    (hO : ∀ g u, 0 < O g u → g.1.2 = .tc ∧ lv (recvCell c s) () < lv g ()) :
    iprop(cellInv ER (rd m) κ (recvCell c s) ∗ cred (tallyAt (recvCell c s) () NC) ∗ owes (c : Thread nD τ) O W ∗ levAts L lv
        ∗ atPos ER (recvCell c s) 0 ∅ 0)
      ⊢ iprop(((owes (c : Thread nD τ) O (insert (SemLoc.dma (recvSem s), ()) W) ∗ atPos ER (recvCell c s) 1 ∅ 0
            ∗ recvPay m c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem s) (sSlot s) (rSlot s) hsrc hdst) k) Q) := by
  have hw : ∀ K : PUnit → sProp 𝕄, wpE (defs₀ (F := F)) 𝒱₀ (c : Thread nD τ) none Set.univ (.waitDma2 (recvSem s) (sSlot s) (rSlot s) hsrc hdst) K
      = waitSpec (c : Thread nD τ) Set.univ (.dma (recvSem s)) NC K := fun K => wpE_waitDma2_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_recv, Nat.zero_add])
  rw [rest_recv] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_recv c s O hO); iexact Hlev
    iexact Hat
  iintro ⟨HL, Hat, -, Hpay⟩
  iapply Hk
  isplitl [HL]; · iexact HL
  isplitl [Hat]; · iexact Hat
  iexact Hpay

/-! ## Closing a cell after its one round -/

/-- A send cell past round 0 has no duty left: its owner closes it and keeps the counter, at zero. -/
theorem close_send (κ : ℕ) (c : Dev nD) (s : Fin 96) :
    iprop(cellInv ER (rd m) κ (sendCell c s) ∗ atPos ER (sendCell c s) 1 ∅ 0) ⊢ (|={Set.univ}=> semVal (sendCell c s) 0 : sProp 𝕄) :=
  Rounds.cell_close ER (rd m) (Set.mem_univ κ) not_false (R := 1) (duties_later m (sendCell c s))

/-- Likewise a receive cell. -/
theorem close_recv (κ : ℕ) (c : Dev nD) (s : Fin 96) :
    iprop(cellInv ER (rd m) κ (recvCell c s) ∗ atPos ER (recvCell c s) 1 ∅ 0) ⊢ (|={Set.univ}=> semVal (recvCell c s) 0 : sProp 𝕄) :=
  Rounds.cell_close ER (rd m) (Set.mem_univ κ) not_false (R := 1) (duties_later m (recvCell c s))

end Cert.KernelIdeal.Proto

end
-- ==== Proof.Steps2.lean ====
/-
  Loads and stores of the two exchange buffers by a device that holds them slot by slot: the kernel reads and writes a
  slot through the whole buffer at the slot's rectangle, and the slot's own elements are all such an access touches.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Slots
import Idealize.ShloMosaic.Rules.Step

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The send buffer -/

/-- A load of slot `s`'s rectangle of the send buffer needs the slot's elements only, and gives them back. -/
theorem wp_load_dead_slot (c : Dev nD) (s : Fin 96) {hl : (sbufM).view.LoadsAt (slotRect s).toLoadRect}
    {α : Type} {Q : α → sProp 𝕄} {k : ((slotRect s).toLoadRect.shape.Idx → Elt F .bf16) → Prog (TpuEff nD τ sig (Elt F) Λ₀ .tc) α}
    (f : Buf (Elt F) ((sSlot s).view.loc (c : Thread nD τ))) :
    sPts (F := F) c s f
      ⊢ iprop((sPts c s f -∗ wp frame (wpE (defs₀ (F := F)) 𝒱₀ (c : Thread nD τ) none) Set.univ (k ((sbufM).view.readAt (Elt F) (slotRect s).toLoadRect f)) Q)
          -∗ wp frame (wpE (defs₀ (F := F)) 𝒱₀ (c : Thread nD τ) none) Set.univ (.op (.load sbufM (slotRect s).toLoadRect hl) k) Q) := by
  unfold sPts
  exact wp_load 𝒱₀ (c : Thread nD τ) none Set.univ (sload_sub s)

/-- A store of a [32, 256] payload, a unit axis added, at slot `s`'s rectangle of the send buffer rewrites the slot's elements
    only: the slot then reads as the payload. -/
theorem wp_store_slot (c : Dev nD) (s : Fin 96) {hx : ((sbufM).access (slotRect s)).Stores Finset.univ}
    {hm : (Finset.univ : Finset (slotRect s).shape.Idx) = Finset.univ ∨ ∀ a, (slotRect s).stride a = 1}
    {α : Type} {Q : α → sProp 𝕄} {k : PUnit → Prog (TpuEff nD τ sig (Elt F) Λ₀ .tc) α}
    (f : Buf (Elt F) ((sSlot s).view.loc (c : Thread nD τ))) (w : Vec F S32x256 .bf16) :
    sPts (F := F) c s f
      ⊢ iprop(((∃ f' : Buf (Elt F) ((sSlot s).view.loc (c : Thread nD τ)), ⌜(sSlot s).view.read (Elt F) f' = w⌝ ∗ sPts c s f') -∗ wp frame (wpE (defs₀ (F := F)) 𝒱₀ (c : Thread nD τ) none) Set.univ (k ⟨⟩) Q)
          -∗ wp frame (wpE (defs₀ (F := F)) 𝒱₀ (c : Thread nD τ) none) Set.univ (.op (.store sbufM (slotRect s) (shapeCast S1x32x256 w shapeCasts_S32x256_S1x32x256) Finset.univ hx hm) k) Q) := by
  unfold sPts
  refine (wp_store 𝒱₀ (c : Thread nD τ) none Set.univ (sstore_sub s)).trans (wand_mono_left (wand_mono_left ?_))
  iintro H
  iexists _
  isplitr
  · ipureintro; exact read_stored s f w
  · iexact H

/-! ## The receive buffer -/

/-- A load of slot `s`'s rectangle of the receive buffer after the peer's copy has landed reads the peer's slot, a unit axis added. -/
theorem wp_load_landed_slot (c : Dev nD) (s : Fin 96) {hl : (rbufM).view.LoadsAt (slotRect s).toLoadRect}
    {α : Type} {Q : α → sProp 𝕄} {k : ((slotRect s).toLoadRect.shape.Idx → Elt F .bf16) → Prog (TpuEff nD τ sig (Elt F) Λ₀ .tc) α}
    (f₀ : Buf (Elt F) ((rSlot s).view.loc (c : Thread nD τ))) :
    rPts (F := F) c s (landedBuf m c s f₀)
      ⊢ iprop((rPts c s (landedBuf m c s f₀) -∗ wp frame (wpE (defs₀ (F := F)) 𝒱₀ (c : Thread nD τ) none) Set.univ (k (shapeCast S1x32x256 (sentS m (peerOf s c) s) shapeCasts_S32x256_S1x32x256)) Q)
          -∗ wp frame (wpE (defs₀ (F := F)) 𝒱₀ (c : Thread nD τ) none) Set.univ (.op (.load rbufM (slotRect s).toLoadRect hl) k) Q) := by
  unfold rPts
  have h := wp_load 𝒱₀ (c : Thread nD τ) none Set.univ (defs := defs₀ (F := F)) (m := rbufM) (r := (slotRect s).toLoadRect) (hl := hl) (k := k) (Q := Q)
    (q := fullShare) (f := landedBuf m c s f₀) (Γ := .empty) (rload_sub s)
  rw [show (rbufM).view.readAt (Elt F) (slotRect s).toLoadRect (landedBuf m c s f₀)
      = shapeCast S1x32x256 (sentS m (peerOf s c) s) shapeCasts_S32x256_S1x32x256 from read_landed s f₀ _] at h
  exact h

end Cert.KernelIdeal.Proto

end
-- ==== Proof.Order.lean ====
/-
  The order of the slots. The body issues its 96 copies, and later waits for them, in one order: layer, then phase, then
  chunk. Position `k` holds slot `32 (k / 32) + 2 (k % 16) + (k / 16) % 2`, and slot `s` stands at position
  `32 (s / 32) + 16 (s % 2) + (s / 2) % 16`. The slots not yet reached at position `k` and those already passed split the
  96 slots, one slot moving across at each step; what a device still owes on its peers' receive cells is the sum over the
  slots not yet reached, and every such cell lies in a later block of 16 positions than any slot already waited for.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Positions and slots -/

/-- The slot at position `k`. -/
def slotAt (k : ℕ) : Fin 96 := ⟨(32 * (k / 32) + 2 * (k % 16) + (k / 16) % 2) % 96, Nat.mod_lt _ (by decide)⟩
/-- The position of slot `s`. -/
def ord (s : Fin 96) : ℕ := 32 * (s.val / 32) + 16 * (s.val % 2) + (s.val / 2) % 16

theorem slotAt_val (k : ℕ) : (slotAt k).val = (32 * (k / 32) + 2 * (k % 16) + (k / 16) % 2) % 96 := rfl

theorem ord_lt (s : Fin 96) : ord s < 96 := by
  have := s.isLt; unfold ord; omega

/-- Position `k`'s slot stands at position `k`: with `k = 32 a + 16 p + b` the slot is `32 a + 2 b + p`, whose layer is `a`,
    phase `p` and chunk `b`. A finite check over the 96 positions. -/
theorem ord_slotAt (k : ℕ) (hk : k < 96) : ord (slotAt k) = k := by
  have h : ∀ k : Fin 96, ord (slotAt k.val) = k.val := by decide
  exact h ⟨k, hk⟩

/-- And the slot at slot `s`'s position is `s`: the two maps are inverse bijections between slots and positions. -/
theorem slotAt_ord (s : Fin 96) : slotAt (ord s) = s := by
  revert s; decide

/-- A slot is position `k`'s exactly when it stands at `k`. -/
theorem eq_slotAt_iff (s : Fin 96) (k : ℕ) (hk : k < 96) : s = slotAt k ↔ ord s = k :=
  ⟨fun h => by rw [h, ord_slotAt k hk], fun h => by rw [← h, slotAt_ord]⟩

/-- The slots at position `k` or later, and those before it. -/
def pend (k : ℕ) : Finset (Fin 96) := Finset.univ.filter fun s => k ≤ ord s
def done (k : ℕ) : Finset (Fin 96) := Finset.univ.filter fun s => ord s < k
/-- The slots from position `j` up to, not including, position `k`. -/
def infl (j k : ℕ) : Finset (Fin 96) := Finset.univ.filter fun s => j ≤ ord s ∧ ord s < k

theorem mem_pend (k : ℕ) (s : Fin 96) : s ∈ pend k ↔ k ≤ ord s := by
  unfold pend; rw [Finset.mem_filter]; exact ⟨fun h => h.2, fun h => ⟨Finset.mem_univ _, h⟩⟩
theorem mem_done (k : ℕ) (s : Fin 96) : s ∈ done k ↔ ord s < k := by
  unfold done; rw [Finset.mem_filter]; exact ⟨fun h => h.2, fun h => ⟨Finset.mem_univ _, h⟩⟩
theorem mem_infl (j k : ℕ) (s : Fin 96) : s ∈ infl j k ↔ j ≤ ord s ∧ ord s < k := by
  unfold infl; rw [Finset.mem_filter]; exact ⟨fun h => h.2, fun h => ⟨Finset.mem_univ _, h⟩⟩

theorem pend_zero : pend 0 = Finset.univ :=
  Finset.eq_univ_of_forall fun s => (mem_pend 0 s).mpr (Nat.zero_le _)
theorem pend_full : pend 96 = ∅ :=
  Finset.eq_empty_of_forall_notMem fun s h => by have := (mem_pend 96 s).mp h; have := ord_lt s; omega
theorem done_zero : done 0 = ∅ :=
  Finset.eq_empty_of_forall_notMem fun s h => by have := (mem_done 0 s).mp h; omega
theorem done_full : done 96 = Finset.univ :=
  Finset.eq_univ_of_forall fun s => (mem_done 96 s).mpr (ord_lt s)
theorem infl_self (j : ℕ) : infl j j = ∅ :=
  Finset.eq_empty_of_forall_notMem fun s h => by have := (mem_infl j j s).mp h; omega

/-- One slot, position `k`'s, leaves the slots not yet reached at each step. -/
theorem pend_succ (k : ℕ) (hk : k < 96) : pend k = insert (slotAt k) (pend (k + 1)) := by
  ext s; rw [Finset.mem_insert, mem_pend, mem_pend, eq_slotAt_iff s k hk]; omega
theorem slotAt_notMem_pend (k : ℕ) (hk : k < 96) : slotAt k ∉ pend (k + 1) := fun h => by
  have := (mem_pend _ _).mp h; rw [ord_slotAt k hk] at this; omega
/-- And joins the slots already passed. -/
theorem done_succ (k : ℕ) (hk : k < 96) : done (k + 1) = insert (slotAt k) (done k) := by
  ext s; rw [Finset.mem_insert, mem_done, mem_done, eq_slotAt_iff s k hk]; omega
theorem slotAt_notMem_done (k : ℕ) (hk : k < 96) : slotAt k ∉ done k := fun h => by
  have := (mem_done _ _).mp h; rw [ord_slotAt k hk] at this; omega
theorem infl_succ_right (j k : ℕ) (hjk : j ≤ k) (hk : k < 96) : infl j (k + 1) = insert (slotAt k) (infl j k) := by
  ext s; rw [Finset.mem_insert, mem_infl, mem_infl, eq_slotAt_iff s k hk]; omega
theorem slotAt_notMem_infl_right (j k : ℕ) (hk : k < 96) : slotAt k ∉ infl j k := fun h => by
  have := (mem_infl _ _ _).mp h; rw [ord_slotAt k hk] at this; omega
theorem infl_succ_left (j k : ℕ) (hjk : j < k) (hk : k ≤ 96) : infl j k = insert (slotAt j) (infl (j + 1) k) := by
  ext s; rw [Finset.mem_insert, mem_infl, mem_infl, eq_slotAt_iff s j (by omega)]; omega
theorem slotAt_notMem_infl_left (j k : ℕ) (hj : j < 96) : slotAt j ∉ infl (j + 1) k := fun h => by
  have := (mem_infl _ _ _).mp h; rw [ord_slotAt j hj] at this; omega

theorem bigSep_pend_step (Φ : Fin 96 → sProp 𝕄) (k : ℕ) (hk : k < 96) :
    bigSep (pend k) Φ = iprop(Φ (slotAt k) ∗ bigSep (pend (k + 1)) Φ) := by
  rw [pend_succ k hk, bigSep_insert (slotAt_notMem_pend k hk)]; rfl
theorem bigSep_done_step (Φ : Fin 96 → sProp 𝕄) (k : ℕ) (hk : k < 96) :
    bigSep (done (k + 1)) Φ = iprop(bigSep (done k) Φ ∗ Φ (slotAt k)) := by
  rw [done_succ k hk, bigSep_insert (slotAt_notMem_done k hk)]
  exact Std.Commutative.comm (op := (BI.sep : sProp 𝕄 → _ → _)) _ _
theorem bigSep_infl_push (Φ : Fin 96 → sProp 𝕄) (j k : ℕ) (hjk : j ≤ k) (hk : k < 96) :
    bigSep (infl j (k + 1)) Φ = iprop(bigSep (infl j k) Φ ∗ Φ (slotAt k)) := by
  rw [infl_succ_right j k hjk hk, bigSep_insert (slotAt_notMem_infl_right j k hk)]
  exact Std.Commutative.comm (op := (BI.sep : sProp 𝕄 → _ → _)) _ _
theorem bigSep_infl_pop (Φ : Fin 96 → sProp 𝕄) (j k : ℕ) (hjk : j < k) (hk : k ≤ 96) :
    bigSep (infl j k) Φ = iprop(Φ (slotAt j) ∗ bigSep (infl (j + 1) k) Φ) := by
  rw [infl_succ_left j k hjk hk, bigSep_insert (slotAt_notMem_infl_left j k (by omega))]; rfl

/-! ## What is still owed on the peers' receive cells -/

/-- What device `c` still owes at position `k`: the credit of every slot not yet reached, on that slot's peer's receive cell. -/
def Opend (c : Dev nD) (k : ℕ) : CellTallies nD τ sig Unit := ∑ s ∈ pend k, tallyAt (recvCell (peerOf s c) s) () NC

theorem Opend_zero (c : Dev nD) : Opend c 0 = Osend c := by
  unfold Opend Osend; rw [pend_zero]
theorem Opend_full (c : Dev nD) : Opend c 96 = 0 := by
  unfold Opend; rw [pend_full]; exact Finset.sum_empty
theorem Opend_step (c : Dev nD) (k : ℕ) (hk : k < 96) :
    Opend c k = Opend c (k + 1) + tallyAt (recvCell (peerOf (slotAt k) c) (slotAt k)) () NC := by
  unfold Opend; rw [pend_succ k hk, Finset.sum_insert (slotAt_notMem_pend k hk), add_comm]

/-- A receive cell's level is 2 plus its slot's block of 16 positions. -/
theorem lv_recv_ord (c : Dev nD) (s : Fin 96) : lv (recvCell c s) () = 2 + ord s / 16 := by
  rw [lv_recv]; unfold ord; omega

/-- A positive entry of the sum comes from one of its summands. -/
theorem Opend_pos (c : Dev nD) (k : ℕ) {g : GSem nD τ sig} {u : Unit} (h : 0 < Opend c k g u) :
    ∃ s ∈ pend k, g = recvCell (peerOf s c) s := by
  by_contra hne
  have h0 : Opend c k g u = 0 := by
    unfold Opend
    rw [Finset.sum_apply, Finsupp.finset_sum_apply]
    refine Finset.sum_eq_zero fun s hs => ?_
    rw [tallyAt_apply, if_neg]
    exact fun hg => hne ⟨s, hs, hg.1⟩
  omega

theorem Opend_low (c : Dev nD) (k : ℕ) : ∀ g u, 0 < Opend c k g u → g.1.2 = .tc ∧ 1 ≤ lv g () := by
  intro g u h
  obtain ⟨s, _, rfl⟩ := Opend_pos c k h
  refine ⟨rfl, ?_⟩
  rw [lv_recv_ord]; omega
theorem Opend_bar (c : Dev nD) (k : ℕ) : ∀ g u, 0 < Opend c k g u → g.1.2 = .tc ∧ 2 ≤ lv g () := by
  intro g u h
  obtain ⟨s, _, rfl⟩ := Opend_pos c k h
  refine ⟨rfl, ?_⟩
  rw [lv_recv_ord]; omega
/-- Every slot not yet reached at `k` lies in a later block of 16 positions than position `j` when `k` is past `j`'s block. -/
theorem Opend_above (c : Dev nD) (j k : ℕ) (hj : j < 96) (h : 16 * (j / 16 + 1) ≤ k) :
    ∀ g u, 0 < Opend c k g u → g.1.2 = .tc ∧ lv (recvCell c (slotAt j)) () < lv g () := by
  intro g u hg
  obtain ⟨s, hs, rfl⟩ := Opend_pos c k hg
  refine ⟨rfl, ?_⟩
  have hks := (mem_pend k s).mp hs
  rw [lv_recv_ord, lv_recv_ord, ord_slotAt j hj]; omega

theorem O₁_eq (c : Dev nD) : O₁ c = Opend c 0 + tallyAt (barCell (pb c)) () 1 := by
  rw [Opend_zero]; rfl
/-- With one barrier unit still owed beside the slots: the extra cell is a barrier cell, at level 1. -/
theorem Opend_add_bar_low (c : Dev nD) (k : ℕ) (b : Dev nD) :
    ∀ g u, 0 < (Opend c k + tallyAt (barCell b) () 1) g u → g.1.2 = .tc ∧ 1 ≤ lv g () := by
  intro g u h
  rw [Pi.add_apply, Finsupp.add_apply] at h
  by_cases h1 : 0 < Opend c k g u
  · exact Opend_low c k g u h1
  · have h2 : 0 < tallyAt (barCell b) () 1 g u := by omega
    rw [tallyAt_apply] at h2
    by_cases hg : g = barCell b ∧ u = ()
    · rw [hg.1]; exact ⟨rfl, by rw [lv_bar]⟩
    · rw [if_neg hg] at h2; omega

end Cert.KernelIdeal.Proto

end
-- ==== Proof.Picks.lean ====
/-
  The bookkeeping of the exchange loop. The slots are copied in one order and waited for in the same order; with `k`
  copies issued and `j` waits done the per-slot resources sit in families over the slots not yet copied, the slots in
  flight and the slots done. Around one copy or one wait, the next slot in the order is taken out of, or put into, each
  family; the persistent families are read at a slot.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Order

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Entering the loop -/

/-- The send buffer held slot by slot at one contents is, slot by slot, held at some contents: no copy is issued yet. -/
theorem loop_init (c : Dev nD) (fs : Buf (Elt F) ((c : Thread nD τ).loc cc0_scratch0)) :
    (bigSep (Finset.univ) fun s : Fin 96 => sPts (F := F) c s fs) ⊢ (bigSep (pend 0) fun s : Fin 96 => iprop(∃ f, sPts (F := F) c s f)) := by
  rw [pend_zero]
  refine bigSep_mono fun s _ => ?_
  show sPts (F := F) c s fs ⊢ iprop(∃ f, sPts (F := F) c s f)
  iintro H
  iexists fs
  iexact H

omit [FloatOps F] in
theorem univ_to_pend0 (Φ : Fin 96 → sProp 𝕄) : bigSep Finset.univ Φ = bigSep (pend 0) Φ := by rw [pend_zero]
omit [FloatOps F] in
theorem emp_to_done0 (Φ : Fin 96 → sProp 𝕄) : (iprop(emp) : sProp 𝕄) = bigSep (done 0) Φ := by rw [done_zero]; rfl
omit [FloatOps F] in
theorem emp_to_infl (Φ : Fin 96 → sProp 𝕄) (j : ℕ) : (iprop(emp) : sProp 𝕄) = bigSep (infl j j) Φ := by rw [infl_self]; rfl

/-! ## Around one copy -/

/-- The next slot to copy, `slotAt k`, taken out of the four families over the slots not yet copied. -/
theorem pick_copy (c : Dev nD) (k : ℕ) (hk : k < 96) :
    iprop((bigSep (pend k) fun s : Fin 96 => iprop(∃ f, sPts (F := F) c s f)) ∗ (bigSep (pend k) fun s : Fin 96 => iprop(∃ f, rPts (F := F) (peerOf s c) s f))
        ∗ (bigSep (pend k) fun s : Fin 96 => dutyTok ER (sendCell c s) 0 false) ∗ (bigSep (pend k) fun s : Fin 96 => dutyTok ER (recvCell (peerOf s c) s) 0 false))
      ⊢ iprop(((∃ f, sPts (F := F) c (slotAt k) f) ∗ (∃ f, rPts (F := F) (peerOf (slotAt k) c) (slotAt k) f)
          ∗ dutyTok ER (sendCell c (slotAt k)) 0 false ∗ dutyTok ER (recvCell (peerOf (slotAt k) c) (slotAt k)) 0 false)
        ∗ ((bigSep (pend (k + 1)) fun s : Fin 96 => iprop(∃ f, sPts (F := F) c s f)) ∗ (bigSep (pend (k + 1)) fun s : Fin 96 => iprop(∃ f, rPts (F := F) (peerOf s c) s f))
          ∗ (bigSep (pend (k + 1)) fun s : Fin 96 => dutyTok ER (sendCell c s) 0 false) ∗ (bigSep (pend (k + 1)) fun s : Fin 96 => dutyTok ER (recvCell (peerOf s c) s) 0 false))) := by
  rw [bigSep_pend_step (fun s : Fin 96 => iprop(∃ f, sPts (F := F) c s f)) k hk, bigSep_pend_step (fun s : Fin 96 => iprop(∃ f, rPts (F := F) (peerOf s c) s f)) k hk,
    bigSep_pend_step (fun s : Fin 96 => dutyTok ER (sendCell c s) 0 false) k hk,
    bigSep_pend_step (fun s : Fin 96 => dutyTok ER (recvCell (peerOf s c) s) 0 false) k hk]
  iintro ⟨⟨H1, R1⟩, ⟨H2, R2⟩, ⟨H3, R3⟩, ⟨H4, R4⟩⟩
  isplitl [H1 H2 H3 H4]
  · isplitl [H1]; · iexact H1
    isplitl [H2]; · iexact H2
    isplitl [H3]; · iexact H3
    iexact H4
  · isplitl [R1]; · iexact R1
    isplitl [R2]; · iexact R2
    isplitl [R3]; · iexact R3
    iexact R4

omit [FloatOps F] in
/-- What the device owes with `k` copies issued is what it owes after the next one and that copy's credit. -/
theorem owes_step (c : Dev nD) (k : ℕ) (hk : k < 96) (W : Waits sig Unit) :
    (owes (c : Thread nD τ) (Opend c k) W : sProp 𝕄)
      ⊢ owes (c : Thread nD τ) (Opend c (k + 1) + tallyAt (recvCell (peerOf (slotAt k) c) (slotAt k)) () NC) W :=
  Entails.of_eq (by rw [← Opend_step c k hk])

/-- The send credit of the copy just issued joins those of the copies in flight. -/
theorem push_cred (c : Dev nD) (j k : ℕ) (hjk : j ≤ k) (hk : k < 96) :
    iprop((bigSep (infl j k) fun s : Fin 96 => cred (tallyAt (sendCell c s) () NC)) ∗ cred (tallyAt (sendCell c (slotAt k)) () NC))
      ⊢ ((bigSep (infl j (k + 1)) fun s : Fin 96 => cred (tallyAt (sendCell c s) () NC)) : sProp 𝕄) :=
  Entails.of_eq (bigSep_infl_push (fun s : Fin 96 => cred (tallyAt (sendCell c s) () NC)) j k hjk hk).symm

/-! ## Around one wait -/

/-- The next slot to wait for, `slotAt j`, taken out of the positions and receive credits of the slots not yet waited
    and of the send credits of the copies in flight. -/
theorem pick_wait (c : Dev nD) (j k : ℕ) (hjk : j < k) (hk : k ≤ 96) :
    iprop((bigSep (pend j) fun s : Fin 96 => atPos ER (sendCell c s) 0 ∅ 0) ∗ (bigSep (pend j) fun s : Fin 96 => atPos ER (recvCell c s) 0 ∅ 0)
        ∗ (bigSep (pend j) fun s : Fin 96 => cred (tallyAt (recvCell c s) () NC)) ∗ (bigSep (infl j k) fun s : Fin 96 => cred (tallyAt (sendCell c s) () NC)))
      ⊢ (iprop((atPos ER (sendCell c (slotAt j)) 0 ∅ 0 ∗ atPos ER (recvCell c (slotAt j)) 0 ∅ 0
          ∗ cred (tallyAt (recvCell c (slotAt j)) () NC) ∗ cred (tallyAt (sendCell c (slotAt j)) () NC))
        ∗ ((bigSep (pend (j + 1)) fun s : Fin 96 => atPos ER (sendCell c s) 0 ∅ 0) ∗ (bigSep (pend (j + 1)) fun s : Fin 96 => atPos ER (recvCell c s) 0 ∅ 0)
          ∗ (bigSep (pend (j + 1)) fun s : Fin 96 => cred (tallyAt (recvCell c s) () NC)) ∗ (bigSep (infl (j + 1) k) fun s : Fin 96 => cred (tallyAt (sendCell c s) () NC)))) : sProp 𝕄) := by
  have hj : j < 96 := by omega
  rw [bigSep_pend_step (fun s : Fin 96 => atPos ER (sendCell c s) 0 ∅ 0) j hj, bigSep_pend_step (fun s : Fin 96 => atPos ER (recvCell c s) 0 ∅ 0) j hj,
    bigSep_pend_step (fun s : Fin 96 => cred (tallyAt (recvCell c s) () NC)) j hj,
    bigSep_infl_pop (fun s : Fin 96 => cred (tallyAt (sendCell c s) () NC)) j k hjk hk]
  iintro ⟨⟨H1, R1⟩, ⟨H2, R2⟩, ⟨H3, R3⟩, ⟨H4, R4⟩⟩
  isplitl [H1 H2 H3 H4]
  · isplitl [H1]; · iexact H1
    isplitl [H2]; · iexact H2
    isplitl [H3]; · iexact H3
    iexact H4
  · isplitl [R1]; · iexact R1
    isplitl [R2]; · iexact R2
    isplitl [R3]; · iexact R3
    iexact R4

/-- The slot just waited for joins the slots done, with its two cells past their round and its two buffers' slots. -/
theorem archive (c : Dev nD) (j : ℕ) (hj : j < 96) :
    iprop((bigSep (done j) fun s : Fin 96 => iprop(atPos ER (sendCell c s) 1 ∅ 0 ∗ ∃ f, sPts (F := F) c s f))
        ∗ (bigSep (done j) fun s : Fin 96 => iprop(atPos ER (recvCell c s) 1 ∅ 0 ∗ ∃ f, rPts (F := F) c s f))
        ∗ (atPos ER (sendCell c (slotAt j)) 1 ∅ 0 ∗ ∃ f, sPts (F := F) c (slotAt j) f)
        ∗ (atPos ER (recvCell c (slotAt j)) 1 ∅ 0 ∗ ∃ f, rPts (F := F) c (slotAt j) f))
      ⊢ iprop((bigSep (done (j + 1)) fun s : Fin 96 => iprop(atPos ER (sendCell c s) 1 ∅ 0 ∗ ∃ f, sPts (F := F) c s f))
        ∗ (bigSep (done (j + 1)) fun s : Fin 96 => iprop(atPos ER (recvCell c s) 1 ∅ 0 ∗ ∃ f, rPts (F := F) c s f))) := by
  rw [bigSep_done_step (fun s : Fin 96 => iprop(atPos ER (sendCell c s) 1 ∅ 0 ∗ ∃ f, sPts (F := F) c s f)) j hj,
    bigSep_done_step (fun s : Fin 96 => iprop(atPos ER (recvCell c s) 1 ∅ 0 ∗ ∃ f, rPts (F := F) c s f)) j hj]
  iintro ⟨D1, D2, N1, N2⟩
  isplitl [D1 N1]
  · isplitl [D1]; · iexact D1
    iexact N1
  · isplitl [D2]; · iexact D2
    iexact N2

/-! ## The persistent families at a slot -/

section At
variable (κ : GSem nD τ sig → ℕ) (c : Dev nD) (s : Fin 96)

theorem inv_send_at : (bigSep (Finset.univ) fun s : Fin 96 => cellInv ER (rd m) (κ (sendCell c s)) (sendCell c s)) ⊢ cellInv ER (rd m) (κ (sendCell c s)) (sendCell c s) :=
  bigSep_elim (Finset.mem_univ s) (Φ := fun s : Fin 96 => cellInv ER (rd m) (κ (sendCell c s)) (sendCell c s))
theorem inv_recv_at : (bigSep (Finset.univ) fun s : Fin 96 => cellInv ER (rd m) (κ (recvCell c s)) (recvCell c s)) ⊢ cellInv ER (rd m) (κ (recvCell c s)) (recvCell c s) :=
  bigSep_elim (Finset.mem_univ s) (Φ := fun s : Fin 96 => cellInv ER (rd m) (κ (recvCell c s)) (recvCell c s))
theorem inv_peer_at : (bigSep (Finset.univ) fun s : Fin 96 => cellInv ER (rd m) (κ (recvCell (peerOf s c) s)) (recvCell (peerOf s c) s))
      ⊢ cellInv ER (rd m) (κ (recvCell (peerOf s c) s)) (recvCell (peerOf s c) s) :=
  bigSep_elim (Finset.mem_univ s) (Φ := fun s : Fin 96 => cellInv ER (rd m) (κ (recvCell (peerOf s c) s)) (recvCell (peerOf s c) s))
omit [FloatOps F] in
theorem reached_send_at : ((bigSep (Finset.univ) fun s : Fin 96 => reached ER (sendCell c s) 0) : sProp 𝕄) ⊢ reached ER (sendCell c s) 0 :=
  bigSep_elim (Finset.mem_univ s) (Φ := fun s : Fin 96 => reached ER (sendCell c s) 0)
omit [FloatOps F] in
theorem reached_recv_at : ((bigSep (Finset.univ) fun s : Fin 96 => reached ER (recvCell c s) 0) : sProp 𝕄) ⊢ reached ER (recvCell c s) 0 :=
  bigSep_elim (Finset.mem_univ s) (Φ := fun s : Fin 96 => reached ER (recvCell c s) 0)
omit [FloatOps F] in
theorem reached_peer_at : ((bigSep (Finset.univ) fun s : Fin 96 => reached ER (recvCell (peerOf s c) s) 0) : sProp 𝕄) ⊢ reached ER (recvCell (peerOf s c) s) 0 :=
  bigSep_elim (Finset.mem_univ s) (Φ := fun s : Fin 96 => reached ER (recvCell (peerOf s c) s) 0)

end At

end Cert.KernelIdeal.Proto

end
-- ==== Proof.Devs.lean ====
/-
  The devices the copies address. The body computes, for each of its two entry signals and each of its 96 copies, the
  logical id of the device it addresses, as an integer chain over the device's own id. The copy issued at position `k` of
  the order of the slots addresses the peer of that position's slot: the device with bit 0 flipped when the slot's chunk
  plus phase is even, and with both bits flipped otherwise. Each is a finite check over the four devices.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Order
import proofs.«900999_g7700000000001000_dist_mlpseq_tp1d_rep_rep_b512_d256_h512_v7x_i4_f32_1_alg».proof.Proof.Gen.KernelIdeal

namespace Cert.KernelIdeal.Proto

open Cert.KernelIdeal Cert.KernelIdeal.Gen Cert.KernelIdeal.KVal

open Idealize.ShloMosaic

open Lean in
/-- For position `k`: the device the chain of the copy at position `k` (the `k + 3`-rd chain of the body, after the two
    of the entry signals) computes from device `c` is slot `slotAt k`'s peer of `c`. -/
macro "dev_at_position " k:num : command => do
  let n := k.getNat
  let thm := mkIdent (Name.mkSimple s!"dev_at_{n}")
  let dev := mkIdent (Name.mkSimple s!"k0_dev{n + 3}")
  let devLt := mkIdent (Name.mkSimple s!"k0_dev{n + 3}_lt")
  `(theorem $thm (c : Dev nD) : (⟨$dev c, $devLt c⟩ : Dev nD) = peerOf (slotAt $k) c := by revert c; decide +kernel)

/-! ## The 96 positions -/

dev_at_position 0
dev_at_position 1
dev_at_position 2
dev_at_position 3
dev_at_position 4
dev_at_position 5
dev_at_position 6
dev_at_position 7
dev_at_position 8
dev_at_position 9
dev_at_position 10
dev_at_position 11
dev_at_position 12
dev_at_position 13
dev_at_position 14
dev_at_position 15
dev_at_position 16
dev_at_position 17
dev_at_position 18
dev_at_position 19
dev_at_position 20
dev_at_position 21
dev_at_position 22
dev_at_position 23
dev_at_position 24
dev_at_position 25
dev_at_position 26
dev_at_position 27
dev_at_position 28
dev_at_position 29
dev_at_position 30
dev_at_position 31
dev_at_position 32
dev_at_position 33
dev_at_position 34
dev_at_position 35
dev_at_position 36
dev_at_position 37
dev_at_position 38
dev_at_position 39
dev_at_position 40
dev_at_position 41
dev_at_position 42
dev_at_position 43
dev_at_position 44
dev_at_position 45
dev_at_position 46
dev_at_position 47
dev_at_position 48
dev_at_position 49
dev_at_position 50
dev_at_position 51
dev_at_position 52
dev_at_position 53
dev_at_position 54
dev_at_position 55
dev_at_position 56
dev_at_position 57
dev_at_position 58
dev_at_position 59
dev_at_position 60
dev_at_position 61
dev_at_position 62
dev_at_position 63
dev_at_position 64
dev_at_position 65
dev_at_position 66
dev_at_position 67
dev_at_position 68
dev_at_position 69
dev_at_position 70
dev_at_position 71
dev_at_position 72
dev_at_position 73
dev_at_position 74
dev_at_position 75
dev_at_position 76
dev_at_position 77
dev_at_position 78
dev_at_position 79
dev_at_position 80
dev_at_position 81
dev_at_position 82
dev_at_position 83
dev_at_position 84
dev_at_position 85
dev_at_position 86
dev_at_position 87
dev_at_position 88
dev_at_position 89
dev_at_position 90
dev_at_position 91
dev_at_position 92
dev_at_position 93
dev_at_position 94
dev_at_position 95

end Cert.KernelIdeal.Proto
-- ==== Proof.Close.lean ====
/-
  The end of a device's body. Each of its send and receive cells has consumed its one round, so the cell closes and hands
  back its counter at zero; the 96 slots of each exchange buffer, each back at some contents, are the whole buffer again.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Slots
import proofs.«900999_g7700000000001000_dist_mlpseq_tp1d_rep_rep_b512_d256_h512_v7x_i4_f32_1_alg».proof.Proof.Steps

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every send cell of a device closes, under one update. -/
theorem close_sends (κ : GSem nD τ sig → ℕ) (c : Dev nD) :
    iprop((bigSep Finset.univ fun s : Fin 96 => cellInv ER (rd m) (κ (sendCell c s)) (sendCell c s))
        ∗ (bigSep Finset.univ fun s : Fin 96 => atPos ER (sendCell c s) 1 ∅ 0))
      ⊢ (|={Set.univ}=> bigSep Finset.univ fun s : Fin 96 => semVal (sendCell c s) 0 : sProp 𝕄) := by
  rw [← bigSep_sep']
  exact (bigSep_mono fun s _ => close_send m (κ (sendCell c s)) c s).trans (bigSep_fupd _ _)

/-- Every receive cell likewise. -/
theorem close_recvs (κ : GSem nD τ sig → ℕ) (c : Dev nD) :
    iprop((bigSep Finset.univ fun s : Fin 96 => cellInv ER (rd m) (κ (recvCell c s)) (recvCell c s))
        ∗ (bigSep Finset.univ fun s : Fin 96 => atPos ER (recvCell c s) 1 ∅ 0))
      ⊢ (|={Set.univ}=> bigSep Finset.univ fun s : Fin 96 => semVal (recvCell c s) 0 : sProp 𝕄) := by
  rw [← bigSep_sep']
  exact (bigSep_mono fun s _ => close_recv m (κ (recvCell c s)) c s).trans (bigSep_fupd _ _)

/-- The end of device `c`'s body: its send and receive cells all at round 1 and every slot of both exchange buffers back give the
    two buffers whole and the cells' counters at zero, the cells closed. -/
theorem close_all (κ : GSem nD τ sig → ℕ) (c : Dev nD) :
    iprop((bigSep Finset.univ fun s : Fin 96 => cellInv ER (rd m) (κ (sendCell c s)) (sendCell c s))
        ∗ (bigSep Finset.univ fun s : Fin 96 => cellInv ER (rd m) (κ (recvCell c s)) (recvCell c s))
        ∗ (bigSep Finset.univ fun s : Fin 96 => iprop(atPos ER (sendCell c s) 1 ∅ 0 ∗ ∃ f, sPts (F := F) c s f))
        ∗ (bigSep Finset.univ fun s : Fin 96 => iprop(atPos ER (recvCell c s) 1 ∅ 0 ∗ ∃ f, rPts (F := F) c s f)))
      ⊢ |={Set.univ}=> Φ₁ (F := F) c := by
  rw [bigSep_sep', bigSep_sep']
  iintro ⟨HIs, HIr, ⟨Has, Hps⟩, ⟨Har, Hpr⟩⟩
  imod (close_sends m κ c) $$ [HIs Has] with Hvs
  · isplitl [HIs]; · iexact HIs
    iexact Has
  imod (close_recvs m κ c) $$ [HIr Har] with Hvr
  · isplitl [HIr]; · iexact HIr
    iexact Har
  imodintro
  unfold Φ₁
  isplitl [Hps]; · iapply (sbuf_join (F := F) c); iexact Hps
  isplitl [Hpr]; · iapply (rbuf_join (F := F) c); iexact Hpr
  isplitl [Hvs]; · iexact Hvs
  iexact Hvr

end Cert.KernelIdeal.Proto

end
-- ==== Proof.OutBuf.lean ====
/-
  The result block. The body leaves the result's staging buffer f32[512, 256] by sixteen stores, chunk `ch` (32 rows) at
  rows 32 ch … 32 ch + 31. The sixteen row bands are the blocks of size (32, 256) of the shape, so they cover it, and row
  `r` of the buffer lies in band `r / 32` at its row `r % 32`: whatever the buffer held before, it ends holding the
  block whose row `r` is row `r % 32` of chunk `r / 32`.
-/
import proofs.«900999_g7700000000001000_dist_mlpseq_tp1d_rep_rep_b512_d256_h512_v7x_i4_f32_1_alg».proof.Proof.Proto
import Idealize.ShloMosaic.Lib.Pipeline.Value
import Idealize.ShloMosaic.Lib.Tactic

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The block of sixteen chunks: row `r` is row `r % 32` of chunk `r / 32`. -/
def blockOf (w : Fin 16 → FVec F S32x256 .f32) : Vec F S512x256 .f32 := fun i =>
  w ⟨(i 0).val / 32, by have := (i 0).isLt; simp only [Matrix.cons_val_zero] at this; omega⟩
    (ValueIdx.ix2 (n0 := 32) (n1 := 256) ⟨(i 0).val % 32, Nat.mod_lt _ (by decide)⟩ (i 1))

/-- Row `32 ch + r` (`r < 32`) of the block is row `r` of chunk `ch`: the quotient by 32 is `ch`, the remainder `r`. -/
theorem chunk_row (w : Fin 16 → FVec F S32x256 .f32) (ch : Fin 16) (x : S32x256.Idx) (a : ℕ) (b : Fin 256)
    (ha : a = 32 * ch.val + (x 0).val) (hb : b.val = (x 1).val) (h1 : a / 32 < 16) (h2 : a % 32 < 32) :
    w ch x = w ⟨a / 32, h1⟩ (ValueIdx.ix2 (n0 := 32) (n1 := 256) ⟨a % 32, h2⟩ b) := by
  have hx : (x 0).val < 32 := ValueIdx.idx2_lt0 x
  have e1 : (⟨a / 32, h1⟩ : Fin 16) = ch := Fin.ext (by show a / 32 = ch.val; omega)
  have e2 : ValueIdx.ix2 (n0 := 32) (n1 := 256) ⟨a % 32, h2⟩ b = x := by
    have e0 : (⟨a % 32, h2⟩ : Fin 32) = x 0 := Fin.ext (by show a % 32 = (x 0).val; omega)
    have eb : b = x 1 := Fin.ext hb
    rw [e0, eb]
    exact (ValueIdx.eq_ix2 x).symm
  rw [e1, e2]

/-- What the sixteen stores leave, the last store first in the list, over any prior contents: the block of the sixteen payloads. -/
theorem out_writes (f7 : (Memref.whole cc0_stg7_0 : Memref sig .tc .vmem S512x256 .f32).view.ty.Contents (Elt F)) (w : Fin 16 → FVec F S32x256 .f32) :
    (Memref.whole cc0_stg7_0 : Memref sig .tc .vmem S512x256 .f32).view.writes (Elt F) f7
      [⟨Rect.unit (s := S512x256) ![480, 0] S32x256.size inb_S512x256_S32x256_480_0, w 15⟩,
      ⟨Rect.unit (s := S512x256) ![448, 0] S32x256.size inb_S512x256_S32x256_448_0, w 14⟩,
      ⟨Rect.unit (s := S512x256) ![416, 0] S32x256.size inb_S512x256_S32x256_416_0, w 13⟩,
      ⟨Rect.unit (s := S512x256) ![384, 0] S32x256.size inb_S512x256_S32x256_384_0, w 12⟩,
      ⟨Rect.unit (s := S512x256) ![352, 0] S32x256.size inb_S512x256_S32x256_352_0, w 11⟩,
      ⟨Rect.unit (s := S512x256) ![320, 0] S32x256.size inb_S512x256_S32x256_320_0, w 10⟩,
      ⟨Rect.unit (s := S512x256) ![288, 0] S32x256.size inb_S512x256_S32x256_288_0, w 9⟩,
      ⟨Rect.unit (s := S512x256) ![256, 0] S32x256.size inb_S512x256_S32x256_256_0, w 8⟩,
      ⟨Rect.unit (s := S512x256) ![224, 0] S32x256.size inb_S512x256_S32x256_224_0, w 7⟩,
      ⟨Rect.unit (s := S512x256) ![192, 0] S32x256.size inb_S512x256_S32x256_192_0, w 6⟩,
      ⟨Rect.unit (s := S512x256) ![160, 0] S32x256.size inb_S512x256_S32x256_160_0, w 5⟩,
      ⟨Rect.unit (s := S512x256) ![128, 0] S32x256.size inb_S512x256_S32x256_128_0, w 4⟩,
      ⟨Rect.unit (s := S512x256) ![96, 0] S32x256.size inb_S512x256_S32x256_96_0, w 3⟩,
      ⟨Rect.unit (s := S512x256) ![64, 0] S32x256.size inb_S512x256_S32x256_64_0, w 2⟩,
      ⟨Rect.unit (s := S512x256) ![32, 0] S32x256.size inb_S512x256_S32x256_32_0, w 1⟩,
      ⟨Rect.unit (s := S512x256) ![0, 0] S32x256.size inb_S512x256_S32x256_0_0, w 0⟩]
      = blockOf w := by
  funext i
  refine (congrFun (View.read_whole (Val := Elt F) cc0_stg7_0 _) i).symm.trans ?_
  refine View.read_writes_apply_of_pieces (v := (Memref.whole cc0_stg7_0 : Memref sig .tc .vmem S512x256 .f32).view) (f := f7) (blockOf w) _ ?hG i ?hcov
  case hcov =>
    exact View.cover_of_tiled _ ![32, 256] rfl i
  case hG =>
    intro p hp
    simp only [List.mem_cons, List.not_mem_nil, or_false] at hp
    rcases hp with rfl | rfl | rfl | rfl | rfl | rfl | rfl | rfl | rfl | rfl | rfl | rfl | rfl | rfl | rfl | rfl
    · intro x
      exact chunk_row w 15 x _ _ (by show 480 + 1 * (x 0).val = 32 * 15 + (x 0).val; omega) (by show 0 + 1 * (x 1).val = (x 1).val; omega) _ _
    · intro x
      exact chunk_row w 14 x _ _ (by show 448 + 1 * (x 0).val = 32 * 14 + (x 0).val; omega) (by show 0 + 1 * (x 1).val = (x 1).val; omega) _ _
    · intro x
      exact chunk_row w 13 x _ _ (by show 416 + 1 * (x 0).val = 32 * 13 + (x 0).val; omega) (by show 0 + 1 * (x 1).val = (x 1).val; omega) _ _
    · intro x
      exact chunk_row w 12 x _ _ (by show 384 + 1 * (x 0).val = 32 * 12 + (x 0).val; omega) (by show 0 + 1 * (x 1).val = (x 1).val; omega) _ _
    · intro x
      exact chunk_row w 11 x _ _ (by show 352 + 1 * (x 0).val = 32 * 11 + (x 0).val; omega) (by show 0 + 1 * (x 1).val = (x 1).val; omega) _ _
    · intro x
      exact chunk_row w 10 x _ _ (by show 320 + 1 * (x 0).val = 32 * 10 + (x 0).val; omega) (by show 0 + 1 * (x 1).val = (x 1).val; omega) _ _
    · intro x
      exact chunk_row w 9 x _ _ (by show 288 + 1 * (x 0).val = 32 * 9 + (x 0).val; omega) (by show 0 + 1 * (x 1).val = (x 1).val; omega) _ _
    · intro x
      exact chunk_row w 8 x _ _ (by show 256 + 1 * (x 0).val = 32 * 8 + (x 0).val; omega) (by show 0 + 1 * (x 1).val = (x 1).val; omega) _ _
    · intro x
      exact chunk_row w 7 x _ _ (by show 224 + 1 * (x 0).val = 32 * 7 + (x 0).val; omega) (by show 0 + 1 * (x 1).val = (x 1).val; omega) _ _
    · intro x
      exact chunk_row w 6 x _ _ (by show 192 + 1 * (x 0).val = 32 * 6 + (x 0).val; omega) (by show 0 + 1 * (x 1).val = (x 1).val; omega) _ _
    · intro x
      exact chunk_row w 5 x _ _ (by show 160 + 1 * (x 0).val = 32 * 5 + (x 0).val; omega) (by show 0 + 1 * (x 1).val = (x 1).val; omega) _ _
    · intro x
      exact chunk_row w 4 x _ _ (by show 128 + 1 * (x 0).val = 32 * 4 + (x 0).val; omega) (by show 0 + 1 * (x 1).val = (x 1).val; omega) _ _
    · intro x
      exact chunk_row w 3 x _ _ (by show 96 + 1 * (x 0).val = 32 * 3 + (x 0).val; omega) (by show 0 + 1 * (x 1).val = (x 1).val; omega) _ _
    · intro x
      exact chunk_row w 2 x _ _ (by show 64 + 1 * (x 0).val = 32 * 2 + (x 0).val; omega) (by show 0 + 1 * (x 1).val = (x 1).val; omega) _ _
    · intro x
      exact chunk_row w 1 x _ _ (by show 32 + 1 * (x 0).val = 32 * 1 + (x 0).val; omega) (by show 0 + 1 * (x 1).val = (x 1).val; omega) _ _
    · intro x
      exact chunk_row w 0 x _ _ (by show 0 + 1 * (x 0).val = 32 * 0 + (x 0).val; omega) (by show 0 + 1 * (x 1).val = (x 1).val; omega) _ _

/-- The same with the sixteen payloads named one by one. -/
theorem out_writes16 (f7 : (Memref.whole cc0_stg7_0 : Memref sig .tc .vmem S512x256 .f32).view.ty.Contents (Elt F)) (w0 w1 w2 w3 w4 w5 w6 w7 w8 w9 w10 w11 w12 w13 w14 w15 : FVec F S32x256 .f32) :
    (Memref.whole cc0_stg7_0 : Memref sig .tc .vmem S512x256 .f32).view.writes (Elt F) f7
      [⟨Rect.unit (s := S512x256) ![480, 0] S32x256.size inb_S512x256_S32x256_480_0, w15⟩,
      ⟨Rect.unit (s := S512x256) ![448, 0] S32x256.size inb_S512x256_S32x256_448_0, w14⟩,
      ⟨Rect.unit (s := S512x256) ![416, 0] S32x256.size inb_S512x256_S32x256_416_0, w13⟩,
      ⟨Rect.unit (s := S512x256) ![384, 0] S32x256.size inb_S512x256_S32x256_384_0, w12⟩,
      ⟨Rect.unit (s := S512x256) ![352, 0] S32x256.size inb_S512x256_S32x256_352_0, w11⟩,
      ⟨Rect.unit (s := S512x256) ![320, 0] S32x256.size inb_S512x256_S32x256_320_0, w10⟩,
      ⟨Rect.unit (s := S512x256) ![288, 0] S32x256.size inb_S512x256_S32x256_288_0, w9⟩,
      ⟨Rect.unit (s := S512x256) ![256, 0] S32x256.size inb_S512x256_S32x256_256_0, w8⟩,
      ⟨Rect.unit (s := S512x256) ![224, 0] S32x256.size inb_S512x256_S32x256_224_0, w7⟩,
      ⟨Rect.unit (s := S512x256) ![192, 0] S32x256.size inb_S512x256_S32x256_192_0, w6⟩,
      ⟨Rect.unit (s := S512x256) ![160, 0] S32x256.size inb_S512x256_S32x256_160_0, w5⟩,
      ⟨Rect.unit (s := S512x256) ![128, 0] S32x256.size inb_S512x256_S32x256_128_0, w4⟩,
      ⟨Rect.unit (s := S512x256) ![96, 0] S32x256.size inb_S512x256_S32x256_96_0, w3⟩,
      ⟨Rect.unit (s := S512x256) ![64, 0] S32x256.size inb_S512x256_S32x256_64_0, w2⟩,
      ⟨Rect.unit (s := S512x256) ![32, 0] S32x256.size inb_S512x256_S32x256_32_0, w1⟩,
      ⟨Rect.unit (s := S512x256) ![0, 0] S32x256.size inb_S512x256_S32x256_0_0, w0⟩]
      = blockOf ![w0, w1, w2, w3, w4, w5, w6, w7, w8, w9, w10, w11, w12, w13, w14, w15] :=
  out_writes f7 ![w0, w1, w2, w3, w4, w5, w6, w7, w8, w9, w10, w11, w12, w13, w14, w15]

/-- With the sixteen chunks of device `c`'s result as payloads it is the device's result block. -/
theorem out_is_outAt (c : Dev nD) (f7 : (Memref.whole cc0_stg7_0 : Memref sig .tc .vmem S512x256 .f32).view.ty.Contents (Elt F)) :
    (Memref.whole cc0_stg7_0 : Memref sig .tc .vmem S512x256 .f32).view.writes (Elt F) f7
      [⟨Rect.unit (s := S512x256) ![480, 0] S32x256.size inb_S512x256_S32x256_480_0, outChunk m c 15⟩,
      ⟨Rect.unit (s := S512x256) ![448, 0] S32x256.size inb_S512x256_S32x256_448_0, outChunk m c 14⟩,
      ⟨Rect.unit (s := S512x256) ![416, 0] S32x256.size inb_S512x256_S32x256_416_0, outChunk m c 13⟩,
      ⟨Rect.unit (s := S512x256) ![384, 0] S32x256.size inb_S512x256_S32x256_384_0, outChunk m c 12⟩,
      ⟨Rect.unit (s := S512x256) ![352, 0] S32x256.size inb_S512x256_S32x256_352_0, outChunk m c 11⟩,
      ⟨Rect.unit (s := S512x256) ![320, 0] S32x256.size inb_S512x256_S32x256_320_0, outChunk m c 10⟩,
      ⟨Rect.unit (s := S512x256) ![288, 0] S32x256.size inb_S512x256_S32x256_288_0, outChunk m c 9⟩,
      ⟨Rect.unit (s := S512x256) ![256, 0] S32x256.size inb_S512x256_S32x256_256_0, outChunk m c 8⟩,
      ⟨Rect.unit (s := S512x256) ![224, 0] S32x256.size inb_S512x256_S32x256_224_0, outChunk m c 7⟩,
      ⟨Rect.unit (s := S512x256) ![192, 0] S32x256.size inb_S512x256_S32x256_192_0, outChunk m c 6⟩,
      ⟨Rect.unit (s := S512x256) ![160, 0] S32x256.size inb_S512x256_S32x256_160_0, outChunk m c 5⟩,
      ⟨Rect.unit (s := S512x256) ![128, 0] S32x256.size inb_S512x256_S32x256_128_0, outChunk m c 4⟩,
      ⟨Rect.unit (s := S512x256) ![96, 0] S32x256.size inb_S512x256_S32x256_96_0, outChunk m c 3⟩,
      ⟨Rect.unit (s := S512x256) ![64, 0] S32x256.size inb_S512x256_S32x256_64_0, outChunk m c 2⟩,
      ⟨Rect.unit (s := S512x256) ![32, 0] S32x256.size inb_S512x256_S32x256_32_0, outChunk m c 1⟩,
      ⟨Rect.unit (s := S512x256) ![0, 0] S32x256.size inb_S512x256_S32x256_0_0, outChunk m c 0⟩]
      = outAt m c :=
  out_writes f7 (outChunk m c)

end Cert.KernelIdeal.Proto

end
-- ==== Proof.Finish.lean ====
/-
  The end of a device's body. Every slot has been copied and waited for: the device's send and receive cells are past
  their one round and close with their counters at zero, the two exchange buffers are whole again, nothing is owed, the
  staged inputs are as they were, and the result buffer, written chunk by chunk, holds the device's result block.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Order
import proofs.«900999_g7700000000001000_dist_mlpseq_tp1d_rep_rep_b512_d256_h512_v7x_i4_f32_1_alg».proof.Proof.Picks
import proofs.«900999_g7700000000001000_dist_mlpseq_tp1d_rep_rep_b512_d256_h512_v7x_i4_f32_1_alg».proof.Proof.Close
import proofs.«900999_g7700000000001000_dist_mlpseq_tp1d_rep_rep_b512_d256_h512_v7x_i4_f32_1_alg».proof.Proof.OutBuf

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device's body ends with: the exchange buffers whole and its own cells closed (`Φ₁`), nothing owed, the staged
    inputs unchanged and the result's staging buffer at the device's result block. -/
def bodyPost (c : Dev nD) : sProp 𝕄 :=
  iprop(Φ₁ (F := F) c ∗ (∃ W', owes (c : Thread nD τ) 0 W')
    ∗ (((c : Thread nD τ).loc cc0_stg0_0) ↦{fullShare} stg0 m c) ∗ (((c : Thread nD τ).loc cc0_stg1_0) ↦{fullShare} stg1 m c)
    ∗ (((c : Thread nD τ).loc cc0_stg2_0) ↦{fullShare} stg2 m c) ∗ (((c : Thread nD τ).loc cc0_stg3_0) ↦{fullShare} stg3 m c)
    ∗ (((c : Thread nD τ).loc cc0_stg4_0) ↦{fullShare} stg4 m c) ∗ (((c : Thread nD τ).loc cc0_stg5_0) ↦{fullShare} stg5 m c)
    ∗ (((c : Thread nD τ).loc cc0_stg6_0) ↦{fullShare} stg6 m c) ∗ (((c : Thread nD τ).loc cc0_stg7_0) ↦{fullShare} outAt m c))

/-- From the loop's exit to the body's end: with all 96 slots done the cells close and the buffers join (`close_all`), the
    owed tally over no pending slot is zero, and the sixteen chunk writes make the result block. -/
theorem finish (κ : GSem nD τ sig → ℕ) (c : Dev nD) (W' : Waits sig Unit)
    (f7 : (Memref.whole cc0_stg7_0 : Memref sig .tc .vmem S512x256 .f32).view.ty.Contents (Elt F)) :
    iprop((bigSep Finset.univ fun s : Fin 96 => cellInv ER (rd m) (κ (sendCell c s)) (sendCell c s))
        ∗ (bigSep Finset.univ fun s : Fin 96 => cellInv ER (rd m) (κ (recvCell c s)) (recvCell c s))
        ∗ (bigSep (done 96) fun s : Fin 96 => iprop(atPos ER (sendCell c s) 1 ∅ 0 ∗ ∃ f, sPts (F := F) c s f))
        ∗ (bigSep (done 96) fun s : Fin 96 => iprop(atPos ER (recvCell c s) 1 ∅ 0 ∗ ∃ f, rPts (F := F) c s f))
        ∗ owes (c : Thread nD τ) (Opend c 96) W'
        ∗ ((Memref.whole cc0_stg0_0 : Memref sig .tc .vmem S512x256 .f32).view.loc (c : Thread nD τ) ↦{fullShare} stg0 m c)
        ∗ ((Memref.whole cc0_stg1_0 : Memref sig .tc .vmem S256x512 .f32).view.loc (c : Thread nD τ) ↦{fullShare} stg1 m c)
        ∗ ((Memref.whole cc0_stg2_0 : Memref sig .tc .vmem S512x256 .f32).view.loc (c : Thread nD τ) ↦{fullShare} stg2 m c)
        ∗ ((Memref.whole cc0_stg3_0 : Memref sig .tc .vmem S256x512 .f32).view.loc (c : Thread nD τ) ↦{fullShare} stg3 m c)
        ∗ ((Memref.whole cc0_stg4_0 : Memref sig .tc .vmem S512x256 .f32).view.loc (c : Thread nD τ) ↦{fullShare} stg4 m c)
        ∗ ((Memref.whole cc0_stg5_0 : Memref sig .tc .vmem S256x512 .f32).view.loc (c : Thread nD τ) ↦{fullShare} stg5 m c)
        ∗ ((Memref.whole cc0_stg6_0 : Memref sig .tc .vmem S512x256 .f32).view.loc (c : Thread nD τ) ↦{fullShare} stg6 m c)
        ∗ ((Memref.whole cc0_stg7_0 : Memref sig .tc .vmem S512x256 .f32).view.loc (c : Thread nD τ) ↦{fullShare}
          ((Memref.whole cc0_stg7_0 : Memref sig .tc .vmem S512x256 .f32).view.writes (Elt F) f7
           [⟨Rect.unit (s := S512x256) ![480, 0] S32x256.size inb_S512x256_S32x256_480_0, outChunk m c 15⟩,
            ⟨Rect.unit (s := S512x256) ![448, 0] S32x256.size inb_S512x256_S32x256_448_0, outChunk m c 14⟩,
            ⟨Rect.unit (s := S512x256) ![416, 0] S32x256.size inb_S512x256_S32x256_416_0, outChunk m c 13⟩,
            ⟨Rect.unit (s := S512x256) ![384, 0] S32x256.size inb_S512x256_S32x256_384_0, outChunk m c 12⟩,
            ⟨Rect.unit (s := S512x256) ![352, 0] S32x256.size inb_S512x256_S32x256_352_0, outChunk m c 11⟩,
            ⟨Rect.unit (s := S512x256) ![320, 0] S32x256.size inb_S512x256_S32x256_320_0, outChunk m c 10⟩,
            ⟨Rect.unit (s := S512x256) ![288, 0] S32x256.size inb_S512x256_S32x256_288_0, outChunk m c 9⟩,
            ⟨Rect.unit (s := S512x256) ![256, 0] S32x256.size inb_S512x256_S32x256_256_0, outChunk m c 8⟩,
            ⟨Rect.unit (s := S512x256) ![224, 0] S32x256.size inb_S512x256_S32x256_224_0, outChunk m c 7⟩,
            ⟨Rect.unit (s := S512x256) ![192, 0] S32x256.size inb_S512x256_S32x256_192_0, outChunk m c 6⟩,
            ⟨Rect.unit (s := S512x256) ![160, 0] S32x256.size inb_S512x256_S32x256_160_0, outChunk m c 5⟩,
            ⟨Rect.unit (s := S512x256) ![128, 0] S32x256.size inb_S512x256_S32x256_128_0, outChunk m c 4⟩,
            ⟨Rect.unit (s := S512x256) ![96, 0] S32x256.size inb_S512x256_S32x256_96_0, outChunk m c 3⟩,
            ⟨Rect.unit (s := S512x256) ![64, 0] S32x256.size inb_S512x256_S32x256_64_0, outChunk m c 2⟩,
            ⟨Rect.unit (s := S512x256) ![32, 0] S32x256.size inb_S512x256_S32x256_32_0, outChunk m c 1⟩,
            ⟨Rect.unit (s := S512x256) ![0, 0] S32x256.size inb_S512x256_S32x256_0_0, outChunk m c 0⟩])))
      ⊢ |={Set.univ}=> bodyPost m c := by
  rw [done_full, Opend_full, out_is_outAt]
  iintro ⟨HIs, HIr, HDs, HDr, HL, H0, H1, H2, H3, H4, H5, H6, H7⟩
  imod (close_all m κ c) $$ [HIs HIr HDs HDr] with HΦ
  · isplitl [HIs]; · iexact HIs
    isplitl [HIr]; · iexact HIr
    isplitl [HDs]; · iexact HDs
    iexact HDr
  imodintro
  unfold bodyPost
  isplitl [HΦ]; · iexact HΦ
  isplitl [HL]; · iexists W'; iexact HL
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Proto

end
-- ==== Proof.Body.lean ====
/-
  One device's body, stepped from its ghost state: the entry handshake, then per slot the store of the narrowed chunk, the
  copy into the peer's receive slot, and later the two waits and the read of what landed.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Hand
import proofs.«900999_g7700000000001000_dist_mlpseq_tp1d_rep_rep_b512_d256_h512_v7x_i4_f32_1_alg».proof.Proof.Slots
import proofs.«900999_g7700000000001000_dist_mlpseq_tp1d_rep_rep_b512_d256_h512_v7x_i4_f32_1_alg».proof.Proof.Steps
import proofs.«900999_g7700000000001000_dist_mlpseq_tp1d_rep_rep_b512_d256_h512_v7x_i4_f32_1_alg».proof.Proof.Steps2
import proofs.«900999_g7700000000001000_dist_mlpseq_tp1d_rep_rep_b512_d256_h512_v7x_i4_f32_1_alg».proof.Proof.Order
import proofs.«900999_g7700000000001000_dist_mlpseq_tp1d_rep_rep_b512_d256_h512_v7x_i4_f32_1_alg».proof.Proof.Picks
import proofs.«900999_g7700000000001000_dist_mlpseq_tp1d_rep_rep_b512_d256_h512_v7x_i4_f32_1_alg».proof.Proof.Devs
import proofs.«900999_g7700000000001000_dist_mlpseq_tp1d_rep_rep_b512_d256_h512_v7x_i4_f32_1_alg».proof.Proof.Close
import proofs.«900999_g7700000000001000_dist_mlpseq_tp1d_rep_rep_b512_d256_h512_v7x_i4_f32_1_alg».proof.Proof.OutBuf
import proofs.«900999_g7700000000001000_dist_mlpseq_tp1d_rep_rep_b512_d256_h512_v7x_i4_f32_1_alg».proof.Proof.Finish
import proofs.«900999_g7700000000001000_dist_mlpseq_tp1d_rep_rep_b512_d256_h512_v7x_i4_f32_1_alg».proof.Proof.Gen.KernelIdeal.Skeleton
import proofs.«900999_g7700000000001000_dist_mlpseq_tp1d_rep_rep_b512_d256_h512_v7x_i4_f32_1_alg».proof.Proof.Gen.KernelIdeal.Frame
import Idealize.ShloMosaic.Lib.Pipeline.Value

set_option maxRecDepth 16384

noncomputable section

namespace Cert.KernelIdeal.Proto

open Cert.KernelIdeal Cert.KernelIdeal.Gen Cert.KernelIdeal.KVal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem Osend_bar (c : Dev nD) : ∀ g u, 0 < Osend c g u → g.1.2 = .tc ∧ 2 ≤ lv g () := by
  rw [← Opend_zero]; exact Opend_bar c 0

/-- A returned value bound into a continuation is the continuation at that value. -/
theorem ret_bind' {E : Type → Type} {α β : Type} (a : α) (k : α → Prog E β) : (Prog.ret a : Prog E α).bind k = k a := rfl

/-- The two peers as the body's device chains name them. -/
theorem dev1_eq (c : Dev nD) : (⟨k0_dev1 c, k0_dev1_lt c⟩ : Dev nD) = pa c := by revert c; decide
theorem dev2_eq (c : Dev nD) : (⟨k0_dev2 c, k0_dev2_lt c⟩ : Dev nD) = pb c := by revert c; decide

/-! ## The steps of the hand run, as tactics -/

omit [FloatOps F] in
/-- The empty families the run starts its bookkeeping from: no copy in flight, no slot waited. -/
theorem add_fams (c : Dev nD) (P : sProp 𝕄) :
    P ⊢ iprop(P ∗ (bigSep (infl 0 0) fun s : Fin 96 => cred (tallyAt (sendCell c s) () NC))
      ∗ (bigSep (done 0) fun s : Fin 96 => iprop(atPos ER (sendCell c s) 1 ∅ 0 ∗ ∃ f, sPts (F := F) c s f))
      ∗ (bigSep (done 0) fun s : Fin 96 => iprop(atPos ER (recvCell c s) 1 ∅ 0 ∗ ∃ f, rPts (F := F) c s f))) := by
  rw [← emp_to_infl, ← emp_to_done0, ← emp_to_done0]
  iintro H
  isplitl [H]; · iexact H
  isplitr; · iempintro
  isplitr; · iempintro
  iempintro

open Lean in
/-- The device equation of position `k`'s copy. -/
macro "dev_at " c:term:max k:num : term => pure (Syntax.mkApp (mkIdent (Name.mkSimple s!"dev_at_{k.getNat}")) #[c])

set_option hygiene false in
/-- The copy at position `k` of the program's order, `j` slots already waited: the slot's pieces taken out of the families; the dead load and the
    store of the send slot; the copy into the peer's receive slot, the stored vector being the specified one by unfolding. -/
macro "xchg " k:num " after " j:num : tactic =>
  `(tactic| (
    try rw [ret_bind']
    try sl_exec
    ihave HP := (pick_copy (F := F) c $k (by decide)) $$ [HsP HpP HtS HtP]
    · isplitl [HsP]; · iexact HsP
      isplitl [HpP]; · iexact HpP
      isplitl [HtS]; · iexact HtS
      iexact HtP
    icases HP with ⟨⟨⟨%fsk, Hsk⟩, ⟨%fdk, Hdk⟩, Htsk, Htpk⟩, HsP, HpP, HtS, HtP⟩
    ihave HO := (owes_step c $k (by decide) _) $$ HO
    iapply (wp_load_dead_slot (F := F) c (slotAt $k) fsk) $$ Hsk
    iintro Hsk
    try rw [ret_bind']
    try sl_exec
    iapply (wp_store_slot (F := F) c (slotAt $k) fsk (sentS m c (slotAt $k))) $$ Hsk
    iintro ⟨%fsk', %hfk, Hsk⟩
    try rw [ret_bind']
    try sl_exec
    iapply (wp_send_slot m (κ (sendCell c (slotAt $k))) (κ (recvCell (peerOf (slotAt $k) c) (slotAt $k))) c (slotAt $k) _ (dev_at c $k) fsk' fdk (Opend c ($k + 1)) _ hfk) $$ [Hsk Hdk HO Htsk Htpk]
    · isplitr; · iapply (inv_send_at m κ c (slotAt $k)); iexact HIsnd
      isplitr; · iapply (inv_peer_at m κ c (slotAt $k)); iexact HIpeer
      isplitl [Hsk]; · iexact Hsk
      isplitl [Hdk]; · iexact Hdk
      isplitl [HO]; · iexact HO
      isplitl [Htsk]; · iexact Htsk
      isplitr; · iapply (reached_send_at (F := F) c (slotAt $k)); iexact HrS
      isplitl [Htpk]; · iexact Htpk
      iapply (reached_peer_at (F := F) c (slotAt $k)); iexact HrPeer
    iintro ⟨Hck, HO⟩
    ihave HcS := (push_cred (F := F) c $j $k (by decide) (by decide)) $$ [HcS Hck]
    · isplitl [HcS]; · iexact HcS
      iexact Hck))

set_option hygiene false in
/-- The two waits at position `j` of the program's order, `kk` copies already issued: the slot's pieces taken out of the families; the wait on the
    send cell (the send slot back); the wait on the receive cell (the peer's slot landed) and the load of what landed; both slots archived. -/
macro "waitpair " j:num " at " kk:num : tactic =>
  `(tactic| (
    try rw [ret_bind']
    try sl_exec
    ihave HP := (pick_wait (F := F) c $j $kk (by decide) (by decide)) $$ [HatS HatV HcV HcS]
    · isplitl [HatS]; · iexact HatS
      isplitl [HatV]; · iexact HatV
      isplitl [HcV]; · iexact HcV
      iexact HcS
    icases HP with ⟨⟨Hasj, Havj, Hcvj, Hcsj⟩, HatS, HatV, HcV, HcS⟩
    iapply (wp_wait_send_slot m (κ (sendCell c (slotAt $j))) c (slotAt $j) (Opend c $kk) _ (Opend_low c $kk)) $$ [Hcsj HO Hasj]
    · isplitr; · iapply (inv_send_at m κ c (slotAt $j)); iexact HIsnd
      isplitl [Hcsj]; · iexact Hcsj
      isplitl [HO]; · iexact HO
      isplitr; · iexact Hlev
      iexact Hasj
    iintro ⟨HO, Hasj, Hsbj⟩
    try rw [ret_bind']
    try sl_exec
    iapply (wp_wait_recv_slot m (κ (recvCell c (slotAt $j))) c (slotAt $j) (Opend c $kk) _ (Opend_above c $j $kk (by decide) (by decide))) $$ [Hcvj HO Havj]
    · isplitr; · iapply (inv_recv_at m κ c (slotAt $j)); iexact HIrcv
      isplitl [Hcvj]; · iexact Hcvj
      isplitl [HO]; · iexact HO
      isplitr; · iexact Hlev
      iexact Havj
    iintro ⟨HO, Havj, Hpay⟩
    unfold recvPay
    icases Hpay with ⟨%f₀j, Hrj⟩
    try rw [ret_bind']
    try sl_exec
    iapply (wp_load_landed_slot m c (slotAt $j) f₀j) $$ Hrj
    iintro Hrj
    ihave Hd := (archive (F := F) c $j (by decide)) $$ [HdS HdV Hasj Hsbj Havj Hrj]
    · isplitl [HdS]; · iexact HdS
      isplitl [HdV]; · iexact HdV
      isplitl [Hasj Hsbj]
      · isplitl [Hasj]; · iexact Hasj
        unfold sendPay; iexact Hsbj
      isplitl [Havj]; · iexact Havj
      iexists _; iexact Hrj
    icases Hd with ⟨HdS, HdV⟩))

open Lean in
/-- Layer 0, phase 0: the sixteen copies of the partial products. -/
macro "block_zero" : tactic => do
  let mut ts : Array (TSyntax `tactic) := #[]
  for k in [0:16] do
    ts := ts.push (← `(tactic| xchg $(Syntax.mkNumLit (toString k)) after 0))
  `(tactic| ($[$ts];*))

open Lean in
/-- Layer `l`, first loop: chunk by chunk, the first exchange is waited and the sum goes to the second peer. -/
macro "first_loop " l:num : tactic => do
  let l := l.getNat
  let mut ts : Array (TSyntax `tactic) := #[]
  for i in [0:16] do
    ts := ts.push (← `(tactic| waitpair $(Syntax.mkNumLit (toString (32 * l + i))) at $(Syntax.mkNumLit (toString (32 * l + 16 + i)))))
    ts := ts.push (← `(tactic| xchg $(Syntax.mkNumLit (toString (32 * l + 16 + i))) after $(Syntax.mkNumLit (toString (32 * l + i + 1)))))
  `(tactic| ($[$ts];*))

open Lean in
/-- Layer `l`, group `g` of the second loop: the four second exchanges are waited; unless the layer is the last, the next layer's four partial
    products of that group are copied out. -/
macro "group_loop " l:num g:num : tactic => do
  let l := l.getNat
  let g := g.getNat
  let mut ts : Array (TSyntax `tactic) := #[]
  for jj in [0:4] do
    ts := ts.push (← `(tactic| waitpair $(Syntax.mkNumLit (toString (32 * l + 16 + 4 * g + jj))) at $(Syntax.mkNumLit (toString (if l < 2 then 32 * l + 32 + 4 * g else 96)))))
  if l < 2 then
    for jj in [0:4] do
      ts := ts.push (← `(tactic| xchg $(Syntax.mkNumLit (toString (32 * (l + 1) + 4 * g + jj))) after $(Syntax.mkNumLit (toString (32 * l + 16 + 4 * g + 4)))))
  `(tactic| ($[$ts];*))

abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_scratch0) (Memref.isWhole_whole _)
    (Memref.whole cc0_scratch1) (Memref.isWhole_whole _) cc0_scratch2 cc0_scratch3

set_option maxHeartbeats 0 in
theorem sound_run (κ : GSem nD τ sig → ℕ) (c : Dev nD) (Kt : PUnit → sProp 𝕄) (W : Waits sig Unit)
    (fs : Buf (Elt F) ((c : Thread nD τ).loc cc0_scratch0)) (fr : Buf (Elt F) ((c : Thread nD τ).loc cc0_scratch1))
    (f7 : Buf (Elt F) ((c : Thread nD τ).loc cc0_stg7_0)) :
    iprop(ghost m κ c ∗ cred (tallyAt (barCell c) () 2) ∗ (bigSep Finset.univ fun s : Fin 96 => cred (tallyAt (recvCell c s) () NC)) ∗ levAts L lv
        ∗ (((c : Thread nD τ).loc cc0_scratch0) ↦{fullShare} fs) ∗ (((c : Thread nD τ).loc cc0_scratch1) ↦{fullShare} fr)
        ∗ owes (c : Thread nD τ) (O₀ c) W ∗ (bodyPost m c -∗ Kt ⟨⟩))
      ⊢ iprop(((Memref.whole cc0_stg0_0 : Memref sig .tc .vmem S512x256 .f32).view.loc (c : Thread nD τ) ↦{fullShare} stg0 m c)
        -∗ ((Memref.whole cc0_stg1_0 : Memref sig .tc .vmem S256x512 .f32).view.loc (c : Thread nD τ) ↦{fullShare} stg1 m c)
        -∗ ((Memref.whole cc0_stg2_0 : Memref sig .tc .vmem S512x256 .f32).view.loc (c : Thread nD τ) ↦{fullShare} stg2 m c)
        -∗ ((Memref.whole cc0_stg3_0 : Memref sig .tc .vmem S256x512 .f32).view.loc (c : Thread nD τ) ↦{fullShare} stg3 m c)
        -∗ ((Memref.whole cc0_stg4_0 : Memref sig .tc .vmem S512x256 .f32).view.loc (c : Thread nD τ) ↦{fullShare} stg4 m c)
        -∗ ((Memref.whole cc0_stg5_0 : Memref sig .tc .vmem S256x512 .f32).view.loc (c : Thread nD τ) ↦{fullShare} stg5 m c)
        -∗ ((Memref.whole cc0_stg6_0 : Memref sig .tc .vmem S512x256 .f32).view.loc (c : Thread nD τ) ↦{fullShare} stg6 m c)
        -∗ ((Memref.whole cc0_stg7_0 : Memref sig .tc .vmem S512x256 .f32).view.loc (c : Thread nD τ) ↦{fullShare} f7)
        -∗ wp frame (wpE (defs₀ (F := F)) 𝒱₀ c none) Set.univ (theBody (F := F)) Kt) := by
  unfold ghost invs
  iintro ⟨⟨⟨#HIbar, #HIbarA, #HIbarB, #HIsnd, #HIrcv, #HIpeer⟩, HatB, HatS, HatV, #HrBA, #HrBB, #HrPeer, #HrS, #HrV, HtBA, HtBB, HtPeer, HtS⟩, HcB, HcV, #Hlev, Hs, Hr, HO, Hk⟩ H0 H1 H2 H3 H4 H5 H6 H7
  unfold theBody
  sl_unfold [cc0_body]
  sl_exec_parts
  rw [dev1_eq c]
  -- the receive buffer by slots, by kind of peer
  ihave HrS := (rbuf_split (F := F) c fr).1 $$ Hr
  ihave HrS' := (Entails.of_eq (slots_split (fun s : Fin 96 => rPts (F := F) c s fr))) $$ HrS
  icases HrS' with ⟨HrA, HrB⟩
  -- the first signal, to the bit-0 peer's barrier cell: its duty `false`, with the receive slots that peer writes
  iapply (wp_sig_A m (κ (barCell (pa c))) c (O₁ c) W) $$ [HO HtBA HrA]
  · isplitr; · iexact HIbarA
    isplitl [HO]; · iexact HO
    isplitl [HtBA]; · iexact HtBA
    isplitl [HrA]
    · iapply (barPay_intro_A c fr)
      isplitl [HrA]; · iexact HrA
      iexact HrV
    iexact HrBA
  iintro HO
  sl_exec_parts
  rw [dev2_eq c]
  -- the second signal, to the other peer's barrier cell: its duty `true`, with the receive slots that peer writes
  iapply (wp_sig_B m (κ (barCell (pb c))) c (Osend c) W) $$ [HO HtBB HrB]
  · isplitr; · iexact HIbarB
    isplitl [HO]; · iexact HO
    isplitl [HtBB]; · iexact HtBB
    isplitl [HrB]
    · iapply (barPay_intro_B c fr)
      isplitl [HrB]; · iexact HrB
      iexact HrV
    iexact HrBB
  iintro HO
  sl_exec_parts
  -- the wait for both peers' signals: every slot's peer's receive slot comes with them
  iapply (wp_wait_bar m (κ (barCell c)) c (Osend c) W (Osend_bar c)) $$ [HcB HO HatB]
  · isplitr; · iexact HIbar
    isplitl [HcB]; · iexact HcB
    isplitl [HO]; · iexact HO
    isplitr; · iexact Hlev
    iexact HatB
  iintro ⟨HO, HatB, HpA, HpB⟩
  ihave HpP := (barPay_elim (F := F) c) $$ [HpA HpB]
  · isplitl [HpA]; · iexact HpA
    iexact HpB
  -- the send buffer by slots
  ihave HsP := (sbuf_split (F := F) c fs).1 $$ Hs
  -- the per-slot families, by position in the program's order of slots
  ihave HsP := (loop_init (F := F) c fs) $$ HsP
  ihave HpP := (Entails.of_eq (univ_to_pend0 (fun s : Fin 96 => iprop(∃ f, rPts (F := F) (peerOf s c) s f)))) $$ HpP
  ihave HtS := (Entails.of_eq (univ_to_pend0 (fun s : Fin 96 => (dutyTok ER (sendCell c s) 0 false : sProp 𝕄)))) $$ HtS
  ihave HtP := (Entails.of_eq (univ_to_pend0 (fun s : Fin 96 => (dutyTok ER (recvCell (peerOf s c) s) 0 false : sProp 𝕄)))) $$ HtPeer
  ihave HatS := (Entails.of_eq (univ_to_pend0 (fun s : Fin 96 => (atPos ER (sendCell c s) 0 ∅ 0 : sProp 𝕄)))) $$ HatS
  ihave HatV := (Entails.of_eq (univ_to_pend0 (fun s : Fin 96 => (atPos ER (recvCell c s) 0 ∅ 0 : sProp 𝕄)))) $$ HatV
  ihave HcV := (Entails.of_eq (univ_to_pend0 (fun s : Fin 96 => (cred (tallyAt (recvCell c s) () NC) : sProp 𝕄)))) $$ HcV
  ihave HO := (Entails.of_eq (congrArg (fun O => (owes (c : Thread nD τ) O (insert (SemLoc.reg barS, ()) W) : sProp 𝕄)) (Opend_zero c).symm)) $$ HO
  -- layer 0, phase 0: the four groups' partial products, each chunk sent to its first peer
  ihave HX := (add_fams (F := F) c _) $$ HatB
  icases HX with ⟨HatB, HcS, HdS, HdV⟩
  block_zero
  first_loop 0
  group_loop 0 0
  group_loop 0 1
  group_loop 0 2
  group_loop 0 3
  first_loop 1
  group_loop 1 0
  group_loop 1 1
  group_loop 1 2
  group_loop 1 3
  first_loop 2
  group_loop 2 0
  group_loop 2 1
  group_loop 2 2
  group_loop 2 3
  try rw [ret_bind']
  try sl_exec
  -- the return: every cell closed, the buffers whole again, the result block at its specified contents
  rw [wp_ret]
  imod (finish m κ c _ f7) $$ [HdS HdV HO H0 H1 H2 H3 H4 H5 H6 H7] with Hpost
  · isplitr; · iexact HIsnd
    isplitr; · iexact HIrcv
    isplitl [HdS]; · iexact HdS
    isplitl [HdV]; · iexact HdV
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  imodintro
  iapply Hk
  iexact Hpost

end Cert.KernelIdeal.Proto

end
-- ==== Proof.BodyOb.lean ====
/-
  The body obligation. At the one grid point the pipeline hands the body its eight staging buffers: each input's buffer
  holds the block just fetched, which is the device's whole array read through its window; the result's buffer holds anything. With the
  invariant before the point (the ghost state, the launch credit, the levels, the two exchange buffers) and what the device owes, this is
  the body lemma's precondition; its postcondition is the invariant after the point, nothing owed, the inputs' buffers unchanged
  and the result's buffer at the device's result block.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Body
import Idealize.ShloMosaic.Lib.Pipeline.Frame

noncomputable section

namespace Cert.KernelIdeal.Proto

open Cert.KernelIdeal Cert.KernelIdeal.Gen Cert.KernelIdeal.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body lemma, its staging buffers on the left -/

/-- The run of the body with the eight staging buffers among its premises: the run takes them one by one. -/
theorem sound_body (κ : GSem nD τ sig → ℕ) (c : Dev nD) (Kt : PUnit → sProp 𝕄) (W : Waits sig Unit)
    (fs : Buf (Elt F) ((c : Thread nD τ).loc cc0_scratch0)) (fr : Buf (Elt F) ((c : Thread nD τ).loc cc0_scratch1)) (f7 : Buf (Elt F) ((c : Thread nD τ).loc cc0_stg7_0)) :
    iprop(ghost m κ c ∗ cred (tallyAt (barCell c) () 2) ∗ (bigSep Finset.univ fun s : Fin 96 => cred (tallyAt (recvCell c s) () NC)) ∗ levAts L lv
        ∗ (((c : Thread nD τ).loc cc0_scratch0) ↦{fullShare} fs) ∗ (((c : Thread nD τ).loc cc0_scratch1) ↦{fullShare} fr)
        ∗ owes (c : Thread nD τ) (O₀ c) W
        ∗ (((c : Thread nD τ).loc cc0_stg0_0) ↦{fullShare} stg0 m c) ∗ (((c : Thread nD τ).loc cc0_stg1_0) ↦{fullShare} stg1 m c)
        ∗ (((c : Thread nD τ).loc cc0_stg2_0) ↦{fullShare} stg2 m c) ∗ (((c : Thread nD τ).loc cc0_stg3_0) ↦{fullShare} stg3 m c)
        ∗ (((c : Thread nD τ).loc cc0_stg4_0) ↦{fullShare} stg4 m c) ∗ (((c : Thread nD τ).loc cc0_stg5_0) ↦{fullShare} stg5 m c)
        ∗ (((c : Thread nD τ).loc cc0_stg6_0) ↦{fullShare} stg6 m c) ∗ (((c : Thread nD τ).loc cc0_stg7_0) ↦{fullShare} f7)
        ∗ (bodyPost m c -∗ Kt ⟨⟩))
      ⊢ wp frame (wpE (defs₀ (F := F)) 𝒱₀ c none) Set.univ (theBody (F := F)) Kt := by
  iintro ⟨Hg, HcB, HcV, Hlev, Hs, Hr, HO, H0, H1, H2, H3, H4, H5, H6, H7, HK⟩
  ihave Hrun := (sound_run m κ c Kt W fs fr f7) $$ [Hg HcB HcV Hlev Hs Hr HO HK]
  · isplitl [Hg]; · iexact Hg
    isplitl [HcB]; · iexact HcB
    isplitl [HcV]; · iexact HcV
    isplitl [Hlev]; · iexact Hlev
    isplitl [Hs]; · iexact Hs
    isplitl [Hr]; · iexact Hr
    isplitl [HO]; · iexact HO
    iexact HK
  ihave Hrun := Hrun $$ H0
  ihave Hrun := Hrun $$ H1
  ihave Hrun := Hrun $$ H2
  ihave Hrun := Hrun $$ H3
  ihave Hrun := Hrun $$ H4
  ihave Hrun := Hrun $$ H5
  ihave Hrun := Hrun $$ H6
  ihave Hrun := Hrun $$ H7
  iexact Hrun

/-! ## The windows at the one point -/

omit [FloatOps F] in
theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
/-- A whole staging buffer owned at contents `X` is the buffer's points-to at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- An input window's buffer at the point holds the block just fetched: the device's array read through the window. -/
theorem before_0 (c : Dev nD) (d) : (dats (F := F) m 0 c).before (0 : Fin 8) t0_0 d = stg0 m c := by
  rw [Dat.before_fetched _ _ _ (fetch0_0 t0_0)]; rfl
theorem before_1 (c : Dev nD) (d) : (dats (F := F) m 0 c).before (1 : Fin 8) t0_0 d = stg1 m c := by
  rw [Dat.before_fetched _ _ _ (fetch0_1 t0_0)]; rfl
theorem before_2 (c : Dev nD) (d) : (dats (F := F) m 0 c).before (2 : Fin 8) t0_0 d = stg2 m c := by
  rw [Dat.before_fetched _ _ _ (fetch0_2 t0_0)]; rfl
theorem before_3 (c : Dev nD) (d) : (dats (F := F) m 0 c).before (3 : Fin 8) t0_0 d = stg3 m c := by
  rw [Dat.before_fetched _ _ _ (fetch0_3 t0_0)]; rfl
theorem before_4 (c : Dev nD) (d) : (dats (F := F) m 0 c).before (4 : Fin 8) t0_0 d = stg4 m c := by
  rw [Dat.before_fetched _ _ _ (fetch0_4 t0_0)]; rfl
theorem before_5 (c : Dev nD) (d) : (dats (F := F) m 0 c).before (5 : Fin 8) t0_0 d = stg5 m c := by
  rw [Dat.before_fetched _ _ _ (fetch0_5 t0_0)]; rfl
theorem before_6 (c : Dev nD) (d) : (dats (F := F) m 0 c).before (6 : Fin 8) t0_0 d = stg6 m c := by
  rw [Dat.before_fetched _ _ _ (fetch0_6 t0_0)]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's precondition at the point, its windows opened. -/
def bodyPre' (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))

/-- The obligation's postcondition at the point, its windows opened. -/
def obPost (c : Dev nD) : sProp 𝕄 :=
  iprop(Φ₁ (F := F) c ∗ (dats m 0 c).owesAt () t0_0.succ
    ∗ stg c cc0_stg0_0 (stg0 m c)
    ∗ stg c cc0_stg1_0 (stg1 m c)
    ∗ stg c cc0_stg2_0 (stg2 m c)
    ∗ stg c cc0_stg3_0 (stg3 m c)
    ∗ stg c cc0_stg4_0 (stg4 m c)
    ∗ stg c cc0_stg5_0 (stg5 m c)
    ∗ stg c cc0_stg6_0 (stg6 m c)
    ∗ stg c cc0_stg7_0 (outAt m c))

/-! ## The obligation -/

set_option maxRecDepth 100000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ (theBody (F := F)) (fun _ => obPost m c)
  unfold bodyPre' Φ₀ start
  iintro ⟨⟨⟨⟨%κ, Hg⟩, HcB, HcV, Hlev⟩, ⟨%fs, Hs⟩, ⟨%fr, Hr⟩⟩, ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩⟩
  obtain rfl := e0.trans (before_0 m c d0)
  obtain rfl := e1.trans (before_1 m c d1)
  obtain rfl := e2.trans (before_2 m c d2)
  obtain rfl := e3.trans (before_3 m c d3)
  obtain rfl := e4.trans (before_4 m c d4)
  obtain rfl := e5.trans (before_5 m c d5)
  obtain rfl := e6.trans (before_6 m c d6)
  iapply (sound_body m κ c (fun _ => obPost m c) W fs fr g7)
  isplitl [Hg]; · iexact Hg
  isplitl [HcB]; · iexact HcB
  isplitl [HcV]; · iexact HcV
  isplitl [Hlev]; · iexact Hlev
  isplitl [Hs]; · iexact Hs
  isplitl [Hr]; · iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HP
  unfold bodyPost obPost
  icases HP with ⟨HΦ, ⟨%W', HO'⟩, P0, P1, P2, P3, P4, P5, P6, P7⟩
  isplitl [HΦ]; · iexact HΦ
  isplitl [HO']
  · iexists W'
    isplitr; · ipureintro; exact fun _ _ => Or.inl (Set.mem_univ _)
    iexact HO'
  isplitl [P0]
  · iexists _
    isplitr; · ipureintro; rfl
    iexact P0
  isplitl [P1]
  · iexists _
    isplitr; · ipureintro; rfl
    iexact P1
  isplitl [P2]
  · iexists _
    isplitr; · ipureintro; rfl
    iexact P2
  isplitl [P3]
  · iexists _
    isplitr; · ipureintro; rfl
    iexact P3
  isplitl [P4]
  · iexists _
    isplitr; · ipureintro; rfl
    iexact P4
  isplitl [P5]
  · iexists _
    isplitr; · ipureintro; rfl
    iexact P5
  isplitl [P6]
  · iexists _
    isplitr; · ipureintro; rfl
    iexact P6
  iexists _
  isplitr; · ipureintro; rfl
  iexact P7

end Cert.KernelIdeal.Proto

end
-- ==== Proof.Launch.lean ====
/-
  The launch. What every device owes the others' cells, summed over the devices, is each cell's credit at launch: two units on a
  barrier cell (one from each of its two peers), a slot's credit on a receive cell (from the slot's peer). With that credit, the
  levels and the ghost state of the global step, each device starts its body; at the end the two exchange buffers and the
  device's own send and receive counters, back at zero, go back to the region. The staging waits sit at level 0, below every cell
  a device owes. Then the run of @main, and what the arrays hold after it: the inputs what they held, the result the staged
  block written over the whole array.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Tables
import proofs.«900999_g7700000000001000_dist_mlpseq_tp1d_rep_rep_b512_d256_h512_v7x_i4_f32_1_alg».proof.Proof.Glob
import proofs.«900999_g7700000000001000_dist_mlpseq_tp1d_rep_rep_b512_d256_h512_v7x_i4_f32_1_alg».proof.Proof.BodyOb
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.KVal Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {s t : Fin 96} : Iff (recvCell a s = recvCell b t) (a = b ∧ s = t) :=
  ⟨fun h => ⟨Fin.ext (congrArg (fun g : GSem nD τ sig => g.1.1.val) h), recvSem_inj (SemLoc.dma.inj (congrArg Prod.snd h))⟩,
    fun h => by rw [h.1, h.2]⟩

omit [FloatOps F] in
/-- A barrier cell is no receive cell. -/
theorem bar_ne_recv (a b : Dev nD) (s : Fin 96) : barCell a ≠ recvCell b s := fun h => by
  have h2 : (SemLoc.reg barS : SemLoc sig) = .dma (recvSem s) := congrArg Prod.snd h
  cases h2

omit [FloatOps F] in
/-- No copy is owed to a barrier cell. -/
theorem osend_bar (d c : Dev nD) : Osend d (barCell c) = 0 := by
  unfold Osend
  rw [Finset.sum_apply]
  exact Finset.sum_eq_zero fun s _ => tallyAt_ne_cell (bar_ne_recv c _ s) _ _

omit [FloatOps F] in
/-- What device `d` owes device `c`'s barrier cell: a unit if `d` is `c`'s bit-0 peer, a unit if it is the other peer. -/
theorem owed_bar (d c : Dev nD) : O₀ d (barCell c) () = (if d = pa c then 1 else 0) + (if d = pb c then 1 else 0) := by
  unfold O₀ O₁
  rw [Pi.add_apply, Finsupp.add_apply, Pi.add_apply, Finsupp.add_apply, osend_bar, Finsupp.zero_apply, Nat.zero_add, tallyAt_apply, tallyAt_apply]
  refine (Nat.add_comm _ _).trans ?_
  congr 1
  · by_cases h : d = pa c
    · subst h; rw [pa_pa, if_pos ⟨rfl, rfl⟩, if_pos rfl]
    · rw [if_neg (fun h1 => h (by rw [bar_eq_iff.mp h1.1, pa_pa])), if_neg h]
  · by_cases h : d = pb c
    · subst h; rw [pb_pb, if_pos ⟨rfl, rfl⟩, if_pos rfl]
    · rw [if_neg (fun h1 => h (by rw [bar_eq_iff.mp h1.1, pb_pb])), if_neg h]

omit [FloatOps F] in
/-- What device `d` owes device `c`'s receive cell of slot `s`: the slot's credit if `d` is the slot's peer of `c`. -/
theorem owed_recv (d c : Dev nD) (s : Fin 96) : O₀ d (recvCell c s) () = if d = peerOf s c then NC else 0 := by
  unfold O₀ O₁ Osend
  rw [Pi.add_apply, Finsupp.add_apply, Pi.add_apply, Finsupp.add_apply, tallyAt_ne_cell (bar_ne_recv _ c s).symm, tallyAt_ne_cell (bar_ne_recv _ c s).symm,
    Finsupp.zero_apply, Nat.add_zero, Nat.add_zero, Finset.sum_apply, Finsupp.finsetSum_apply,
    Finset.sum_eq_single s (fun s' _ hs' => by rw [tallyAt_apply, if_neg fun h1 => hs' (recv_eq_iff.mp h1.1).2.symm]) (fun h => absurd (Finset.mem_univ _) h), tallyAt_apply]
  by_cases h : d = peerOf s c
  · subst h; rw [peerOf_peerOf, if_pos ⟨rfl, rfl⟩, if_pos rfl]
  · rw [if_neg (fun h1 => h (by rw [(recv_eq_iff.mp h1.1).1, peerOf_peerOf])), if_neg h]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pa c) fun _ => 1, Finset.sum_ite_eq' Finset.univ (pb c) fun _ => 1, if_pos (Finset.mem_univ _), if_pos (Finset.mem_univ _)]

omit [FloatOps F] in
theorem launch_recv (c : Dev nD) (s : Fin 96) :
    tallyOn (recvCell c s) (launchCredit (Pipeline.owing O₀) 0 (recvCell c s)) = (tallyAt (recvCell c s) () NC : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peerOf s c) fun _ => NC, if_pos (Finset.mem_univ _)]

omit [FloatOps F] in
/-- A device's launch credit holds its barrier cell's two units and each receive cell's slot credit. -/
theorem creds (c : Dev nD) :
    (Pipeline.launchCred O₀ c : sProp 𝕄) ⊢ iprop(cred (tallyAt (barCell c) () 2) ∗ bigSep Finset.univ fun s : Fin 96 => cred (tallyAt (recvCell c s) () NC)) := by
  unfold Pipeline.launchCred
  rw [bigSep_univ_at _ (SemLoc.reg barS), launch_bar]
  refine sep_mono_right ?_
  -- the receive semaphores, among the semaphores other than the barrier's
  have hsub : (Finset.univ.map ⟨fun s : Fin 96 => (SemLoc.dma (recvSem s) : SemLoc sig), fun a b h => recvSem_inj (SemLoc.dma.inj h)⟩)
      ⊆ Finset.univ.erase (SemLoc.reg barS) := fun x hx => by
    obtain ⟨s, -, rfl⟩ := Finset.mem_map.mp hx
    exact Finset.mem_erase.mpr ⟨(fun h => by cases h), Finset.mem_univ _⟩
  refine (bigSep_subset hsub).trans ?_
  rw [bigSep_map]
  exact bigSep_mono fun s _ => Entails.of_eq (congrArg cred (launch_recv c s))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HN⟩
  imodintro
  unfold start G'
  isplitl
  · isplitl [HG]; · iexact HG
    isplitl [H2]; · iexact H2
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨H0, H1⟩⟩
  isplitl [Hs]; · iexact Hs
  isplitl [H0] <;> iassumption

omit [FloatOps F] in
/-- The device's own semaphores at zero: its send counters and its receive counters. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 96 => semVal (sendCell c s) 0) ∗ (bigSep Finset.univ fun s : Fin 96 => semVal (recvCell c s) 0)) := by
  unfold Pipeline.ownSems0
  rw [bigSep_univ_equiv (finSumFinEquiv (m := 96) (n := 96)), bigSep_univ_sum]
  congr 1 <;> first
    | exact bigSep_congr fun s _ => by rw [finSumFinEquiv_apply_left, osem_send]
    | exact bigSep_congr fun s _ => by rw [finSumFinEquiv_apply_right, osem_recv]

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨H0, H1, HzS, HzV⟩
  isplitr; · iempintro
  isplitl [HzS HzV]
  · isplitl [HzS] <;> iassumption
  isplitl [H0] <;> iassumption

omit [FloatOps F] in
/-- Every cell a device owes at launch is a TensorCore cell of level at least 1. -/
theorem O₀_pos {c : Dev nD} {g : GSem nD τ sig} {u : Unit} (h : 0 < O₀ c g u) : g.1.2 = .tc ∧ 1 ≤ lv g () := by
  unfold O₀ O₁ Osend at h
  rcases Pipeline.add_pos_cases h with h | h
  · rcases Pipeline.add_pos_cases h with h | h
    · obtain ⟨s, -, hs⟩ := Pipeline.sum_pos_exists h
      obtain ⟨rfl, -⟩ := Pipeline.tallyAt_pos hs
      exact ⟨rfl, (lv_recv _ s).symm ▸ by omega⟩
    · obtain ⟨rfl, -⟩ := Pipeline.tallyAt_pos h
      exact ⟨rfl, le_of_eq (lv_bar _).symm⟩
  · obtain ⟨rfl, -⟩ := Pipeline.tallyAt_pos h
    exact ⟨rfl, le_of_eq (lv_bar _).symm⟩

theorem waits (c : Dev nD) : (levAts L lv : sProp 𝕄) ⊢ Pipeline.cellsWaits cfgs (dats m) () 0 c :=
  Pipeline.cellsWaits_intro cfgs (dats m) () 0 c fun w s t =>
    mayWait_low c _ (lv_stage c _ (by fin_cases w <;> fin_cases s <;> decide)) _ (by
      rcases t with ⟨_ | _, ht⟩
      · exact fun g u h => O₀_pos h
      · exact fun g u h => absurd h (Nat.lt_irrefl 0))

theorem share_eq (c : Dev nD) (w : Fin cfg0.W) : (dats m 0 c).share w = fullShare := by unfold Dat.share; split <;> rfl

/-! ## The run -/

def finalA (m : (ℓ : Loc nD τ sig) → Buf (Elt F) ℓ) (ρ : Dev nD → PrngReg) (c : Dev nD) (w : Fin cfg0.W) :
    Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of four devices, for any float values, from any memory with zero counters: every weakly fair execution of
    @main terminates, and every final state has each device's arrays at `finalA`. -/
theorem run_main : θ_run defs (onTc (τ := τ) (main (F := F))) (Proto.s₀ m ρ) (QC m ρ) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_arg (c : Dev nD) (w : Fin 8) (hw : w.val < 7) : finalA m ρ c w = m ((cfg0.win w).arr.view.loc (c : Thread nD τ)) := by
  have hin : (cfg0.win w).isOut = false := by
    fin_cases w <;> first | rfl | exact absurd hw (by decide)
  exact (dats (F := F) m 0 c).arrAt_in w hin _

/-- The result array after the run: the staged block written over the whole array at the one grid point. -/
theorem finalA_out (c : Dev nD) :
    finalA m ρ c (7 : Fin 8) = (win0_7.blk t0_0).view.write (Elt F) (m (win0_7.arr.view.loc (c : Thread nD τ))) (outAt m c) Finset.univ := by
  have h := (dats (F := F) m 0 c).arrAt_succ (7 : Fin 8) t0_0
  rw [flush0_7 t0_0, if_pos rfl] at h
  exact h

/-- Read through the window's whole-array view, the result array holds the device's result block. -/
theorem finalA_out_read (c : Dev nD) : (win0_7.blk t0_0).view.read (Elt F) (finalA m ρ c (7 : Fin 8)) = outAt m c := by
  rw [finalA_out]; exact View.read_write_univ _ _

end Cert.KernelIdeal.Launch

end
-- ==== Proof.Final.lean ====
/-
  What the run leaves in the arrays, at any float instance. Every window of the kernel is its whole array at the one
  grid point, so reading a window's block is reading the array: the seven argument arrays end as launched, the result
  array ends at the device's result, and what the body loads (the staged input's four groups of 128 rows, each staged
  weight whole) is the argument arrays' own contents.
-/
import proofs.«900999_g7700000000001000_dist_mlpseq_tp1d_rep_rep_b512_d256_h512_v7x_i4_f32_1_alg».proof.Proof.Proto
import proofs.«900999_g7700000000001000_dist_mlpseq_tp1d_rep_rep_b512_d256_h512_v7x_i4_f32_1_alg».proof.Proof.Launch
import proofs.«900999_g7700000000001000_dist_mlpseq_tp1d_rep_rep_b512_d256_h512_v7x_i4_f32_1_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.KVal Cert.KernelIdeal.Proto Cert.KernelIdeal.Launch

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The arguments end unchanged; the result array -/

/-- The run from any memory, every semaphore at zero: every device's seven argument arrays end as launched. -/
theorem frame_of_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 0).trans (finalA_arg m ρ c 0 (by decide)),
      (h c 1).trans (finalA_arg m ρ c 1 (by decide)),
      (h c 2).trans (finalA_arg m ρ c 2 (by decide)),
      (h c 3).trans (finalA_arg m ρ c 3 (by decide)),
      (h c 4).trans (finalA_arg m ρ c 4 (by decide)),
      (h c 5).trans (finalA_arg m ρ c 5 (by decide)),
      (h c 6).trans (finalA_arg m ρ c 6 (by decide))⟩)
    (run_main m ρ)

/-- The result window's one block is the whole result array, so the array itself ends at the device's result. -/
theorem final_out (c : Dev nD) : finalA m ρ c 7 = outAt m c :=
  (Memref.read_access_unit_zero (Elt F) main_v1 (funext fun a => Nat.zero_mul _) _ (finalA m ρ c 7)).symm.trans
    (finalA_out_read m ρ c)

/-- The run with its result named: every device's result array ends at its result, its argument arrays as launched. -/
theorem run_named :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 7).trans (final_out m ρ c),
      (h c 0).trans (finalA_arg m ρ c 0 (by decide)),
      (h c 1).trans (finalA_arg m ρ c 1 (by decide)),
      (h c 2).trans (finalA_arg m ρ c 2 (by decide)),
      (h c 3).trans (finalA_arg m ρ c 3 (by decide)),
      (h c 4).trans (finalA_arg m ρ c 4 (by decide)),
      (h c 5).trans (finalA_arg m ρ c 5 (by decide)),
      (h c 6).trans (finalA_arg m ρ c 6 (by decide))⟩)
    (run_main m ρ)

/-! ## The inputs as the body reads them -/

/-- Device `c`'s staged copy of argument 0 is the argument array: the window's one block is the whole array. -/
theorem stg0_eq (c : Dev nD) : stg0 m c = m ((c.tc : Thread nD τ).loc main_arg0) := by
  unfold stg0
  exact Memref.read_access_unit_zero (Elt F) main_arg0 (funext fun a => Nat.zero_mul _) _ _
/-- Device `c`'s staged copy of argument 1 is the argument array: the window's one block is the whole array. -/
theorem stg1_eq (c : Dev nD) : stg1 m c = m ((c.tc : Thread nD τ).loc main_arg1) := by
  unfold stg1
  exact Memref.read_access_unit_zero (Elt F) main_arg1 (funext fun a => Nat.zero_mul _) _ _
/-- Device `c`'s staged copy of argument 2 is the argument array: the window's one block is the whole array. -/
theorem stg2_eq (c : Dev nD) : stg2 m c = m ((c.tc : Thread nD τ).loc main_arg2) := by
  unfold stg2
  exact Memref.read_access_unit_zero (Elt F) main_arg2 (funext fun a => Nat.zero_mul _) _ _
/-- Device `c`'s staged copy of argument 3 is the argument array: the window's one block is the whole array. -/
theorem stg3_eq (c : Dev nD) : stg3 m c = m ((c.tc : Thread nD τ).loc main_arg3) := by
  unfold stg3
  exact Memref.read_access_unit_zero (Elt F) main_arg3 (funext fun a => Nat.zero_mul _) _ _
/-- Device `c`'s staged copy of argument 4 is the argument array: the window's one block is the whole array. -/
theorem stg4_eq (c : Dev nD) : stg4 m c = m ((c.tc : Thread nD τ).loc main_arg4) := by
  unfold stg4
  exact Memref.read_access_unit_zero (Elt F) main_arg4 (funext fun a => Nat.zero_mul _) _ _
/-- Device `c`'s staged copy of argument 5 is the argument array: the window's one block is the whole array. -/
theorem stg5_eq (c : Dev nD) : stg5 m c = m ((c.tc : Thread nD τ).loc main_arg5) := by
  unfold stg5
  exact Memref.read_access_unit_zero (Elt F) main_arg5 (funext fun a => Nat.zero_mul _) _ _
/-- Device `c`'s staged copy of argument 6 is the argument array: the window's one block is the whole array. -/
theorem stg6_eq (c : Dev nD) : stg6 m c = m ((c.tc : Thread nD τ).loc main_arg6) := by
  unfold stg6
  exact Memref.read_access_unit_zero (Elt F) main_arg6 (funext fun a => Nat.zero_mul _) _ _

/-- Layer 0's first weight as device `c`'s body loads it, the staged block read whole, is argument 1. -/
theorem wl0_eq (c : Dev nD) : wl m 0 c = m ((c.tc : Thread nD τ).loc main_arg1) :=
  (Memref.readAt_unit_zero (Elt F) cc0_stg1_0 (by funext a; match a with | ⟨0, _⟩ => rfl | ⟨1, _⟩ => rfl) _ (stg1 m c)).trans (stg1_eq m c)
/-- Layer 1's first weight as device `c`'s body loads it, the staged block read whole, is argument 3. -/
theorem wl1_eq (c : Dev nD) : wl m 1 c = m ((c.tc : Thread nD τ).loc main_arg3) :=
  (Memref.readAt_unit_zero (Elt F) cc0_stg3_0 (by funext a; match a with | ⟨0, _⟩ => rfl | ⟨1, _⟩ => rfl) _ (stg3 m c)).trans (stg3_eq m c)
/-- Layer 2's first weight as device `c`'s body loads it, the staged block read whole, is argument 5. -/
theorem wl2_eq (c : Dev nD) : wl m 2 c = m ((c.tc : Thread nD τ).loc main_arg5) :=
  (Memref.readAt_unit_zero (Elt F) cc0_stg5_0 (by funext a; match a with | ⟨0, _⟩ => rfl | ⟨1, _⟩ => rfl) _ (stg5 m c)).trans (stg5_eq m c)
/-- Layer 0's second weight as device `c`'s body loads it, the staged block read whole, is argument 2. -/
theorem ul0_eq (c : Dev nD) : ul m 0 c = m ((c.tc : Thread nD τ).loc main_arg2) :=
  (Memref.readAt_unit_zero (Elt F) cc0_stg2_0 (by funext a; match a with | ⟨0, _⟩ => rfl | ⟨1, _⟩ => rfl) _ (stg2 m c)).trans (stg2_eq m c)
/-- Layer 1's second weight as device `c`'s body loads it, the staged block read whole, is argument 4. -/
theorem ul1_eq (c : Dev nD) : ul m 1 c = m ((c.tc : Thread nD τ).loc main_arg4) :=
  (Memref.readAt_unit_zero (Elt F) cc0_stg4_0 (by funext a; match a with | ⟨0, _⟩ => rfl | ⟨1, _⟩ => rfl) _ (stg4 m c)).trans (stg4_eq m c)
/-- Layer 2's second weight as device `c`'s body loads it, the staged block read whole, is argument 6. -/
theorem ul2_eq (c : Dev nD) : ul m 2 c = m ((c.tc : Thread nD τ).loc main_arg6) :=
  (Memref.readAt_unit_zero (Elt F) cc0_stg6_0 (by funext a; match a with | ⟨0, _⟩ => rfl | ⟨1, _⟩ => rfl) _ (stg6 m c)).trans (stg6_eq m c)

/-- Group `g` of device `c`'s input to the first layer is rows `128 g … 128 g + 127` of argument 0. -/
theorem x0_eq (c : Dev nD) (g : Fin 4) : x0 m c g = Cert.Spec.rows128 g (m ((c.tc : Thread nD τ).loc main_arg0)) := by
  unfold x0
  rw [shapeCast_self, ← stg0_eq m c]
  funext i
  unfold Cert.Spec.rows128
  match g with
  | ⟨0, _⟩ =>
    exact congrArg (stg0 m c) (funext fun a => Fin.ext (match a with
      | ⟨0, _⟩ => by show 0 + 1 * (i 0).val = 128 * 0 + (i 0).val; omega
      | ⟨1, _⟩ => by show 0 + 1 * (i 1).val = (i 1).val; omega))
  | ⟨1, _⟩ =>
    exact congrArg (stg0 m c) (funext fun a => Fin.ext (match a with
      | ⟨0, _⟩ => by show 128 + 1 * (i 0).val = 128 * 1 + (i 0).val; omega
      | ⟨1, _⟩ => by show 0 + 1 * (i 1).val = (i 1).val; omega))
  | ⟨2, _⟩ =>
    exact congrArg (stg0 m c) (funext fun a => Fin.ext (match a with
      | ⟨0, _⟩ => by show 256 + 1 * (i 0).val = 128 * 2 + (i 0).val; omega
      | ⟨1, _⟩ => by show 0 + 1 * (i 1).val = (i 1).val; omega))
  | ⟨3, _⟩ =>
    exact congrArg (stg0 m c) (funext fun a => Fin.ext (match a with
      | ⟨0, _⟩ => by show 384 + 1 * (i 0).val = 128 * 3 + (i 0).val; omega
      | ⟨1, _⟩ => by show 0 + 1 * (i 1).val = (i 1).val; omega))

end Cert.KernelIdeal.Final

end
-- ==== Proof.Algebra.lean ====
/-
  One layer on four devices is the layer on one. Device `c` holds hidden columns `512 c … 512 c + 511` of `Win` and the
  same rows of `Wout`, so its partial product at (r, d) is the part of the hidden sum `∑ k, max (∑ j, X r j * Win j k) 0 * Wout k d`
  over those 512 positions. The four parts are added in a grouping that depends on the device and on the chunk's parity; in
  both groupings each device appears once, and the extended reals are a commutative monoid under addition, so every device
  ends with the whole sum over the 2048 hidden positions. At the extended reals narrowing to bf16, widening back and the
  casts between [32, 256] and [1, 32, 256] change no value. Three layers compose.
-/
import proofs.«900999_g7700000000001000_dist_mlpseq_tp1d_rep_rep_b512_d256_h512_v7x_i4_f32_1_alg».proof.Proof.KVal
import proofs.«900999_g7700000000001000_dist_mlpseq_tp1d_rep_rep_b512_d256_h512_v7x_i4_f32_1_alg».proof.Proof.Spec
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Tactic.Abel

noncomputable section

namespace Cert.KernelIdeal.Alg

open Idealize.ShloMosaic Idealize.ShloMosaic.ValueIdx Cert.KernelIdeal
open scoped BigOperators

/-! ## Sums over a commutative monoid -/

section Sums
variable {M : Type*} [AddCommMonoid M]

/-- Position `l` of block `c` among 2048 positions cut into four blocks of 512. -/
def blockEquiv : Fin 4 × Fin 512 ≃ Fin 2048 where
  toFun p := ⟨p.1.val * 512 + p.2.val, by have := p.1.isLt; have := p.2.isLt; omega⟩
  invFun k := (⟨k.val / 512, by have := k.isLt; omega⟩, ⟨k.val % 512, Nat.mod_lt _ (by decide)⟩)
  left_inv p := by
    have h1 := p.1.isLt; have h2 := p.2.isLt
    refine Prod.ext (Fin.ext ?_) (Fin.ext ?_)
    · show (p.1.val * 512 + p.2.val) / 512 = p.1.val
      omega
    · show (p.1.val * 512 + p.2.val) % 512 = p.2.val
      omega
  right_inv k := Fin.ext (by
    show k.val / 512 * 512 + k.val % 512 = k.val
    omega)

theorem blockEquiv_val (c : Fin 4) (l : Fin 512) : (blockEquiv (c, l)).val = c.val * 512 + l.val := rfl

/-- A sum over the 2048 positions is the sum over the four blocks of the sums over each block. -/
theorem sum_blocks (f : Fin 2048 → M) : ∑ k : Fin 2048, f k = ∑ c : Fin 4, ∑ l : Fin 512, f (blockEquiv (c, l)) := by
  rw [← Equiv.sum_comp blockEquiv f, Fintype.sum_prod_type]

/-- Own share plus first peer's, plus second peer's own-plus-first-peer's: every device once, at either parity of the chunk. -/
theorem cover (ch : Fin 16) (c : Dev nD) (g : Dev nD → M) :
    (g c + g (KVal.peer1 ch c)) + (g (KVal.peer2 ch c) + g (KVal.peer1 ch (KVal.peer2 ch c))) = ∑ d : Fin 4, g d := by
  rw [Fin.sum_univ_four]
  unfold KVal.peer1 KVal.peer2
  by_cases h : ch.val % 2 = 0
  · simp only [if_pos h]
    match c with
    | ⟨0, _⟩ => show (g 0 + g 1) + (g 3 + g 2) = _; abel
    | ⟨1, _⟩ => show (g 1 + g 0) + (g 2 + g 3) = _; abel
    | ⟨2, _⟩ => show (g 2 + g 3) + (g 1 + g 0) = _; abel
    | ⟨3, _⟩ => show (g 3 + g 2) + (g 0 + g 1) = _; abel
  · simp only [if_neg h]
    match c with
    | ⟨0, _⟩ => show (g 0 + g 3) + (g 1 + g 2) = _; abel
    | ⟨1, _⟩ => show (g 1 + g 2) + (g 0 + g 3) = _; abel
    | ⟨2, _⟩ => show (g 2 + g 1) + (g 3 + g 0) = _; abel
    | ⟨3, _⟩ => show (g 3 + g 0) + (g 2 + g 1) = _; abel

end Sums

variable [Facts]
open Facts₀ Facts

/-! ## What travels between devices arrives unchanged -/

/-- Narrowed, put in a slot, taken out and widened: the same extended reals. -/
theorem recvv_sendv (v : FVec Ideal S32x256 .f32) : KVal.recvv (KVal.sendv v) = v := by
  unfold KVal.recvv KVal.sendv
  rw [shapeCast_shapeCast]
  rfl

/-! ## The two products of a layer read at an index -/

theorem lhs_mm1_0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch from List.not_mem_nil), dif_pos (show (0 : Fin S128x256.rank) ∈ dot_S128x256_S256x512_S128x512_1_0_0_1_n_n.lhsNonContracting from List.mem_singleton.mpr rfl)]
  rfl
theorem lhs_mm1_1 (i : S128x512.Idx) (q : dot_S128x256_S256x512_S128x512_1_0_0_1_n_n.contr.Idx) :
    (dot_S128x256_S256x512_S128x512_1_0_0_1_n_n.lhsIdx i q 1).val = (q ⟨0, Nat.one_pos⟩).val :=
  dot_S128x256_S256x512_S128x512_1_0_0_1_n_n.lhsIdx_val_of_single rfl i q
theorem rhs_mm1_0 (i : S128x512.Idx) (q : dot_S128x256_S256x512_S128x512_1_0_0_1_n_n.contr.Idx) :
    (dot_S128x256_S256x512_S128x512_1_0_0_1_n_n.rhsIdx i q 0).val = (q ⟨0, Nat.one_pos⟩).val :=
  dot_S128x256_S256x512_S128x512_1_0_0_1_n_n.rhsIdx_val_of_single rfl i q
theorem rhs_mm1_1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch from List.not_mem_nil), dif_pos (show (1 : Fin S256x512.rank) ∈ dot_S128x256_S256x512_S128x512_1_0_0_1_n_n.rhsNonContracting from List.mem_singleton.mpr rfl)]
  rfl

/-- The product read at an index: the sum over the contracted axis of the row of the left factor against the column of the right. -/
theorem mm1_apply (a : FVec Ideal S128x256 .f32) (b : FVec Ideal S256x512 .f32) (i : S128x512.Idx) :
    matmul dot_S128x256_S256x512_S128x512_1_0_0_1_n_n none a b (constant S128x512 .f32 0x00000000#32) i
      = ∑ k : Fin 256, a (ix2 (n0 := 128) (n1 := 256) (i 0) k) * b (ix2 (n0 := 256) (n1 := 512) k (i 1)) := by
  simp only [matmul]
  rw [Ideal.matmul_constant_zero_apply, ← Equiv.sum_comp (contrEquiv1 dot_S128x256_S256x512_S128x512_1_0_0_1_n_n 256 rfl rfl).symm]
  refine Finset.sum_congr rfl fun k _ => ?_
  have hk := contrEquiv1_symm_val dot_S128x256_S256x512_S128x512_1_0_0_1_n_n 256 rfl rfl k
  have el : dot_S128x256_S256x512_S128x512_1_0_0_1_n_n.lhsIdx i ((contrEquiv1 dot_S128x256_S256x512_S128x512_1_0_0_1_n_n 256 rfl rfl).symm k) = ix2 (n0 := 128) (n1 := 256) (i 0) k := funext fun x => Fin.ext (by
    match x with
    | ⟨0, _⟩ => exact lhs_mm1_0 _ _
    | ⟨1, _⟩ => exact (lhs_mm1_1 _ _).trans hk)
  have er : dot_S128x256_S256x512_S128x512_1_0_0_1_n_n.rhsIdx i ((contrEquiv1 dot_S128x256_S256x512_S128x512_1_0_0_1_n_n 256 rfl rfl).symm k) = ix2 (n0 := 256) (n1 := 512) k (i 1) := funext fun x => Fin.ext (by
    match x with
    | ⟨0, _⟩ => exact (rhs_mm1_0 _ _).trans hk
    | ⟨1, _⟩ => exact rhs_mm1_1 _ _)
  rw [el, er]

theorem lhs_mm2_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch from List.not_mem_nil), dif_pos (show (0 : Fin S128x512.rank) ∈ dot_S128x512_S512x256_S128x256_1_0_0_1_n_n.lhsNonContracting from List.mem_singleton.mpr rfl)]
  rfl
theorem lhs_mm2_1 (i : S128x256.Idx) (q : dot_S128x512_S512x256_S128x256_1_0_0_1_n_n.contr.Idx) :
    (dot_S128x512_S512x256_S128x256_1_0_0_1_n_n.lhsIdx i q 1).val = (q ⟨0, Nat.one_pos⟩).val :=
  dot_S128x512_S512x256_S128x256_1_0_0_1_n_n.lhsIdx_val_of_single rfl i q
theorem rhs_mm2_0 (i : S128x256.Idx) (q : dot_S128x512_S512x256_S128x256_1_0_0_1_n_n.contr.Idx) :
    (dot_S128x512_S512x256_S128x256_1_0_0_1_n_n.rhsIdx i q 0).val = (q ⟨0, Nat.one_pos⟩).val :=
  dot_S128x512_S512x256_S128x256_1_0_0_1_n_n.rhsIdx_val_of_single rfl i q
theorem rhs_mm2_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch from List.not_mem_nil), dif_pos (show (1 : Fin S512x256.rank) ∈ dot_S128x512_S512x256_S128x256_1_0_0_1_n_n.rhsNonContracting from List.mem_singleton.mpr rfl)]
  rfl

/-- The product read at an index: the sum over the contracted axis of the row of the left factor against the column of the right. -/
theorem mm2_apply (a : FVec Ideal S128x512 .f32) (b : FVec Ideal S512x256 .f32) (i : S128x256.Idx) :
    matmul dot_S128x512_S512x256_S128x256_1_0_0_1_n_n none a b (constant S128x256 .f32 0x00000000#32) i
      = ∑ k : Fin 512, a (ix2 (n0 := 128) (n1 := 512) (i 0) k) * b (ix2 (n0 := 512) (n1 := 256) k (i 1)) := by
  simp only [matmul]
  rw [Ideal.matmul_constant_zero_apply, ← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx i ((contrEquiv1 dot_S128x512_S512x256_S128x256_1_0_0_1_n_n 512 rfl rfl).symm k) = ix2 (n0 := 128) (n1 := 512) (i 0) k := funext fun x => Fin.ext (by
    match x with
    | ⟨0, _⟩ => exact lhs_mm2_0 _ _
    | ⟨1, _⟩ => exact (lhs_mm2_1 _ _).trans hk)
  have er : dot_S128x512_S512x256_S128x256_1_0_0_1_n_n.rhsIdx i ((contrEquiv1 dot_S128x512_S512x256_S128x256_1_0_0_1_n_n 512 rfl rfl).symm k) = ix2 (n0 := 512) (n1 := 256) k (i 1) := funext fun x => Fin.ext (by
    match x with
    | ⟨0, _⟩ => exact (rhs_mm2_0 _ _).trans hk
    | ⟨1, _⟩ => exact rhs_mm2_1 _ _)
  rw [el, er]

/-- A device's share of a layer on a group of rows, at (r, d): over its 512 hidden positions, the row against the hidden
    column, clamped below at zero, times the hidden row's entry in column d. -/
theorem fwd_apply (xg : FVec Ideal S128x256 .f32) (win : Vec Ideal S256x512 .f32) (wout : Vec Ideal S512x256 .f32) (i : S128x256.Idx) :
    KVal.fwd xg win wout i
      = ∑ k : Fin 512, max (∑ j : Fin 256, xg (ix2 (n0 := 128) (n1 := 256) (i 0) j) * (win (ix2 (n0 := 256) (n1 := 512) j k) : EReal)) 0
          * (wout (ix2 (n0 := 512) (n1 := 256) k (i 1)) : EReal) := by
  unfold KVal.fwd
  rw [shapeCast_self, shapeCast_self, mm2_apply]
  refine Finset.sum_congr rfl fun k _ => ?_
  rw [maximumf_apply, broadcast_apply, mm1_apply]
  show max _ (Ideal.ofBits .f32 0x00000000#32) * _ = _
  rw [Ideal.ofBits_zero_f32]

/-! ## A device's partial product -/

/-- Chunk `j` of a group of 128 rows is rows `32 j … 32 j + 31` of it. -/
theorem chunk_apply (j : Fin 4) (v : FVec Ideal S128x256 .f32) (i : S32x256.Idx) :
    KVal.chunk j v i
      = v (ix2 (n0 := 128) (n1 := 256) ⟨32 * j.val + (i 0).val, by have := j.isLt; have := idx2_lt0 i; omega⟩ (i 1)) := by
  match j with
  | ⟨0, _⟩ => exact extractStridedSlice_apply ![0, 0] v slices_S128x256_o0_0_S32x256 i _ fun a => match a with
      | ⟨0, _⟩ => by show 32 * 0 + (i 0).val = 0 + (i 0).val; omega
      | ⟨1, _⟩ => by show (i 1).val = 0 + (i 1).val; omega
  | ⟨1, _⟩ => exact extractStridedSlice_apply ![32, 0] v slices_S128x256_o32_0_S32x256 i _ fun a => match a with
      | ⟨0, _⟩ => by show 32 * 1 + (i 0).val = 32 + (i 0).val; omega
      | ⟨1, _⟩ => by show (i 1).val = 0 + (i 1).val; omega
  | ⟨2, _⟩ => exact extractStridedSlice_apply ![64, 0] v slices_S128x256_o64_0_S32x256 i _ fun a => match a with
      | ⟨0, _⟩ => by show 32 * 2 + (i 0).val = 64 + (i 0).val; omega
      | ⟨1, _⟩ => by show (i 1).val = 0 + (i 1).val; omega
  | ⟨3, _⟩ => exact extractStridedSlice_apply ![96, 0] v slices_S128x256_o96_0_S32x256 i _ fun a => match a with
      | ⟨0, _⟩ => by show 32 * 3 + (i 0).val = 96 + (i 0).val; omega
      | ⟨1, _⟩ => by show (i 1).val = 0 + (i 1).val; omega

/-- Hidden position `k`'s term of a layer at (r, d): row r of `X` against hidden column k, clamped below at zero, times
    entry (k, d) of `Wout`. -/
def term (X : Cert.Spec.SX.Idx → EReal) (Win : Cert.Spec.SWin.Idx → EReal) (Wout : Cert.Spec.SWout.Idx → EReal)
    (r : Fin 512) (d : Fin 256) (k : Fin 2048) : EReal :=
  max (∑ j : Fin 256, X (ix2 (n0 := 512) (n1 := 256) r j) * Win (ix2 (n0 := 256) (n1 := 2048) j k)) 0
    * Wout (ix2 (n0 := 2048) (n1 := 256) k d)

/-- A layer at (r, d) is the sum of the terms over the 2048 hidden positions. -/
theorem layer_ix2 (X : Cert.Spec.SX.Idx → EReal) (Win : Cert.Spec.SWin.Idx → EReal) (Wout : Cert.Spec.SWout.Idx → EReal)
    (r : Fin 512) (d : Fin 256) :
    Cert.Spec.layer X Win Wout (ix2 (n0 := 512) (n1 := 256) r d) = ∑ k : Fin 2048, term X Win Wout r d k := rfl

section Layer
variable (X : Cert.Spec.SX.Idx → EReal) (Win : Cert.Spec.SWin.Idx → EReal) (Wout : Cert.Spec.SWout.Idx → EReal)
  (xin : Dev nD → Fin 4 → FVec Ideal S128x256 .f32) (win : Dev nD → Vec Ideal S256x512 .f32) (wout : Dev nD → Vec Ideal S512x256 .f32)
  (hx : ∀ c g, xin c g = Cert.Spec.rows128 g X)
  (hwin : ∀ c, win c = Layout.block ⟨2, ![256, 512]⟩ ⟨2, ![256, 2048]⟩ 1 4 c Win)
  (hwout : ∀ c, wout c = Layout.block ⟨2, ![512, 256]⟩ ⟨2, ![2048, 256]⟩ 0 4 c Wout)
include hx hwin hwout

/-- Device `c`'s partial product on chunk `ch` at (r, d): the terms of its own 512 hidden positions at row `32 ch + r`. -/
theorem P_apply (c : Dev nD) (ch : Fin 16) (i : S32x256.Idx) :
    KVal.P xin win wout c ch i
      = ∑ l : Fin 512, term X Win Wout ⟨32 * ch.val + (i 0).val, by have := ch.isLt; have := idx2_lt0 i; omega⟩ (i 1) (blockEquiv (c, l)) := by
  have hch := ch.isLt
  have hi0 := idx2_lt0 i
  unfold KVal.P
  rw [chunk_apply, fwd_apply]
  refine Finset.sum_congr rfl fun l _ => ?_
  unfold term
  refine congrArg₂ (· * ·) (congrArg (max · 0) (Finset.sum_congr rfl fun j _ => congrArg₂ (· * ·) ?_ ?_)) ?_
  · rw [hx]
    exact congrArg X (congrArg (fun r => ix2 (n0 := 512) (n1 := 256) r j) (Fin.ext (by
      show 128 * (ch.val / 4) + (32 * (ch.val % 4) + (i 0).val) = 32 * ch.val + (i 0).val
      omega)))
  · rw [hwin]
    exact congrArg Win (funext fun a => Fin.ext (match a with
      | ⟨0, _⟩ => rfl
      | ⟨1, _⟩ => rfl))
  · rw [hwout]
    exact congrArg Wout (funext fun a => Fin.ext (match a with
      | ⟨0, _⟩ => rfl
      | ⟨1, _⟩ => rfl))

/-- After both exchanges every device holds, on chunk `ch` at (r, d), the sum of the terms over all 2048 hidden positions. -/
theorem S2_apply (c : Dev nD) (ch : Fin 16) (i : S32x256.Idx) :
    KVal.S2 xin win wout c ch i
      = ∑ k : Fin 2048, term X Win Wout ⟨32 * ch.val + (i 0).val, by have := ch.isLt; have := idx2_lt0 i; omega⟩ (i 1) k := by
  unfold KVal.S2 KVal.S1
  simp only [recvv_sendv, addf_apply]
  refine (cover ch c fun d => KVal.P xin win wout d ch i).trans ?_
  rw [sum_blocks]
  exact Finset.sum_congr rfl fun d _ => P_apply X Win Wout xin win wout hx hwin hwout d ch i

omit hx hwin hwout in
/-- Four chunks that are rows `32 (4 g + n) …` of a whole array, stacked, are rows `128 g …` of it. -/
theorem nextIn_apply (L : Cert.Spec.SX.Idx → EReal) (c : Dev nD)
    (hS : ∀ ch, KVal.S2 xin win wout c ch = Cert.Spec.rows32 ch L) (g : Fin 4) (i : S128x256.Idx) :
    KVal.nextIn xin win wout c g i = Cert.Spec.rows128 g L i := by
  have hg := g.isLt
  have hi0 := idx2_lt0 i
  unfold KVal.nextIn
  rcases (by omega : (i 0).val < 32 ∨ (32 ≤ (i 0).val ∧ (i 0).val < 64) ∨ (64 ≤ (i 0).val ∧ (i 0).val < 96) ∨ 96 ≤ (i 0).val)
    with h0 | h1 | h2 | h3
  · refine (concatenate_apply_piece (0 : Fin 2) _ _ i 0 (by show (0 : ℕ) < 4; omega) S32x256 _ rfl rfl 0 rfl
      (ix2 (n0 := 32) (n1 := 256) ⟨(i 0).val - 0, by omega⟩ (i 1)) ?_ ?_).trans ?_
    · intro b hb
      match b with
      | ⟨0, _⟩ => exact absurd rfl hb
      | ⟨1, _⟩ => rfl
    · show 0 + ((i 0).val - 0) = (i 0).val
      omega
    · rw [hS]
      exact congrArg L (congrArg (fun r => ix2 (n0 := 512) (n1 := 256) r (i 1)) (Fin.ext (by
        show 32 * (4 * g.val + 0) + ((i 0).val - 0) = 128 * g.val + (i 0).val
        omega)))
  · refine (concatenate_apply_piece (0 : Fin 2) _ _ i 1 (by show (1 : ℕ) < 4; omega) S32x256 _ rfl rfl 32 rfl
      (ix2 (n0 := 32) (n1 := 256) ⟨(i 0).val - 32, by omega⟩ (i 1)) ?_ ?_).trans ?_
    · intro b hb
      match b with
      | ⟨0, _⟩ => exact absurd rfl hb
      | ⟨1, _⟩ => rfl
    · show 32 + ((i 0).val - 32) = (i 0).val
      omega
    · rw [hS]
      exact congrArg L (congrArg (fun r => ix2 (n0 := 512) (n1 := 256) r (i 1)) (Fin.ext (by
        show 32 * (4 * g.val + 1) + ((i 0).val - 32) = 128 * g.val + (i 0).val
        omega)))
  · refine (concatenate_apply_piece (0 : Fin 2) _ _ i 2 (by show (2 : ℕ) < 4; omega) S32x256 _ rfl rfl 64 rfl
      (ix2 (n0 := 32) (n1 := 256) ⟨(i 0).val - 64, by omega⟩ (i 1)) ?_ ?_).trans ?_
    · intro b hb
      match b with
      | ⟨0, _⟩ => exact absurd rfl hb
      | ⟨1, _⟩ => rfl
    · show 64 + ((i 0).val - 64) = (i 0).val
      omega
    · rw [hS]
      exact congrArg L (congrArg (fun r => ix2 (n0 := 512) (n1 := 256) r (i 1)) (Fin.ext (by
        show 32 * (4 * g.val + 2) + ((i 0).val - 64) = 128 * g.val + (i 0).val
        omega)))
  · refine (concatenate_apply_piece (0 : Fin 2) _ _ i 3 (by show (3 : ℕ) < 4; omega) S32x256 _ rfl rfl 96 rfl
      (ix2 (n0 := 32) (n1 := 256) ⟨(i 0).val - 96, by omega⟩ (i 1)) ?_ ?_).trans ?_
    · intro b hb
      match b with
      | ⟨0, _⟩ => exact absurd rfl hb
      | ⟨1, _⟩ => rfl
    · show 96 + ((i 0).val - 96) = (i 0).val
      omega
    · rw [hS]
      exact congrArg L (congrArg (fun r => ix2 (n0 := 512) (n1 := 256) r (i 1)) (Fin.ext (by
        show 32 * (4 * g.val + 3) + ((i 0).val - 96) = 128 * g.val + (i 0).val
        omega)))

/-- One layer: on every device each chunk after both exchanges, and each group of the next layer's input, is the
    corresponding rows of the layer of the whole arrays. -/
theorem layer_ideal :
    (∀ c ch, KVal.S2 xin win wout c ch = Cert.Spec.rows32 ch (Cert.Spec.layer X Win Wout))
    ∧ (∀ c g, KVal.nextIn xin win wout c g = Cert.Spec.rows128 g (Cert.Spec.layer X Win Wout)) := by
  have hS : ∀ c ch, KVal.S2 xin win wout c ch = Cert.Spec.rows32 ch (Cert.Spec.layer X Win Wout) := fun c ch =>
    funext fun i => by
      rw [S2_apply X Win Wout xin win wout hx hwin hwout]
      rfl
  exact ⟨hS, fun c g => funext fun i => nextIn_apply xin win wout _ c (hS c) g i⟩

end Layer

/-! ## Three layers -/

/-- On every device each chunk of the result is the corresponding rows of the three layers of the whole arrays. -/
theorem out_ideal (X : Cert.Spec.SX.Idx → EReal)
    (W0 : Cert.Spec.SWin.Idx → EReal) (U0 : Cert.Spec.SWout.Idx → EReal)
    (W1 : Cert.Spec.SWin.Idx → EReal) (U1 : Cert.Spec.SWout.Idx → EReal)
    (W2 : Cert.Spec.SWin.Idx → EReal) (U2 : Cert.Spec.SWout.Idx → EReal)
    (x0 : Dev nD → Fin 4 → FVec Ideal S128x256 .f32)
    (w0 : Dev nD → Vec Ideal S256x512 .f32) (u0 : Dev nD → Vec Ideal S512x256 .f32)
    (w1 : Dev nD → Vec Ideal S256x512 .f32) (u1 : Dev nD → Vec Ideal S512x256 .f32)
    (w2 : Dev nD → Vec Ideal S256x512 .f32) (u2 : Dev nD → Vec Ideal S512x256 .f32)
    (hx0 : ∀ c g, x0 c g = Cert.Spec.rows128 g X)
    (hw0 : ∀ c, w0 c = Layout.block ⟨2, ![256, 512]⟩ ⟨2, ![256, 2048]⟩ 1 4 c W0)
    (hu0 : ∀ c, u0 c = Layout.block ⟨2, ![512, 256]⟩ ⟨2, ![2048, 256]⟩ 0 4 c U0)
    (hw1 : ∀ c, w1 c = Layout.block ⟨2, ![256, 512]⟩ ⟨2, ![256, 2048]⟩ 1 4 c W1)
    (hu1 : ∀ c, u1 c = Layout.block ⟨2, ![512, 256]⟩ ⟨2, ![2048, 256]⟩ 0 4 c U1)
    (hw2 : ∀ c, w2 c = Layout.block ⟨2, ![256, 512]⟩ ⟨2, ![256, 2048]⟩ 1 4 c W2)
    (hu2 : ∀ c, u2 c = Layout.block ⟨2, ![512, 256]⟩ ⟨2, ![2048, 256]⟩ 0 4 c U2) :
    ∀ c ch, KVal.out x0 w0 u0 w1 u1 w2 u2 c ch = Cert.Spec.rows32 ch (Cert.Spec.mlp3 X W0 U0 W1 U1 W2 U2) := by
  have h1 : ∀ c g, KVal.x1 x0 w0 u0 c g = Cert.Spec.rows128 g (Cert.Spec.layer X W0 U0) :=
    (layer_ideal X W0 U0 x0 w0 u0 hx0 hw0 hu0).2
  have h2 : ∀ c g, KVal.x2 x0 w0 u0 w1 u1 c g = Cert.Spec.rows128 g (Cert.Spec.layer (Cert.Spec.layer X W0 U0) W1 U1) :=
    (layer_ideal (Cert.Spec.layer X W0 U0) W1 U1 (KVal.x1 x0 w0 u0) w1 u1 h1 hw1 hu1).2
  exact (layer_ideal (Cert.Spec.layer (Cert.Spec.layer X W0 U0) W1 U1) W2 U2 (KVal.x2 x0 w0 u0 w1 u1) w2 u2 h2 hw2 hu2).1

end Cert.KernelIdeal.Alg

end
-- ==== Proof.Claims.lean ====
/-
  The claims about the idealized kernel. At the extended reals, when device `c` holds the whole input and block `c` of
  each of the six weights (hidden columns `512 c … 512 c + 511` of a first weight, the same rows of a second), its
  result is the three-layer function `X ↦ relu (X · Win) · Wout`, three times, of the whole arrays: one layer on four
  devices is the layer on one, because the four devices' partial products are the four blocks of the sum over the 2048
  hidden positions and addition of extended reals is commutative and associative. The reference's run leaves that
  function of its arguments in its result, so every device's result array ends at the reference's.
-/
import proofs.«900999_g7700000000001000_dist_mlpseq_tp1d_rep_rep_b512_d256_h512_v7x_i4_f32_1_alg».proof.Defs
import proofs.«900999_g7700000000001000_dist_mlpseq_tp1d_rep_rep_b512_d256_h512_v7x_i4_f32_1_alg».proof.Proof.Final
import proofs.«900999_g7700000000001000_dist_mlpseq_tp1d_rep_rep_b512_d256_h512_v7x_i4_f32_1_alg».proof.Proof.Algebra
import proofs.«900999_g7700000000001000_dist_mlpseq_tp1d_rep_rep_b512_d256_h512_v7x_i4_f32_1_alg».proof.Proof.RefSide
import proofs.«900999_g7700000000001000_dist_mlpseq_tp1d_rep_rep_b512_d256_h512_v7x_i4_f32_1_alg».proof.Proof.Spec

noncomputable section

namespace Cert.Proof.KClaims

open Cert.KernelIdeal Cert.KernelIdeal.Gen Cert.KernelIdeal.KVal Cert.KernelIdeal.Proto Cert.KernelIdeal.Launch Cert.KernelIdeal.Final

open Idealize.ShloMosaic
open Idealize.ShloMosaic.TcCoe
open Idealize.SL.Sem

/-- The idealized kernel runs and its argument arrays end unchanged. -/
theorem frame_pi [hPre_finite_inputs_Kernel : Cert.Pre_finite_inputs_Kernel.Facts] : Cert.frame_KernelIdeal :=
  fun m ρ _ => frame_of_run (F := Ideal) m ρ

/-! ## The result at the extended reals -/

/-- When device `c` holds the whole input and block `c` of each of the six weights, its result is the three layers of the
    whole arrays: row `r` of the result is row `r % 32` of chunk `r / 32`, which is row `32 (r / 32) + r % 32 = r` of them. -/
theorem out_whole (m : (ℓ : Loc nD τ sig) → Buf (Elt Ideal) ℓ)
    (a0 : Cert.Spec.SX.Idx → EReal) (a1 : Cert.Spec.SWin.Idx → EReal) (a2 : Cert.Spec.SWout.Idx → EReal)
    (a3 : Cert.Spec.SWin.Idx → EReal) (a4 : Cert.Spec.SWout.Idx → EReal)
    (a5 : Cert.Spec.SWin.Idx → EReal) (a6 : Cert.Spec.SWout.Idx → EReal)
    (hagree : ∀ c : Dev nD,
      m ((c.tc : Thread nD τ).loc main_arg0) = a0
      ∧ m ((c.tc : Thread nD τ).loc main_arg1) = Layout.block ⟨2, ![256, 512]⟩ ⟨2, ![256, 2048]⟩ 1 4 c a1
      ∧ m ((c.tc : Thread nD τ).loc main_arg2) = Layout.block ⟨2, ![512, 256]⟩ ⟨2, ![2048, 256]⟩ 0 4 c a2
      ∧ m ((c.tc : Thread nD τ).loc main_arg3) = Layout.block ⟨2, ![256, 512]⟩ ⟨2, ![256, 2048]⟩ 1 4 c a3
      ∧ m ((c.tc : Thread nD τ).loc main_arg4) = Layout.block ⟨2, ![512, 256]⟩ ⟨2, ![2048, 256]⟩ 0 4 c a4
      ∧ m ((c.tc : Thread nD τ).loc main_arg5) = Layout.block ⟨2, ![256, 512]⟩ ⟨2, ![256, 2048]⟩ 1 4 c a5
      ∧ m ((c.tc : Thread nD τ).loc main_arg6) = Layout.block ⟨2, ![512, 256]⟩ ⟨2, ![2048, 256]⟩ 0 4 c a6) :
    ∀ c : Dev nD, outAt m c = Cert.Spec.mlp3 a0 a1 a2 a3 a4 a5 a6 := by
  intro c
  have hx0 : ∀ c g, x0 m c g = Cert.Spec.rows128 g a0 := fun c g => by rw [x0_eq, (hagree c).1]
  have hw0 : ∀ c, wl m 0 c = Layout.block ⟨2, ![256, 512]⟩ ⟨2, ![256, 2048]⟩ 1 4 c a1 := fun c => by
    rw [wl0_eq, (hagree c).2.1]
  have hu0 : ∀ c, ul m 0 c = Layout.block ⟨2, ![512, 256]⟩ ⟨2, ![2048, 256]⟩ 0 4 c a2 := fun c => by
    rw [ul0_eq, (hagree c).2.2.1]
  have hw1 : ∀ c, wl m 1 c = Layout.block ⟨2, ![256, 512]⟩ ⟨2, ![256, 2048]⟩ 1 4 c a3 := fun c => by
    rw [wl1_eq, (hagree c).2.2.2.1]
  have hu1 : ∀ c, ul m 1 c = Layout.block ⟨2, ![512, 256]⟩ ⟨2, ![2048, 256]⟩ 0 4 c a4 := fun c => by
    rw [ul1_eq, (hagree c).2.2.2.2.1]
  have hw2 : ∀ c, wl m 2 c = Layout.block ⟨2, ![256, 512]⟩ ⟨2, ![256, 2048]⟩ 1 4 c a5 := fun c => by
    rw [wl2_eq, (hagree c).2.2.2.2.2.1]
  have hu2 : ∀ c, ul m 2 c = Layout.block ⟨2, ![512, 256]⟩ ⟨2, ![2048, 256]⟩ 0 4 c a6 := fun c => by
    rw [ul2_eq, (hagree c).2.2.2.2.2.2]
  have hout := Cert.KernelIdeal.Alg.out_ideal a0 a1 a2 a3 a4 a5 a6 (x0 m) (wl m 0) (ul m 0) (wl m 1) (ul m 1) (wl m 2) (ul m 2)
    hx0 hw0 hu0 hw1 hu1 hw2 hu2
  funext i
  unfold outAt outChunk
  rw [hout]
  unfold Cert.Spec.rows32
  exact congrArg (Cert.Spec.mlp3 a0 a1 a2 a3 a4 a5 a6) (funext fun a => Fin.ext (match a with
    | ⟨0, _⟩ => by show 32 * ((i 0).val / 32) + (i 0).val % 32 = (i 0).val; omega
    | ⟨1, _⟩ => rfl))

/-! ## The kernel against the reference -/

/-- From memories where each device holds its part of the reference's arrays both run, the reference's result ends at the
    three-layer function of its arguments, every device's result at the same array, and all arguments end unchanged. -/
theorem algebraic [hPre_finite_inputs_Kernel : Cert.Pre_finite_inputs_Kernel.Facts] : Cert.algebraic_KernelIdeal_ReferenceIdeal := by
  intro m ρ m' ρ' _ hagree
  refine ⟨Cert.Spec.mlp3 (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)), ?_, ?_⟩
  · exact (θ_run Cert.KernelIdeal.defs _ _).mono (fun r h c =>
      ⟨(h c).1.trans (out_whole m _ _ _ _ _ _ _ hagree c), (h c).2⟩)
      (run_named (F := Ideal) m ρ)
  · exact (θ_run Cert.ReferenceIdeal.defs _ _).mono (fun r h => h 0) (Cert.ReferenceIdeal.RefSide.run_spec m' ρ')

end Cert.Proof.KClaims

end
-- ==== Proof.Bits.KVal.lean ====
/-
  What each device computes and sends, as pure functions of vectors, at any float instance.
  A device holds the whole input `x` (512 rows in four groups of 128, sixteen chunks of 32) and its own 512 hidden
  columns of each layer's two weights. Per layer and chunk: its partial product `P` (its hidden columns' share of
  `relu (x · Win) · Wout`); `S1 = P + (the first peer's P)`; `S2 = S1 + (the second peer's S1)`. The peers are the
  device numbers with bit 0 flipped (`pa`) and with both bits flipped (`pb`), taken in the order `pa, pb` on even
  chunks and `pb, pa` on odd ones; both orders reach all four devices, so `S2` is the sum of the four partial products.
  What travels between devices is narrowed to bf16 and widened back.
-/
import proofs.«900999_g7700000000001000_dist_mlpseq_tp1d_rep_rep_b512_d256_h512_v7x_i4_f32_1_alg».proof.Kernel

noncomputable section

namespace Cert.Kernel.KVal

open Idealize.ShloMosaic Cert.Kernel

variable {F : FTy → Type} [FloatOps F] [Facts]
open Facts₀ Facts

/-- One device's share of a layer on a group of 128 rows: the rows against its hidden columns, clamped at zero, against its rows of `Wout`. -/
def fwd (xg : FVec F S128x256 .f32) (win : Vec F S256x512 .f32) (wout : Vec F S512x256 .f32) : FVec F S128x256 .f32 :=
  matmul dot_S128x512_S512x256_S128x256_1_0_0_1_n_n none
    (maximumf (matmul dot_S128x256_S256x512_S128x512_1_0_0_1_n_n none xg (shapeCast S256x512 win shapeCasts_S256x512_S256x512) (constant S128x512 .f32 0x00000000#32))
      (broadcast S128x512 (Scalar.ofBits .f32 0x00000000#32)))
    (shapeCast S512x256 wout shapeCasts_S512x256_S512x256) (constant S128x256 .f32 0x00000000#32)

/-- Chunk `j` (32 rows) of a group of 128 rows. -/
def chunk (j : Fin 4) (v : FVec F S128x256 .f32) : FVec F S32x256 .f32 :=
  match j with
  | 0 => extractStridedSlice S32x256 ![0, 0] v slices_S128x256_o0_0_S32x256
  | 1 => extractStridedSlice S32x256 ![32, 0] v slices_S128x256_o32_0_S32x256
  | 2 => extractStridedSlice S32x256 ![64, 0] v slices_S128x256_o64_0_S32x256
  | 3 => extractStridedSlice S32x256 ![96, 0] v slices_S128x256_o96_0_S32x256

/-- A chunk as it is put in the send buffer: narrowed to bf16, one slot of the buffer. -/
def sendv (v : FVec F S32x256 .f32) : FVec F S1x32x256 .bf16 :=
  shapeCast S1x32x256 (truncf .bf16 v bitsLt_bf16_f32) shapeCasts_S32x256_S1x32x256

/-- A received slot widened back to f32. -/
def recvv (w : Vec F S1x32x256 .bf16) : FVec F S32x256 .f32 :=
  extf .f32 (shapeCast S32x256 w shapeCasts_S1x32x256_S32x256) bitsLt_bf16_f32

/-- The device with bit 0 flipped. -/
def pa (c : Dev nD) : Dev nD := ![1, 0, 3, 2] c
/-- The device with both bits flipped. -/
def pb (c : Dev nD) : Dev nD := ![3, 2, 1, 0] c
/-- The peer of the first exchange of chunk `ch`. -/
def peer1 (ch : Fin 16) (c : Dev nD) : Dev nD := if ch.val % 2 = 0 then pa c else pb c
/-- The peer of the second exchange of chunk `ch`. -/
def peer2 (ch : Fin 16) (c : Dev nD) : Dev nD := if ch.val % 2 = 0 then pb c else pa c

section Layer
variable (xin : Dev nD → Fin 4 → FVec F S128x256 .f32) (win : Dev nD → Vec F S256x512 .f32) (wout : Dev nD → Vec F S512x256 .f32)

/-- Device `c`'s partial product on chunk `ch`. -/
def P (c : Dev nD) (ch : Fin 16) : FVec F S32x256 .f32 :=
  chunk ⟨ch.val % 4, Nat.mod_lt _ (by decide)⟩ (fwd (xin c ⟨ch.val / 4, by have := ch.isLt; omega⟩) (win c) (wout c))

/-- After the first exchange: its own partial product plus the first peer's, as received. -/
def S1 (c : Dev nD) (ch : Fin 16) : FVec F S32x256 .f32 :=
  addf (P xin win wout c ch) (recvv (sendv (P xin win wout (peer1 ch c) ch)))

/-- After the second exchange: that plus the second peer's, as received. -/
def S2 (c : Dev nD) (ch : Fin 16) : FVec F S32x256 .f32 :=
  addf (S1 xin win wout c ch) (recvv (sendv (S1 xin win wout (peer2 ch c) ch)))

/-- The next layer's input group `g` on device `c`: its four chunks of `S2` stacked. -/
def nextIn (c : Dev nD) (g : Fin 4) : FVec F S128x256 .f32 :=
  concatenate S128x256 0 [⟨S32x256, S2 xin win wout c ⟨4 * g.val, by have := g.isLt; omega⟩⟩, ⟨S32x256, S2 xin win wout c ⟨4 * g.val + 1, by have := g.isLt; omega⟩⟩,
    ⟨S32x256, S2 xin win wout c ⟨4 * g.val + 2, by have := g.isLt; omega⟩⟩, ⟨S32x256, S2 xin win wout c ⟨4 * g.val + 3, by have := g.isLt; omega⟩⟩]
    concatenates_S32x256_S32x256_S32x256_S32x256_S128x256_d0

end Layer

section Net
variable (x0 : Dev nD → Fin 4 → FVec F S128x256 .f32)
  (w0 : Dev nD → Vec F S256x512 .f32) (u0 : Dev nD → Vec F S512x256 .f32)
  (w1 : Dev nD → Vec F S256x512 .f32) (u1 : Dev nD → Vec F S512x256 .f32)
  (w2 : Dev nD → Vec F S256x512 .f32) (u2 : Dev nD → Vec F S512x256 .f32)

/-- The inputs of layers 1 and 2. -/
def x1 : Dev nD → Fin 4 → FVec F S128x256 .f32 := nextIn x0 w0 u0
def x2 : Dev nD → Fin 4 → FVec F S128x256 .f32 := nextIn (x1 x0 w0 u0) w1 u1

/-- Chunk `ch` of device `c`'s result. -/
def out (c : Dev nD) (ch : Fin 16) : FVec F S32x256 .f32 := S2 (x2 x0 w0 u0 w1 u1) w2 u2 c ch

end Net

end Cert.Kernel.KVal

end
-- ==== Proof.Bits.Proto.lean ====
/-
  The cross-device protocol's vocabulary. Every device has one barrier cell (two duties of one unit each, paid by its two
  peers at entry) and, per slot `s` of 96, a send cell (the device's own copy leaving its send buffer) and a receive cell
  (the peer's copy landing in its receive buffer), each of one duty of the slot's credit. Slot `s` stands for layer
  `s / 32`, chunk `(s / 2) % 16` and phase `s % 2`; its peer is the device with bit 0 flipped when chunk + phase is even
  and with both bits flipped otherwise, an involution on the devices either way, so the two ends of a slot write each
  other's receive slot `s`.
-/
import proofs.«900999_g7700000000001000_dist_mlpseq_tp1d_rep_rep_b512_d256_h512_v7x_i4_f32_1_alg».proof.Proof.Bits.KVal
import proofs.«900999_g7700000000001000_dist_mlpseq_tp1d_rep_rep_b512_d256_h512_v7x_i4_f32_1_alg».proof.Proof.Gen.Kernel
import proofs.«900999_g7700000000001000_dist_mlpseq_tp1d_rep_rep_b512_d256_h512_v7x_i4_f32_1_alg».proof.Proof.Gen.Kernel.Launch
import proofs.«900999_g7700000000001000_dist_mlpseq_tp1d_rep_rep_b512_d256_h512_v7x_i4_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

theorem pa_pa (c : Dev nD) : pa (pa c) = c := by revert c; decide
theorem pb_pb (c : Dev nD) : pb (pb c) = c := by revert c; decide
theorem pa_ne_pb (c : Dev nD) : pa c ≠ pb c := by revert c; decide
theorem pa_ne (c : Dev nD) : pa c ≠ c := by revert c; decide
theorem pb_ne (c : Dev nD) : pb c ≠ c := by revert c; decide

/-- Slot `s`'s layer, chunk and phase. -/
def layerOf (s : Fin 96) : Fin 3 := ⟨s.val / 32, by have := s.isLt; omega⟩
def chunkOf (s : Fin 96) : Fin 16 := ⟨(s.val / 2) % 16, Nat.mod_lt _ (by decide)⟩
def phaseOf (s : Fin 96) : Fin 2 := ⟨s.val % 2, Nat.mod_lt _ (by decide)⟩
/-- Whether slot `s` is exchanged with the bit-0 peer. -/
def isA (s : Fin 96) : Bool := ((s.val / 2) % 16 + s.val % 2) % 2 == 0
/-- Slot `s`'s peer of device `c`. -/
def peerOf (s : Fin 96) (c : Dev nD) : Dev nD := if isA s then pa c else pb c
theorem peerOf_peerOf (s : Fin 96) (c : Dev nD) : peerOf s (peerOf s c) = c := by
  unfold peerOf; split
  · exact pa_pa c
  · exact pb_pb c

/-! ## The buffers, the semaphores, the cells -/

abbrev sbufM : Memref sig .tc .vmem S96x32x256 .bf16 := Memref.whole cc0_scratch0
abbrev rbufM : Memref sig .tc .vmem S96x32x256 .bf16 := Memref.whole cc0_scratch1

/-- The runtime's barrier semaphore of collective id 0 (unscoped). -/
abbrev barS : Sem sig := (SemArray.scalar (sig.barrier 0 rfl) : Sems sig S_).sem
/-- Slot `s`'s send and receive DMA semaphores (scoped scratch). -/
def sendSem (s : Fin 96) : DmaSem sig := ⟨8 + s.val, by have := s.isLt; show 8 + s.val < 200; omega⟩
def recvSem (s : Fin 96) : DmaSem sig := ⟨104 + s.val, by have := s.isLt; show 104 + s.val < 200; omega⟩

abbrev barCell (c : Dev nD) : GSem nD τ sig := ((c : Thread nD τ), .reg barS)
abbrev sendCell (c : Dev nD) (s : Fin 96) : GSem nD τ sig := ((c : Thread nD τ), .dma (sendSem s))
abbrev recvCell (c : Dev nD) (s : Fin 96) : GSem nD τ sig := ((c : Thread nD τ), .dma (recvSem s))

/-! ## The slots of the two exchange buffers -/

section Slots

theorem slot_inb (s : Fin 96) : ∀ a, (![s.val, 0, 0] : Fin 3 → Nat) a + S1x32x256.size a ≤ S96x32x256.size a := by
  intro a; have := s.isLt
  fin_cases a <;> simp <;> omega

/-- Slot `s` of an exchange buffer as a rectangle of the buffer. -/
abbrev slotRect (s : Fin 96) : Rect S96x32x256 := Rect.unit (s := S96x32x256) ![s.val, 0, 0] S1x32x256.size (slot_inb s)

/-- Slot `s` of the send buffer and of the receive buffer, as the copies address them. -/
abbrev sSlot (s : Fin 96) : Memref sig .tc .vmem S32x256 .bf16 :=
  ((sbufM).slice (slotRect s) (fun _ => rfl)).squeeze S32x256 squeezes_S1x32x256_S32x256
abbrev rSlot (s : Fin 96) : Memref sig .tc .vmem S32x256 .bf16 :=
  ((rbufM).slice (slotRect s) (fun _ => rfl)).squeeze S32x256 squeezes_S1x32x256_S32x256

/-- A slot's credit in DMA units. -/
abbrev NC : ℕ := (rSlot 0).view.dmaCredit

end Slots

/-! ## What each device holds and sends -/

section Contents

/-- The staged inputs of device `c`: the whole `x` and its blocks of the six weights. -/
def stg0 (c : Dev nD) : Vec F S512x256 .f32 := (win0_0.blk t0_0).view.read (Elt F) (m ((c : Thread nD τ).loc main_arg0))
def stg1 (c : Dev nD) : Vec F S256x512 .f32 := (win0_1.blk t0_0).view.read (Elt F) (m ((c : Thread nD τ).loc main_arg1))
def stg2 (c : Dev nD) : Vec F S512x256 .f32 := (win0_2.blk t0_0).view.read (Elt F) (m ((c : Thread nD τ).loc main_arg2))
def stg3 (c : Dev nD) : Vec F S256x512 .f32 := (win0_3.blk t0_0).view.read (Elt F) (m ((c : Thread nD τ).loc main_arg3))
def stg4 (c : Dev nD) : Vec F S512x256 .f32 := (win0_4.blk t0_0).view.read (Elt F) (m ((c : Thread nD τ).loc main_arg4))
def stg5 (c : Dev nD) : Vec F S256x512 .f32 := (win0_5.blk t0_0).view.read (Elt F) (m ((c : Thread nD τ).loc main_arg5))
def stg6 (c : Dev nD) : Vec F S512x256 .f32 := (win0_6.blk t0_0).view.read (Elt F) (m ((c : Thread nD τ).loc main_arg6))

/-- Rows `128 g … 128 g + 127` of `x`, as the body loads them. -/
def xload (c : Dev nD) (g : Fin 4) : Vec F S128x256 .f32 :=
  match g with
  | 0 => (Memref.whole cc0_stg0_0 : Memref sig .tc .vmem S512x256 .f32).view.readAt (Elt F) (Rect.unit (s := S512x256) ![0, 0] S128x256.size inb_S512x256_S128x256_0_0).toLoadRect (stg0 m c)
  | 1 => (Memref.whole cc0_stg0_0 : Memref sig .tc .vmem S512x256 .f32).view.readAt (Elt F) (Rect.unit (s := S512x256) ![128, 0] S128x256.size inb_S512x256_S128x256_128_0).toLoadRect (stg0 m c)
  | 2 => (Memref.whole cc0_stg0_0 : Memref sig .tc .vmem S512x256 .f32).view.readAt (Elt F) (Rect.unit (s := S512x256) ![256, 0] S128x256.size inb_S512x256_S128x256_256_0).toLoadRect (stg0 m c)
  | 3 => (Memref.whole cc0_stg0_0 : Memref sig .tc .vmem S512x256 .f32).view.readAt (Elt F) (Rect.unit (s := S512x256) ![384, 0] S128x256.size inb_S512x256_S128x256_384_0).toLoadRect (stg0 m c)

end Contents

section Values

/-- Group `g` of device `c`'s input to layer 0. -/
def x0 (c : Dev nD) (g : Fin 4) : FVec F S128x256 .f32 :=
  shapeCast S128x256 (xload m c g) shapeCasts_S128x256_S128x256

/-- Layer `l`'s two weights on device `c`, as the body loads them: the staged block read whole. -/
def wl (l : Fin 3) (c : Dev nD) : Vec F S256x512 .f32 :=
  match l with
  | 0 => (Memref.whole cc0_stg1_0 : Memref sig .tc .vmem S256x512 .f32).view.readAt (Elt F) (Rect.unit (s := S256x512) ![0, 0] S256x512.size inb_S256x512_S256x512_0_0).toLoadRect (stg1 m c)
  | 1 => (Memref.whole cc0_stg3_0 : Memref sig .tc .vmem S256x512 .f32).view.readAt (Elt F) (Rect.unit (s := S256x512) ![0, 0] S256x512.size inb_S256x512_S256x512_0_0).toLoadRect (stg3 m c)
  | 2 => (Memref.whole cc0_stg5_0 : Memref sig .tc .vmem S256x512 .f32).view.readAt (Elt F) (Rect.unit (s := S256x512) ![0, 0] S256x512.size inb_S256x512_S256x512_0_0).toLoadRect (stg5 m c)
def ul (l : Fin 3) (c : Dev nD) : Vec F S512x256 .f32 :=
  match l with
  | 0 => (Memref.whole cc0_stg2_0 : Memref sig .tc .vmem S512x256 .f32).view.readAt (Elt F) (Rect.unit (s := S512x256) ![0, 0] S512x256.size inb_S512x256_S512x256_0_0).toLoadRect (stg2 m c)
  | 1 => (Memref.whole cc0_stg4_0 : Memref sig .tc .vmem S512x256 .f32).view.readAt (Elt F) (Rect.unit (s := S512x256) ![0, 0] S512x256.size inb_S512x256_S512x256_0_0).toLoadRect (stg4 m c)
  | 2 => (Memref.whole cc0_stg6_0 : Memref sig .tc .vmem S512x256 .f32).view.readAt (Elt F) (Rect.unit (s := S512x256) ![0, 0] S512x256.size inb_S512x256_S512x256_0_0).toLoadRect (stg6 m c)

/-- Layer `l`'s input on every device. -/
def xl (l : Fin 3) : Dev nD → Fin 4 → FVec F S128x256 .f32 :=
  match l with
  | 0 => x0 m
  | 1 => KVal.x1 (x0 m) (wl m 0) (ul m 0)
  | 2 => KVal.x2 (x0 m) (wl m 0) (ul m 0) (wl m 1) (ul m 1)

/-- What device `c` sends in slot `s` before narrowing: its partial product in phase 0, its first sum in phase 1. -/
def valOf (c : Dev nD) (s : Fin 96) : FVec F S32x256 .f32 :=
  if (phaseOf s).val = 0 then KVal.P (xl m (layerOf s)) (wl m (layerOf s)) (ul m (layerOf s)) c (chunkOf s)
  else KVal.S1 (xl m (layerOf s)) (wl m (layerOf s)) (ul m (layerOf s)) c (chunkOf s)

/-- The same narrowed to bf16: the contents of send slot `s`. -/
def sentS (c : Dev nD) (s : Fin 96) : Vec F S32x256 .bf16 := truncf .bf16 (valOf m c s) bitsLt_bf16_f32

end Values

/-! ## The schedule -/

section Sched

/-- Send slot `s` of device `c` at contents `f`, and receive slot `s` likewise: the slot's elements, at the full share. -/
def sPts (c : Dev nD) (s : Fin 96) (f : Buf (Elt F) ((sSlot s).view.loc (c : Thread nD τ))) : sProp 𝕄 :=
  (sSlot s).view.loc (c : Thread nD τ) ↦[(sSlot s).view.set]{fullShare} f
def rPts (c : Dev nD) (s : Fin 96) (f : Buf (Elt F) ((rSlot s).view.loc (c : Thread nD τ))) : sProp 𝕄 :=
  (rSlot s).view.loc (c : Thread nD τ) ↦[(rSlot s).view.set]{fullShare} f

/-- Receive slot `s` of device `c` once its peer's copy has landed: the peer's send slot `s` written over anything. -/
def landedBuf (c : Dev nD) (s : Fin 96) (f₀ : Buf (Elt F) ((rSlot s).view.loc (c : Thread nD τ))) : Buf (Elt F) ((rSlot s).view.loc (c : Thread nD τ)) :=
  (rSlot s).view.write (Elt F) f₀ (sentS m (peerOf s c) s) Finset.univ

/-- What a landing hands the receiver: its slot, holding the peer's slot. -/
def recvPay (c : Dev nD) (s : Fin 96) : sProp 𝕄 := iprop(∃ f₀, rPts c s (landedBuf m c s f₀))
/-- What a departure hands the sender back: its send slot. -/
def sendPay (c : Dev nD) (s : Fin 96) : sProp 𝕄 := iprop(∃ f, sPts c s f)
/-- What the entry signal of the peer `p` (`pa g` for duty `false`, `pb g` for duty `true`) hands device `g`: the receive slots of `p` that `g`
    writes, and that `p` is at round 0 of their cells. -/
def barPeer (g : Dev nD) (d : Bool) : Dev nD := if d then pb g else pa g
def barPay (g : Dev nD) (d : Bool) : sProp 𝕄 :=
  bigSep (Finset.univ.filter fun s : Fin 96 => isA s = !d) fun s => iprop((∃ f, rPts (barPeer g d) s f) ∗ reached ER (recvCell (barPeer g d) s) 0)

/-- Which slot a DMA semaphore is the send (`false`) or receive (`true`) semaphore of. -/
def slotOf (q : DmaSem sig) : Option (Bool × Fin 96) :=
  if h : 8 ≤ q.val ∧ q.val < 104 then some (false, ⟨q.val - 8, by omega⟩)
  else if h : 104 ≤ q.val ∧ q.val < 200 then some (true, ⟨q.val - 104, by omega⟩) else none

/-- One round, round 0: a barrier cell has two duties of one unit; a send or receive cell one duty of the slot's credit. -/
def rd : Rounds.Schedule (GSem nD τ sig) Bool 𝕄 where
  duties g r :=
    if r = 0 ∧ g.1.2 = .tc then
      (match g.2 with
        | .reg b => if b = barS then Finset.univ else ∅
        | .dma q => if (slotOf q).isSome then {false} else ∅)
    else ∅
  amount g _ _ := match g.2 with | .reg _ => 1 | .dma _ => NC
  payload g _ d := match g.2 with
    | .reg _ => barPay g.1.1 d
    | .dma q => match slotOf q with
      | some (false, s) => sendPay g.1.1 s
      | some (true, s) => recvPay m g.1.1 s
      | none => iprop(emp)
  amount_pos g _ _ _ := by
    cases g.2 with
    | reg _ => exact Nat.one_pos
    | dma _ => exact View.dmaCredit_pos _ (by decide)

end Sched

/-! ## What a device owes at launch; the levels -/

section Owes

/-- Device `c` owes each slot's peer the slot's credit on its receive cell, and both peers' barrier cells one unit. -/
def Osend (c : Dev nD) : CellTallies nD τ sig Unit := ∑ s : Fin 96, tallyAt (recvCell (peerOf s c) s) () NC
def O₁ (c : Dev nD) : CellTallies nD τ sig Unit := Osend c + tallyAt (barCell (pb c)) () 1
def O₀ (c : Dev nD) : CellTallies nD τ sig Unit := O₁ c + tallyAt (barCell (pa c)) () 1

def L (g : GSem nD τ sig) : Finset Unit := if g.1.2 = .tc then {()} else ∅
/-- Barrier cells at 1; receive cell of slot `s` at `2 + s / 32 * 2 + s % 2` (layer, then phase: every wait on a receive cell comes after the device has
    issued every copy of that layer and phase and of the earlier ones); everything else (staging, send cells) at 0. -/
def lv (g : GSem nD τ sig) (_ : Unit) : ℕ :=
  match g.2 with
  | .reg b => if b = barS then 1 else 0
  | .dma q => match slotOf q with
    | some (true, s) => 2 + 2 * (s.val / 32) + s.val % 2
    | _ => 0

end Owes

/-! ## The ghost state a device's body starts from -/

section Ghost

variable (κ : GSem nD τ sig → ℕ)

/-- The cells' invariants device `c`'s body opens: its own barrier, send and receive cells, both peers' barrier cells (its two signals), and
    each slot's peer's receive cell (its copies). -/
def invs (c : Dev nD) : sProp 𝕄 :=
  iprop(cellInv ER (rd m) (κ (barCell c)) (barCell c) ∗ cellInv ER (rd m) (κ (barCell (pa c))) (barCell (pa c)) ∗ cellInv ER (rd m) (κ (barCell (pb c))) (barCell (pb c))
    ∗ (bigSep Finset.univ fun s : Fin 96 => cellInv ER (rd m) (κ (sendCell c s)) (sendCell c s))
    ∗ (bigSep Finset.univ fun s : Fin 96 => cellInv ER (rd m) (κ (recvCell c s)) (recvCell c s))
    ∗ (bigSep Finset.univ fun s : Fin 96 => cellInv ER (rd m) (κ (recvCell (peerOf s c) s)) (recvCell (peerOf s c) s)))

instance invs_persistent (c : Dev nD) : BI.Persistent (invs m κ c) := by unfold invs; infer_instance

/-- The invariants; the device's positions at round 0 of its own cells; round 0 reached of the cells it pays and of its own; the tokens of the
    duties it pays: the bit-0 peer's barrier duty `false`, the other peer's barrier duty `true`, each slot's peer's receive duty, its own send duties. -/
def ghost (c : Dev nD) : sProp 𝕄 :=
  iprop(invs m κ c
    ∗ atPos ER (barCell c) 0 ∅ 0
    ∗ (bigSep Finset.univ fun s : Fin 96 => atPos ER (sendCell c s) 0 ∅ 0)
    ∗ (bigSep Finset.univ fun s : Fin 96 => atPos ER (recvCell c s) 0 ∅ 0)
    ∗ reached ER (barCell (pa c)) 0 ∗ reached ER (barCell (pb c)) 0
    ∗ (bigSep Finset.univ fun s : Fin 96 => reached ER (recvCell (peerOf s c) s) 0)
    ∗ (bigSep Finset.univ fun s : Fin 96 => reached ER (sendCell c s) 0)
    ∗ (bigSep Finset.univ fun s : Fin 96 => reached ER (recvCell c s) 0)
    ∗ dutyTok ER (barCell (pa c)) 0 false ∗ dutyTok ER (barCell (pb c)) 0 true
    ∗ (bigSep Finset.univ fun s : Fin 96 => dutyTok ER (recvCell (peerOf s c) s) 0 false)
    ∗ (bigSep Finset.univ fun s : Fin 96 => dutyTok ER (sendCell c s) 0 false))

end Ghost

section Start

/-- What device `c`'s body starts from: the ghost state at some names, the credit of its own barrier cell (two units) and of its receive cells, the levels. -/
def start (c : Dev nD) : sProp 𝕄 :=
  iprop((∃ κ, ghost m κ c) ∗ cred (tallyAt (barCell c) () 2) ∗ (bigSep Finset.univ fun s : Fin 96 => cred (tallyAt (recvCell c s) () NC)) ∗ levAts L lv)

/-- Before the point: that, and the two exchange buffers whole at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two buffers whole again, and the device's own send and receive cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun s : Fin 96 => semVal (sendCell c s) 0) ∗ (bigSep Finset.univ fun s : Fin 96 => semVal (recvCell c s) 0))

/-- Chunk `ch` of device `c`'s result. -/
def outChunk (c : Dev nD) (ch : Fin 16) : FVec F S32x256 .f32 :=
  KVal.out (x0 m) (wl m 0) (ul m 0) (wl m 1) (ul m 1) (wl m 2) (ul m 2) c ch

/-- Device `c`'s result block: row `r` is row `r % 32` of chunk `r / 32`. -/
def outAt (c : Dev nD) : Vec F S512x256 .f32 := fun i =>
  outChunk m c ⟨(i 0).val / 32, by have := (i 0).isLt; simp only [Matrix.cons_val_zero] at this; omega⟩
    (ValueIdx.ix2 (n0 := 32) (n1 := 256) ⟨(i 0).val % 32, Nat.mod_lt _ (by decide)⟩ (i 1))

/-- The pipeline's proof data: the arrays as launched; every input window's block stays; the result window's block ends at `outAt`. -/
def dats (_ : Fin 1) (c : Dev nD) : Dat τ (Elt F) Unit ℕ UU ℕ cfg0 c where
  A w := m ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => stg5 m c
    | ⟨6, _⟩ => stg6 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Start

end Cert.Kernel.Proto

end
-- ==== Proof.Bits.Tables.lean ====
/-
  The schedule's tables, cell by cell: which duties, amounts, expected units and payloads round 0 of a barrier, send or
  receive cell has; the levels of the cells; and that a device may wait on a cell whose level lies below everything it owes.
-/
import proofs.«900999_g7700000000001000_dist_mlpseq_tp1d_rep_rep_b512_d256_h512_v7x_i4_f32_1_alg».proof.Proof.Bits.Proto

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a slot -/

/-- Semaphore `8 + s` lies in the send range and is slot `s`'s. -/
theorem slotOf_send (s : Fin 96) : slotOf (sendSem s) = some (false, s) := by
  have h : 8 ≤ (sendSem s).val ∧ (sendSem s).val < 104 := by
    have := s.isLt; show 8 ≤ 8 + s.val ∧ 8 + s.val < 104; omega
  unfold slotOf
  rw [dif_pos h]
  exact congrArg some (Prod.ext rfl (Fin.ext (Nat.add_sub_cancel_left (n := 8) (m := s.val))))

/-- Semaphore `104 + s` lies in the receive range and is slot `s`'s. -/
theorem slotOf_recv (s : Fin 96) : slotOf (recvSem s) = some (true, s) := by
  have h₁ : ¬ (8 ≤ (recvSem s).val ∧ (recvSem s).val < 104) := by
    show ¬ (8 ≤ 104 + s.val ∧ 104 + s.val < 104); omega
  have h₂ : 104 ≤ (recvSem s).val ∧ (recvSem s).val < 200 := by
    have := s.isLt; show 104 ≤ 104 + s.val ∧ 104 + s.val < 200; omega
  unfold slotOf
  rw [dif_neg h₁, dif_pos h₂]
  exact congrArg some (Prod.ext rfl (Fin.ext (Nat.add_sub_cancel_left (n := 104) (m := s.val))))

/-- A staging semaphore (below 8) is no slot's. -/
theorem slotOf_stage (q : DmaSem sig) (hq : q.val < 8) : slotOf q = none := by
  unfold slotOf
  rw [dif_neg (fun h => by omega), dif_neg (fun h => by omega)]

theorem send_ne_recv (s s' : Fin 96) : sendSem s ≠ recvSem s' := fun h => by
  have h' : 8 + s.val = 104 + s'.val := congrArg Fin.val h
  have := s.isLt; omega

theorem sendSem_inj : Function.Injective sendSem := fun s s' h => by
  have h' : 8 + s.val = 8 + s'.val := congrArg Fin.val h
  exact Fin.ext (by omega)

theorem recvSem_inj : Function.Injective recvSem := fun s s' h => by
  have h' : 104 + s.val = 104 + s'.val := congrArg Fin.val h
  exact Fin.ext (by omega)

/-! ## The tables of round 0 -/

section Sched
variable (c : Dev nD) (s : Fin 96)

theorem duties_bar : (rd (F := F) m).duties (barCell c) 0 = Finset.univ := by
  dsimp only [rd]; rw [if_pos ⟨rfl, rfl⟩]; exact if_pos rfl
theorem duties_send : (rd (F := F) m).duties (sendCell c s) 0 = {false} := by
  dsimp only [rd]; rw [if_pos ⟨rfl, rfl⟩, slotOf_send]; rfl
theorem duties_recv : (rd (F := F) m).duties (recvCell c s) 0 = {false} := by
  dsimp only [rd]; rw [if_pos ⟨rfl, rfl⟩, slotOf_recv]; rfl
theorem duties_later (g : GSem nD τ sig) : ∀ r, 1 ≤ r → (rd (F := F) m).duties g r = ∅ :=
  fun r hr => by dsimp only [rd]; rw [if_neg fun h => by have := h.1; omega]

theorem amount_bar (d : Bool) : (rd (F := F) m).amount (barCell c) 0 d = 1 := rfl
theorem amount_send (d : Bool) : (rd (F := F) m).amount (sendCell c s) 0 d = NC := rfl
theorem amount_recv (d : Bool) : (rd (F := F) m).amount (recvCell c s) 0 d = NC := rfl

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (rd (F := F) m).expect (sendCell c s) 0 = NC := by
  unfold Schedule.expect Schedule.amountOf; rw [duties_send, Finset.sum_singleton, amount_send]
theorem expect_recv : (rd (F := F) m).expect (recvCell c s) 0 = NC := by
  unfold Schedule.expect Schedule.amountOf; rw [duties_recv, Finset.sum_singleton, amount_recv]

theorem payload_bar (d : Bool) : (rd (F := F) m).payload (barCell c) 0 d = barPay c d := rfl
theorem payload_send (d : Bool) : (rd (F := F) m).payload (sendCell c s) 0 d = sendPay c s := by
  dsimp only [rd]; rw [slotOf_send]
theorem payload_recv (d : Bool) : (rd (F := F) m).payload (recvCell c s) 0 d = recvPay m c s := by
  dsimp only [rd]; rw [slotOf_recv]

/-- The rest of the barrier cell's round, no duty taken: both peers' payloads. -/
theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((rd (F := F) m).duties (sendCell c s) 0 \ ∅) (fun d => (rd (F := F) m).payload (sendCell c s) 0 d) = sendPay c s := by
  rw [Finset.sdiff_empty, duties_send, bigSep_singleton, payload_send]
theorem rest_recv : bigSep ((rd (F := F) m).duties (recvCell c s) 0 \ ∅) (fun d => (rd (F := F) m).payload (recvCell c s) 0 d) = recvPay m c s := by
  rw [Finset.sdiff_empty, duties_recv, bigSep_singleton, payload_recv]

end Sched

/-- Every payload is made of points-to facts and round records: it can be kept in a cell's invariant. -/
instance rd_payload_storable (g : GSem nD τ sig) (r : ℕ) (d : Bool) :
    BI.Storable (upEmb : UEmb _ 𝕄) ((rd (F := F) m).payload g r d) := by
  show BI.Storable upEmb (match g.2 with
    | .reg _ => barPay g.1.1 d
    | .dma q => match slotOf q with
      | some (false, s) => sendPay g.1.1 s
      | some (true, s) => recvPay m g.1.1 s
      | none => iprop(emp))
  unfold barPay sendPay recvPay sPts rPts
  (repeat' split) <;> infer_instance

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

theorem lv_bar (c : Dev nD) : lv (barCell c) () = 1 := by dsimp only [lv]; exact if_pos rfl
theorem lv_send (c : Dev nD) (s : Fin 96) : lv (sendCell c s) () = 0 := by dsimp only [lv]; rw [slotOf_send]
theorem lv_recv (c : Dev nD) (s : Fin 96) : lv (recvCell c s) () = 2 + 2 * (s.val / 32) + s.val % 2 := by dsimp only [lv]; rw [slotOf_recv]
theorem lv_stage (c : Dev nD) (q : DmaSem sig) (hq : q.val < 8) : lv ((c : Thread nD τ), .dma q) () = 0 := by
  dsimp only [lv]; rw [slotOf_stage q hq]

/-! ## A device may wait below what it owes -/

omit [FloatOps F] in
/-- A cell at level 0 (a staging or a send cell) lies below everything owed at level 1 or above. -/
theorem mayWait_low (c : Dev nD) (sm : SemLoc sig) (hlv : lv ((c : Thread nD τ), sm) () = 0) (O : CellTallies nD τ sig Unit)
    (hO : ∀ g u, 0 < O g u → g.1.2 = .tc ∧ 1 ≤ lv g ()) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hlv)
    (fun g u hg => (hO g u hg).2)

omit [FloatOps F] in
/-- The barrier cell, at level 1, lies below everything owed at level 2 or above. -/
theorem mayWait_bar (c : Dev nD) (O : CellTallies nD τ sig Unit) (hO : ∀ g u, 0 < O g u → g.1.2 = .tc ∧ 2 ≤ lv g ()) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq (lv_bar c))
    (fun g u hg => (hO g u hg).2)

omit [FloatOps F] in
/-- Slot `s`'s receive cell lies below everything owed strictly above its level. -/
theorem mayWait_recv (c : Dev nD) (s : Fin 96) (O : CellTallies nD τ sig Unit)
    (hO : ∀ g u, 0 < O g u → g.1.2 = .tc ∧ lv (recvCell c s) () < lv g ()) :
    (levAts L lv : sProp 𝕄) ⊢ MayWait (c : Thread nD τ) (.dma (recvSem s)) () O :=
  MayOwe.of_cut (L := L) (lev := lv) (lv (recvCell c s) ()) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

attribute [sl_rounds] duties_bar duties_send duties_recv amount_bar amount_send amount_recv expect_bar expect_send expect_recv
  payload_bar payload_send payload_recv

end Cert.Kernel.Proto

end
-- ==== Proof.Bits.Glob.lean ====
/-
  The launch's ghost state. The protocol's algebra is funded with every device's own cells (its barrier cell, its 96 send
  cells and its 96 receive cells) at round 0 and with the duty tokens of those cells; the tokens are then dealt to the
  devices that pay the duties: a barrier cell's duty `false` to the bit-0 peer, its duty `true` to the other peer, a
  receive cell's duty to the slot's peer, a send cell's duty to the device itself. The peers are involutions, so each
  dealing is a reindexing of a product over all devices. Every cell's invariant is allocated from its counter at zero
  and its round state at zero, and each device is handed the records of the cells it opens.
-/
import proofs.«900999_g7700000000001000_dist_mlpseq_tp1d_rep_rep_b512_d256_h512_v7x_i4_f32_1_alg».proof.Proof.Bits.Tables

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped semaphores: DMA semaphores 8 … 199, the 96 send semaphores then the 96 receive semaphores. -/
def osem (k : Fin 192) : SemLoc sig := .dma ⟨8 + k.val, by have := k.isLt; show 8 + k.val < 200; omega⟩

theorem osem_send (s : Fin 96) : osem (Fin.castAdd 96 s) = .dma (sendSem s) := rfl
theorem osem_recv (s : Fin 96) : osem (Fin.natAdd 96 s) = .dma (recvSem s) := by
  unfold osem recvSem
  congr 1
  apply Fin.ext
  show 8 + (96 + s.val) = 104 + s.val
  omega

/-- They are scoped, pairwise distinct, and none is a staging semaphore (those are DMA semaphores 0 … 7). -/
theorem ownSemFacts : Pipeline.OwnSemFacts cfg0.spec osem where
  isScoped := by decide
  inj := by
    intro a b h
    have h1 : 8 + a.val = 8 + b.val := congrArg Fin.val (SemLoc.dma.inj h)
    exact Fin.ext (by omega)
  disj := by decide

/-! ## A device's own cells -/

/-- The index of a device's own cells: the barrier cell, the send cell of each slot, the receive cell of each slot. -/
abbrev CI : Type := Unit ⊕ Fin 96 ⊕ Fin 96

def csem : CI → SemLoc sig
  | .inl _ => .reg barS
  | .inr (.inl s) => .dma (sendSem s)
  | .inr (.inr s) => .dma (recvSem s)

abbrev kcell (ck : Dev nD × CI) : GSem nD τ sig := ((ck.1 : Thread nD τ), csem ck.2)

theorem kcell_bar (c : Dev nD) : kcell (c, .inl ()) = barCell c := rfl
theorem kcell_send (c : Dev nD) (s : Fin 96) : kcell (c, .inr (.inl s)) = sendCell c s := rfl
theorem kcell_recv (c : Dev nD) (s : Fin 96) : kcell (c, .inr (.inr s)) = recvCell c s := rfl

theorem csem_injective : Function.Injective csem := by
  rintro (_ | s | s) (_ | s' | s') h
  · rfl
  · exact absurd h (fun h' => by cases h')
  · exact absurd h (fun h' => by cases h')
  · exact absurd h (fun h' => by cases h')
  · rw [sendSem_inj (SemLoc.dma.inj h)]
  · exact absurd (SemLoc.dma.inj h) (send_ne_recv s s')
  · exact absurd h (fun h' => by cases h')
  · exact absurd (SemLoc.dma.inj h).symm (send_ne_recv s' s)
  · rw [recvSem_inj (SemLoc.dma.inj h)]

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's own cells. -/
def ringCells : Finset (GSem nD τ sig) := Finset.univ.map ⟨kcell, kcell_injective⟩

/-- The index of a device's own cells' duty tokens: the barrier cell's two, each send cell's one, each receive cell's one. -/
abbrev TI : Type := Bool ⊕ Fin 96 ⊕ Fin 96

def tokOf : Dev nD × TI → GSem nD τ sig × ℕ × Bool
  | (c, .inl d) => (barCell c, 0, d)
  | (c, .inr (.inl s)) => (sendCell c s, 0, false)
  | (c, .inr (.inr s)) => (recvCell c s, 0, false)

theorem tokOf_injective : Function.Injective (tokOf : Dev nD × TI → GSem nD τ sig × ℕ × Bool) := by
  rintro ⟨c, (d | s | s)⟩ ⟨c', (d' | s' | s')⟩ h <;>
    have hk := congrArg (fun x : GSem nD τ sig × ℕ × Bool => x.1) h <;>
    have hd := congrArg (fun x : GSem nD τ sig × ℕ × Bool => x.2.2) h
  · have := kcell_injective (a₁ := (c, .inl ())) (a₂ := (c', .inl ())) hk
    cases this; cases (show d = d' from hd); rfl
  · exact absurd (kcell_injective (a₁ := (c, .inl ())) (a₂ := (c', .inr (.inl s'))) hk) (fun h' => by cases h')
  · exact absurd (kcell_injective (a₁ := (c, .inl ())) (a₂ := (c', .inr (.inr s'))) hk) (fun h' => by cases h')
  · exact absurd (kcell_injective (a₁ := (c, .inr (.inl s))) (a₂ := (c', .inl ())) hk) (fun h' => by cases h')
  · have := kcell_injective (a₁ := (c, .inr (.inl s))) (a₂ := (c', .inr (.inl s'))) hk
    cases this; rfl
  · exact absurd (kcell_injective (a₁ := (c, .inr (.inl s))) (a₂ := (c', .inr (.inr s'))) hk) (fun h' => by cases h')
  · exact absurd (kcell_injective (a₁ := (c, .inr (.inr s))) (a₂ := (c', .inl ())) hk) (fun h' => by cases h')
  · exact absurd (kcell_injective (a₁ := (c, .inr (.inr s))) (a₂ := (c', .inr (.inl s'))) hk) (fun h' => by cases h')
  · have := kcell_injective (a₁ := (c, .inr (.inr s))) (a₂ := (c', .inr (.inr s'))) hk
    cases this; rfl

/-- Every device's own cells' duty tokens of round 0. -/
def ringToks : Finset (GSem nD τ sig × ℕ × Bool) := Finset.univ.map ⟨tokOf, tokOf_injective⟩

/-- The launch element: the pipeline library's beside the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ (bigSep Finset.univ fun s : Fin 96 => dutyTok ER (sendCell c s) 0 false)
    ∗ (bigSep Finset.univ fun s : Fin 96 => dutyTok ER (recvCell c s) 0 false))

/-- What the launch element deals device `c`: its own cells' round states at counter zero, its positions at round 0 with
    round 0 reached, and the duty tokens of its own cells. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

/-- What the global step makes of it: the ghost state the device's body starts from, at some names. -/
def G' (c : Dev nD) : sProp 𝕄 := iprop(∃ κ, ghost m κ c)

/-- A product over a device's own cells: the barrier cell's factor, the send cells', the receive cells'. -/
theorem bigSep_CI (Φ : CI → sProp 𝕄) : bigSep Finset.univ Φ
    = iprop(Φ (.inl ()) ∗ (bigSep Finset.univ fun s : Fin 96 => Φ (.inr (.inl s))) ∗ bigSep Finset.univ fun s : Fin 96 => Φ (.inr (.inr s))) := by
  rw [bigSep_univ_sum, bigSep_univ_sum, bigSep_univ_of_subsingleton ()]; rfl

theorem bigSep_bool (Φ : Bool → sProp 𝕄) : bigSep Finset.univ Φ = iprop(Φ false ∗ Φ true) := by
  rw [show (Finset.univ : Finset Bool) = {false, true} from by decide, bigSep_insert (by decide), bigSep_singleton]
  rfl

theorem bigSep_TI (Φ : TI → sProp 𝕄) : bigSep Finset.univ Φ
    = iprop((Φ (.inl false) ∗ Φ (.inl true)) ∗ (bigSep Finset.univ fun s : Fin 96 => Φ (.inr (.inl s))) ∗ bigSep Finset.univ fun s : Fin 96 => Φ (.inr (.inr s))) := by
  rw [bigSep_univ_sum, bigSep_univ_sum, bigSep_bool]; rfl

/-- The protocol's launch element is every device's share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => (Entails.of_eq (bigSep_TI _)).trans ?_
    unfold toks
    iintro ⟨⟨H1, H2⟩, H3, H4⟩
    isplitl [H1]; · iexact H1
    isplitl [H2]; · iexact H2
    isplitl [H3]; · iexact H3
    iexact H4
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores of a device are its send and its receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 96 => semVal (sendCell c s) 0) ∗ bigSep Finset.univ fun s : Fin 96 => semVal (recvCell c s) 0) := by
  unfold Pipeline.ownSems0
  rw [bigSep_univ_equiv (finSumFinEquiv (m := 96) (n := 96)), bigSep_univ_sum]
  congr 1

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

/-- Each of a device's own cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records, and what stays with a device -/

/-- The records of every device's own cells at the names `κ`: each cell's invariant, and round 0 of each reached. -/
def records (κ : GSem nD τ sig → ℕ) : sProp 𝕄 :=
  iprop((bigSep Finset.univ fun ck : Dev nD × CI => cellInv ER (rd m) (κ (kcell ck)) (kcell ck))
    ∗ bigSep Finset.univ fun ck : Dev nD × CI => reached ER (kcell ck) 0)

instance records_persistent (κ : GSem nD τ sig → ℕ) : BI.Persistent (records m κ) := by unfold records; infer_instance

theorem inv_at₀ (κ : GSem nD τ sig → ℕ) (ck : Dev nD × CI) :
    (bigSep Finset.univ fun ck : Dev nD × CI => (cellInv ER (rd m) (κ (kcell ck)) (kcell ck) : sProp 𝕄)) ⊢ cellInv ER (rd m) (κ (kcell ck)) (kcell ck) :=
  bigSep_elim (Finset.mem_univ ck)
theorem reached_at₀ (ck : Dev nD × CI) :
    (bigSep Finset.univ fun ck : Dev nD × CI => (reached ER (kcell ck) 0 : sProp 𝕄)) ⊢ reached ER (kcell ck) 0 :=
  bigSep_elim (Finset.mem_univ ck)

theorem inv_at (κ : GSem nD τ sig → ℕ) (ck : Dev nD × CI) : records m κ ⊢ cellInv ER (rd m) (κ (kcell ck)) (kcell ck) := by
  unfold records
  iintro ⟨#HI, -⟩
  iapply (inv_at₀ m κ ck)
  iexact HI

theorem reached_at (κ : GSem nD τ sig → ℕ) (ck : Dev nD × CI) : records m κ ⊢ reached ER (kcell ck) 0 := by
  unfold records
  iintro ⟨-, #HR⟩
  iapply (reached_at₀ (F := F) ck)
  iexact HR

/-- The tokens of the duties device `c` pays. -/
def payToks (c : Dev nD) : sProp 𝕄 :=
  iprop(dutyTok ER (barCell (pa c)) 0 false ∗ dutyTok ER (barCell (pb c)) 0 true
    ∗ (bigSep Finset.univ fun s : Fin 96 => dutyTok ER (recvCell (peerOf s c) s) 0 false)
    ∗ (bigSep Finset.univ fun s : Fin 96 => dutyTok ER (sendCell c s) 0 false))

/-- What stays with device `c`: its positions, and those tokens. -/
def linear (c : Dev nD) : sProp 𝕄 :=
  iprop((atPos ER (barCell c) 0 ∅ 0 ∗ (bigSep Finset.univ fun s : Fin 96 => atPos ER (sendCell c s) 0 ∅ 0)
      ∗ (bigSep Finset.univ fun s : Fin 96 => atPos ER (recvCell c s) 0 ∅ 0)) ∗ payToks c)

theorem ghost_intro (κ : GSem nD τ sig → ℕ) (c : Dev nD) : iprop(records m κ ∗ linear c) ⊢ G' m c := by
  unfold linear payToks G' ghost invs
  iintro ⟨#HR, ⟨HaB, HaS, HaV⟩, HtA, HtB, HtV, HtS⟩
  iexists κ
  isplitr
  · isplitr; · iapply (inv_at m κ (c, .inl ())); iexact HR
    isplitr; · iapply (inv_at m κ (pa c, .inl ())); iexact HR
    isplitr; · iapply (inv_at m κ (pb c, .inl ())); iexact HR
    isplitr
    · iapply (bigSep_intro_persistent (R := records m κ) (S := Finset.univ)
        (Φ := fun s : Fin 96 => (cellInv ER (rd m) (κ (sendCell c s)) (sendCell c s) : sProp 𝕄)) fun s _ => inv_at m κ (c, .inr (.inl s)))
      iexact HR
    isplitr
    · iapply (bigSep_intro_persistent (R := records m κ) (S := Finset.univ)
        (Φ := fun s : Fin 96 => (cellInv ER (rd m) (κ (recvCell c s)) (recvCell c s) : sProp 𝕄)) fun s _ => inv_at m κ (c, .inr (.inr s)))
      iexact HR
    · iapply (bigSep_intro_persistent (R := records m κ) (S := Finset.univ)
        (Φ := fun s : Fin 96 => (cellInv ER (rd m) (κ (recvCell (peerOf s c) s)) (recvCell (peerOf s c) s) : sProp 𝕄)) fun s _ => inv_at m κ (peerOf s c, .inr (.inr s)))
      iexact HR
  isplitl [HaB]; · iexact HaB
  isplitl [HaS]; · iexact HaS
  isplitl [HaV]; · iexact HaV
  isplitr; · iapply (reached_at m κ (pa c, .inl ())); iexact HR
  isplitr; · iapply (reached_at m κ (pb c, .inl ())); iexact HR
  isplitr
  · iapply (bigSep_intro_persistent (R := records m κ) (S := Finset.univ)
      (Φ := fun s : Fin 96 => (reached ER (recvCell (peerOf s c) s) 0 : sProp 𝕄)) fun s _ => reached_at m κ (peerOf s c, .inr (.inr s)))
    iexact HR
  isplitr
  · iapply (bigSep_intro_persistent (R := records m κ) (S := Finset.univ)
      (Φ := fun s : Fin 96 => (reached ER (sendCell c s) 0 : sProp 𝕄)) fun s _ => reached_at m κ (c, .inr (.inl s)))
    iexact HR
  isplitr
  · iapply (bigSep_intro_persistent (R := records m κ) (S := Finset.univ)
      (Φ := fun s : Fin 96 => (reached ER (recvCell c s) 0 : sProp 𝕄)) fun s _ => reached_at m κ (c, .inr (.inr s)))
    iexact HR
  isplitl [HtA]; · iexact HtA
  isplitl [HtB]; · iexact HtB
  isplitl [HtV]; · iexact HtV
  iexact HtS

/-! ## The tokens dealt to the devices that pay -/

def paE : Dev nD ≃ Dev nD := ⟨pa, pa, pa_pa, pa_pa⟩
def pbE : Dev nD ≃ Dev nD := ⟨pb, pb, pb_pb, pb_pb⟩
def peerE (s : Fin 96) : Dev nD ≃ Dev nD := ⟨peerOf s, peerOf s, peerOf_peerOf s, peerOf_peerOf s⟩

/-- Each slot's receive tokens, dealt along the slot's peer map. -/
theorem recv_around : (bigSep Finset.univ fun c : Dev nD => bigSep Finset.univ fun s : Fin 96 => (dutyTok ER (recvCell c s) 0 false : sProp 𝕄))
    = bigSep Finset.univ fun c : Dev nD => bigSep Finset.univ fun s : Fin 96 => dutyTok ER (recvCell (peerOf s c) s) 0 false := by
  rw [bigSep_univ_comm (fun (c : Dev nD) (s : Fin 96) => (dutyTok ER (recvCell c s) 0 false : sProp 𝕄)),
    bigSep_congr (s := Finset.univ) (fun (s : Fin 96) _ => bigSep_univ_equiv (peerE s) (fun c : Dev nD => (dutyTok ER (recvCell c s) 0 false : sProp 𝕄))),
    bigSep_univ_comm (fun (s : Fin 96) (c : Dev nD) => (dutyTok ER (recvCell (peerE s c) s) 0 false : sProp 𝕄))]
  rfl

/-- The tokens dealt: a barrier cell's `false` token to the bit-0 peer, its `true` token to the other peer, each receive token
    to the slot's peer; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv paE (fun c : Dev nD => (dutyTok ER (barCell c) 0 false : sProp 𝕄)),
    bigSep_univ_equiv pbE (fun c : Dev nD => (dutyTok ER (barCell c) 0 true : sProp 𝕄)),
    recv_around]
  iintro ⟨H1, H2, H3, H4⟩
  isplitl [H1]; · iexact H1
  isplitl [H2]; · iexact H2
  isplitl [H4]; · iexact H4
  iexact H3

/-! ## The global step -/

theorem regroup :
    (bigSep Finset.univ fun c : Dev nD => iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  have hC : (bigSep Finset.univ fun ck : Dev nD × CI => iprop(∃ κ : ℕ, cellInv ER (rd m) κ (kcell ck)) : sProp 𝕄)
      = bigSep ringCells fun g => iprop(∃ κ : ℕ, cellInv ER (rd m) κ g) := by
    unfold ringCells; rw [bigSep_map]; rfl
  have hC' (κ : GSem nD τ sig → ℕ) : (bigSep ringCells fun g => (cellInv ER (rd m) (κ g) g : sProp 𝕄))
      = bigSep Finset.univ fun ck : Dev nD × CI => cellInv ER (rd m) (κ (kcell ck)) (kcell ck) := by
    unfold ringCells; rw [bigSep_map]; rfl
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), hC]
  iintro ⟨HI, ⟨Hat, #HR⟩, Htok⟩
  ihave HK := (BI.bigSep_exists_pi ringCells (fun (g : GSem nD τ sig) (κ : ℕ) => (cellInv ER (rd m) κ g : sProp 𝕄))) $$ HI
  icases HK with ⟨%κ, #HI⟩
  ihave Htk := (toks_around (F := F)) $$ Htok
  iapply (bigSep_with_persistent (R := records m κ) fun c _ => ghost_intro m κ c)
  isplitr
  · unfold records; isplitl
    · iapply (Entails.of_eq (hC' κ)); iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear; rw [bigSep_CI]; rfl)))
    isplitl [Hat]; · iexact Hat
    iexact Htk

/-- The global step: every device's own and unscoped semaphores at once, beside every device's share of the launch element. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element split: the pipeline library's part, and every device's share of the protocol's. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.Kernel.Proto

end
-- ==== Proof.Bits.Hand.lean ====
/-
  The entry handshake's bookkeeping. A device gives each peer, inside its entry signal, the receive slots that peer
  writes (the slots whose chunk + phase is even go to the bit-0 peer, the others to the other peer), and gets from the two
  signals it waits for, for every slot, that slot of the slot's peer's receive buffer.
-/
import proofs.«900999_g7700000000001000_dist_mlpseq_tp1d_rep_rep_b512_d256_h512_v7x_i4_f32_1_alg».proof.Proof.Bits.Proto

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem barPeer_false (c : Dev nD) : barPeer c false = pa c := rfl
theorem barPeer_true (c : Dev nD) : barPeer c true = pb c := rfl
theorem barPeer_pa (c : Dev nD) : barPeer (pa c) false = c := pa_pa c
theorem barPeer_pb (c : Dev nD) : barPeer (pb c) true = c := pb_pb c

theorem peerOf_of_A {s : Fin 96} (h : isA s = true) (c : Dev nD) : peerOf s c = pa c := by unfold peerOf; rw [if_pos h]
theorem peerOf_of_B {s : Fin 96} (h : isA s = false) (c : Dev nD) : peerOf s c = pb c := by
  unfold peerOf; rw [if_neg (by rw [h]; exact Bool.false_ne_true)]

/-- The slots exchanged with the bit-0 peer, and the others. -/
abbrev slotsA : Finset (Fin 96) := Finset.univ.filter fun s : Fin 96 => isA s = !false
abbrev slotsB : Finset (Fin 96) := Finset.univ.filter fun s : Fin 96 => isA s = !true

theorem slots_split (Φ : Fin 96 → sProp 𝕄) : bigSep Finset.univ Φ = iprop(bigSep slotsA Φ ∗ bigSep slotsB Φ) := by
  rw [bigSep_filter_split Finset.univ (fun s : Fin 96 => isA s = true)]
  have e : (Finset.univ.filter fun s : Fin 96 => ¬ isA s = true) = slotsB :=
    Finset.filter_congr fun s _ => by cases isA s <;> simp
  rw [e]
  rfl

theorem ex_intro_rPts (c : Dev nD) (s : Fin 96) (f : Buf (Elt F) ((rSlot s).view.loc (c : Thread nD τ))) :
    rPts (F := F) c s f ⊢ iprop(∃ f, rPts (F := F) c s f) := by
  iintro H; iexists f; iexact H

/-- What device `c` puts in its signal to the bit-0 peer: its receive slots of that kind, at any contents, and that it is at round 0 of their cells. -/
theorem barPay_intro_A (c : Dev nD) (f : Buf (Elt F) ((c : Thread nD τ).loc cc0_scratch1)) :
    iprop((bigSep slotsA fun s : Fin 96 => rPts (F := F) c s f) ∗ (bigSep Finset.univ fun s : Fin 96 => reached ER (recvCell c s) 0))
      ⊢ barPay (F := F) (pa c) false := by
  unfold barPay; rw [barPeer_pa, bigSep_sep']
  exact BI.sep_mono (bigSep_mono fun s _ => ex_intro_rPts c s f) (bigSep_subset (Finset.filter_subset _ _))

theorem barPay_intro_B (c : Dev nD) (f : Buf (Elt F) ((c : Thread nD τ).loc cc0_scratch1)) :
    iprop((bigSep slotsB fun s : Fin 96 => rPts (F := F) c s f) ∗ (bigSep Finset.univ fun s : Fin 96 => reached ER (recvCell c s) 0))
      ⊢ barPay (F := F) (pb c) true := by
  unfold barPay; rw [barPeer_pb, bigSep_sep']
  exact BI.sep_mono (bigSep_mono fun s _ => ex_intro_rPts c s f) (bigSep_subset (Finset.filter_subset _ _))

theorem drop_reached (p : Dev nD) (s : Fin 96) :
    iprop((∃ f, rPts (F := F) p s f) ∗ reached ER (recvCell p s) 0) ⊢ iprop(∃ f, rPts (F := F) p s f) := by
  iintro ⟨H, -⟩; iexact H

/-- What the two signals a device waits for hand it: for every slot, that slot of its peer's receive buffer. -/
theorem barPay_elim (c : Dev nD) :
    iprop(barPay (F := F) c false ∗ barPay c true) ⊢ bigSep Finset.univ fun s : Fin 96 => iprop(∃ f, rPts (F := F) (peerOf s c) s f) := by
  rw [slots_split]
  unfold barPay; rw [barPeer_false, barPeer_true]
  refine BI.sep_mono ?_ ?_
  · exact bigSep_mono fun s hs => by
      have h : isA s = true := (Finset.mem_filter.mp hs).2
      rw [peerOf_of_A h]; exact drop_reached (pa c) s
  · exact bigSep_mono fun s hs => by
      have h : isA s = false := (Finset.mem_filter.mp hs).2
      rw [peerOf_of_B h]; exact drop_reached (pb c) s

end Cert.Kernel.Proto

end
-- ==== Proof.Bits.Slots.lean ====
/-
  The geometry of the two exchange buffers. Each is bf16[96, 32, 256] and is cut along its leading axis into 96 slots
  [s, :, :]; slot `s` is the unit-stride rectangle at offset (s, 0, 0) of sizes (1, 32, 256). The slots are pairwise disjoint
  (they differ in the leading coordinate) and cover the buffer (every element lies in the slot of its leading coordinate),
  so holding a buffer whole is holding its 96 slots. A slot viewed as [32, 256] (the leading unit axis dropped) has the
  same elements as the rectangle, and reading through one of the two views what was written through the other is the
  payload with the unit axis dropped or added.
-/
import proofs.«900999_g7700000000001000_dist_mlpseq_tp1d_rep_rep_b512_d256_h512_v7x_i4_f32_1_alg».proof.Proof.Bits.Proto
import Idealize.ShloMosaic.Lib.Pipeline.Value

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots' element sets -/

/-- A slot viewed as [32, 256] has the rectangle's elements: dropping the unit axis moves no element. -/
theorem sSlot_set (s : Fin 96) : (sSlot s).view.set = (slotRect s).set := by
  show (((sbufM).view.slice (slotRect s)).reshape S32x256 _).set = _
  rw [View.set_reshape]
  exact View.set_slice_whole cc0_scratch0 (slotRect s)

theorem rSlot_set (s : Fin 96) : (rSlot s).view.set = (slotRect s).set := by
  show (((rbufM).view.slice (slotRect s)).reshape S32x256 _).set = _
  rw [View.set_reshape]
  exact View.set_slice_whole cc0_scratch1 (slotRect s)

/-- A store through the whole buffer at slot `s`'s rectangle writes only the slot's elements; so does a load there read only them. -/
theorem sstore_sub (s : Fin 96) : ((sbufM).access (slotRect s)).setOn Finset.univ ⊆ (sSlot s).view.set := by
  rw [sSlot_set, View.setOn_univ]
  exact (View.set_slice_whole cc0_scratch0 (slotRect s)).le

theorem sload_sub (s : Fin 96) : (sbufM).view.setOn (slotRect s).toLoadRect.set ⊆ (sSlot s).view.set := by
  rw [sSlot_set]
  exact (Finset.map_refl (s := (slotRect s).set)).le

theorem rload_sub (s : Fin 96) : (rbufM).view.setOn (slotRect s).toLoadRect.set ⊆ (rSlot s).view.set := by
  rw [rSlot_set]
  exact (Finset.map_refl (s := (slotRect s).set)).le

/-- Two slots differ in the leading coordinate of every element. -/
theorem slotRect_disjoint {s t : Fin 96} (h : s ≠ t) : Disjoint (slotRect s).set (slotRect t).set := by
  have hv : s.val ≠ t.val := fun e => h (Fin.ext e)
  refine Rect.unit_disjoint (s := S96x32x256) (0 : Fin 3) ?_
  show s.val + 1 ≤ t.val ∨ t.val + 1 ≤ s.val
  omega

/-- Every element lies in the slot of its leading coordinate. -/
theorem slotRect_cover : (Finset.univ : Finset S96x32x256.Idx) = Finset.univ.biUnion fun s : Fin 96 => (slotRect s).set := by
  ext i
  simp only [Finset.mem_univ, Finset.mem_biUnion, true_and, true_iff]
  have h0 : (i 0).val < 96 := (i 0).isLt
  have h1 : (i 1).val < 32 := (i 1).isLt
  have h2 : (i 2).val < 256 := (i 2).isLt
  refine ⟨⟨(i 0).val, h0⟩, Rect.mem_set_unit.mpr fun a => ?_⟩
  fin_cases a
  · show (i 0).val ≤ (i 0).val ∧ (i 0).val < (i 0).val + 1
    omega
  · show 0 ≤ (i 1).val ∧ (i 1).val < 0 + 32
    omega
  · show 0 ≤ (i 2).val ∧ (i 2).val < 0 + 256
    omega

/-! ## A buffer whole is its 96 slots -/

/-- The whole send buffer is its 96 slots, held at the same contents: the slots are pairwise disjoint and cover it. -/
theorem sbuf_split (c : Dev nD) (f : Buf (Elt F) ((c : Thread nD τ).loc cc0_scratch0)) :
    ((((c : Thread nD τ).loc cc0_scratch0) ↦{fullShare} f) : sProp 𝕄) ⊣⊢ bigSep Finset.univ fun s : Fin 96 => sPts c s f := by
  have e := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 96))
    (fun s : Fin 96 => (slotRect s).set) (fun s _ t _ h => slotRect_disjoint h)
  rw [← slotRect_cover] at e
  refine BiEntails.of_eq (e.trans ?_)
  refine bigSep_congr fun s _ => ?_
  unfold sPts
  rw [sSlot_set]

/-- The same for the receive buffer. -/
theorem rbuf_split (c : Dev nD) (f : Buf (Elt F) ((c : Thread nD τ).loc cc0_scratch1)) :
    ((((c : Thread nD τ).loc cc0_scratch1) ↦{fullShare} f) : sProp 𝕄) ⊣⊢ bigSep Finset.univ fun s : Fin 96 => rPts c s f := by
  have e := pointsTo_biUnion (nD := nD) (τ := τ) (sig := sig) (Ix := Unit) (Val := Elt F) (Name := ℕ) (U := UU) (Lvl := ℕ)
    (ℓ := (c : Thread nD τ).loc cc0_scratch1) (q := fullShare) (f := f) (Finset.univ : Finset (Fin 96))
    (fun s : Fin 96 => (slotRect s).set) (fun s _ t _ h => slotRect_disjoint h)
  rw [← slotRect_cover] at e
  refine BiEntails.of_eq (e.trans ?_)
  refine bigSep_congr fun s _ => ?_
  unfold rPts
  rw [rSlot_set]

/-- The 96 slots, each at its own contents, are the whole buffer at the contents pieced together slot by slot. -/
theorem sbuf_join (c : Dev nD) :
    (bigSep Finset.univ fun s : Fin 96 => iprop(∃ f, sPts (F := F) c s f))
      ⊢ (∃ f : Buf (Elt F) ((c : Thread nD τ).loc cc0_scratch0), ((c : Thread nD τ).loc cc0_scratch0) ↦{fullShare} f : sProp 𝕄) := by
  have hj : ∀ g : Fin 96 → Buf (Elt F) ((c : Thread nD τ).loc cc0_scratch0),
      (bigSep Finset.univ fun s : Fin 96 => sPts (F := F) c s (g s))
        ⊢ (∃ f : Buf (Elt F) ((c : Thread nD τ).loc cc0_scratch0), ((c : Thread nD τ).loc cc0_scratch0) ↦{fullShare} f : sProp 𝕄) := by
    intro g
    have h := pointsTo_biUnion_join (nD := nD) (τ := τ) (sig := sig) (Ix := Unit) (Val := Elt F) (Name := ℕ) (U := UU) (Lvl := ℕ)
      (ℓ := (c : Thread nD τ).loc cc0_scratch0) (q := fullShare) (Finset.univ : Finset (Fin 96))
      (fun s : Fin 96 => (slotRect s).set) g (g 0) (fun s _ t _ h => slotRect_disjoint h)
    rw [← slotRect_cover] at h
    refine (Entails.of_eq (bigSep_congr fun s _ => ?_)).trans (h.trans ?_)
    · unfold sPts
      rw [sSlot_set]
    · iintro ⟨%g', -, H⟩
      iexists g'
      iexact H
  refine (bigSep_exists_pi (Finset.univ : Finset (Fin 96))
    (fun (s : Fin 96) (f : Buf (Elt F) ((c : Thread nD τ).loc cc0_scratch0)) => sPts (F := F) c s f)).trans ?_
  iintro ⟨%g, H⟩
  iapply (hj g)
  iexact H

/-- The same for the receive buffer. -/
theorem rbuf_join (c : Dev nD) :
    (bigSep Finset.univ fun s : Fin 96 => iprop(∃ f, rPts (F := F) c s f))
      ⊢ (∃ f : Buf (Elt F) ((c : Thread nD τ).loc cc0_scratch1), ((c : Thread nD τ).loc cc0_scratch1) ↦{fullShare} f : sProp 𝕄) := by
  have hj : ∀ g : Fin 96 → Buf (Elt F) ((c : Thread nD τ).loc cc0_scratch1),
      (bigSep Finset.univ fun s : Fin 96 => rPts (F := F) c s (g s))
        ⊢ (∃ f : Buf (Elt F) ((c : Thread nD τ).loc cc0_scratch1), ((c : Thread nD τ).loc cc0_scratch1) ↦{fullShare} f : sProp 𝕄) := by
    intro g
    have h := pointsTo_biUnion_join (nD := nD) (τ := τ) (sig := sig) (Ix := Unit) (Val := Elt F) (Name := ℕ) (U := UU) (Lvl := ℕ)
      (ℓ := (c : Thread nD τ).loc cc0_scratch1) (q := fullShare) (Finset.univ : Finset (Fin 96))
      (fun s : Fin 96 => (slotRect s).set) g (g 0) (fun s _ t _ h => slotRect_disjoint h)
    rw [← slotRect_cover] at h
    refine (Entails.of_eq (bigSep_congr fun s _ => ?_)).trans (h.trans ?_)
    · unfold rPts
      rw [rSlot_set]
    · iintro ⟨%g', -, H⟩
      iexists g'
      iexact H
  refine (bigSep_exists_pi (Finset.univ : Finset (Fin 96))
    (fun (s : Fin 96) (f : Buf (Elt F) ((c : Thread nD τ).loc cc0_scratch1)) => rPts (F := F) c s f)).trans ?_
  iintro ⟨%g, H⟩
  iapply (hj g)
  iexact H

/-! ## Reading through a slot -/

/-- A [32, 256] payload stored with a leading unit axis through slot `s`'s rectangle is what the slot's [32, 256] view reads back. -/
theorem read_stored (s : Fin 96) (f : (sbufM).view.ty.Contents (Elt F)) (v : Vec F S32x256 .bf16) :
    (sSlot s).view.read (Elt F) (((sbufM).access (slotRect s)).write (Elt F) f (shapeCast S1x32x256 v shapeCasts_S32x256_S1x32x256) Finset.univ) = v := by
  refine (Memref.read_squeeze_slice (Val := Elt F) (sbufM) (slotRect s) (fun _ => rfl) squeezes_S1x32x256_S32x256 shapeCasts_S1x32x256_S32x256 _).trans ?_
  have h2 : (sbufM).view.readAt (Elt F) (slotRect s).toLoadRect
      (((sbufM).access (slotRect s)).write (Elt F) f (shapeCast S1x32x256 v shapeCasts_S32x256_S1x32x256) Finset.univ)
      = shapeCast S1x32x256 v shapeCasts_S32x256_S1x32x256 :=
    View.read_write_univ (v := (sbufM).access (slotRect s)) f _
  rw [h2]
  exact shapeCast_shapeCast v _ _

/-- Writing a whole slot leaves nothing of what it held: the slot after a landing does not depend on the contents before. -/
theorem landed_congr (c : Dev nD) (s : Fin 96) (fd f₀ : Buf (Elt F) ((rSlot s).view.loc (c : Thread nD τ))) (v : Vec F S32x256 .bf16) :
    rPts (F := F) c s ((rSlot s).view.write (Elt F) fd v Finset.univ) = rPts c s ((rSlot s).view.write (Elt F) f₀ v Finset.univ) := by
  unfold rPts
  refine pointsTo_congr fun i hi => ?_
  exact View.write_congr (fun _ _ _ => rfl) fun hn => absurd hi hn

/-- A [32, 256] payload written through the slot's view is read back through the rectangle with a leading unit axis added. -/
theorem read_landed (s : Fin 96) (f₀ : (rbufM).view.ty.Contents (Elt F)) (v : Vec F S32x256 .bf16) :
    (rbufM).view.readAt (Elt F) (slotRect s).toLoadRect ((rSlot s).view.write (Elt F) f₀ v Finset.univ) = shapeCast S1x32x256 v shapeCasts_S32x256_S1x32x256 := by
  have h1 : shapeCast S32x256 ((rbufM).view.readAt (Elt F) (slotRect s).toLoadRect ((rSlot s).view.write (Elt F) f₀ v Finset.univ)) shapeCasts_S1x32x256_S32x256 = v :=
    (Memref.read_squeeze_slice (rbufM) (slotRect s) (fun _ => rfl) squeezes_S1x32x256_S32x256 shapeCasts_S1x32x256_S32x256 _).symm.trans
      (View.read_write_univ _ _)
  have h2 := shapeCast_shapeCast ((rbufM).view.readAt (Elt F) (slotRect s).toLoadRect ((rSlot s).view.write (Elt F) f₀ v Finset.univ))
    shapeCasts_S1x32x256_S32x256 shapeCasts_S32x256_S1x32x256
  rw [h1] at h2
  exact h2.symm

/-- Adding the unit axis and dropping it again is the identity, so what is received is the sent chunk narrowed and widened. -/
theorem recv_roundtrip (v : FVec F S32x256 .f32) :
    KVal.recvv (shapeCast S1x32x256 (truncf .bf16 v bitsLt_bf16_f32) shapeCasts_S32x256_S1x32x256) = extf .f32 (truncf .bf16 v bitsLt_bf16_f32) bitsLt_bf16_f32 := by
  unfold KVal.recvv
  rw [shapeCast_shapeCast]

/-- Every slot has the same DMA credit: it depends on the buffer, the shape and the element type only. -/
theorem credit_eq (s : Fin 96) (q : DmaSem sig) : (rSlot s).view.amount (.dma q) = NC := rfl

end Cert.Kernel.Proto

end
-- ==== Proof.Bits.Steps.lean ====
/-
  The protocol's steps at our cells: a signal to a peer's barrier cell, the wait on one's own, a slot's remote copy, the
  waits on its send and receive cells, and the closing of a cell whose one round is over. Each is the rounds rule of its
  kind read at the schedule's tables, for an arbitrary slot and an arbitrary rest of the program.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The entry handshake -/

/-- The signal to the bit-0 peer's barrier cell pays its duty `false`: one unit off what the device owes. -/
theorem wp_sig_A (κ : ℕ) (c : Dev nD) {α : Type} {Q : α → sProp 𝕄} {k : PUnit → Prog (TpuEff nD τ sig (Elt F) Λ₀ .tc) α}
    (O : CellTallies nD τ sig Unit) (W : Waits sig Unit) :
    iprop(cellInv ER (rd m) κ (barCell (pa c)) ∗ owes (c : Thread nD τ) (O + tallyAt (barCell (pa c)) () 1) W
        ∗ dutyTok ER (barCell (pa c)) 0 false ∗ barPay (F := F) (pa c) false ∗ reached ER (barCell (pa c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((pa c : Dev nD) : Thread nD τ) barS (1#32).toNat) k) Q) :=
  Rounds.wp_signal 𝒱₀ ER (rd m) (c : Thread nD τ) none (dst := ((pa c : Dev nD) : Thread nD τ)) (sem := barS) (r := 0) (d := false) (κ := κ)
    (by rw [duties_bar]; exact Finset.mem_univ _) (amount_bar m (pa c) false) () O rfl

/-- The signal to the other peer's barrier cell pays its duty `true`. -/
theorem wp_sig_B (κ : ℕ) (c : Dev nD) {α : Type} {Q : α → sProp 𝕄} {k : PUnit → Prog (TpuEff nD τ sig (Elt F) Λ₀ .tc) α}
    (O : CellTallies nD τ sig Unit) (W : Waits sig Unit) :
    iprop(cellInv ER (rd m) κ (barCell (pb c)) ∗ owes (c : Thread nD τ) (O + tallyAt (barCell (pb c)) () 1) W
        ∗ dutyTok ER (barCell (pb c)) 0 true ∗ barPay (F := F) (pb c) true ∗ reached ER (barCell (pb c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((pb c : Dev nD) : Thread nD τ) barS (1#32).toNat) k) Q) :=
  Rounds.wp_signal 𝒱₀ ER (rd m) (c : Thread nD τ) none (dst := ((pb c : Dev nD) : Thread nD τ)) (sem := barS) (r := 0) (d := true) (κ := κ)
    (by rw [duties_bar]; exact Finset.mem_univ _) (amount_bar m (pb c) true) () O rfl

/-- The wait for both peers' signals takes the whole round of the device's barrier cell and hands it both payloads. -/
theorem wp_wait_bar (κ : ℕ) (c : Dev nD) {α : Type} {Q : α → sProp 𝕄} {k : PUnit → Prog (TpuEff nD τ sig (Elt F) Λ₀ .tc) α}
    (O : CellTallies nD τ sig Unit) (W : Waits sig Unit) (hO : ∀ g u, 0 < O g u → g.1.2 = .tc ∧ 2 ≤ lv g ()) :
    iprop(cellInv ER (rd m) κ (barCell c) ∗ cred (tallyAt (barCell c) () 2) ∗ owes (c : Thread nD τ) O W ∗ levAts L lv
        ∗ atPos ER (barCell c) 0 ∅ 0)
      ⊢ iprop(((owes (c : Thread nD τ) O (insert (SemLoc.reg barS, ()) W) ∗ atPos ER (barCell c) 1 ∅ 0
            ∗ barPay (F := F) c false ∗ barPay c true) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  have hw : ∀ K : PUnit → sProp 𝕄, wpE (defs₀ (F := F)) 𝒱₀ (c : Thread nD τ) none Set.univ (.semWait barS (2#32).toNat) K
      = waitSpec (c : Thread nD τ) Set.univ (.reg barS) (2#32).toNat K := fun K => wpE_semWait_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_bar]; rfl)
  rw [rest_bar] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_bar c O hO); iexact Hlev
    iexact Hat
  iintro ⟨HL, Hat, -, Hpay⟩
  iapply Hk
  isplitl [HL]; · iexact HL
  isplitl [Hat]; · iexact Hat
  iexact Hpay

/-! ## A slot's copy and its two waits -/

/-- Slot `s`'s copy to its peer `n`: the send slot, holding what the device sends in the slot, goes out against the send
    cell's duty; the peer's receive slot, rewritten with it, against the peer's receive cell's. -/
theorem wp_send_slot (κ₁ κ₂ : ℕ) (c : Dev nD) (s : Fin 96) (n : Dev nD) (hn : n = peerOf s c)
    {hsc : (rSlot s : Memref sig (Dev.tc n : Thread nD τ).2.kind .vmem S32x256 .bf16).view.ref.isScScratch = false}
    {hsrc : (sSlot s).view.WordExact} {hdst : (rSlot s).view.WordExact}
    {hsem : DmaTarget.Typed .vmem (.dma (recvSem s)) (.remote (Dev.tc n : Thread nD τ) (rSlot s) (.dma (sendSem s)) hsc)}
    {α : Type} {Q : α → sProp 𝕄} {k : PUnit → Prog (TpuEff nD τ sig (Elt F) Λ₀ .tc) α}
    (fs : Buf (Elt F) ((sSlot s).view.loc (c : Thread nD τ))) (fd : Buf (Elt F) ((rSlot s).view.loc (peerOf s c : Thread nD τ)))
    (O : CellTallies nD τ sig Unit) (W : Waits sig Unit) (hval : (sSlot s).view.read (Elt F) fs = sentS m c s) :
    iprop(cellInv ER (rd m) κ₁ (sendCell c s) ∗ cellInv ER (rd m) κ₂ (recvCell (peerOf s c) s)
        ∗ sPts c s fs ∗ rPts (peerOf s c) s fd
        ∗ owes (c : Thread nD τ) (O + tallyAt (recvCell (peerOf s c) s) () NC) W
        ∗ dutyTok ER (sendCell c s) 0 false ∗ reached ER (sendCell c s) 0
        ∗ dutyTok ER (recvCell (peerOf s c) s) 0 false ∗ reached ER (recvCell (peerOf s c) s) 0)
      ⊢ iprop(((cred (tallyAt (sendCell c s) () NC) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sSlot s) (.remote (Dev.tc n : Thread nD τ) (rSlot s) (.dma (sendSem s)) hsc) (.dma (recvSem s)) hsrc hdst hsem) k) Q) := by
  subst hn
  unfold sPts rPts
  exact Rounds.wp_send_pointsTo 𝒱₀ ER (rd m) (c : Thread nD τ) none (κ₁ := κ₁) (κ₂ := κ₂)
    (r₁ := 0) (r₂ := 0) (d₁ := false) (d₂ := false) (fd := fd)
    (by rw [duties_send]; exact Finset.mem_singleton_self _) (by rw [duties_recv]; exact Finset.mem_singleton_self _)
    () () NC rfl (amount_send m c s false) (amount_recv m (peerOf s c) s false) O rfl (W := W)
    (by rw [payload_send]; unfold sendPay sPts; exact exists_intro fs)
    (by rw [payload_recv]; unfold recvPay rPts landedBuf; rw [hval, peerOf_peerOf]; iintro H; iexists fd; iexact H)

/-- The wait for slot `s`'s departure: the send cell's round is over and the send slot comes back. -/
theorem wp_wait_send_slot (κ : ℕ) (c : Dev nD) (s : Fin 96) {α : Type} {Q : α → sProp 𝕄} {k : PUnit → Prog (TpuEff nD τ sig (Elt F) Λ₀ .tc) α}
    {hsrc : (rSlot s).view.WordExact} {hdst : (sSlot s).view.WordExact}
    (O : CellTallies nD τ sig Unit) (W : Waits sig Unit) (hO : ∀ g u, 0 < O g u → g.1.2 = .tc ∧ 1 ≤ lv g ()) :
    iprop(cellInv ER (rd m) κ (sendCell c s) ∗ cred (tallyAt (sendCell c s) () NC) ∗ owes (c : Thread nD τ) O W ∗ levAts L lv
        ∗ atPos ER (sendCell c s) 0 ∅ 0)
      ⊢ iprop(((owes (c : Thread nD τ) O (insert (SemLoc.dma (sendSem s), ()) W) ∗ atPos ER (sendCell c s) 1 ∅ 0
            ∗ sendPay (F := F) c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem s) (rSlot s) (sSlot s) hsrc hdst) k) Q) := by
  have hw : ∀ K : PUnit → sProp 𝕄, wpE (defs₀ (F := F)) 𝒱₀ (c : Thread nD τ) none Set.univ (.waitDma2 (sendSem s) (rSlot s) (sSlot s) hsrc hdst) K
      = waitSpec (c : Thread nD τ) Set.univ (.dma (sendSem s)) NC K := fun K => wpE_waitDma2_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_send, Nat.zero_add])
  rw [rest_send] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_low c (.dma (sendSem s)) (lv_send c s) O hO); iexact Hlev
    iexact Hat
  iintro ⟨HL, Hat, -, Hpay⟩
  iapply Hk
  isplitl [HL]; · iexact HL
  isplitl [Hat]; · iexact Hat
  iexact Hpay

/-- The wait for slot `s`'s landing: the receive cell's round is over and the receive slot comes, holding the peer's slot. -/
theorem wp_wait_recv_slot (κ : ℕ) (c : Dev nD) (s : Fin 96) {α : Type} {Q : α → sProp 𝕄} {k : PUnit → Prog (TpuEff nD τ sig (Elt F) Λ₀ .tc) α}
    {hsrc : (sSlot s).view.WordExact} {hdst : (rSlot s).view.WordExact}
    (O : CellTallies nD τ sig Unit) (W : Waits sig Unit)
    (hO : ∀ g u, 0 < O g u → g.1.2 = .tc ∧ lv (recvCell c s) () < lv g ()) :
    iprop(cellInv ER (rd m) κ (recvCell c s) ∗ cred (tallyAt (recvCell c s) () NC) ∗ owes (c : Thread nD τ) O W ∗ levAts L lv
        ∗ atPos ER (recvCell c s) 0 ∅ 0)
      ⊢ iprop(((owes (c : Thread nD τ) O (insert (SemLoc.dma (recvSem s), ()) W) ∗ atPos ER (recvCell c s) 1 ∅ 0
            ∗ recvPay m c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem s) (sSlot s) (rSlot s) hsrc hdst) k) Q) := by
  have hw : ∀ K : PUnit → sProp 𝕄, wpE (defs₀ (F := F)) 𝒱₀ (c : Thread nD τ) none Set.univ (.waitDma2 (recvSem s) (sSlot s) (rSlot s) hsrc hdst) K
      = waitSpec (c : Thread nD τ) Set.univ (.dma (recvSem s)) NC K := fun K => wpE_waitDma2_eq 𝒱₀ (c : Thread nD τ) none Set.univ K
  have h := Rounds.wp_wait_rest_token 𝒱₀ ER (rd m) (c : Thread nD τ) none (κ := κ) (k := k) (Q := Q) hw (Set.mem_univ κ) ()
    (O := O) (W := W) (R := 0) (m := 0) (T := ∅) (by rw [expect_recv, Nat.zero_add])
  rw [rest_recv] at h
  iintro ⟨Hg, Hc, HL, Hlev, Hat⟩ Hk
  iapply h $$ [Hg Hc HL Hlev Hat]
  · isplitl [Hg]; · iexact Hg
    isplitl [Hc]; · iexact Hc
    isplitl [HL]; · iexact HL
    isplitl [Hlev]; · iapply (mayWait_recv c s O hO); iexact Hlev
    iexact Hat
  iintro ⟨HL, Hat, -, Hpay⟩
  iapply Hk
  isplitl [HL]; · iexact HL
  isplitl [Hat]; · iexact Hat
  iexact Hpay

/-! ## Closing a cell after its one round -/

/-- A send cell past round 0 has no duty left: its owner closes it and keeps the counter, at zero. -/
theorem close_send (κ : ℕ) (c : Dev nD) (s : Fin 96) :
    iprop(cellInv ER (rd m) κ (sendCell c s) ∗ atPos ER (sendCell c s) 1 ∅ 0) ⊢ (|={Set.univ}=> semVal (sendCell c s) 0 : sProp 𝕄) :=
  Rounds.cell_close ER (rd m) (Set.mem_univ κ) not_false (R := 1) (duties_later m (sendCell c s))

/-- Likewise a receive cell. -/
theorem close_recv (κ : ℕ) (c : Dev nD) (s : Fin 96) :
    iprop(cellInv ER (rd m) κ (recvCell c s) ∗ atPos ER (recvCell c s) 1 ∅ 0) ⊢ (|={Set.univ}=> semVal (recvCell c s) 0 : sProp 𝕄) :=
  Rounds.cell_close ER (rd m) (Set.mem_univ κ) not_false (R := 1) (duties_later m (recvCell c s))

end Cert.Kernel.Proto

end
-- ==== Proof.Bits.Steps2.lean ====
/-
  Loads and stores of the two exchange buffers by a device that holds them slot by slot: the kernel reads and writes a
  slot through the whole buffer at the slot's rectangle, and the slot's own elements are all such an access touches.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Slots
import Idealize.ShloMosaic.Rules.Step

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The send buffer -/

/-- A load of slot `s`'s rectangle of the send buffer needs the slot's elements only, and gives them back. -/
theorem wp_load_dead_slot (c : Dev nD) (s : Fin 96) {hl : (sbufM).view.LoadsAt (slotRect s).toLoadRect}
    {α : Type} {Q : α → sProp 𝕄} {k : ((slotRect s).toLoadRect.shape.Idx → Elt F .bf16) → Prog (TpuEff nD τ sig (Elt F) Λ₀ .tc) α}
    (f : Buf (Elt F) ((sSlot s).view.loc (c : Thread nD τ))) :
    sPts (F := F) c s f
      ⊢ iprop((sPts c s f -∗ wp frame (wpE (defs₀ (F := F)) 𝒱₀ (c : Thread nD τ) none) Set.univ (k ((sbufM).view.readAt (Elt F) (slotRect s).toLoadRect f)) Q)
          -∗ wp frame (wpE (defs₀ (F := F)) 𝒱₀ (c : Thread nD τ) none) Set.univ (.op (.load sbufM (slotRect s).toLoadRect hl) k) Q) := by
  unfold sPts
  exact wp_load 𝒱₀ (c : Thread nD τ) none Set.univ (sload_sub s)

/-- A store of a [32, 256] payload, a unit axis added, at slot `s`'s rectangle of the send buffer rewrites the slot's elements
    only: the slot then reads as the payload. -/
theorem wp_store_slot (c : Dev nD) (s : Fin 96) {hx : ((sbufM).access (slotRect s)).Stores Finset.univ}
    {hm : (Finset.univ : Finset (slotRect s).shape.Idx) = Finset.univ ∨ ∀ a, (slotRect s).stride a = 1}
    {α : Type} {Q : α → sProp 𝕄} {k : PUnit → Prog (TpuEff nD τ sig (Elt F) Λ₀ .tc) α}
    (f : Buf (Elt F) ((sSlot s).view.loc (c : Thread nD τ))) (w : Vec F S32x256 .bf16) :
    sPts (F := F) c s f
      ⊢ iprop(((∃ f' : Buf (Elt F) ((sSlot s).view.loc (c : Thread nD τ)), ⌜(sSlot s).view.read (Elt F) f' = w⌝ ∗ sPts c s f') -∗ wp frame (wpE (defs₀ (F := F)) 𝒱₀ (c : Thread nD τ) none) Set.univ (k ⟨⟩) Q)
          -∗ wp frame (wpE (defs₀ (F := F)) 𝒱₀ (c : Thread nD τ) none) Set.univ (.op (.store sbufM (slotRect s) (shapeCast S1x32x256 w shapeCasts_S32x256_S1x32x256) Finset.univ hx hm) k) Q) := by
  unfold sPts
  refine (wp_store 𝒱₀ (c : Thread nD τ) none Set.univ (sstore_sub s)).trans (wand_mono_left (wand_mono_left ?_))
  iintro H
  iexists _
  isplitr
  · ipureintro; exact read_stored s f w
  · iexact H

/-! ## The receive buffer -/

/-- A load of slot `s`'s rectangle of the receive buffer after the peer's copy has landed reads the peer's slot, a unit axis added. -/
theorem wp_load_landed_slot (c : Dev nD) (s : Fin 96) {hl : (rbufM).view.LoadsAt (slotRect s).toLoadRect}
    {α : Type} {Q : α → sProp 𝕄} {k : ((slotRect s).toLoadRect.shape.Idx → Elt F .bf16) → Prog (TpuEff nD τ sig (Elt F) Λ₀ .tc) α}
    (f₀ : Buf (Elt F) ((rSlot s).view.loc (c : Thread nD τ))) :
    rPts (F := F) c s (landedBuf m c s f₀)
      ⊢ iprop((rPts c s (landedBuf m c s f₀) -∗ wp frame (wpE (defs₀ (F := F)) 𝒱₀ (c : Thread nD τ) none) Set.univ (k (shapeCast S1x32x256 (sentS m (peerOf s c) s) shapeCasts_S32x256_S1x32x256)) Q)
          -∗ wp frame (wpE (defs₀ (F := F)) 𝒱₀ (c : Thread nD τ) none) Set.univ (.op (.load rbufM (slotRect s).toLoadRect hl) k) Q) := by
  unfold rPts
  have h := wp_load 𝒱₀ (c : Thread nD τ) none Set.univ (defs := defs₀ (F := F)) (m := rbufM) (r := (slotRect s).toLoadRect) (hl := hl) (k := k) (Q := Q)
    (q := fullShare) (f := landedBuf m c s f₀) (Γ := .empty) (rload_sub s)
  rw [show (rbufM).view.readAt (Elt F) (slotRect s).toLoadRect (landedBuf m c s f₀)
      = shapeCast S1x32x256 (sentS m (peerOf s c) s) shapeCasts_S32x256_S1x32x256 from read_landed s f₀ _] at h
  exact h

end Cert.Kernel.Proto

end
-- ==== Proof.Bits.Order.lean ====
/-
  The order of the slots. The body issues its 96 copies, and later waits for them, in one order: layer, then phase, then
  chunk. Position `k` holds slot `32 (k / 32) + 2 (k % 16) + (k / 16) % 2`, and slot `s` stands at position
  `32 (s / 32) + 16 (s % 2) + (s / 2) % 16`. The slots not yet reached at position `k` and those already passed split the
  96 slots, one slot moving across at each step; what a device still owes on its peers' receive cells is the sum over the
  slots not yet reached, and every such cell lies in a later block of 16 positions than any slot already waited for.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Positions and slots -/

/-- The slot at position `k`. -/
def slotAt (k : ℕ) : Fin 96 := ⟨(32 * (k / 32) + 2 * (k % 16) + (k / 16) % 2) % 96, Nat.mod_lt _ (by decide)⟩
/-- The position of slot `s`. -/
def ord (s : Fin 96) : ℕ := 32 * (s.val / 32) + 16 * (s.val % 2) + (s.val / 2) % 16

theorem slotAt_val (k : ℕ) : (slotAt k).val = (32 * (k / 32) + 2 * (k % 16) + (k / 16) % 2) % 96 := rfl

theorem ord_lt (s : Fin 96) : ord s < 96 := by
  have := s.isLt; unfold ord; omega

/-- Position `k`'s slot stands at position `k`: with `k = 32 a + 16 p + b` the slot is `32 a + 2 b + p`, whose layer is `a`,
    phase `p` and chunk `b`. A finite check over the 96 positions. -/
theorem ord_slotAt (k : ℕ) (hk : k < 96) : ord (slotAt k) = k := by
  have h : ∀ k : Fin 96, ord (slotAt k.val) = k.val := by decide
  exact h ⟨k, hk⟩

/-- And the slot at slot `s`'s position is `s`: the two maps are inverse bijections between slots and positions. -/
theorem slotAt_ord (s : Fin 96) : slotAt (ord s) = s := by
  revert s; decide

/-- A slot is position `k`'s exactly when it stands at `k`. -/
theorem eq_slotAt_iff (s : Fin 96) (k : ℕ) (hk : k < 96) : s = slotAt k ↔ ord s = k :=
  ⟨fun h => by rw [h, ord_slotAt k hk], fun h => by rw [← h, slotAt_ord]⟩

/-- The slots at position `k` or later, and those before it. -/
def pend (k : ℕ) : Finset (Fin 96) := Finset.univ.filter fun s => k ≤ ord s
def done (k : ℕ) : Finset (Fin 96) := Finset.univ.filter fun s => ord s < k
/-- The slots from position `j` up to, not including, position `k`. -/
def infl (j k : ℕ) : Finset (Fin 96) := Finset.univ.filter fun s => j ≤ ord s ∧ ord s < k

theorem mem_pend (k : ℕ) (s : Fin 96) : s ∈ pend k ↔ k ≤ ord s := by
  unfold pend; rw [Finset.mem_filter]; exact ⟨fun h => h.2, fun h => ⟨Finset.mem_univ _, h⟩⟩
theorem mem_done (k : ℕ) (s : Fin 96) : s ∈ done k ↔ ord s < k := by
  unfold done; rw [Finset.mem_filter]; exact ⟨fun h => h.2, fun h => ⟨Finset.mem_univ _, h⟩⟩
theorem mem_infl (j k : ℕ) (s : Fin 96) : s ∈ infl j k ↔ j ≤ ord s ∧ ord s < k := by
  unfold infl; rw [Finset.mem_filter]; exact ⟨fun h => h.2, fun h => ⟨Finset.mem_univ _, h⟩⟩

theorem pend_zero : pend 0 = Finset.univ :=
  Finset.eq_univ_of_forall fun s => (mem_pend 0 s).mpr (Nat.zero_le _)
theorem pend_full : pend 96 = ∅ :=
  Finset.eq_empty_of_forall_notMem fun s h => by have := (mem_pend 96 s).mp h; have := ord_lt s; omega
theorem done_zero : done 0 = ∅ :=
  Finset.eq_empty_of_forall_notMem fun s h => by have := (mem_done 0 s).mp h; omega
theorem done_full : done 96 = Finset.univ :=
  Finset.eq_univ_of_forall fun s => (mem_done 96 s).mpr (ord_lt s)
theorem infl_self (j : ℕ) : infl j j = ∅ :=
  Finset.eq_empty_of_forall_notMem fun s h => by have := (mem_infl j j s).mp h; omega

/-- One slot, position `k`'s, leaves the slots not yet reached at each step. -/
theorem pend_succ (k : ℕ) (hk : k < 96) : pend k = insert (slotAt k) (pend (k + 1)) := by
  ext s; rw [Finset.mem_insert, mem_pend, mem_pend, eq_slotAt_iff s k hk]; omega
theorem slotAt_notMem_pend (k : ℕ) (hk : k < 96) : slotAt k ∉ pend (k + 1) := fun h => by
  have := (mem_pend _ _).mp h; rw [ord_slotAt k hk] at this; omega
/-- And joins the slots already passed. -/
theorem done_succ (k : ℕ) (hk : k < 96) : done (k + 1) = insert (slotAt k) (done k) := by
  ext s; rw [Finset.mem_insert, mem_done, mem_done, eq_slotAt_iff s k hk]; omega
theorem slotAt_notMem_done (k : ℕ) (hk : k < 96) : slotAt k ∉ done k := fun h => by
  have := (mem_done _ _).mp h; rw [ord_slotAt k hk] at this; omega
theorem infl_succ_right (j k : ℕ) (hjk : j ≤ k) (hk : k < 96) : infl j (k + 1) = insert (slotAt k) (infl j k) := by
  ext s; rw [Finset.mem_insert, mem_infl, mem_infl, eq_slotAt_iff s k hk]; omega
theorem slotAt_notMem_infl_right (j k : ℕ) (hk : k < 96) : slotAt k ∉ infl j k := fun h => by
  have := (mem_infl _ _ _).mp h; rw [ord_slotAt k hk] at this; omega
theorem infl_succ_left (j k : ℕ) (hjk : j < k) (hk : k ≤ 96) : infl j k = insert (slotAt j) (infl (j + 1) k) := by
  ext s; rw [Finset.mem_insert, mem_infl, mem_infl, eq_slotAt_iff s j (by omega)]; omega
theorem slotAt_notMem_infl_left (j k : ℕ) (hj : j < 96) : slotAt j ∉ infl (j + 1) k := fun h => by
  have := (mem_infl _ _ _).mp h; rw [ord_slotAt j hj] at this; omega

theorem bigSep_pend_step (Φ : Fin 96 → sProp 𝕄) (k : ℕ) (hk : k < 96) :
    bigSep (pend k) Φ = iprop(Φ (slotAt k) ∗ bigSep (pend (k + 1)) Φ) := by
  rw [pend_succ k hk, bigSep_insert (slotAt_notMem_pend k hk)]; rfl
theorem bigSep_done_step (Φ : Fin 96 → sProp 𝕄) (k : ℕ) (hk : k < 96) :
    bigSep (done (k + 1)) Φ = iprop(bigSep (done k) Φ ∗ Φ (slotAt k)) := by
  rw [done_succ k hk, bigSep_insert (slotAt_notMem_done k hk)]
  exact Std.Commutative.comm (op := (BI.sep : sProp 𝕄 → _ → _)) _ _
theorem bigSep_infl_push (Φ : Fin 96 → sProp 𝕄) (j k : ℕ) (hjk : j ≤ k) (hk : k < 96) :
    bigSep (infl j (k + 1)) Φ = iprop(bigSep (infl j k) Φ ∗ Φ (slotAt k)) := by
  rw [infl_succ_right j k hjk hk, bigSep_insert (slotAt_notMem_infl_right j k hk)]
  exact Std.Commutative.comm (op := (BI.sep : sProp 𝕄 → _ → _)) _ _
theorem bigSep_infl_pop (Φ : Fin 96 → sProp 𝕄) (j k : ℕ) (hjk : j < k) (hk : k ≤ 96) :
    bigSep (infl j k) Φ = iprop(Φ (slotAt j) ∗ bigSep (infl (j + 1) k) Φ) := by
  rw [infl_succ_left j k hjk hk, bigSep_insert (slotAt_notMem_infl_left j k (by omega))]; rfl

/-! ## What is still owed on the peers' receive cells -/

/-- What device `c` still owes at position `k`: the credit of every slot not yet reached, on that slot's peer's receive cell. -/
def Opend (c : Dev nD) (k : ℕ) : CellTallies nD τ sig Unit := ∑ s ∈ pend k, tallyAt (recvCell (peerOf s c) s) () NC

theorem Opend_zero (c : Dev nD) : Opend c 0 = Osend c := by
  unfold Opend Osend; rw [pend_zero]
theorem Opend_full (c : Dev nD) : Opend c 96 = 0 := by
  unfold Opend; rw [pend_full]; exact Finset.sum_empty
theorem Opend_step (c : Dev nD) (k : ℕ) (hk : k < 96) :
    Opend c k = Opend c (k + 1) + tallyAt (recvCell (peerOf (slotAt k) c) (slotAt k)) () NC := by
  unfold Opend; rw [pend_succ k hk, Finset.sum_insert (slotAt_notMem_pend k hk), add_comm]

/-- A receive cell's level is 2 plus its slot's block of 16 positions. -/
theorem lv_recv_ord (c : Dev nD) (s : Fin 96) : lv (recvCell c s) () = 2 + ord s / 16 := by
  rw [lv_recv]; unfold ord; omega

/-- A positive entry of the sum comes from one of its summands. -/
theorem Opend_pos (c : Dev nD) (k : ℕ) {g : GSem nD τ sig} {u : Unit} (h : 0 < Opend c k g u) :
    ∃ s ∈ pend k, g = recvCell (peerOf s c) s := by
  by_contra hne
  have h0 : Opend c k g u = 0 := by
    unfold Opend
    rw [Finset.sum_apply, Finsupp.finset_sum_apply]
    refine Finset.sum_eq_zero fun s hs => ?_
    rw [tallyAt_apply, if_neg]
    exact fun hg => hne ⟨s, hs, hg.1⟩
  omega

theorem Opend_low (c : Dev nD) (k : ℕ) : ∀ g u, 0 < Opend c k g u → g.1.2 = .tc ∧ 1 ≤ lv g () := by
  intro g u h
  obtain ⟨s, _, rfl⟩ := Opend_pos c k h
  refine ⟨rfl, ?_⟩
  rw [lv_recv_ord]; omega
theorem Opend_bar (c : Dev nD) (k : ℕ) : ∀ g u, 0 < Opend c k g u → g.1.2 = .tc ∧ 2 ≤ lv g () := by
  intro g u h
  obtain ⟨s, _, rfl⟩ := Opend_pos c k h
  refine ⟨rfl, ?_⟩
  rw [lv_recv_ord]; omega
/-- Every slot not yet reached at `k` lies in a later block of 16 positions than position `j` when `k` is past `j`'s block. -/
theorem Opend_above (c : Dev nD) (j k : ℕ) (hj : j < 96) (h : 16 * (j / 16 + 1) ≤ k) :
    ∀ g u, 0 < Opend c k g u → g.1.2 = .tc ∧ lv (recvCell c (slotAt j)) () < lv g () := by
  intro g u hg
  obtain ⟨s, hs, rfl⟩ := Opend_pos c k hg
  refine ⟨rfl, ?_⟩
  have hks := (mem_pend k s).mp hs
  rw [lv_recv_ord, lv_recv_ord, ord_slotAt j hj]; omega

theorem O₁_eq (c : Dev nD) : O₁ c = Opend c 0 + tallyAt (barCell (pb c)) () 1 := by
  rw [Opend_zero]; rfl
/-- With one barrier unit still owed beside the slots: the extra cell is a barrier cell, at level 1. -/
theorem Opend_add_bar_low (c : Dev nD) (k : ℕ) (b : Dev nD) :
    ∀ g u, 0 < (Opend c k + tallyAt (barCell b) () 1) g u → g.1.2 = .tc ∧ 1 ≤ lv g () := by
  intro g u h
  rw [Pi.add_apply, Finsupp.add_apply] at h
  by_cases h1 : 0 < Opend c k g u
  · exact Opend_low c k g u h1
  · have h2 : 0 < tallyAt (barCell b) () 1 g u := by omega
    rw [tallyAt_apply] at h2
    by_cases hg : g = barCell b ∧ u = ()
    · rw [hg.1]; exact ⟨rfl, by rw [lv_bar]⟩
    · rw [if_neg hg] at h2; omega

end Cert.Kernel.Proto

end
-- ==== Proof.Bits.Picks.lean ====
/-
  The bookkeeping of the exchange loop. The slots are copied in one order and waited for in the same order; with `k`
  copies issued and `j` waits done the per-slot resources sit in families over the slots not yet copied, the slots in
  flight and the slots done. Around one copy or one wait, the next slot in the order is taken out of, or put into, each
  family; the persistent families are read at a slot.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Order

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Entering the loop -/

/-- The send buffer held slot by slot at one contents is, slot by slot, held at some contents: no copy is issued yet. -/
theorem loop_init (c : Dev nD) (fs : Buf (Elt F) ((c : Thread nD τ).loc cc0_scratch0)) :
    (bigSep (Finset.univ) fun s : Fin 96 => sPts (F := F) c s fs) ⊢ (bigSep (pend 0) fun s : Fin 96 => iprop(∃ f, sPts (F := F) c s f)) := by
  rw [pend_zero]
  refine bigSep_mono fun s _ => ?_
  show sPts (F := F) c s fs ⊢ iprop(∃ f, sPts (F := F) c s f)
  iintro H
  iexists fs
  iexact H

omit [FloatOps F] in
theorem univ_to_pend0 (Φ : Fin 96 → sProp 𝕄) : bigSep Finset.univ Φ = bigSep (pend 0) Φ := by rw [pend_zero]
omit [FloatOps F] in
theorem emp_to_done0 (Φ : Fin 96 → sProp 𝕄) : (iprop(emp) : sProp 𝕄) = bigSep (done 0) Φ := by rw [done_zero]; rfl
omit [FloatOps F] in
theorem emp_to_infl (Φ : Fin 96 → sProp 𝕄) (j : ℕ) : (iprop(emp) : sProp 𝕄) = bigSep (infl j j) Φ := by rw [infl_self]; rfl

/-! ## Around one copy -/

/-- The next slot to copy, `slotAt k`, taken out of the four families over the slots not yet copied. -/
theorem pick_copy (c : Dev nD) (k : ℕ) (hk : k < 96) :
    iprop((bigSep (pend k) fun s : Fin 96 => iprop(∃ f, sPts (F := F) c s f)) ∗ (bigSep (pend k) fun s : Fin 96 => iprop(∃ f, rPts (F := F) (peerOf s c) s f))
        ∗ (bigSep (pend k) fun s : Fin 96 => dutyTok ER (sendCell c s) 0 false) ∗ (bigSep (pend k) fun s : Fin 96 => dutyTok ER (recvCell (peerOf s c) s) 0 false))
      ⊢ iprop(((∃ f, sPts (F := F) c (slotAt k) f) ∗ (∃ f, rPts (F := F) (peerOf (slotAt k) c) (slotAt k) f)
          ∗ dutyTok ER (sendCell c (slotAt k)) 0 false ∗ dutyTok ER (recvCell (peerOf (slotAt k) c) (slotAt k)) 0 false)
        ∗ ((bigSep (pend (k + 1)) fun s : Fin 96 => iprop(∃ f, sPts (F := F) c s f)) ∗ (bigSep (pend (k + 1)) fun s : Fin 96 => iprop(∃ f, rPts (F := F) (peerOf s c) s f))
          ∗ (bigSep (pend (k + 1)) fun s : Fin 96 => dutyTok ER (sendCell c s) 0 false) ∗ (bigSep (pend (k + 1)) fun s : Fin 96 => dutyTok ER (recvCell (peerOf s c) s) 0 false))) := by
  rw [bigSep_pend_step (fun s : Fin 96 => iprop(∃ f, sPts (F := F) c s f)) k hk, bigSep_pend_step (fun s : Fin 96 => iprop(∃ f, rPts (F := F) (peerOf s c) s f)) k hk,
    bigSep_pend_step (fun s : Fin 96 => dutyTok ER (sendCell c s) 0 false) k hk,
    bigSep_pend_step (fun s : Fin 96 => dutyTok ER (recvCell (peerOf s c) s) 0 false) k hk]
  iintro ⟨⟨H1, R1⟩, ⟨H2, R2⟩, ⟨H3, R3⟩, ⟨H4, R4⟩⟩
  isplitl [H1 H2 H3 H4]
  · isplitl [H1]; · iexact H1
    isplitl [H2]; · iexact H2
    isplitl [H3]; · iexact H3
    iexact H4
  · isplitl [R1]; · iexact R1
    isplitl [R2]; · iexact R2
    isplitl [R3]; · iexact R3
    iexact R4

omit [FloatOps F] in
/-- What the device owes with `k` copies issued is what it owes after the next one and that copy's credit. -/
theorem owes_step (c : Dev nD) (k : ℕ) (hk : k < 96) (W : Waits sig Unit) :
    (owes (c : Thread nD τ) (Opend c k) W : sProp 𝕄)
      ⊢ owes (c : Thread nD τ) (Opend c (k + 1) + tallyAt (recvCell (peerOf (slotAt k) c) (slotAt k)) () NC) W :=
  Entails.of_eq (by rw [← Opend_step c k hk])

/-- The send credit of the copy just issued joins those of the copies in flight. -/
theorem push_cred (c : Dev nD) (j k : ℕ) (hjk : j ≤ k) (hk : k < 96) :
    iprop((bigSep (infl j k) fun s : Fin 96 => cred (tallyAt (sendCell c s) () NC)) ∗ cred (tallyAt (sendCell c (slotAt k)) () NC))
      ⊢ ((bigSep (infl j (k + 1)) fun s : Fin 96 => cred (tallyAt (sendCell c s) () NC)) : sProp 𝕄) :=
  Entails.of_eq (bigSep_infl_push (fun s : Fin 96 => cred (tallyAt (sendCell c s) () NC)) j k hjk hk).symm

/-! ## Around one wait -/

/-- The next slot to wait for, `slotAt j`, taken out of the positions and receive credits of the slots not yet waited
    and of the send credits of the copies in flight. -/
theorem pick_wait (c : Dev nD) (j k : ℕ) (hjk : j < k) (hk : k ≤ 96) :
    iprop((bigSep (pend j) fun s : Fin 96 => atPos ER (sendCell c s) 0 ∅ 0) ∗ (bigSep (pend j) fun s : Fin 96 => atPos ER (recvCell c s) 0 ∅ 0)
        ∗ (bigSep (pend j) fun s : Fin 96 => cred (tallyAt (recvCell c s) () NC)) ∗ (bigSep (infl j k) fun s : Fin 96 => cred (tallyAt (sendCell c s) () NC)))
      ⊢ (iprop((atPos ER (sendCell c (slotAt j)) 0 ∅ 0 ∗ atPos ER (recvCell c (slotAt j)) 0 ∅ 0
          ∗ cred (tallyAt (recvCell c (slotAt j)) () NC) ∗ cred (tallyAt (sendCell c (slotAt j)) () NC))
        ∗ ((bigSep (pend (j + 1)) fun s : Fin 96 => atPos ER (sendCell c s) 0 ∅ 0) ∗ (bigSep (pend (j + 1)) fun s : Fin 96 => atPos ER (recvCell c s) 0 ∅ 0)
          ∗ (bigSep (pend (j + 1)) fun s : Fin 96 => cred (tallyAt (recvCell c s) () NC)) ∗ (bigSep (infl (j + 1) k) fun s : Fin 96 => cred (tallyAt (sendCell c s) () NC)))) : sProp 𝕄) := by
  have hj : j < 96 := by omega
  rw [bigSep_pend_step (fun s : Fin 96 => atPos ER (sendCell c s) 0 ∅ 0) j hj, bigSep_pend_step (fun s : Fin 96 => atPos ER (recvCell c s) 0 ∅ 0) j hj,
    bigSep_pend_step (fun s : Fin 96 => cred (tallyAt (recvCell c s) () NC)) j hj,
    bigSep_infl_pop (fun s : Fin 96 => cred (tallyAt (sendCell c s) () NC)) j k hjk hk]
  iintro ⟨⟨H1, R1⟩, ⟨H2, R2⟩, ⟨H3, R3⟩, ⟨H4, R4⟩⟩
  isplitl [H1 H2 H3 H4]
  · isplitl [H1]; · iexact H1
    isplitl [H2]; · iexact H2
    isplitl [H3]; · iexact H3
    iexact H4
  · isplitl [R1]; · iexact R1
    isplitl [R2]; · iexact R2
    isplitl [R3]; · iexact R3
    iexact R4

/-- The slot just waited for joins the slots done, with its two cells past their round and its two buffers' slots. -/
theorem archive (c : Dev nD) (j : ℕ) (hj : j < 96) :
    iprop((bigSep (done j) fun s : Fin 96 => iprop(atPos ER (sendCell c s) 1 ∅ 0 ∗ ∃ f, sPts (F := F) c s f))
        ∗ (bigSep (done j) fun s : Fin 96 => iprop(atPos ER (recvCell c s) 1 ∅ 0 ∗ ∃ f, rPts (F := F) c s f))
        ∗ (atPos ER (sendCell c (slotAt j)) 1 ∅ 0 ∗ ∃ f, sPts (F := F) c (slotAt j) f)
        ∗ (atPos ER (recvCell c (slotAt j)) 1 ∅ 0 ∗ ∃ f, rPts (F := F) c (slotAt j) f))
      ⊢ iprop((bigSep (done (j + 1)) fun s : Fin 96 => iprop(atPos ER (sendCell c s) 1 ∅ 0 ∗ ∃ f, sPts (F := F) c s f))
        ∗ (bigSep (done (j + 1)) fun s : Fin 96 => iprop(atPos ER (recvCell c s) 1 ∅ 0 ∗ ∃ f, rPts (F := F) c s f))) := by
  rw [bigSep_done_step (fun s : Fin 96 => iprop(atPos ER (sendCell c s) 1 ∅ 0 ∗ ∃ f, sPts (F := F) c s f)) j hj,
    bigSep_done_step (fun s : Fin 96 => iprop(atPos ER (recvCell c s) 1 ∅ 0 ∗ ∃ f, rPts (F := F) c s f)) j hj]
  iintro ⟨D1, D2, N1, N2⟩
  isplitl [D1 N1]
  · isplitl [D1]; · iexact D1
    iexact N1
  · isplitl [D2]; · iexact D2
    iexact N2

/-! ## The persistent families at a slot -/

section At
variable (κ : GSem nD τ sig → ℕ) (c : Dev nD) (s : Fin 96)

theorem inv_send_at : (bigSep (Finset.univ) fun s : Fin 96 => cellInv ER (rd m) (κ (sendCell c s)) (sendCell c s)) ⊢ cellInv ER (rd m) (κ (sendCell c s)) (sendCell c s) :=
  bigSep_elim (Finset.mem_univ s) (Φ := fun s : Fin 96 => cellInv ER (rd m) (κ (sendCell c s)) (sendCell c s))
theorem inv_recv_at : (bigSep (Finset.univ) fun s : Fin 96 => cellInv ER (rd m) (κ (recvCell c s)) (recvCell c s)) ⊢ cellInv ER (rd m) (κ (recvCell c s)) (recvCell c s) :=
  bigSep_elim (Finset.mem_univ s) (Φ := fun s : Fin 96 => cellInv ER (rd m) (κ (recvCell c s)) (recvCell c s))
theorem inv_peer_at : (bigSep (Finset.univ) fun s : Fin 96 => cellInv ER (rd m) (κ (recvCell (peerOf s c) s)) (recvCell (peerOf s c) s))
      ⊢ cellInv ER (rd m) (κ (recvCell (peerOf s c) s)) (recvCell (peerOf s c) s) :=
  bigSep_elim (Finset.mem_univ s) (Φ := fun s : Fin 96 => cellInv ER (rd m) (κ (recvCell (peerOf s c) s)) (recvCell (peerOf s c) s))
omit [FloatOps F] in
theorem reached_send_at : ((bigSep (Finset.univ) fun s : Fin 96 => reached ER (sendCell c s) 0) : sProp 𝕄) ⊢ reached ER (sendCell c s) 0 :=
  bigSep_elim (Finset.mem_univ s) (Φ := fun s : Fin 96 => reached ER (sendCell c s) 0)
omit [FloatOps F] in
theorem reached_recv_at : ((bigSep (Finset.univ) fun s : Fin 96 => reached ER (recvCell c s) 0) : sProp 𝕄) ⊢ reached ER (recvCell c s) 0 :=
  bigSep_elim (Finset.mem_univ s) (Φ := fun s : Fin 96 => reached ER (recvCell c s) 0)
omit [FloatOps F] in
theorem reached_peer_at : ((bigSep (Finset.univ) fun s : Fin 96 => reached ER (recvCell (peerOf s c) s) 0) : sProp 𝕄) ⊢ reached ER (recvCell (peerOf s c) s) 0 :=
  bigSep_elim (Finset.mem_univ s) (Φ := fun s : Fin 96 => reached ER (recvCell (peerOf s c) s) 0)

end At

end Cert.Kernel.Proto

end
-- ==== Proof.Bits.Devs.lean ====
/-
  The devices the copies address. The body computes, for each of its two entry signals and each of its 96 copies, the
  logical id of the device it addresses, as an integer chain over the device's own id. The copy issued at position `k` of
  the order of the slots addresses the peer of that position's slot: the device with bit 0 flipped when the slot's chunk
  plus phase is even, and with both bits flipped otherwise. Each is a finite check over the four devices.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Order
import proofs.«900999_g7700000000001000_dist_mlpseq_tp1d_rep_rep_b512_d256_h512_v7x_i4_f32_1_alg».proof.Proof.Gen.Kernel

namespace Cert.Kernel.Proto

open Cert.Kernel Cert.Kernel.Gen Cert.Kernel.KVal

open Idealize.ShloMosaic

open Lean in
/-- For position `k`: the device the chain of the copy at position `k` (the `k + 3`-rd chain of the body, after the two
    of the entry signals) computes from device `c` is slot `slotAt k`'s peer of `c`. -/
macro "dev_at_position " k:num : command => do
  let n := k.getNat
  let thm := mkIdent (Name.mkSimple s!"dev_at_{n}")
  let dev := mkIdent (Name.mkSimple s!"k0_dev{n + 3}")
  let devLt := mkIdent (Name.mkSimple s!"k0_dev{n + 3}_lt")
  `(theorem $thm (c : Dev nD) : (⟨$dev c, $devLt c⟩ : Dev nD) = peerOf (slotAt $k) c := by revert c; decide +kernel)

/-! ## The 96 positions -/

dev_at_position 0
dev_at_position 1
dev_at_position 2
dev_at_position 3
dev_at_position 4
dev_at_position 5
dev_at_position 6
dev_at_position 7
dev_at_position 8
dev_at_position 9
dev_at_position 10
dev_at_position 11
dev_at_position 12
dev_at_position 13
dev_at_position 14
dev_at_position 15
dev_at_position 16
dev_at_position 17
dev_at_position 18
dev_at_position 19
dev_at_position 20
dev_at_position 21
dev_at_position 22
dev_at_position 23
dev_at_position 24
dev_at_position 25
dev_at_position 26
dev_at_position 27
dev_at_position 28
dev_at_position 29
dev_at_position 30
dev_at_position 31
dev_at_position 32
dev_at_position 33
dev_at_position 34
dev_at_position 35
dev_at_position 36
dev_at_position 37
dev_at_position 38
dev_at_position 39
dev_at_position 40
dev_at_position 41
dev_at_position 42
dev_at_position 43
dev_at_position 44
dev_at_position 45
dev_at_position 46
dev_at_position 47
dev_at_position 48
dev_at_position 49
dev_at_position 50
dev_at_position 51
dev_at_position 52
dev_at_position 53
dev_at_position 54
dev_at_position 55
dev_at_position 56
dev_at_position 57
dev_at_position 58
dev_at_position 59
dev_at_position 60
dev_at_position 61
dev_at_position 62
dev_at_position 63
dev_at_position 64
dev_at_position 65
dev_at_position 66
dev_at_position 67
dev_at_position 68
dev_at_position 69
dev_at_position 70
dev_at_position 71
dev_at_position 72
dev_at_position 73
dev_at_position 74
dev_at_position 75
dev_at_position 76
dev_at_position 77
dev_at_position 78
dev_at_position 79
dev_at_position 80
dev_at_position 81
dev_at_position 82
dev_at_position 83
dev_at_position 84
dev_at_position 85
dev_at_position 86
dev_at_position 87
dev_at_position 88
dev_at_position 89
dev_at_position 90
dev_at_position 91
dev_at_position 92
dev_at_position 93
dev_at_position 94
dev_at_position 95

end Cert.Kernel.Proto
-- ==== Proof.Bits.Close.lean ====
/-
  The end of a device's body. Each of its send and receive cells has consumed its one round, so the cell closes and hands
  back its counter at zero; the 96 slots of each exchange buffer, each back at some contents, are the whole buffer again.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Slots
import proofs.«900999_g7700000000001000_dist_mlpseq_tp1d_rep_rep_b512_d256_h512_v7x_i4_f32_1_alg».proof.Proof.Bits.Steps

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every send cell of a device closes, under one update. -/
theorem close_sends (κ : GSem nD τ sig → ℕ) (c : Dev nD) :
    iprop((bigSep Finset.univ fun s : Fin 96 => cellInv ER (rd m) (κ (sendCell c s)) (sendCell c s))
        ∗ (bigSep Finset.univ fun s : Fin 96 => atPos ER (sendCell c s) 1 ∅ 0))
      ⊢ (|={Set.univ}=> bigSep Finset.univ fun s : Fin 96 => semVal (sendCell c s) 0 : sProp 𝕄) := by
  rw [← bigSep_sep']
  exact (bigSep_mono fun s _ => close_send m (κ (sendCell c s)) c s).trans (bigSep_fupd _ _)

/-- Every receive cell likewise. -/
theorem close_recvs (κ : GSem nD τ sig → ℕ) (c : Dev nD) :
    iprop((bigSep Finset.univ fun s : Fin 96 => cellInv ER (rd m) (κ (recvCell c s)) (recvCell c s))
        ∗ (bigSep Finset.univ fun s : Fin 96 => atPos ER (recvCell c s) 1 ∅ 0))
      ⊢ (|={Set.univ}=> bigSep Finset.univ fun s : Fin 96 => semVal (recvCell c s) 0 : sProp 𝕄) := by
  rw [← bigSep_sep']
  exact (bigSep_mono fun s _ => close_recv m (κ (recvCell c s)) c s).trans (bigSep_fupd _ _)

/-- The end of device `c`'s body: its send and receive cells all at round 1 and every slot of both exchange buffers back give the
    two buffers whole and the cells' counters at zero, the cells closed. -/
theorem close_all (κ : GSem nD τ sig → ℕ) (c : Dev nD) :
    iprop((bigSep Finset.univ fun s : Fin 96 => cellInv ER (rd m) (κ (sendCell c s)) (sendCell c s))
        ∗ (bigSep Finset.univ fun s : Fin 96 => cellInv ER (rd m) (κ (recvCell c s)) (recvCell c s))
        ∗ (bigSep Finset.univ fun s : Fin 96 => iprop(atPos ER (sendCell c s) 1 ∅ 0 ∗ ∃ f, sPts (F := F) c s f))
        ∗ (bigSep Finset.univ fun s : Fin 96 => iprop(atPos ER (recvCell c s) 1 ∅ 0 ∗ ∃ f, rPts (F := F) c s f)))
      ⊢ |={Set.univ}=> Φ₁ (F := F) c := by
  rw [bigSep_sep', bigSep_sep']
  iintro ⟨HIs, HIr, ⟨Has, Hps⟩, ⟨Har, Hpr⟩⟩
  imod (close_sends m κ c) $$ [HIs Has] with Hvs
  · isplitl [HIs]; · iexact HIs
    iexact Has
  imod (close_recvs m κ c) $$ [HIr Har] with Hvr
  · isplitl [HIr]; · iexact HIr
    iexact Har
  imodintro
  unfold Φ₁
  isplitl [Hps]; · iapply (sbuf_join (F := F) c); iexact Hps
  isplitl [Hpr]; · iapply (rbuf_join (F := F) c); iexact Hpr
  isplitl [Hvs]; · iexact Hvs
  iexact Hvr

end Cert.Kernel.Proto

end
-- ==== Proof.Bits.OutBuf.lean ====
/-
  The result block. The body leaves the result's staging buffer f32[512, 256] by sixteen stores, chunk `ch` (32 rows) at
  rows 32 ch … 32 ch + 31. The sixteen row bands are the blocks of size (32, 256) of the shape, so they cover it, and row
  `r` of the buffer lies in band `r / 32` at its row `r % 32`: whatever the buffer held before, it ends holding the
  block whose row `r` is row `r % 32` of chunk `r / 32`.
-/
import proofs.«900999_g7700000000001000_dist_mlpseq_tp1d_rep_rep_b512_d256_h512_v7x_i4_f32_1_alg».proof.Proof.Bits.Proto
import Idealize.ShloMosaic.Lib.Pipeline.Value
import Idealize.ShloMosaic.Lib.Tactic

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The block of sixteen chunks: row `r` is row `r % 32` of chunk `r / 32`. -/
def blockOf (w : Fin 16 → FVec F S32x256 .f32) : Vec F S512x256 .f32 := fun i =>
  w ⟨(i 0).val / 32, by have := (i 0).isLt; simp only [Matrix.cons_val_zero] at this; omega⟩
    (ValueIdx.ix2 (n0 := 32) (n1 := 256) ⟨(i 0).val % 32, Nat.mod_lt _ (by decide)⟩ (i 1))

/-- Row `32 ch + r` (`r < 32`) of the block is row `r` of chunk `ch`: the quotient by 32 is `ch`, the remainder `r`. -/
theorem chunk_row (w : Fin 16 → FVec F S32x256 .f32) (ch : Fin 16) (x : S32x256.Idx) (a : ℕ) (b : Fin 256)
    (ha : a = 32 * ch.val + (x 0).val) (hb : b.val = (x 1).val) (h1 : a / 32 < 16) (h2 : a % 32 < 32) :
    w ch x = w ⟨a / 32, h1⟩ (ValueIdx.ix2 (n0 := 32) (n1 := 256) ⟨a % 32, h2⟩ b) := by
  have hx : (x 0).val < 32 := ValueIdx.idx2_lt0 x
  have e1 : (⟨a / 32, h1⟩ : Fin 16) = ch := Fin.ext (by show a / 32 = ch.val; omega)
  have e2 : ValueIdx.ix2 (n0 := 32) (n1 := 256) ⟨a % 32, h2⟩ b = x := by
    have e0 : (⟨a % 32, h2⟩ : Fin 32) = x 0 := Fin.ext (by show a % 32 = (x 0).val; omega)
    have eb : b = x 1 := Fin.ext hb
    rw [e0, eb]
    exact (ValueIdx.eq_ix2 x).symm
  rw [e1, e2]

/-- What the sixteen stores leave, the last store first in the list, over any prior contents: the block of the sixteen payloads. -/
theorem out_writes (f7 : (Memref.whole cc0_stg7_0 : Memref sig .tc .vmem S512x256 .f32).view.ty.Contents (Elt F)) (w : Fin 16 → FVec F S32x256 .f32) :
    (Memref.whole cc0_stg7_0 : Memref sig .tc .vmem S512x256 .f32).view.writes (Elt F) f7
      [⟨Rect.unit (s := S512x256) ![480, 0] S32x256.size inb_S512x256_S32x256_480_0, w 15⟩,
      ⟨Rect.unit (s := S512x256) ![448, 0] S32x256.size inb_S512x256_S32x256_448_0, w 14⟩,
      ⟨Rect.unit (s := S512x256) ![416, 0] S32x256.size inb_S512x256_S32x256_416_0, w 13⟩,
      ⟨Rect.unit (s := S512x256) ![384, 0] S32x256.size inb_S512x256_S32x256_384_0, w 12⟩,
      ⟨Rect.unit (s := S512x256) ![352, 0] S32x256.size inb_S512x256_S32x256_352_0, w 11⟩,
      ⟨Rect.unit (s := S512x256) ![320, 0] S32x256.size inb_S512x256_S32x256_320_0, w 10⟩,
      ⟨Rect.unit (s := S512x256) ![288, 0] S32x256.size inb_S512x256_S32x256_288_0, w 9⟩,
      ⟨Rect.unit (s := S512x256) ![256, 0] S32x256.size inb_S512x256_S32x256_256_0, w 8⟩,
      ⟨Rect.unit (s := S512x256) ![224, 0] S32x256.size inb_S512x256_S32x256_224_0, w 7⟩,
      ⟨Rect.unit (s := S512x256) ![192, 0] S32x256.size inb_S512x256_S32x256_192_0, w 6⟩,
      ⟨Rect.unit (s := S512x256) ![160, 0] S32x256.size inb_S512x256_S32x256_160_0, w 5⟩,
      ⟨Rect.unit (s := S512x256) ![128, 0] S32x256.size inb_S512x256_S32x256_128_0, w 4⟩,
      ⟨Rect.unit (s := S512x256) ![96, 0] S32x256.size inb_S512x256_S32x256_96_0, w 3⟩,
      ⟨Rect.unit (s := S512x256) ![64, 0] S32x256.size inb_S512x256_S32x256_64_0, w 2⟩,
      ⟨Rect.unit (s := S512x256) ![32, 0] S32x256.size inb_S512x256_S32x256_32_0, w 1⟩,
      ⟨Rect.unit (s := S512x256) ![0, 0] S32x256.size inb_S512x256_S32x256_0_0, w 0⟩]
      = blockOf w := by
  funext i
  refine (congrFun (View.read_whole (Val := Elt F) cc0_stg7_0 _) i).symm.trans ?_
  refine View.read_writes_apply_of_pieces (v := (Memref.whole cc0_stg7_0 : Memref sig .tc .vmem S512x256 .f32).view) (f := f7) (blockOf w) _ ?hG i ?hcov
  case hcov =>
    exact View.cover_of_tiled _ ![32, 256] rfl i
  case hG =>
    intro p hp
    simp only [List.mem_cons, List.not_mem_nil, or_false] at hp
    rcases hp with rfl | rfl | rfl | rfl | rfl | rfl | rfl | rfl | rfl | rfl | rfl | rfl | rfl | rfl | rfl | rfl
    · intro x
      exact chunk_row w 15 x _ _ (by show 480 + 1 * (x 0).val = 32 * 15 + (x 0).val; omega) (by show 0 + 1 * (x 1).val = (x 1).val; omega) _ _
    · intro x
      exact chunk_row w 14 x _ _ (by show 448 + 1 * (x 0).val = 32 * 14 + (x 0).val; omega) (by show 0 + 1 * (x 1).val = (x 1).val; omega) _ _
    · intro x
      exact chunk_row w 13 x _ _ (by show 416 + 1 * (x 0).val = 32 * 13 + (x 0).val; omega) (by show 0 + 1 * (x 1).val = (x 1).val; omega) _ _
    · intro x
      exact chunk_row w 12 x _ _ (by show 384 + 1 * (x 0).val = 32 * 12 + (x 0).val; omega) (by show 0 + 1 * (x 1).val = (x 1).val; omega) _ _
    · intro x
      exact chunk_row w 11 x _ _ (by show 352 + 1 * (x 0).val = 32 * 11 + (x 0).val; omega) (by show 0 + 1 * (x 1).val = (x 1).val; omega) _ _
    · intro x
      exact chunk_row w 10 x _ _ (by show 320 + 1 * (x 0).val = 32 * 10 + (x 0).val; omega) (by show 0 + 1 * (x 1).val = (x 1).val; omega) _ _
    · intro x
      exact chunk_row w 9 x _ _ (by show 288 + 1 * (x 0).val = 32 * 9 + (x 0).val; omega) (by show 0 + 1 * (x 1).val = (x 1).val; omega) _ _
    · intro x
      exact chunk_row w 8 x _ _ (by show 256 + 1 * (x 0).val = 32 * 8 + (x 0).val; omega) (by show 0 + 1 * (x 1).val = (x 1).val; omega) _ _
    · intro x
      exact chunk_row w 7 x _ _ (by show 224 + 1 * (x 0).val = 32 * 7 + (x 0).val; omega) (by show 0 + 1 * (x 1).val = (x 1).val; omega) _ _
    · intro x
      exact chunk_row w 6 x _ _ (by show 192 + 1 * (x 0).val = 32 * 6 + (x 0).val; omega) (by show 0 + 1 * (x 1).val = (x 1).val; omega) _ _
    · intro x
      exact chunk_row w 5 x _ _ (by show 160 + 1 * (x 0).val = 32 * 5 + (x 0).val; omega) (by show 0 + 1 * (x 1).val = (x 1).val; omega) _ _
    · intro x
      exact chunk_row w 4 x _ _ (by show 128 + 1 * (x 0).val = 32 * 4 + (x 0).val; omega) (by show 0 + 1 * (x 1).val = (x 1).val; omega) _ _
    · intro x
      exact chunk_row w 3 x _ _ (by show 96 + 1 * (x 0).val = 32 * 3 + (x 0).val; omega) (by show 0 + 1 * (x 1).val = (x 1).val; omega) _ _
    · intro x
      exact chunk_row w 2 x _ _ (by show 64 + 1 * (x 0).val = 32 * 2 + (x 0).val; omega) (by show 0 + 1 * (x 1).val = (x 1).val; omega) _ _
    · intro x
      exact chunk_row w 1 x _ _ (by show 32 + 1 * (x 0).val = 32 * 1 + (x 0).val; omega) (by show 0 + 1 * (x 1).val = (x 1).val; omega) _ _
    · intro x
      exact chunk_row w 0 x _ _ (by show 0 + 1 * (x 0).val = 32 * 0 + (x 0).val; omega) (by show 0 + 1 * (x 1).val = (x 1).val; omega) _ _

/-- The same with the sixteen payloads named one by one. -/
theorem out_writes16 (f7 : (Memref.whole cc0_stg7_0 : Memref sig .tc .vmem S512x256 .f32).view.ty.Contents (Elt F)) (w0 w1 w2 w3 w4 w5 w6 w7 w8 w9 w10 w11 w12 w13 w14 w15 : FVec F S32x256 .f32) :
    (Memref.whole cc0_stg7_0 : Memref sig .tc .vmem S512x256 .f32).view.writes (Elt F) f7
      [⟨Rect.unit (s := S512x256) ![480, 0] S32x256.size inb_S512x256_S32x256_480_0, w15⟩,
      ⟨Rect.unit (s := S512x256) ![448, 0] S32x256.size inb_S512x256_S32x256_448_0, w14⟩,
      ⟨Rect.unit (s := S512x256) ![416, 0] S32x256.size inb_S512x256_S32x256_416_0, w13⟩,
      ⟨Rect.unit (s := S512x256) ![384, 0] S32x256.size inb_S512x256_S32x256_384_0, w12⟩,
      ⟨Rect.unit (s := S512x256) ![352, 0] S32x256.size inb_S512x256_S32x256_352_0, w11⟩,
      ⟨Rect.unit (s := S512x256) ![320, 0] S32x256.size inb_S512x256_S32x256_320_0, w10⟩,
      ⟨Rect.unit (s := S512x256) ![288, 0] S32x256.size inb_S512x256_S32x256_288_0, w9⟩,
      ⟨Rect.unit (s := S512x256) ![256, 0] S32x256.size inb_S512x256_S32x256_256_0, w8⟩,
      ⟨Rect.unit (s := S512x256) ![224, 0] S32x256.size inb_S512x256_S32x256_224_0, w7⟩,
      ⟨Rect.unit (s := S512x256) ![192, 0] S32x256.size inb_S512x256_S32x256_192_0, w6⟩,
      ⟨Rect.unit (s := S512x256) ![160, 0] S32x256.size inb_S512x256_S32x256_160_0, w5⟩,
      ⟨Rect.unit (s := S512x256) ![128, 0] S32x256.size inb_S512x256_S32x256_128_0, w4⟩,
      ⟨Rect.unit (s := S512x256) ![96, 0] S32x256.size inb_S512x256_S32x256_96_0, w3⟩,
      ⟨Rect.unit (s := S512x256) ![64, 0] S32x256.size inb_S512x256_S32x256_64_0, w2⟩,
      ⟨Rect.unit (s := S512x256) ![32, 0] S32x256.size inb_S512x256_S32x256_32_0, w1⟩,
      ⟨Rect.unit (s := S512x256) ![0, 0] S32x256.size inb_S512x256_S32x256_0_0, w0⟩]
      = blockOf ![w0, w1, w2, w3, w4, w5, w6, w7, w8, w9, w10, w11, w12, w13, w14, w15] :=
  out_writes f7 ![w0, w1, w2, w3, w4, w5, w6, w7, w8, w9, w10, w11, w12, w13, w14, w15]

/-- With the sixteen chunks of device `c`'s result as payloads it is the device's result block. -/
theorem out_is_outAt (c : Dev nD) (f7 : (Memref.whole cc0_stg7_0 : Memref sig .tc .vmem S512x256 .f32).view.ty.Contents (Elt F)) :
    (Memref.whole cc0_stg7_0 : Memref sig .tc .vmem S512x256 .f32).view.writes (Elt F) f7
      [⟨Rect.unit (s := S512x256) ![480, 0] S32x256.size inb_S512x256_S32x256_480_0, outChunk m c 15⟩,
      ⟨Rect.unit (s := S512x256) ![448, 0] S32x256.size inb_S512x256_S32x256_448_0, outChunk m c 14⟩,
      ⟨Rect.unit (s := S512x256) ![416, 0] S32x256.size inb_S512x256_S32x256_416_0, outChunk m c 13⟩,
      ⟨Rect.unit (s := S512x256) ![384, 0] S32x256.size inb_S512x256_S32x256_384_0, outChunk m c 12⟩,
      ⟨Rect.unit (s := S512x256) ![352, 0] S32x256.size inb_S512x256_S32x256_352_0, outChunk m c 11⟩,
      ⟨Rect.unit (s := S512x256) ![320, 0] S32x256.size inb_S512x256_S32x256_320_0, outChunk m c 10⟩,
      ⟨Rect.unit (s := S512x256) ![288, 0] S32x256.size inb_S512x256_S32x256_288_0, outChunk m c 9⟩,
      ⟨Rect.unit (s := S512x256) ![256, 0] S32x256.size inb_S512x256_S32x256_256_0, outChunk m c 8⟩,
      ⟨Rect.unit (s := S512x256) ![224, 0] S32x256.size inb_S512x256_S32x256_224_0, outChunk m c 7⟩,
      ⟨Rect.unit (s := S512x256) ![192, 0] S32x256.size inb_S512x256_S32x256_192_0, outChunk m c 6⟩,
      ⟨Rect.unit (s := S512x256) ![160, 0] S32x256.size inb_S512x256_S32x256_160_0, outChunk m c 5⟩,
      ⟨Rect.unit (s := S512x256) ![128, 0] S32x256.size inb_S512x256_S32x256_128_0, outChunk m c 4⟩,
      ⟨Rect.unit (s := S512x256) ![96, 0] S32x256.size inb_S512x256_S32x256_96_0, outChunk m c 3⟩,
      ⟨Rect.unit (s := S512x256) ![64, 0] S32x256.size inb_S512x256_S32x256_64_0, outChunk m c 2⟩,
      ⟨Rect.unit (s := S512x256) ![32, 0] S32x256.size inb_S512x256_S32x256_32_0, outChunk m c 1⟩,
      ⟨Rect.unit (s := S512x256) ![0, 0] S32x256.size inb_S512x256_S32x256_0_0, outChunk m c 0⟩]
      = outAt m c :=
  out_writes f7 (outChunk m c)

end Cert.Kernel.Proto

end
-- ==== Proof.Bits.Finish.lean ====
/-
  The end of a device's body. Every slot has been copied and waited for: the device's send and receive cells are past
  their one round and close with their counters at zero, the two exchange buffers are whole again, nothing is owed, the
  staged inputs are as they were, and the result buffer, written chunk by chunk, holds the device's result block.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Order
import proofs.«900999_g7700000000001000_dist_mlpseq_tp1d_rep_rep_b512_d256_h512_v7x_i4_f32_1_alg».proof.Proof.Bits.Picks
import proofs.«900999_g7700000000001000_dist_mlpseq_tp1d_rep_rep_b512_d256_h512_v7x_i4_f32_1_alg».proof.Proof.Bits.Close
import proofs.«900999_g7700000000001000_dist_mlpseq_tp1d_rep_rep_b512_d256_h512_v7x_i4_f32_1_alg».proof.Proof.Bits.OutBuf

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device's body ends with: the exchange buffers whole and its own cells closed (`Φ₁`), nothing owed, the staged
    inputs unchanged and the result's staging buffer at the device's result block. -/
def bodyPost (c : Dev nD) : sProp 𝕄 :=
  iprop(Φ₁ (F := F) c ∗ (∃ W', owes (c : Thread nD τ) 0 W')
    ∗ (((c : Thread nD τ).loc cc0_stg0_0) ↦{fullShare} stg0 m c) ∗ (((c : Thread nD τ).loc cc0_stg1_0) ↦{fullShare} stg1 m c)
    ∗ (((c : Thread nD τ).loc cc0_stg2_0) ↦{fullShare} stg2 m c) ∗ (((c : Thread nD τ).loc cc0_stg3_0) ↦{fullShare} stg3 m c)
    ∗ (((c : Thread nD τ).loc cc0_stg4_0) ↦{fullShare} stg4 m c) ∗ (((c : Thread nD τ).loc cc0_stg5_0) ↦{fullShare} stg5 m c)
    ∗ (((c : Thread nD τ).loc cc0_stg6_0) ↦{fullShare} stg6 m c) ∗ (((c : Thread nD τ).loc cc0_stg7_0) ↦{fullShare} outAt m c))

/-- From the loop's exit to the body's end: with all 96 slots done the cells close and the buffers join (`close_all`), the
    owed tally over no pending slot is zero, and the sixteen chunk writes make the result block. -/
theorem finish (κ : GSem nD τ sig → ℕ) (c : Dev nD) (W' : Waits sig Unit)
    (f7 : (Memref.whole cc0_stg7_0 : Memref sig .tc .vmem S512x256 .f32).view.ty.Contents (Elt F)) :
    iprop((bigSep Finset.univ fun s : Fin 96 => cellInv ER (rd m) (κ (sendCell c s)) (sendCell c s))
        ∗ (bigSep Finset.univ fun s : Fin 96 => cellInv ER (rd m) (κ (recvCell c s)) (recvCell c s))
        ∗ (bigSep (done 96) fun s : Fin 96 => iprop(atPos ER (sendCell c s) 1 ∅ 0 ∗ ∃ f, sPts (F := F) c s f))
        ∗ (bigSep (done 96) fun s : Fin 96 => iprop(atPos ER (recvCell c s) 1 ∅ 0 ∗ ∃ f, rPts (F := F) c s f))
        ∗ owes (c : Thread nD τ) (Opend c 96) W'
        ∗ ((Memref.whole cc0_stg0_0 : Memref sig .tc .vmem S512x256 .f32).view.loc (c : Thread nD τ) ↦{fullShare} stg0 m c)
        ∗ ((Memref.whole cc0_stg1_0 : Memref sig .tc .vmem S256x512 .f32).view.loc (c : Thread nD τ) ↦{fullShare} stg1 m c)
        ∗ ((Memref.whole cc0_stg2_0 : Memref sig .tc .vmem S512x256 .f32).view.loc (c : Thread nD τ) ↦{fullShare} stg2 m c)
        ∗ ((Memref.whole cc0_stg3_0 : Memref sig .tc .vmem S256x512 .f32).view.loc (c : Thread nD τ) ↦{fullShare} stg3 m c)
        ∗ ((Memref.whole cc0_stg4_0 : Memref sig .tc .vmem S512x256 .f32).view.loc (c : Thread nD τ) ↦{fullShare} stg4 m c)
        ∗ ((Memref.whole cc0_stg5_0 : Memref sig .tc .vmem S256x512 .f32).view.loc (c : Thread nD τ) ↦{fullShare} stg5 m c)
        ∗ ((Memref.whole cc0_stg6_0 : Memref sig .tc .vmem S512x256 .f32).view.loc (c : Thread nD τ) ↦{fullShare} stg6 m c)
        ∗ ((Memref.whole cc0_stg7_0 : Memref sig .tc .vmem S512x256 .f32).view.loc (c : Thread nD τ) ↦{fullShare}
          ((Memref.whole cc0_stg7_0 : Memref sig .tc .vmem S512x256 .f32).view.writes (Elt F) f7
           [⟨Rect.unit (s := S512x256) ![480, 0] S32x256.size inb_S512x256_S32x256_480_0, outChunk m c 15⟩,
            ⟨Rect.unit (s := S512x256) ![448, 0] S32x256.size inb_S512x256_S32x256_448_0, outChunk m c 14⟩,
            ⟨Rect.unit (s := S512x256) ![416, 0] S32x256.size inb_S512x256_S32x256_416_0, outChunk m c 13⟩,
            ⟨Rect.unit (s := S512x256) ![384, 0] S32x256.size inb_S512x256_S32x256_384_0, outChunk m c 12⟩,
            ⟨Rect.unit (s := S512x256) ![352, 0] S32x256.size inb_S512x256_S32x256_352_0, outChunk m c 11⟩,
            ⟨Rect.unit (s := S512x256) ![320, 0] S32x256.size inb_S512x256_S32x256_320_0, outChunk m c 10⟩,
            ⟨Rect.unit (s := S512x256) ![288, 0] S32x256.size inb_S512x256_S32x256_288_0, outChunk m c 9⟩,
            ⟨Rect.unit (s := S512x256) ![256, 0] S32x256.size inb_S512x256_S32x256_256_0, outChunk m c 8⟩,
            ⟨Rect.unit (s := S512x256) ![224, 0] S32x256.size inb_S512x256_S32x256_224_0, outChunk m c 7⟩,
            ⟨Rect.unit (s := S512x256) ![192, 0] S32x256.size inb_S512x256_S32x256_192_0, outChunk m c 6⟩,
            ⟨Rect.unit (s := S512x256) ![160, 0] S32x256.size inb_S512x256_S32x256_160_0, outChunk m c 5⟩,
            ⟨Rect.unit (s := S512x256) ![128, 0] S32x256.size inb_S512x256_S32x256_128_0, outChunk m c 4⟩,
            ⟨Rect.unit (s := S512x256) ![96, 0] S32x256.size inb_S512x256_S32x256_96_0, outChunk m c 3⟩,
            ⟨Rect.unit (s := S512x256) ![64, 0] S32x256.size inb_S512x256_S32x256_64_0, outChunk m c 2⟩,
            ⟨Rect.unit (s := S512x256) ![32, 0] S32x256.size inb_S512x256_S32x256_32_0, outChunk m c 1⟩,
            ⟨Rect.unit (s := S512x256) ![0, 0] S32x256.size inb_S512x256_S32x256_0_0, outChunk m c 0⟩])))
      ⊢ |={Set.univ}=> bodyPost m c := by
  rw [done_full, Opend_full, out_is_outAt]
  iintro ⟨HIs, HIr, HDs, HDr, HL, H0, H1, H2, H3, H4, H5, H6, H7⟩
  imod (close_all m κ c) $$ [HIs HIr HDs HDr] with HΦ
  · isplitl [HIs]; · iexact HIs
    isplitl [HIr]; · iexact HIr
    isplitl [HDs]; · iexact HDs
    iexact HDr
  imodintro
  unfold bodyPost
  isplitl [HΦ]; · iexact HΦ
  isplitl [HL]; · iexists W'; iexact HL
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Proto

end
-- ==== Proof.Bits.Body.lean ====
/-
  One device's body, stepped from its ghost state: the entry handshake, then per slot the store of the narrowed chunk, the
  copy into the peer's receive slot, and later the two waits and the read of what landed.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Hand
import proofs.«900999_g7700000000001000_dist_mlpseq_tp1d_rep_rep_b512_d256_h512_v7x_i4_f32_1_alg».proof.Proof.Bits.Slots
import proofs.«900999_g7700000000001000_dist_mlpseq_tp1d_rep_rep_b512_d256_h512_v7x_i4_f32_1_alg».proof.Proof.Bits.Steps
import proofs.«900999_g7700000000001000_dist_mlpseq_tp1d_rep_rep_b512_d256_h512_v7x_i4_f32_1_alg».proof.Proof.Bits.Steps2
import proofs.«900999_g7700000000001000_dist_mlpseq_tp1d_rep_rep_b512_d256_h512_v7x_i4_f32_1_alg».proof.Proof.Bits.Order
import proofs.«900999_g7700000000001000_dist_mlpseq_tp1d_rep_rep_b512_d256_h512_v7x_i4_f32_1_alg».proof.Proof.Bits.Picks
import proofs.«900999_g7700000000001000_dist_mlpseq_tp1d_rep_rep_b512_d256_h512_v7x_i4_f32_1_alg».proof.Proof.Bits.Devs
import proofs.«900999_g7700000000001000_dist_mlpseq_tp1d_rep_rep_b512_d256_h512_v7x_i4_f32_1_alg».proof.Proof.Bits.Close
import proofs.«900999_g7700000000001000_dist_mlpseq_tp1d_rep_rep_b512_d256_h512_v7x_i4_f32_1_alg».proof.Proof.Bits.OutBuf
import proofs.«900999_g7700000000001000_dist_mlpseq_tp1d_rep_rep_b512_d256_h512_v7x_i4_f32_1_alg».proof.Proof.Bits.Finish
import proofs.«900999_g7700000000001000_dist_mlpseq_tp1d_rep_rep_b512_d256_h512_v7x_i4_f32_1_alg».proof.Proof.Gen.Kernel.Skeleton
import proofs.«900999_g7700000000001000_dist_mlpseq_tp1d_rep_rep_b512_d256_h512_v7x_i4_f32_1_alg».proof.Proof.Gen.Kernel.Frame
import Idealize.ShloMosaic.Lib.Pipeline.Value

set_option maxRecDepth 16384

noncomputable section

namespace Cert.Kernel.Proto

open Cert.Kernel Cert.Kernel.Gen Cert.Kernel.KVal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem Osend_bar (c : Dev nD) : ∀ g u, 0 < Osend c g u → g.1.2 = .tc ∧ 2 ≤ lv g () := by
  rw [← Opend_zero]; exact Opend_bar c 0

/-- A returned value bound into a continuation is the continuation at that value. -/
theorem ret_bind' {E : Type → Type} {α β : Type} (a : α) (k : α → Prog E β) : (Prog.ret a : Prog E α).bind k = k a := rfl

/-- The two peers as the body's device chains name them. -/
theorem dev1_eq (c : Dev nD) : (⟨k0_dev1 c, k0_dev1_lt c⟩ : Dev nD) = pa c := by revert c; decide
theorem dev2_eq (c : Dev nD) : (⟨k0_dev2 c, k0_dev2_lt c⟩ : Dev nD) = pb c := by revert c; decide

/-! ## The steps of the hand run, as tactics -/

omit [FloatOps F] in
/-- The empty families the run starts its bookkeeping from: no copy in flight, no slot waited. -/
theorem add_fams (c : Dev nD) (P : sProp 𝕄) :
    P ⊢ iprop(P ∗ (bigSep (infl 0 0) fun s : Fin 96 => cred (tallyAt (sendCell c s) () NC))
      ∗ (bigSep (done 0) fun s : Fin 96 => iprop(atPos ER (sendCell c s) 1 ∅ 0 ∗ ∃ f, sPts (F := F) c s f))
      ∗ (bigSep (done 0) fun s : Fin 96 => iprop(atPos ER (recvCell c s) 1 ∅ 0 ∗ ∃ f, rPts (F := F) c s f))) := by
  rw [← emp_to_infl, ← emp_to_done0, ← emp_to_done0]
  iintro H
  isplitl [H]; · iexact H
  isplitr; · iempintro
  isplitr; · iempintro
  iempintro

open Lean in
/-- The device equation of position `k`'s copy. -/
macro "dev_at " c:term:max k:num : term => pure (Syntax.mkApp (mkIdent (Name.mkSimple s!"dev_at_{k.getNat}")) #[c])

set_option hygiene false in
/-- The copy at position `k` of the program's order, `j` slots already waited: the slot's pieces taken out of the families; the dead load and the
    store of the send slot; the copy into the peer's receive slot, the stored vector being the specified one by unfolding. -/
macro "xchg " k:num " after " j:num : tactic =>
  `(tactic| (
    try rw [ret_bind']
    try sl_exec
    ihave HP := (pick_copy (F := F) c $k (by decide)) $$ [HsP HpP HtS HtP]
    · isplitl [HsP]; · iexact HsP
      isplitl [HpP]; · iexact HpP
      isplitl [HtS]; · iexact HtS
      iexact HtP
    icases HP with ⟨⟨⟨%fsk, Hsk⟩, ⟨%fdk, Hdk⟩, Htsk, Htpk⟩, HsP, HpP, HtS, HtP⟩
    ihave HO := (owes_step c $k (by decide) _) $$ HO
    iapply (wp_load_dead_slot (F := F) c (slotAt $k) fsk) $$ Hsk
    iintro Hsk
    try rw [ret_bind']
    try sl_exec
    iapply (wp_store_slot (F := F) c (slotAt $k) fsk (sentS m c (slotAt $k))) $$ Hsk
    iintro ⟨%fsk', %hfk, Hsk⟩
    try rw [ret_bind']
    try sl_exec
    iapply (wp_send_slot m (κ (sendCell c (slotAt $k))) (κ (recvCell (peerOf (slotAt $k) c) (slotAt $k))) c (slotAt $k) _ (dev_at c $k) fsk' fdk (Opend c ($k + 1)) _ hfk) $$ [Hsk Hdk HO Htsk Htpk]
    · isplitr; · iapply (inv_send_at m κ c (slotAt $k)); iexact HIsnd
      isplitr; · iapply (inv_peer_at m κ c (slotAt $k)); iexact HIpeer
      isplitl [Hsk]; · iexact Hsk
      isplitl [Hdk]; · iexact Hdk
      isplitl [HO]; · iexact HO
      isplitl [Htsk]; · iexact Htsk
      isplitr; · iapply (reached_send_at (F := F) c (slotAt $k)); iexact HrS
      isplitl [Htpk]; · iexact Htpk
      iapply (reached_peer_at (F := F) c (slotAt $k)); iexact HrPeer
    iintro ⟨Hck, HO⟩
    ihave HcS := (push_cred (F := F) c $j $k (by decide) (by decide)) $$ [HcS Hck]
    · isplitl [HcS]; · iexact HcS
      iexact Hck))

set_option hygiene false in
/-- The two waits at position `j` of the program's order, `kk` copies already issued: the slot's pieces taken out of the families; the wait on the
    send cell (the send slot back); the wait on the receive cell (the peer's slot landed) and the load of what landed; both slots archived. -/
macro "waitpair " j:num " at " kk:num : tactic =>
  `(tactic| (
    try rw [ret_bind']
    try sl_exec
    ihave HP := (pick_wait (F := F) c $j $kk (by decide) (by decide)) $$ [HatS HatV HcV HcS]
    · isplitl [HatS]; · iexact HatS
      isplitl [HatV]; · iexact HatV
      isplitl [HcV]; · iexact HcV
      iexact HcS
    icases HP with ⟨⟨Hasj, Havj, Hcvj, Hcsj⟩, HatS, HatV, HcV, HcS⟩
    iapply (wp_wait_send_slot m (κ (sendCell c (slotAt $j))) c (slotAt $j) (Opend c $kk) _ (Opend_low c $kk)) $$ [Hcsj HO Hasj]
    · isplitr; · iapply (inv_send_at m κ c (slotAt $j)); iexact HIsnd
      isplitl [Hcsj]; · iexact Hcsj
      isplitl [HO]; · iexact HO
      isplitr; · iexact Hlev
      iexact Hasj
    iintro ⟨HO, Hasj, Hsbj⟩
    try rw [ret_bind']
    try sl_exec
    iapply (wp_wait_recv_slot m (κ (recvCell c (slotAt $j))) c (slotAt $j) (Opend c $kk) _ (Opend_above c $j $kk (by decide) (by decide))) $$ [Hcvj HO Havj]
    · isplitr; · iapply (inv_recv_at m κ c (slotAt $j)); iexact HIrcv
      isplitl [Hcvj]; · iexact Hcvj
      isplitl [HO]; · iexact HO
      isplitr; · iexact Hlev
      iexact Havj
    iintro ⟨HO, Havj, Hpay⟩
    unfold recvPay
    icases Hpay with ⟨%f₀j, Hrj⟩
    try rw [ret_bind']
    try sl_exec
    iapply (wp_load_landed_slot m c (slotAt $j) f₀j) $$ Hrj
    iintro Hrj
    ihave Hd := (archive (F := F) c $j (by decide)) $$ [HdS HdV Hasj Hsbj Havj Hrj]
    · isplitl [HdS]; · iexact HdS
      isplitl [HdV]; · iexact HdV
      isplitl [Hasj Hsbj]
      · isplitl [Hasj]; · iexact Hasj
        unfold sendPay; iexact Hsbj
      isplitl [Havj]; · iexact Havj
      iexists _; iexact Hrj
    icases Hd with ⟨HdS, HdV⟩))

open Lean in
/-- Layer 0, phase 0: the sixteen copies of the partial products. -/
macro "block_zero" : tactic => do
  let mut ts : Array (TSyntax `tactic) := #[]
  for k in [0:16] do
    ts := ts.push (← `(tactic| xchg $(Syntax.mkNumLit (toString k)) after 0))
  `(tactic| ($[$ts];*))

open Lean in
/-- Layer `l`, first loop: chunk by chunk, the first exchange is waited and the sum goes to the second peer. -/
macro "first_loop " l:num : tactic => do
  let l := l.getNat
  let mut ts : Array (TSyntax `tactic) := #[]
  for i in [0:16] do
    ts := ts.push (← `(tactic| waitpair $(Syntax.mkNumLit (toString (32 * l + i))) at $(Syntax.mkNumLit (toString (32 * l + 16 + i)))))
    ts := ts.push (← `(tactic| xchg $(Syntax.mkNumLit (toString (32 * l + 16 + i))) after $(Syntax.mkNumLit (toString (32 * l + i + 1)))))
  `(tactic| ($[$ts];*))

open Lean in
/-- Layer `l`, group `g` of the second loop: the four second exchanges are waited; unless the layer is the last, the next layer's four partial
    products of that group are copied out. -/
macro "group_loop " l:num g:num : tactic => do
  let l := l.getNat
  let g := g.getNat
  let mut ts : Array (TSyntax `tactic) := #[]
  for jj in [0:4] do
    ts := ts.push (← `(tactic| waitpair $(Syntax.mkNumLit (toString (32 * l + 16 + 4 * g + jj))) at $(Syntax.mkNumLit (toString (if l < 2 then 32 * l + 32 + 4 * g else 96)))))
  if l < 2 then
    for jj in [0:4] do
      ts := ts.push (← `(tactic| xchg $(Syntax.mkNumLit (toString (32 * (l + 1) + 4 * g + jj))) after $(Syntax.mkNumLit (toString (32 * l + 16 + 4 * g + 4)))))
  `(tactic| ($[$ts];*))

abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_scratch0) (Memref.isWhole_whole _)
    (Memref.whole cc0_scratch1) (Memref.isWhole_whole _) cc0_scratch2 cc0_scratch3

set_option maxHeartbeats 0 in
theorem sound_run (κ : GSem nD τ sig → ℕ) (c : Dev nD) (Kt : PUnit → sProp 𝕄) (W : Waits sig Unit)
    (fs : Buf (Elt F) ((c : Thread nD τ).loc cc0_scratch0)) (fr : Buf (Elt F) ((c : Thread nD τ).loc cc0_scratch1))
    (f7 : Buf (Elt F) ((c : Thread nD τ).loc cc0_stg7_0)) :
    iprop(ghost m κ c ∗ cred (tallyAt (barCell c) () 2) ∗ (bigSep Finset.univ fun s : Fin 96 => cred (tallyAt (recvCell c s) () NC)) ∗ levAts L lv
        ∗ (((c : Thread nD τ).loc cc0_scratch0) ↦{fullShare} fs) ∗ (((c : Thread nD τ).loc cc0_scratch1) ↦{fullShare} fr)
        ∗ owes (c : Thread nD τ) (O₀ c) W ∗ (bodyPost m c -∗ Kt ⟨⟩))
      ⊢ iprop(((Memref.whole cc0_stg0_0 : Memref sig .tc .vmem S512x256 .f32).view.loc (c : Thread nD τ) ↦{fullShare} stg0 m c)
        -∗ ((Memref.whole cc0_stg1_0 : Memref sig .tc .vmem S256x512 .f32).view.loc (c : Thread nD τ) ↦{fullShare} stg1 m c)
        -∗ ((Memref.whole cc0_stg2_0 : Memref sig .tc .vmem S512x256 .f32).view.loc (c : Thread nD τ) ↦{fullShare} stg2 m c)
        -∗ ((Memref.whole cc0_stg3_0 : Memref sig .tc .vmem S256x512 .f32).view.loc (c : Thread nD τ) ↦{fullShare} stg3 m c)
        -∗ ((Memref.whole cc0_stg4_0 : Memref sig .tc .vmem S512x256 .f32).view.loc (c : Thread nD τ) ↦{fullShare} stg4 m c)
        -∗ ((Memref.whole cc0_stg5_0 : Memref sig .tc .vmem S256x512 .f32).view.loc (c : Thread nD τ) ↦{fullShare} stg5 m c)
        -∗ ((Memref.whole cc0_stg6_0 : Memref sig .tc .vmem S512x256 .f32).view.loc (c : Thread nD τ) ↦{fullShare} stg6 m c)
        -∗ ((Memref.whole cc0_stg7_0 : Memref sig .tc .vmem S512x256 .f32).view.loc (c : Thread nD τ) ↦{fullShare} f7)
        -∗ wp frame (wpE (defs₀ (F := F)) 𝒱₀ c none) Set.univ (theBody (F := F)) Kt) := by
  unfold ghost invs
  iintro ⟨⟨⟨#HIbar, #HIbarA, #HIbarB, #HIsnd, #HIrcv, #HIpeer⟩, HatB, HatS, HatV, #HrBA, #HrBB, #HrPeer, #HrS, #HrV, HtBA, HtBB, HtPeer, HtS⟩, HcB, HcV, #Hlev, Hs, Hr, HO, Hk⟩ H0 H1 H2 H3 H4 H5 H6 H7
  unfold theBody
  sl_unfold [cc0_body]
  sl_exec_parts
  rw [dev1_eq c]
  -- the receive buffer by slots, by kind of peer
  ihave HrS := (rbuf_split (F := F) c fr).1 $$ Hr
  ihave HrS' := (Entails.of_eq (slots_split (fun s : Fin 96 => rPts (F := F) c s fr))) $$ HrS
  icases HrS' with ⟨HrA, HrB⟩
  -- the first signal, to the bit-0 peer's barrier cell: its duty `false`, with the receive slots that peer writes
  iapply (wp_sig_A m (κ (barCell (pa c))) c (O₁ c) W) $$ [HO HtBA HrA]
  · isplitr; · iexact HIbarA
    isplitl [HO]; · iexact HO
    isplitl [HtBA]; · iexact HtBA
    isplitl [HrA]
    · iapply (barPay_intro_A c fr)
      isplitl [HrA]; · iexact HrA
      iexact HrV
    iexact HrBA
  iintro HO
  sl_exec_parts
  rw [dev2_eq c]
  -- the second signal, to the other peer's barrier cell: its duty `true`, with the receive slots that peer writes
  iapply (wp_sig_B m (κ (barCell (pb c))) c (Osend c) W) $$ [HO HtBB HrB]
  · isplitr; · iexact HIbarB
    isplitl [HO]; · iexact HO
    isplitl [HtBB]; · iexact HtBB
    isplitl [HrB]
    · iapply (barPay_intro_B c fr)
      isplitl [HrB]; · iexact HrB
      iexact HrV
    iexact HrBB
  iintro HO
  sl_exec_parts
  -- the wait for both peers' signals: every slot's peer's receive slot comes with them
  iapply (wp_wait_bar m (κ (barCell c)) c (Osend c) W (Osend_bar c)) $$ [HcB HO HatB]
  · isplitr; · iexact HIbar
    isplitl [HcB]; · iexact HcB
    isplitl [HO]; · iexact HO
    isplitr; · iexact Hlev
    iexact HatB
  iintro ⟨HO, HatB, HpA, HpB⟩
  ihave HpP := (barPay_elim (F := F) c) $$ [HpA HpB]
  · isplitl [HpA]; · iexact HpA
    iexact HpB
  -- the send buffer by slots
  ihave HsP := (sbuf_split (F := F) c fs).1 $$ Hs
  -- the per-slot families, by position in the program's order of slots
  ihave HsP := (loop_init (F := F) c fs) $$ HsP
  ihave HpP := (Entails.of_eq (univ_to_pend0 (fun s : Fin 96 => iprop(∃ f, rPts (F := F) (peerOf s c) s f)))) $$ HpP
  ihave HtS := (Entails.of_eq (univ_to_pend0 (fun s : Fin 96 => (dutyTok ER (sendCell c s) 0 false : sProp 𝕄)))) $$ HtS
  ihave HtP := (Entails.of_eq (univ_to_pend0 (fun s : Fin 96 => (dutyTok ER (recvCell (peerOf s c) s) 0 false : sProp 𝕄)))) $$ HtPeer
  ihave HatS := (Entails.of_eq (univ_to_pend0 (fun s : Fin 96 => (atPos ER (sendCell c s) 0 ∅ 0 : sProp 𝕄)))) $$ HatS
  ihave HatV := (Entails.of_eq (univ_to_pend0 (fun s : Fin 96 => (atPos ER (recvCell c s) 0 ∅ 0 : sProp 𝕄)))) $$ HatV
  ihave HcV := (Entails.of_eq (univ_to_pend0 (fun s : Fin 96 => (cred (tallyAt (recvCell c s) () NC) : sProp 𝕄)))) $$ HcV
  ihave HO := (Entails.of_eq (congrArg (fun O => (owes (c : Thread nD τ) O (insert (SemLoc.reg barS, ()) W) : sProp 𝕄)) (Opend_zero c).symm)) $$ HO
  -- layer 0, phase 0: the four groups' partial products, each chunk sent to its first peer
  ihave HX := (add_fams (F := F) c _) $$ HatB
  icases HX with ⟨HatB, HcS, HdS, HdV⟩
  block_zero
  first_loop 0
  group_loop 0 0
  group_loop 0 1
  group_loop 0 2
  group_loop 0 3
  first_loop 1
  group_loop 1 0
  group_loop 1 1
  group_loop 1 2
  group_loop 1 3
  first_loop 2
  group_loop 2 0
  group_loop 2 1
  group_loop 2 2
  group_loop 2 3
  try rw [ret_bind']
  try sl_exec
  -- the return: every cell closed, the buffers whole again, the result block at its specified contents
  rw [wp_ret]
  imod (finish m κ c _ f7) $$ [HdS HdV HO H0 H1 H2 H3 H4 H5 H6 H7] with Hpost
  · isplitr; · iexact HIsnd
    isplitr; · iexact HIrcv
    isplitl [HdS]; · iexact HdS
    isplitl [HdV]; · iexact HdV
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  imodintro
  iapply Hk
  iexact Hpost

end Cert.Kernel.Proto

end
-- ==== Proof.Bits.BodyOb.lean ====
/-
  The body obligation. At the one grid point the pipeline hands the body its eight staging buffers: each input's buffer
  holds the block just fetched, which is the device's whole array read through its window; the result's buffer holds anything. With the
  invariant before the point (the ghost state, the launch credit, the levels, the two exchange buffers) and what the device owes, this is
  the body lemma's precondition; its postcondition is the invariant after the point, nothing owed, the inputs' buffers unchanged
  and the result's buffer at the device's result block.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Body
import Idealize.ShloMosaic.Lib.Pipeline.Frame

noncomputable section

namespace Cert.Kernel.Proto

open Cert.Kernel Cert.Kernel.Gen Cert.Kernel.KVal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body lemma, its staging buffers on the left -/

/-- The run of the body with the eight staging buffers among its premises: the run takes them one by one. -/
theorem sound_body (κ : GSem nD τ sig → ℕ) (c : Dev nD) (Kt : PUnit → sProp 𝕄) (W : Waits sig Unit)
    (fs : Buf (Elt F) ((c : Thread nD τ).loc cc0_scratch0)) (fr : Buf (Elt F) ((c : Thread nD τ).loc cc0_scratch1)) (f7 : Buf (Elt F) ((c : Thread nD τ).loc cc0_stg7_0)) :
    iprop(ghost m κ c ∗ cred (tallyAt (barCell c) () 2) ∗ (bigSep Finset.univ fun s : Fin 96 => cred (tallyAt (recvCell c s) () NC)) ∗ levAts L lv
        ∗ (((c : Thread nD τ).loc cc0_scratch0) ↦{fullShare} fs) ∗ (((c : Thread nD τ).loc cc0_scratch1) ↦{fullShare} fr)
        ∗ owes (c : Thread nD τ) (O₀ c) W
        ∗ (((c : Thread nD τ).loc cc0_stg0_0) ↦{fullShare} stg0 m c) ∗ (((c : Thread nD τ).loc cc0_stg1_0) ↦{fullShare} stg1 m c)
        ∗ (((c : Thread nD τ).loc cc0_stg2_0) ↦{fullShare} stg2 m c) ∗ (((c : Thread nD τ).loc cc0_stg3_0) ↦{fullShare} stg3 m c)
        ∗ (((c : Thread nD τ).loc cc0_stg4_0) ↦{fullShare} stg4 m c) ∗ (((c : Thread nD τ).loc cc0_stg5_0) ↦{fullShare} stg5 m c)
        ∗ (((c : Thread nD τ).loc cc0_stg6_0) ↦{fullShare} stg6 m c) ∗ (((c : Thread nD τ).loc cc0_stg7_0) ↦{fullShare} f7)
        ∗ (bodyPost m c -∗ Kt ⟨⟩))
      ⊢ wp frame (wpE (defs₀ (F := F)) 𝒱₀ c none) Set.univ (theBody (F := F)) Kt := by
  iintro ⟨Hg, HcB, HcV, Hlev, Hs, Hr, HO, H0, H1, H2, H3, H4, H5, H6, H7, HK⟩
  ihave Hrun := (sound_run m κ c Kt W fs fr f7) $$ [Hg HcB HcV Hlev Hs Hr HO HK]
  · isplitl [Hg]; · iexact Hg
    isplitl [HcB]; · iexact HcB
    isplitl [HcV]; · iexact HcV
    isplitl [Hlev]; · iexact Hlev
    isplitl [Hs]; · iexact Hs
    isplitl [Hr]; · iexact Hr
    isplitl [HO]; · iexact HO
    iexact HK
  ihave Hrun := Hrun $$ H0
  ihave Hrun := Hrun $$ H1
  ihave Hrun := Hrun $$ H2
  ihave Hrun := Hrun $$ H3
  ihave Hrun := Hrun $$ H4
  ihave Hrun := Hrun $$ H5
  ihave Hrun := Hrun $$ H6
  ihave Hrun := Hrun $$ H7
  iexact Hrun

/-! ## The windows at the one point -/

omit [FloatOps F] in
theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
/-- A whole staging buffer owned at contents `X` is the buffer's points-to at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- An input window's buffer at the point holds the block just fetched: the device's array read through the window. -/
theorem before_0 (c : Dev nD) (d) : (dats (F := F) m 0 c).before (0 : Fin 8) t0_0 d = stg0 m c := by
  rw [Dat.before_fetched _ _ _ (fetch0_0 t0_0)]; rfl
theorem before_1 (c : Dev nD) (d) : (dats (F := F) m 0 c).before (1 : Fin 8) t0_0 d = stg1 m c := by
  rw [Dat.before_fetched _ _ _ (fetch0_1 t0_0)]; rfl
theorem before_2 (c : Dev nD) (d) : (dats (F := F) m 0 c).before (2 : Fin 8) t0_0 d = stg2 m c := by
  rw [Dat.before_fetched _ _ _ (fetch0_2 t0_0)]; rfl
theorem before_3 (c : Dev nD) (d) : (dats (F := F) m 0 c).before (3 : Fin 8) t0_0 d = stg3 m c := by
  rw [Dat.before_fetched _ _ _ (fetch0_3 t0_0)]; rfl
theorem before_4 (c : Dev nD) (d) : (dats (F := F) m 0 c).before (4 : Fin 8) t0_0 d = stg4 m c := by
  rw [Dat.before_fetched _ _ _ (fetch0_4 t0_0)]; rfl
theorem before_5 (c : Dev nD) (d) : (dats (F := F) m 0 c).before (5 : Fin 8) t0_0 d = stg5 m c := by
  rw [Dat.before_fetched _ _ _ (fetch0_5 t0_0)]; rfl
theorem before_6 (c : Dev nD) (d) : (dats (F := F) m 0 c).before (6 : Fin 8) t0_0 d = stg6 m c := by
  rw [Dat.before_fetched _ _ _ (fetch0_6 t0_0)]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's precondition at the point, its windows opened. -/
def bodyPre' (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))

/-- The obligation's postcondition at the point, its windows opened. -/
def obPost (c : Dev nD) : sProp 𝕄 :=
  iprop(Φ₁ (F := F) c ∗ (dats m 0 c).owesAt () t0_0.succ
    ∗ stg c cc0_stg0_0 (stg0 m c)
    ∗ stg c cc0_stg1_0 (stg1 m c)
    ∗ stg c cc0_stg2_0 (stg2 m c)
    ∗ stg c cc0_stg3_0 (stg3 m c)
    ∗ stg c cc0_stg4_0 (stg4 m c)
    ∗ stg c cc0_stg5_0 (stg5 m c)
    ∗ stg c cc0_stg6_0 (stg6 m c)
    ∗ stg c cc0_stg7_0 (outAt m c))

/-! ## The obligation -/

set_option maxRecDepth 100000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ (theBody (F := F)) (fun _ => obPost m c)
  unfold bodyPre' Φ₀ start
  iintro ⟨⟨⟨⟨%κ, Hg⟩, HcB, HcV, Hlev⟩, ⟨%fs, Hs⟩, ⟨%fr, Hr⟩⟩, ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩⟩
  obtain rfl := e0.trans (before_0 m c d0)
  obtain rfl := e1.trans (before_1 m c d1)
  obtain rfl := e2.trans (before_2 m c d2)
  obtain rfl := e3.trans (before_3 m c d3)
  obtain rfl := e4.trans (before_4 m c d4)
  obtain rfl := e5.trans (before_5 m c d5)
  obtain rfl := e6.trans (before_6 m c d6)
  iapply (sound_body m κ c (fun _ => obPost m c) W fs fr g7)
  isplitl [Hg]; · iexact Hg
  isplitl [HcB]; · iexact HcB
  isplitl [HcV]; · iexact HcV
  isplitl [Hlev]; · iexact Hlev
  isplitl [Hs]; · iexact Hs
  isplitl [Hr]; · iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HP
  unfold bodyPost obPost
  icases HP with ⟨HΦ, ⟨%W', HO'⟩, P0, P1, P2, P3, P4, P5, P6, P7⟩
  isplitl [HΦ]; · iexact HΦ
  isplitl [HO']
  · iexists W'
    isplitr; · ipureintro; exact fun _ _ => Or.inl (Set.mem_univ _)
    iexact HO'
  isplitl [P0]
  · iexists _
    isplitr; · ipureintro; rfl
    iexact P0
  isplitl [P1]
  · iexists _
    isplitr; · ipureintro; rfl
    iexact P1
  isplitl [P2]
  · iexists _
    isplitr; · ipureintro; rfl
    iexact P2
  isplitl [P3]
  · iexists _
    isplitr; · ipureintro; rfl
    iexact P3
  isplitl [P4]
  · iexists _
    isplitr; · ipureintro; rfl
    iexact P4
  isplitl [P5]
  · iexists _
    isplitr; · ipureintro; rfl
    iexact P5
  isplitl [P6]
  · iexists _
    isplitr; · ipureintro; rfl
    iexact P6
  iexists _
  isplitr; · ipureintro; rfl
  iexact P7

end Cert.Kernel.Proto

end
-- ==== Proof.Bits.Launch.lean ====
/-
  The launch. What every device owes the others' cells, summed over the devices, is each cell's credit at launch: two units on a
  barrier cell (one from each of its two peers), a slot's credit on a receive cell (from the slot's peer). With that credit, the
  levels and the ghost state of the global step, each device starts its body; at the end the two exchange buffers and the
  device's own send and receive counters, back at zero, go back to the region. The staging waits sit at level 0, below every cell
  a device owes. Then the run of @main, and what the arrays hold after it: the inputs what they held, the result the staged
  block written over the whole array.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Tables
import proofs.«900999_g7700000000001000_dist_mlpseq_tp1d_rep_rep_b512_d256_h512_v7x_i4_f32_1_alg».proof.Proof.Bits.Glob
import proofs.«900999_g7700000000001000_dist_mlpseq_tp1d_rep_rep_b512_d256_h512_v7x_i4_f32_1_alg».proof.Proof.Bits.BodyOb
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.KVal Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {s t : Fin 96} : Iff (recvCell a s = recvCell b t) (a = b ∧ s = t) :=
  ⟨fun h => ⟨Fin.ext (congrArg (fun g : GSem nD τ sig => g.1.1.val) h), recvSem_inj (SemLoc.dma.inj (congrArg Prod.snd h))⟩,
    fun h => by rw [h.1, h.2]⟩

omit [FloatOps F] in
/-- A barrier cell is no receive cell. -/
theorem bar_ne_recv (a b : Dev nD) (s : Fin 96) : barCell a ≠ recvCell b s := fun h => by
  have h2 : (SemLoc.reg barS : SemLoc sig) = .dma (recvSem s) := congrArg Prod.snd h
  cases h2

omit [FloatOps F] in
/-- No copy is owed to a barrier cell. -/
theorem osend_bar (d c : Dev nD) : Osend d (barCell c) = 0 := by
  unfold Osend
  rw [Finset.sum_apply]
  exact Finset.sum_eq_zero fun s _ => tallyAt_ne_cell (bar_ne_recv c _ s) _ _

omit [FloatOps F] in
/-- What device `d` owes device `c`'s barrier cell: a unit if `d` is `c`'s bit-0 peer, a unit if it is the other peer. -/
theorem owed_bar (d c : Dev nD) : O₀ d (barCell c) () = (if d = pa c then 1 else 0) + (if d = pb c then 1 else 0) := by
  unfold O₀ O₁
  rw [Pi.add_apply, Finsupp.add_apply, Pi.add_apply, Finsupp.add_apply, osend_bar, Finsupp.zero_apply, Nat.zero_add, tallyAt_apply, tallyAt_apply]
  refine (Nat.add_comm _ _).trans ?_
  congr 1
  · by_cases h : d = pa c
    · subst h; rw [pa_pa, if_pos ⟨rfl, rfl⟩, if_pos rfl]
    · rw [if_neg (fun h1 => h (by rw [bar_eq_iff.mp h1.1, pa_pa])), if_neg h]
  · by_cases h : d = pb c
    · subst h; rw [pb_pb, if_pos ⟨rfl, rfl⟩, if_pos rfl]
    · rw [if_neg (fun h1 => h (by rw [bar_eq_iff.mp h1.1, pb_pb])), if_neg h]

omit [FloatOps F] in
/-- What device `d` owes device `c`'s receive cell of slot `s`: the slot's credit if `d` is the slot's peer of `c`. -/
theorem owed_recv (d c : Dev nD) (s : Fin 96) : O₀ d (recvCell c s) () = if d = peerOf s c then NC else 0 := by
  unfold O₀ O₁ Osend
  rw [Pi.add_apply, Finsupp.add_apply, Pi.add_apply, Finsupp.add_apply, tallyAt_ne_cell (bar_ne_recv _ c s).symm, tallyAt_ne_cell (bar_ne_recv _ c s).symm,
    Finsupp.zero_apply, Nat.add_zero, Nat.add_zero, Finset.sum_apply, Finsupp.finsetSum_apply,
    Finset.sum_eq_single s (fun s' _ hs' => by rw [tallyAt_apply, if_neg fun h1 => hs' (recv_eq_iff.mp h1.1).2.symm]) (fun h => absurd (Finset.mem_univ _) h), tallyAt_apply]
  by_cases h : d = peerOf s c
  · subst h; rw [peerOf_peerOf, if_pos ⟨rfl, rfl⟩, if_pos rfl]
  · rw [if_neg (fun h1 => h (by rw [(recv_eq_iff.mp h1.1).1, peerOf_peerOf])), if_neg h]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pa c) fun _ => 1, Finset.sum_ite_eq' Finset.univ (pb c) fun _ => 1, if_pos (Finset.mem_univ _), if_pos (Finset.mem_univ _)]

omit [FloatOps F] in
theorem launch_recv (c : Dev nD) (s : Fin 96) :
    tallyOn (recvCell c s) (launchCredit (Pipeline.owing O₀) 0 (recvCell c s)) = (tallyAt (recvCell c s) () NC : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peerOf s c) fun _ => NC, if_pos (Finset.mem_univ _)]

omit [FloatOps F] in
/-- A device's launch credit holds its barrier cell's two units and each receive cell's slot credit. -/
theorem creds (c : Dev nD) :
    (Pipeline.launchCred O₀ c : sProp 𝕄) ⊢ iprop(cred (tallyAt (barCell c) () 2) ∗ bigSep Finset.univ fun s : Fin 96 => cred (tallyAt (recvCell c s) () NC)) := by
  unfold Pipeline.launchCred
  rw [bigSep_univ_at _ (SemLoc.reg barS), launch_bar]
  refine sep_mono_right ?_
  -- the receive semaphores, among the semaphores other than the barrier's
  have hsub : (Finset.univ.map ⟨fun s : Fin 96 => (SemLoc.dma (recvSem s) : SemLoc sig), fun a b h => recvSem_inj (SemLoc.dma.inj h)⟩)
      ⊆ Finset.univ.erase (SemLoc.reg barS) := fun x hx => by
    obtain ⟨s, -, rfl⟩ := Finset.mem_map.mp hx
    exact Finset.mem_erase.mpr ⟨(fun h => by cases h), Finset.mem_univ _⟩
  refine (bigSep_subset hsub).trans ?_
  rw [bigSep_map]
  exact bigSep_mono fun s _ => Entails.of_eq (congrArg cred (launch_recv c s))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HN⟩
  imodintro
  unfold start G'
  isplitl
  · isplitl [HG]; · iexact HG
    isplitl [H2]; · iexact H2
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨H0, H1⟩⟩
  isplitl [Hs]; · iexact Hs
  isplitl [H0] <;> iassumption

omit [FloatOps F] in
/-- The device's own semaphores at zero: its send counters and its receive counters. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 96 => semVal (sendCell c s) 0) ∗ (bigSep Finset.univ fun s : Fin 96 => semVal (recvCell c s) 0)) := by
  unfold Pipeline.ownSems0
  rw [bigSep_univ_equiv (finSumFinEquiv (m := 96) (n := 96)), bigSep_univ_sum]
  congr 1 <;> first
    | exact bigSep_congr fun s _ => by rw [finSumFinEquiv_apply_left, osem_send]
    | exact bigSep_congr fun s _ => by rw [finSumFinEquiv_apply_right, osem_recv]

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨H0, H1, HzS, HzV⟩
  isplitr; · iempintro
  isplitl [HzS HzV]
  · isplitl [HzS] <;> iassumption
  isplitl [H0] <;> iassumption

omit [FloatOps F] in
/-- Every cell a device owes at launch is a TensorCore cell of level at least 1. -/
theorem O₀_pos {c : Dev nD} {g : GSem nD τ sig} {u : Unit} (h : 0 < O₀ c g u) : g.1.2 = .tc ∧ 1 ≤ lv g () := by
  unfold O₀ O₁ Osend at h
  rcases Pipeline.add_pos_cases h with h | h
  · rcases Pipeline.add_pos_cases h with h | h
    · obtain ⟨s, -, hs⟩ := Pipeline.sum_pos_exists h
      obtain ⟨rfl, -⟩ := Pipeline.tallyAt_pos hs
      exact ⟨rfl, (lv_recv _ s).symm ▸ by omega⟩
    · obtain ⟨rfl, -⟩ := Pipeline.tallyAt_pos h
      exact ⟨rfl, le_of_eq (lv_bar _).symm⟩
  · obtain ⟨rfl, -⟩ := Pipeline.tallyAt_pos h
    exact ⟨rfl, le_of_eq (lv_bar _).symm⟩

theorem waits (c : Dev nD) : (levAts L lv : sProp 𝕄) ⊢ Pipeline.cellsWaits cfgs (dats m) () 0 c :=
  Pipeline.cellsWaits_intro cfgs (dats m) () 0 c fun w s t =>
    mayWait_low c _ (lv_stage c _ (by fin_cases w <;> fin_cases s <;> decide)) _ (by
      rcases t with ⟨_ | _, ht⟩
      · exact fun g u h => O₀_pos h
      · exact fun g u h => absurd h (Nat.lt_irrefl 0))

theorem share_eq (c : Dev nD) (w : Fin cfg0.W) : (dats m 0 c).share w = fullShare := by unfold Dat.share; split <;> rfl

/-! ## The run -/

def finalA (m : (ℓ : Loc nD τ sig) → Buf (Elt F) ℓ) (ρ : Dev nD → PrngReg) (c : Dev nD) (w : Fin cfg0.W) :
    Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of four devices, for any float values, from any memory with zero counters: every weakly fair execution of
    @main terminates, and every final state has each device's arrays at `finalA`. -/
theorem run_main : θ_run defs (onTc (τ := τ) (main (F := F))) (Proto.s₀ m ρ) (QC m ρ) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_arg (c : Dev nD) (w : Fin 8) (hw : w.val < 7) : finalA m ρ c w = m ((cfg0.win w).arr.view.loc (c : Thread nD τ)) := by
  have hin : (cfg0.win w).isOut = false := by
    fin_cases w <;> first | rfl | exact absurd hw (by decide)
  exact (dats (F := F) m 0 c).arrAt_in w hin _

/-- The result array after the run: the staged block written over the whole array at the one grid point. -/
theorem finalA_out (c : Dev nD) :
    finalA m ρ c (7 : Fin 8) = (win0_7.blk t0_0).view.write (Elt F) (m (win0_7.arr.view.loc (c : Thread nD τ))) (outAt m c) Finset.univ := by
  have h := (dats (F := F) m 0 c).arrAt_succ (7 : Fin 8) t0_0
  rw [flush0_7 t0_0, if_pos rfl] at h
  exact h

/-- Read through the window's whole-array view, the result array holds the device's result block. -/
theorem finalA_out_read (c : Dev nD) : (win0_7.blk t0_0).view.read (Elt F) (finalA m ρ c (7 : Fin 8)) = outAt m c := by
  rw [finalA_out]; exact View.read_write_univ _ _

end Cert.Kernel.Launch

end
-- ==== Proof.Bits.Final.lean ====
/-
  What the run leaves in the arrays, at any float instance. Every window of the kernel is its whole array at the one
  grid point, so reading a window's block is reading the array: the seven argument arrays end as launched, the result
  array ends at the device's result, and what the body loads (the staged input's four groups of 128 rows, each staged
  weight whole) is the argument arrays' own contents.
-/
import proofs.«900999_g7700000000001000_dist_mlpseq_tp1d_rep_rep_b512_d256_h512_v7x_i4_f32_1_alg».proof.Proof.Bits.Proto
import proofs.«900999_g7700000000001000_dist_mlpseq_tp1d_rep_rep_b512_d256_h512_v7x_i4_f32_1_alg».proof.Proof.Bits.Launch
import proofs.«900999_g7700000000001000_dist_mlpseq_tp1d_rep_rep_b512_d256_h512_v7x_i4_f32_1_alg».proof.Proof.Spec
import Idealize.ShloMosaic.Lib.Pipeline.Value
import Idealize.ShloMosaic.Lib.ValueIdx

noncomputable section

namespace Cert.Kernel.Final

open Cert.Kernel Cert.Kernel.Gen Cert.Kernel.KVal Cert.Kernel.Proto Cert.Kernel.Launch

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The arguments end unchanged; the result array -/

/-- The run from any memory, every semaphore at zero: every device's seven argument arrays end as launched. -/
theorem frame_of_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 0).trans (finalA_arg m ρ c 0 (by decide)),
      (h c 1).trans (finalA_arg m ρ c 1 (by decide)),
      (h c 2).trans (finalA_arg m ρ c 2 (by decide)),
      (h c 3).trans (finalA_arg m ρ c 3 (by decide)),
      (h c 4).trans (finalA_arg m ρ c 4 (by decide)),
      (h c 5).trans (finalA_arg m ρ c 5 (by decide)),
      (h c 6).trans (finalA_arg m ρ c 6 (by decide))⟩)
    (run_main m ρ)

/-- The result window's one block is the whole result array, so the array itself ends at the device's result. -/
theorem final_out (c : Dev nD) : finalA m ρ c 7 = outAt m c :=
  (Memref.read_access_unit_zero (Elt F) main_v1 (funext fun a => Nat.zero_mul _) _ (finalA m ρ c 7)).symm.trans
    (finalA_out_read m ρ c)

/-- The run with its result named: every device's result array ends at its result, its argument arrays as launched. -/
theorem run_named :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 7).trans (final_out m ρ c),
      (h c 0).trans (finalA_arg m ρ c 0 (by decide)),
      (h c 1).trans (finalA_arg m ρ c 1 (by decide)),
      (h c 2).trans (finalA_arg m ρ c 2 (by decide)),
      (h c 3).trans (finalA_arg m ρ c 3 (by decide)),
      (h c 4).trans (finalA_arg m ρ c 4 (by decide)),
      (h c 5).trans (finalA_arg m ρ c 5 (by decide)),
      (h c 6).trans (finalA_arg m ρ c 6 (by decide))⟩)
    (run_main m ρ)

/-! ## The inputs as the body reads them -/

/-- Device `c`'s staged copy of argument 0 is the argument array: the window's one block is the whole array. -/
theorem stg0_eq (c : Dev nD) : stg0 m c = m ((c.tc : Thread nD τ).loc main_arg0) := by
  unfold stg0
  exact Memref.read_access_unit_zero (Elt F) main_arg0 (funext fun a => Nat.zero_mul _) _ _
/-- Device `c`'s staged copy of argument 1 is the argument array: the window's one block is the whole array. -/
theorem stg1_eq (c : Dev nD) : stg1 m c = m ((c.tc : Thread nD τ).loc main_arg1) := by
  unfold stg1
  exact Memref.read_access_unit_zero (Elt F) main_arg1 (funext fun a => Nat.zero_mul _) _ _
/-- Device `c`'s staged copy of argument 2 is the argument array: the window's one block is the whole array. -/
theorem stg2_eq (c : Dev nD) : stg2 m c = m ((c.tc : Thread nD τ).loc main_arg2) := by
  unfold stg2
  exact Memref.read_access_unit_zero (Elt F) main_arg2 (funext fun a => Nat.zero_mul _) _ _
/-- Device `c`'s staged copy of argument 3 is the argument array: the window's one block is the whole array. -/
theorem stg3_eq (c : Dev nD) : stg3 m c = m ((c.tc : Thread nD τ).loc main_arg3) := by
  unfold stg3
  exact Memref.read_access_unit_zero (Elt F) main_arg3 (funext fun a => Nat.zero_mul _) _ _
/-- Device `c`'s staged copy of argument 4 is the argument array: the window's one block is the whole array. -/
theorem stg4_eq (c : Dev nD) : stg4 m c = m ((c.tc : Thread nD τ).loc main_arg4) := by
  unfold stg4
  exact Memref.read_access_unit_zero (Elt F) main_arg4 (funext fun a => Nat.zero_mul _) _ _
/-- Device `c`'s staged copy of argument 5 is the argument array: the window's one block is the whole array. -/
theorem stg5_eq (c : Dev nD) : stg5 m c = m ((c.tc : Thread nD τ).loc main_arg5) := by
  unfold stg5
  exact Memref.read_access_unit_zero (Elt F) main_arg5 (funext fun a => Nat.zero_mul _) _ _
/-- Device `c`'s staged copy of argument 6 is the argument array: the window's one block is the whole array. -/
theorem stg6_eq (c : Dev nD) : stg6 m c = m ((c.tc : Thread nD τ).loc main_arg6) := by
  unfold stg6
  exact Memref.read_access_unit_zero (Elt F) main_arg6 (funext fun a => Nat.zero_mul _) _ _

/-- Layer 0's first weight as device `c`'s body loads it, the staged block read whole, is argument 1. -/
theorem wl0_eq (c : Dev nD) : wl m 0 c = m ((c.tc : Thread nD τ).loc main_arg1) :=
  (Memref.readAt_unit_zero (Elt F) cc0_stg1_0 (by funext a; match a with | ⟨0, _⟩ => rfl | ⟨1, _⟩ => rfl) _ (stg1 m c)).trans (stg1_eq m c)
/-- Layer 1's first weight as device `c`'s body loads it, the staged block read whole, is argument 3. -/
theorem wl1_eq (c : Dev nD) : wl m 1 c = m ((c.tc : Thread nD τ).loc main_arg3) :=
  (Memref.readAt_unit_zero (Elt F) cc0_stg3_0 (by funext a; match a with | ⟨0, _⟩ => rfl | ⟨1, _⟩ => rfl) _ (stg3 m c)).trans (stg3_eq m c)
/-- Layer 2's first weight as device `c`'s body loads it, the staged block read whole, is argument 5. -/
theorem wl2_eq (c : Dev nD) : wl m 2 c = m ((c.tc : Thread nD τ).loc main_arg5) :=
  (Memref.readAt_unit_zero (Elt F) cc0_stg5_0 (by funext a; match a with | ⟨0, _⟩ => rfl | ⟨1, _⟩ => rfl) _ (stg5 m c)).trans (stg5_eq m c)
/-- Layer 0's second weight as device `c`'s body loads it, the staged block read whole, is argument 2. -/
theorem ul0_eq (c : Dev nD) : ul m 0 c = m ((c.tc : Thread nD τ).loc main_arg2) :=
  (Memref.readAt_unit_zero (Elt F) cc0_stg2_0 (by funext a; match a with | ⟨0, _⟩ => rfl | ⟨1, _⟩ => rfl) _ (stg2 m c)).trans (stg2_eq m c)
/-- Layer 1's second weight as device `c`'s body loads it, the staged block read whole, is argument 4. -/
theorem ul1_eq (c : Dev nD) : ul m 1 c = m ((c.tc : Thread nD τ).loc main_arg4) :=
  (Memref.readAt_unit_zero (Elt F) cc0_stg4_0 (by funext a; match a with | ⟨0, _⟩ => rfl | ⟨1, _⟩ => rfl) _ (stg4 m c)).trans (stg4_eq m c)
/-- Layer 2's second weight as device `c`'s body loads it, the staged block read whole, is argument 6. -/
theorem ul2_eq (c : Dev nD) : ul m 2 c = m ((c.tc : Thread nD τ).loc main_arg6) :=
  (Memref.readAt_unit_zero (Elt F) cc0_stg6_0 (by funext a; match a with | ⟨0, _⟩ => rfl | ⟨1, _⟩ => rfl) _ (stg6 m c)).trans (stg6_eq m c)

/-- Group `g` of device `c`'s input to the first layer is rows `128 g … 128 g + 127` of argument 0. -/
theorem x0_eq (c : Dev nD) (g : Fin 4) : x0 m c g = Cert.Spec.rows128 g (m ((c.tc : Thread nD τ).loc main_arg0)) := by
  unfold x0
  rw [shapeCast_self, ← stg0_eq m c]
  funext i
  unfold Cert.Spec.rows128
  match g with
  | ⟨0, _⟩ =>
    exact congrArg (stg0 m c) (funext fun a => Fin.ext (match a with
      | ⟨0, _⟩ => by show 0 + 1 * (i 0).val = 128 * 0 + (i 0).val; omega
      | ⟨1, _⟩ => by show 0 + 1 * (i 1).val = (i 1).val; omega))
  | ⟨1, _⟩ =>
    exact congrArg (stg0 m c) (funext fun a => Fin.ext (match a with
      | ⟨0, _⟩ => by show 128 + 1 * (i 0).val = 128 * 1 + (i 0).val; omega
      | ⟨1, _⟩ => by show 0 + 1 * (i 1).val = (i 1).val; omega))
  | ⟨2, _⟩ =>
    exact congrArg (stg0 m c) (funext fun a => Fin.ext (match a with
      | ⟨0, _⟩ => by show 256 + 1 * (i 0).val = 128 * 2 + (i 0).val; omega
      | ⟨1, _⟩ => by show 0 + 1 * (i 1).val = (i 1).val; omega))
  | ⟨3, _⟩ =>
    exact congrArg (stg0 m c) (funext fun a => Fin.ext (match a with
      | ⟨0, _⟩ => by show 384 + 1 * (i 0).val = 128 * 3 + (i 0).val; omega
      | ⟨1, _⟩ => by show 0 + 1 * (i 1).val = (i 1).val; omega))

end Cert.Kernel.Final

end
-- ==== Proof.ClaimsBits.lean ====
/-
  The claim about the kernel as printed, at the word level: it runs and its argument arrays end unchanged. The run and
  what it leaves in the arrays are the idealized kernel's, read at the bit-exact floats: nothing in them depends on
  what a float operation computes.
-/
import proofs.«900999_g7700000000001000_dist_mlpseq_tp1d_rep_rep_b512_d256_h512_v7x_i4_f32_1_alg».proof.Defs
import proofs.«900999_g7700000000001000_dist_mlpseq_tp1d_rep_rep_b512_d256_h512_v7x_i4_f32_1_alg».proof.Proof.Bits.Final

noncomputable section

namespace Cert.Proof.KClaims

open Idealize.ShloMosaic
open Idealize.ShloMosaic.TcCoe
open Idealize.SL.Sem

/-- The kernel as printed runs and its argument arrays end unchanged. -/
theorem frame_p [hPre_finite_inputs_Kernel : Cert.Pre_finite_inputs_Kernel.Facts] : Cert.frame_Kernel :=
  fun m ρ _ => Cert.Kernel.Final.frame_of_run (F := Bits) m ρ

end Cert.Proof.KClaims

end
-- ==== Proof.lean ====
/-
  Four devices each hold the whole input `X` (512 rows of 256) and a quarter of each of three layers' two weights:
  hidden columns `512 c … 512 c + 511` of `Win` and the same rows of `Wout`. A layer is
  `X ↦ relu (X · Win) · Wout`, entry (r, d) the sum over the 2048 hidden positions k of
  `max (∑ j, X r j * Win j k) 0 * Wout k d`. Each device computes the part of that sum over its own 512 positions, chunk
  of 32 rows by chunk, and the four parts are added in two exchanges between pairs of devices (with the device whose
  number differs in bit 0, and with the one whose number differs in both bits; in which order depends on the chunk's
  parity); what travels is narrowed to bf16 and widened back. At the extended reals the narrowing and widening are the
  identity and addition is commutative and associative, so after the two exchanges every device holds the whole sum:
  the layer of the whole arrays. Three layers compose, and the reference computes the same three layers on one device.
  The kernel's argument arrays are only read, at either float instance, and the reference's likewise.
-/
import proofs.«900999_g7700000000001000_dist_mlpseq_tp1d_rep_rep_b512_d256_h512_v7x_i4_f32_1_alg».proof.Defs
import proofs.«900999_g7700000000001000_dist_mlpseq_tp1d_rep_rep_b512_d256_h512_v7x_i4_f32_1_alg».proof.Proof.Gen.Kernel
import proofs.«900999_g7700000000001000_dist_mlpseq_tp1d_rep_rep_b512_d256_h512_v7x_i4_f32_1_alg».proof.Proof.Gen.KernelIdeal
import proofs.«900999_g7700000000001000_dist_mlpseq_tp1d_rep_rep_b512_d256_h512_v7x_i4_f32_1_alg».proof.Proof.Gen.ReferenceIdeal
import proofs.«900999_g7700000000001000_dist_mlpseq_tp1d_rep_rep_b512_d256_h512_v7x_i4_f32_1_alg».proof.Proof.Gen.Pre_finite_inputs_Kernel
import proofs.«900999_g7700000000001000_dist_mlpseq_tp1d_rep_rep_b512_d256_h512_v7x_i4_f32_1_alg».proof.Proof.Gen.Pre_finite_inputs_ReferenceIdeal
import proofs.«900999_g7700000000001000_dist_mlpseq_tp1d_rep_rep_b512_d256_h512_v7x_i4_f32_1_alg».proof.Proof.RefSide
import proofs.«900999_g7700000000001000_dist_mlpseq_tp1d_rep_rep_b512_d256_h512_v7x_i4_f32_1_alg».proof.Proof.Claims
import proofs.«900999_g7700000000001000_dist_mlpseq_tp1d_rep_rep_b512_d256_h512_v7x_i4_f32_1_alg».proof.Proof.ClaimsBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    KClaims.frame_p, KClaims.frame_pi, Cert.ReferenceIdeal.RefSide.frame_ri, trivial, KClaims.algebraic⟩

end Cert.Proof

end
